-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2x2048x1024 .f32) (main_arg1 : FVec F S3072x1024 .f32) (main_arg2 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S2x2048x1024 : Shape := ⟨3, ![2, 2048, 1024]⟩
abbrev S3072x1024 : Shape := ⟨2, ![3072, 1024]⟩
abbrev S1024x1024 : Shape := ⟨2, ![1024, 1024]⟩
abbrev S36 : Shape := ⟨1, ![36]⟩
abbrev S4096x1024 : Shape := ⟨2, ![4096, 1024]⟩
abbrev S1024x3072 : Shape := ⟨2, ![1024, 3072]⟩
abbrev S4096x3072 : Shape := ⟨2, ![4096, 3072]⟩
abbrev S2x2048x3072 : Shape := ⟨3, ![2, 2048, 3072]⟩
abbrev S1x256x1024 : Shape := ⟨3, ![1, 256, 1024]⟩
abbrev S1 : Shape := ⟨1, ![1]⟩
abbrev S16x256x1 : Shape := ⟨3, ![16, 256, 1]⟩
abbrev S16x256x64 : Shape := ⟨3, ![16, 256, 64]⟩
abbrev S256x1024 : Shape := ⟨2, ![256, 1024]⟩
abbrev S256x16x64 : Shape := ⟨3, ![256, 16, 64]⟩
abbrev S16x256x256 : Shape := ⟨3, ![16, 256, 256]⟩
abbrev S16x256 : Shape := ⟨2, ![16, 256]⟩

abbrev nBuf : Space → Nat
  | .hbm => 15
  | .vmem => 22
  | .smem => 2
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S2x2048x1024, .bf16⟩
  | .hbm, ⟨4, _⟩ => ⟨S3072x1024, .bf16⟩
  | .hbm, ⟨5, _⟩ => ⟨S1024x1024, .bf16⟩
  | .hbm, ⟨6, _⟩ => ⟨S4096x1024, .bf16⟩
  | .hbm, ⟨7, _⟩ => ⟨S1024x3072, .bf16⟩
  | .hbm, ⟨8, _⟩ => ⟨S4096x3072, .bf16⟩
  | .hbm, ⟨9, _⟩ => ⟨S2x2048x3072, .bf16⟩
  | .hbm, ⟨10, _⟩ => ⟨S2x2048x1024, .bf16⟩
  | .hbm, ⟨11, _⟩ => ⟨S4096x1024, .bf16⟩
  | .hbm, ⟨12, _⟩ => ⟨S1024x1024, .bf16⟩
  | .hbm, ⟨13, _⟩ => ⟨S4096x1024, .f32⟩
  | .hbm, ⟨14, _⟩ => ⟨S2x2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S16x256x1, .f32⟩
  | .local _ .vmem, ⟨15, _⟩ => ⟨S16x256x1, .f32⟩
  | .local _ .vmem, ⟨16, _⟩ => ⟨S16x256x64, .f32⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .f32⟩
  | .local _ .vmem, ⟨21, _⟩ => ⟨S1024x1024, .f32⟩
  | .local _ .smem, ⟨0, _⟩ => ⟨S36, .i32⟩
  | .local _ .smem, ⟨1, _⟩ => ⟨S36, .i32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 36], ![false, false]⟩

abbrev pre1 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg1 : BitVec 32 := BitVec.ofNat 32 (i 1).val
  let v0 : Index := Scalar.indexCast arg1
  ![v0.toNat]
def k1_cond2 (v1 : BitVec 32) (v3 : BitVec 32) : BitVec 1 :=
  let v62 : BitVec 1 := Scalar.cmpi .eq v3 v1
  let v63 : BitVec 32 := Scalar.extui v62
  let c0_i32_33 : BitVec 32 := 0#32
  let v64 : BitVec 1 := Scalar.cmpi .ne v63 c0_i32_33
  v64

def cc1_transform_0 (k1_off1_inb : ∀ i : grid1.Coords, ∀ a, (k1_off1 i) a + S1.size a ≤ S36.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k1_off1_inb i)) numel1_S1
  let c0_i32 : BitVec 32 := 0#32
  let c0_i32_0 : BitVec 32 := 0#32
  ![arg0.toNat, v1.toNat, c0_i32.toNat]

def cc1_transform_1 (k1_off1_inb : ∀ i : grid1.Coords, ∀ a, (k1_off1 i) a + S1.size a ≤ S36.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k1_off1_inb i)) numel1_S1
  let c1_i32 : BitVec 32 := 1#32
  let c0_i32 : BitVec 32 := 0#32
  ![arg0.toNat, v1.toNat, c1_i32.toNat]

def cc1_transform_2 (k1_off1_inb : ∀ i : grid1.Coords, ∀ a, (k1_off1 i) a + S1.size a ≤ S36.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k1_off1_inb i)) numel1_S1
  let c2_i32 : BitVec 32 := 2#32
  let c0_i32 : BitVec 32 := 0#32
  ![arg0.toNat, v1.toNat, c2_i32.toNat]

def cc1_transform_3 (k1_off1_inb : ∀ i : grid1.Coords, ∀ a, (k1_off1 i) a + S1.size a ≤ S36.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k1_off1_inb i)) numel1_S1
  let c0_i32 : BitVec 32 := 0#32
  let c0_i32_0 : BitVec 32 := 0#32
  ![arg0.toNat, v1.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![4, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  bitsLt_bf16_f32 : FTy.bits .bf16 < FTy.bits .f32
  shapeCasts_S2x2048x1024_S4096x1024 : S2x2048x1024.ShapeCasts S4096x1024
  transposes_S3072x1024_S1024x3072_1_0 : S3072x1024.Transposes [1, 0] S1024x3072
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  shapeCasts_S4096x3072_S2x2048x3072 : S4096x3072.ShapeCasts S2x2048x3072
  numel1_S1 : S1.numel = 1
  inb_S16x256x1_S16x256x1_0_0_0 : ∀ a, (![0, 0, 0] : Fin 3 → Nat) a + S16x256x1.size a ≤ S16x256x1.size a
  h_S16x256x1 : 0 < S16x256x1.numel
  shapeCasts_S16x256x1_S16x256x1 : S16x256x1.ShapeCasts S16x256x1
  inb_S16x256x64_S16x256x64_0_0_0 : ∀ a, (![0, 0, 0] : Fin 3 → Nat) a + S16x256x64.size a ≤ S16x256x64.size a
  h_S16x256x64 : 0 < S16x256x64.numel
  shapeCasts_S16x256x64_S16x256x64 : S16x256x64.ShapeCasts S16x256x64
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S256x16x64 : S256x1024.ShapeCasts S256x16x64
  transposes_S256x16x64_p1_0_2_S16x256x64 : S256x16x64.Transposes [1, 0, 2] S16x256x64
  iota_S16x256x256_d1_w32 : S16x256x256.Iotas .tc 32 [1]
  iota_S16x256x256_d2_w32 : S16x256x256.Iotas .tc 32 [2]
  reduces_S16x256x256_S16x256 : S16x256x256.Reduces [2] S16x256
  shapeCasts_S16x256_S16x256x1 : S16x256.ShapeCasts S16x256x1
  broadcasts_S16x256x1_S16x256x256 : S16x256x1.Broadcasts S16x256x256
  broadcasts_S16x256x1_S16x256x64 : S16x256x1.Broadcasts S16x256x64
  transposes_S16x256x64_p1_0_2_S256x16x64 : S16x256x64.Transposes [1, 0, 2] S256x16x64
  shapeCasts_S256x16x64_S256x1024 : S256x16x64.ShapeCasts S256x1024
  shapeCasts_S256x1024_S1x256x1024 : S256x1024.ShapeCasts S1x256x1024
  packedbf16_S1x256x1024_S1x256x1024_0_0_0 : (Rect.unit (s := S1x256x1024) ![0, 0, 0] S1x256x1024.size inb_S1x256x1024_S1x256x1024_0_0_0).PackedRows (EltTy.packing .bf16)
  transposes_S1024x1024_S1024x1024_1_0 : S1024x1024.Transposes [1, 0] S1024x1024
  shapeCasts_S4096x1024_S2x2048x1024 : S4096x1024.ShapeCasts S2x2048x1024
  dot_S1024x1024_S1024x1024_S1024x1024_1_0_0_1_n_n_wf : DotDims.WF S1024x1024 S1024x1024 S1024x1024 [1] [0] [0] [1] [] []
  dot_S16x256x64_S16x256x64_S16x256x256_2_2_1_1_0_0_wf : DotDims.WF S16x256x64 S16x256x64 S16x256x256 [2] [2] [1] [1] [0] [0]
  dot_S16x256x256_S16x256x64_S16x256x64_2_1_1_2_0_0_wf : DotDims.WF S16x256x256 S16x256x64 S16x256x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .bf16 = 32 ∨ (Rect.block (s := S1024x3072) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x3072.size a
  hwx0_2 : ∀ i : grid0.Coords, EltTy.bits .bf16 = 32 ∨ (Rect.block (s := S4096x3072) S1024x1024.size (cc0_transform_2 i) (hinb0_2 i)).WholeWords (EltTy.packing .bf16)
  hrank1 : 0 < grid1.rank
  k1_off1_inb : ∀ i : grid1.Coords, ∀ a, (k1_off1 i) a + S1.size a ≤ S36.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 false = 2
  hreads1_2 : ∀ {F : FTy → Type} [FloatOps F] (pf : pre1.Contents (Elt F)) (i i' : grid1.Coords), (∀ a, reads1_2 a = true → i a = i' a) → cc1_transform_2 k1_off1_inb numel1_S1 pf i = cc1_transform_2 k1_off1_inb numel1_S1 pf i'
  hstage1_3 : ∀ j, (stage1_3 j).IsWhole
  nbuf1_3 : grid1.bufCount reads1_3 false = 2
  hreads1_3 : ∀ {F : FTy → Type} [FloatOps F] (pf : pre1.Contents (Elt F)) (i i' : grid1.Coords), (∀ a, reads1_3 a = true → i a = i' a) → cc1_transform_3 k1_off1_inb numel1_S1 pf i = cc1_transform_3 k1_off1_inb numel1_S1 pf i'
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .bf16 = 32 ∨ (Rect.block (s := S4096x1024) S1024x1024.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S4096x1024.size a
  hwx2_2 : ∀ i : grid2.Coords, EltTy.bits .f32 = 32 ∨ (Rect.block (s := S4096x1024) S1024x1024.size (cc2_transform_2 i) (hinb2_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S16x256x64_S16x256x64_S16x256x256_2_2_1_1_0_0 : DotDims S16x256x64 S16x256x64 S16x256x256 where
  lhsContracting := [2]
  rhsContracting := [2]
  lhsNonContracting := [1]
  rhsNonContracting := [1]
  lhsBatch := [0]
  rhsBatch := [0]
  wf := dot_S16x256x64_S16x256x64_S16x256x256_2_2_1_1_0_0_wf
def dot_S16x256x256_S16x256x64_S16x256x64_2_1_1_2_0_0 : DotDims S16x256x256 S16x256x64 S16x256x64 where
  lhsContracting := [2]
  rhsContracting := [1]
  lhsNonContracting := [1]
  rhsNonContracting := [2]
  lhsBatch := [0]
  rhsBatch := [0]
  wf := dot_S16x256x256_S16x256x64_S16x256x64_2_1_1_2_0_0_wf

abbrev win0_0 : Pipeline.Window sig grid0 :=
  Pipeline.Window.ofSpec (Memref.whole main_v3) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev spec1_0 : Pipeline.WinSpec sig grid1.rank :=
  Pipeline.WinSpec.ofSpec (Memref.whole main_v6) S1x256x1024.size reads1_0 false false 2 stage1_0 sem1_0 nbuf1_0 hstage1_0

abbrev spec1_1 : Pipeline.WinSpec sig grid1.rank :=
  Pipeline.WinSpec.ofSpec (Memref.whole main_v6) S1x256x1024.size reads1_1 false false 2 stage1_1 sem1_1 nbuf1_1 hstage1_1

abbrev spec1_2 : Pipeline.WinSpec sig grid1.rank :=
  Pipeline.WinSpec.ofSpec (Memref.whole main_v6) S1x256x1024.size reads1_2 false false 2 stage1_2 sem1_2 nbuf1_2 hstage1_2

abbrev spec1_3 : Pipeline.WinSpec sig grid1.rank :=
  Pipeline.WinSpec.ofSpec (Memref.whole main_v7) S1x256x1024.size reads1_3 true false 2 stage1_3 sem1_3 nbuf1_3 hstage1_3

abbrev spec1 : Fin 4 → Pipeline.WinSpec sig grid1.rank := fun | 0 => spec1_0 | 1 => spec1_1 | 2 => spec1_2 | 3 => spec1_3 | ⟨_ + 4, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | ⟨_ + 4, h⟩ => absurd h (Nat.not_lt.2 (Nat.le_add_left _ _))
abbrev ix1 (pf : pre1.Contents (Elt F)) : (w : Fin 4) → grid1.Coords → Fin (spec1 w).shape.rank → Nat := fun | 0 => cc1_transform_0 k1_off1_inb numel1_S1 pf | 1 => cc1_transform_1 k1_off1_inb numel1_S1 pf | 2 => cc1_transform_2 k1_off1_inb numel1_S1 pf | 3 => cc1_transform_3 k1_off1_inb numel1_S1 pf | ⟨_ + 4, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 pf | 3 => hreads1_3 pf | ⟨_ + 4, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x256x1024.size a ≤ S2x2048x3072.size a), EltTy.bits .bf16 = 32 ∨ (Rect.block (s := S2x2048x3072) S1x256x1024.size (cc1_transform_0 k1_off1_inb numel1_S1 pf i) h).WholeWords (EltTy.packing .bf16)) ∧
  (∀ i : grid1.Coords, ∃ h : (∀ a, (cc1_transform_1 k1_off1_inb numel1_S1 pf i a + 1) * S1x256x1024.size a ≤ S2x2048x3072.size a), EltTy.bits .bf16 = 32 ∨ (Rect.block (s := S2x2048x3072) S1x256x1024.size (cc1_transform_1 k1_off1_inb numel1_S1 pf i) h).WholeWords (EltTy.packing .bf16)) ∧
  (∀ i : grid1.Coords, ∃ h : (∀ a, (cc1_transform_2 k1_off1_inb numel1_S1 pf i a + 1) * S1x256x1024.size a ≤ S2x2048x3072.size a), EltTy.bits .bf16 = 32 ∨ (Rect.block (s := S2x2048x3072) S1x256x1024.size (cc1_transform_2 k1_off1_inb numel1_S1 pf i) h).WholeWords (EltTy.packing .bf16)) ∧
  (∀ i : grid1.Coords, ∃ h : (∀ a, (cc1_transform_3 k1_off1_inb numel1_S1 pf i a + 1) * S1x256x1024.size a ≤ S2x2048x1024.size a), EltTy.bits .bf16 = 32 ∨ (Rect.block (s := S2x2048x1024) S1x256x1024.size (cc1_transform_3 k1_off1_inb numel1_S1 pf i) h).WholeWords (EltTy.packing .bf16))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))
abbrev idle1 (pf : pre1.Contents (Elt F)) : Fin 4 → grid1.Coords → Bool := fun | 0 => fun _ => false | 1 => fun _ => false | 2 => fun _ => false | 3 => fun i => !(k1_cond2 (pf.atD 0 (k1_off1 i)) (pf.atD 1 (k1_off1 i)) == 1#1) | ⟨_ + 4, h⟩ => absurd h (Nat.not_lt.2 (Nat.le_add_left _ _))

abbrev win2_0 : Pipeline.Window sig grid2 :=
  Pipeline.Window.ofSpec (Memref.whole main_v8) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S1024x1024.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where
  harr1 : ∀ w, (spec1 w).arr.IsWhole

variable [Facts]
-- ==== ReferenceIdeal.lean ====
abbrev S2x2048x1024 : Shape := ⟨3, ![2, 2048, 1024]⟩
abbrev S3072x1024 : Shape := ⟨2, ![3072, 1024]⟩
abbrev S1024x1024 : Shape := ⟨2, ![1024, 1024]⟩
abbrev S2x2048x3072 : Shape := ⟨3, ![2, 2048, 3072]⟩
abbrev S2x2048x16x64 : Shape := ⟨4, ![2, 2048, 16, 64]⟩
abbrev S2x16x2048x64 : Shape := ⟨4, ![2, 16, 2048, 64]⟩
abbrev S_ : Shape := ⟨0, ![]⟩
abbrev S2x16x2048x2048 : Shape := ⟨4, ![2, 16, 2048, 2048]⟩
abbrev S2048x2048 : Shape := ⟨2, ![2048, 2048]⟩
abbrev S2x16x2048 : Shape := ⟨3, ![2, 16, 2048]⟩
abbrev S2x16x2048x1 : Shape := ⟨4, ![2, 16, 2048, 1]⟩

abbrev nBuf : Space → Nat
  | .hbm => 54
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S2x2048x3072, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S2x2048x16x64, .f32⟩
  | .hbm, ⟨8, _⟩ => ⟨S2x16x2048x64, .f32⟩
  | .hbm, ⟨9, _⟩ => ⟨S2x2048x16x64, .f32⟩
  | .hbm, ⟨10, _⟩ => ⟨S2x16x2048x64, .f32⟩
  | .hbm, ⟨11, _⟩ => ⟨S2x2048x16x64, .f32⟩
  | .hbm, ⟨12, _⟩ => ⟨S2x16x2048x64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S2x16x2048x2048, .f32⟩
  | .hbm, ⟨18, _⟩ => ⟨S2x16x2048x2048, .f32⟩
  | .hbm, ⟨19, _⟩ => ⟨S2x16x2048x2048, .f32⟩
  | .hbm, ⟨20, _⟩ => ⟨S_, .i1⟩
  | .hbm, ⟨21, _⟩ => ⟨S2048x2048, .i1⟩
  | .hbm, ⟨22, _⟩ => ⟨S2048x2048, .i32⟩
  | .hbm, ⟨23, _⟩ => ⟨S_, .i32⟩
  | .hbm, ⟨24, _⟩ => ⟨S2048x2048, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S_, .i1⟩
  | .hbm, ⟨29, _⟩ => ⟨S2048x2048, .i1⟩
  | .hbm, ⟨30, _⟩ => ⟨S2048x2048, .i1⟩
  | .hbm, ⟨31, _⟩ => ⟨S_, .f32⟩
  | .hbm, ⟨32, _⟩ => ⟨S_, .f32⟩
  | .hbm, ⟨33, _⟩ => ⟨S2x16x2048x2048, .i1⟩
  | .hbm, ⟨34, _⟩ => ⟨S2x16x2048x2048, .f32⟩
  | .hbm, ⟨35, _⟩ => ⟨S2x16x2048x2048, .f32⟩
  | .hbm, ⟨36, _⟩ => ⟨S_, .f32⟩
  | .hbm, ⟨37, _⟩ => ⟨S2x16x2048, .f32⟩
  | .hbm, ⟨38, _⟩ => ⟨S_, .f32⟩
  | .hbm, ⟨39, _⟩ => ⟨S2x16x2048, .f32⟩
  | .hbm, ⟨40, _⟩ => ⟨S2x16x2048, .f32⟩
  | .hbm, ⟨41, _⟩ => ⟨S2x16x2048x1, .f32⟩
  | .hbm, ⟨42, _⟩ => ⟨S2x16x2048x2048, .f32⟩
  | .hbm, ⟨43, _⟩ => ⟨S2x16x2048x2048, .f32⟩
  | .hbm, ⟨44, _⟩ => ⟨S2x16x2048x2048, .f32⟩
  | .hbm, ⟨45, _⟩ => ⟨S_, .f32⟩
  | .hbm, ⟨46, _⟩ => ⟨S2x16x2048, .f32⟩
  | .hbm, ⟨47, _⟩ => ⟨S2x16x2048x1, .f32⟩
  | .hbm, ⟨48, _⟩ => ⟨S2x16x2048x2048, .f32⟩
  | .hbm, ⟨49, _⟩ => ⟨S2x16x2048x2048, .f32⟩
  | .hbm, ⟨50, _⟩ => ⟨S2x16x2048x64, .f32⟩
  | .hbm, ⟨51, _⟩ => ⟨S2x2048x16x64, .f32⟩
  | .hbm, ⟨52, _⟩ => ⟨S2x2048x1024, .f32⟩
  | .hbm, ⟨53, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_0 : Ref sig .tc := ⟨.hbm, 28, rfl⟩
abbrev main_call0_v5 : Ref sig .tc := ⟨.hbm, 29, rfl⟩
abbrev main_v16 : Ref sig .tc := ⟨.hbm, 30, rfl⟩
abbrev main_cst_1 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩

abbrev nD : Nat := 1
abbrev τ : Topo := Topo.v7x

variable {F : FTy → Type} [FloatOps F]

class Facts₀ : Prop where
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  bcast_S_S2048x2048 : S_.BroadcastsInDim S2048x2048 (![] : Fin 0 → Fin S2048x2048.rank)
  bcast_S2048x2048_S2x16x2048x2048_2_3 : S2048x2048.BroadcastsInDim S2x16x2048x2048 (![2, 3] : Fin 2 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.Reg0.lean ====
import proofs.«148066_j74620761800951_2_alg».proof.Proof.Gen.KernelIdeal.Launch
import proofs.«148066_j74620761800951_2_alg».proof.Proof.Gen.KernelIdeal.Skeleton
import proofs.«148066_j74620761800951_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: the first whole-K matrix product, as a pipeline body

The region multiplies a 4096×1024 array by a 1024×3072 array in 1024×1024 blocks over a 4×3 grid of
points. At a point the body reads the left operand's block and the right operand's block whole,
forms their product (accumulated from zero, then rounded to the narrow type) and writes it whole over
the result's block. What the body leaves in the result's block is therefore a closed function of the
two input blocks: the single write's value laid over the block, which it covers.

Everything here is stated at a parameter `V`, the contents of the core's buffers when the region is
entered, and is generic in the float instance.
-/

set_option maxRecDepth 16384

noncomputable section

namespace Cert.KernelIdeal.Reg0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's current buffer holds its block at every point — also at the points where the block
    index has not moved and nothing is fetched —, for any proof data whose array is the entry contents and whose
    body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same of the right operand. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's one rectangle: the whole block -/

abbrev rWhole : Rect S1024x1024 := Rect.unit (s := S1024x1024) ![0, 0] S1024x1024.size inb_S1024x1024_S1024x1024_0_0

/-! ## What the body leaves in the result's block -/

/-- The result's buffer after the body, from the two input blocks: the one write, of the product of the blocks
    read whole, laid over the block. -/
def outBlk (x0 x1 : Vec F S1024x1024 .bf16) : Vec F S1024x1024 .bf16 :=
  View.canon [⟨rWhole, k0_pay1 (View.ld x0 rWhole) (View.ld x1 rWhole)⟩]

/-- The one write covers the block. -/
theorem cover (p0 : Vec F S1024x1024 .bf16) (y : S1024x1024.Idx) :
    ∃ pc ∈ ([⟨rWhole, p0⟩] : List (View.Piece (Elt F) S1024x1024 .bf16)), y ∈ pc.1.set :=
  View.cover_of_tiled [⟨rWhole, p0⟩] S1024x1024.size (by rfl) y

/-! ## The body's triple -/

set_option maxHeartbeats 1000000 in
/-- The body on whole memrefs, the two inputs' at read contents `x0`, `x1` and the result's at anything, runs to
    the continuation holding the inputs' as they were and the result's at `outBlk x0 x1`. The body also reads the
    result's buffer once before writing it; the value is not used. -/
theorem sound_kernel (c : Dev nD) (E : Set ℕ) (i : grid0.Coords)
    (arg2 : Memref sig .tc .vmem S1024x1024 .bf16) (harg2 : arg2.IsWhole)
    (arg3 : Memref sig .tc .vmem S1024x1024 .bf16) (harg3 : arg3.IsWhole)
    (arg4 : Memref sig .tc .vmem S1024x1024 .bf16) (harg4 : arg4.IsWhole)
    (x0 x1 : Vec F S1024x1024 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (outBlk x0 x1)) -∗ K ⟨⟩))
      ⊢ wp frame (wpE (defs₀ (F := F)) Variants.none c none) E (cc0__matmul_kernel i arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-! ## The pipeline's proof data -/

/-- The proof data of the region's pipeline on core `c`: the arrays as the region finds them; after the body at
    point `t` each input's buffer at its block and the result's at `outBlk` of the two input blocks; the
    invariant the plain one (the rest of the core's scoped memory and the generator register, untouched);
    nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outBlk (iblk V c 0 t) (iblk V c 1 t)
  Φ _ := Pipeline.ΦA spec0 c
  q _ := fullShare
  owed _ := 0

/-- The proof data's arrays are the entry contents. -/
theorem A_eq (c : Dev nD) (w : Fin cfg0.W) : (dat V c).A w = V c (Pipeline.arrRef spec0 w) := by
  dsimp only [dat]

/-- What the body leaves, window by window. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = outBlk (iblk V c 0 t) (iblk V c 1 t) := by dsimp only [dat]

/-- Each input's current buffer holds its block at every point. -/
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks, so the body's triple applies; the invariant and
    what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Reg0

end
-- ==== Proof.Reg1Step.lean ====
/-
  The attention kernel's body as pure functions of what it loads. Between two grid points the kernel keeps three
  arrays: a running maximum `m`, a running normaliser `l` (both one value per head and query row) and a
  running weighted sum `acc` (one row of 64 features per head and query row). At a point whose key block is the
  first of its row of blocks they are reset to `-∞`, `0`, `0`; then the point's block of scores is absorbed:
  the new maximum, the old sums rescaled by `exp (m_old - m_new)` plus the block's own sums. At the last key block of
  a row of blocks the output block is `acc / l`, the heads laid side by side.
-/
import proofs.«148066_j74620761800951_2_alg».proof.Proof.Gen.KernelIdeal.Skeleton

noncomputable section

namespace Cert.KernelIdeal.Reg1

open Idealize.ShloMosaic Cert.KernelIdeal Cert.KernelIdeal.Gen

variable {F : FTy → Type} [FloatOps F] [Named F]

/-- The three arrays carried between grid points. -/
structure Scr (F : FTy → Type) where
  m : Vec F S16x256x1 .f32
  l : Vec F S16x256x1 .f32
  acc : Vec F S16x256x64 .f32

/-- The body's test "this is the first key block", as it computes it from the key-block word. -/
def isFirst (ki : BitVec 32) : Prop :=
  Scalar.cmpi .ne (Scalar.extui (Scalar.cmpi .eq ki 0#32) : BitVec 32) 0#32 = 1#1

instance (ki : BitVec 32) : Decidable (isFirst ki) := by unfold isFirst; infer_instance

/-- The reset values: `-∞`, `0`, `0`. -/
def reset : Scr F := ⟨k1_pay7, k1_pay8, k1_pay9⟩

/-- What the carried arrays hold when the point's block is absorbed: reset at a first key block, else as carried. -/
def start (ki : BitVec 32) (s : Scr F) : Scr F := if isFirst ki then reset else s

/-- One grid point: the block of scores of query block `q` against key block `k` (positions `256 qi + ·` against
    `256 ki + ·`, masked after the diagonal) absorbed into the carried arrays, with value block `v`. -/
def step (qi ki : BitVec 32) (q k v : Vec F S1x256x1024 .bf16) (s : Scr F) : Scr F :=
  let s0 := start ki s
  let mNew := k1_pay12 qi ki q k s0.m
  ⟨k1_pay5 mNew, k1_pay3 (k1_pay11 qi ki q k) s0.m mNew s0.l, k1_pay4 (k1_pay10 v) (k1_pay11 qi ki q k) s0.m mNew s0.acc⟩

/-- The output block from the carried arrays after the row's last key block: `acc / l`, heads side by side. -/
def outBlk (s : Scr F) : Vec F S1x256x1024 .bf16 := k1_pay6 s.acc s.l

/-- A first key block's point does not read what was carried. -/
theorem step_of_first {qi ki : BitVec 32} (h : isFirst ki) (q k v : Vec F S1x256x1024 .bf16) (s s' : Scr F) :
    step qi ki q k v s = step qi ki q k v s' := by
  unfold step start; rw [if_pos h, if_pos h]

end Cert.KernelIdeal.Reg1

end
-- ==== Proof.Reg1Tab.lean ====
import proofs.«148066_j74620761800951_2_alg».proof.Proof.Gen.KernelIdeal.Launch
import proofs.«148066_j74620761800951_2_alg».proof.Proof.Gen.KernelIdeal.Skeleton
import proofs.«148066_j74620761800951_2_alg».proof.Proof.Gen.KernelIdeal.Points
import proofs.«148066_j74620761800951_2_alg».proof.Proof.Reg1Step
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! ## The two prefetched tables -/

/-- The tables' contents: step ↦ query block, step ↦ key block, the 36 pairs `ki ≤ qi` of 8 blocks, row by row. -/
def tbl : pre1.Contents (Elt F) := fun k => match k with
  | ⟨0, _⟩ => fun i => lit0 (S36.rowMajor i)
  | ⟨1, _⟩ => fun i => lit1 (S36.rowMajor i)

/-- Every table word is a block number below 8. -/
theorem lit0_lt : ∀ n : Fin 36, (lit0 n).toNat < 8 := by decide
theorem lit1_lt : ∀ n : Fin 36, (lit1 n).toNat < 8 := by decide

/-- The offset of the tables' loads at a point is the point's step. -/
theorem off_eq (i : grid1.Coords) : k1_off1 i = ![(i 1).val] := by
  unfold k1_off1
  simp only [Scalar.indexCast, BitVec.toNat_ofNat]
  have : (i 1).val < 36 := (i 1).isLt
  rw [Nat.mod_eq_of_lt (by omega)]

/-- The four index maps at any contents of the tables: batch, the table's word at the step, the column block. -/
theorem tr0_eq (pf : pre1.Contents (Elt F)) (i : grid1.Coords) :
    cc1_transform_0 k1_off1_inb numel1_S1 pf i = ![(i 0).val, (pf.at 0 (Rect.unit (s := S36) (k1_off1 i) S1.size (k1_off1_inb i)) numel1_S1).toNat, 0] := by
  unfold cc1_transform_0
  simp only [BitVec.toNat_ofNat]
  have : (i 0).val < 2 := (i 0).isLt
  rw [Nat.mod_eq_of_lt (by omega)]
  rfl

theorem tr1_eq (pf : pre1.Contents (Elt F)) (i : grid1.Coords) :
    cc1_transform_1 k1_off1_inb numel1_S1 pf i = ![(i 0).val, (pf.at 1 (Rect.unit (s := S36) (k1_off1 i) S1.size (k1_off1_inb i)) numel1_S1).toNat, 1] := by
  unfold cc1_transform_1
  simp only [BitVec.toNat_ofNat]
  have : (i 0).val < 2 := (i 0).isLt
  rw [Nat.mod_eq_of_lt (by omega)]
  rfl

theorem tr2_eq (pf : pre1.Contents (Elt F)) (i : grid1.Coords) :
    cc1_transform_2 k1_off1_inb numel1_S1 pf i = ![(i 0).val, (pf.at 1 (Rect.unit (s := S36) (k1_off1 i) S1.size (k1_off1_inb i)) numel1_S1).toNat, 2] := by
  unfold cc1_transform_2
  simp only [BitVec.toNat_ofNat]
  have : (i 0).val < 2 := (i 0).isLt
  rw [Nat.mod_eq_of_lt (by omega)]
  rfl

theorem tr3_eq (pf : pre1.Contents (Elt F)) (i : grid1.Coords) :
    cc1_transform_3 k1_off1_inb numel1_S1 pf i = ![(i 0).val, (pf.at 0 (Rect.unit (s := S36) (k1_off1 i) S1.size (k1_off1_inb i)) numel1_S1).toNat, 0] := by
  unfold cc1_transform_3
  simp only [BitVec.toNat_ofNat]
  have : (i 0).val < 2 := (i 0).isLt
  rw [Nat.mod_eq_of_lt (by omega)]
  rfl

/-- The word the literal tables hold at a point's step. -/
theorem at0_tbl (i : grid1.Coords) :
    (tbl (F := F)).at 0 (Rect.unit (s := S36) (k1_off1 i) S1.size (k1_off1_inb i)) numel1_S1 = lit0 (i 1) := by
  show lit0 (S36.rowMajor _) = lit0 (i 1)
  refine congrArg lit0 (Fin.ext ?_)
  refine (Shape.rowMajor_val_one (d := ![36]) _).trans ?_
  have h := off_eq i
  show k1_off1 i 0 + 1 * 0 = (i 1).val
  rw [h]; rfl

theorem at1_tbl (i : grid1.Coords) :
    (tbl (F := F)).at 1 (Rect.unit (s := S36) (k1_off1 i) S1.size (k1_off1_inb i)) numel1_S1 = lit1 (i 1) := by
  show lit1 (S36.rowMajor _) = lit1 (i 1)
  refine congrArg lit1 (Fin.ext ?_)
  refine (Shape.rowMajor_val_one (d := ![36]) _).trans ?_
  have h := off_eq i
  show k1_off1 i 0 + 1 * 0 = (i 1).val
  rw [h]; rfl

/-- A block (b, w, j) of extents (1, 256, 1024) with b < 2, w < 8 lies inside an array of 2 × 2048 × J when its last axis does. -/
theorem blk_inb {b w j B W J : ℕ} (hb : b < 2) (hw : w < 8) (h0 : B = 2) (h1 : W = 2048) (hj : (j + 1) * 1024 ≤ J) :
    ∀ a : Fin 3, (![b, w, j] a + 1) * ![1, 256, 1024] a ≤ ![B, W, J] a := by
  subst h0 h1
  intro a
  fin_cases a
  · show (b + 1) * 1 ≤ 2; omega
  · show (w + 1) * 256 ≤ 2048; omega
  · exact hj

/-- Every block the tables name lies inside its array. -/
theorem ok_tbl : ok1 (F := F) tbl := by
  unfold ok1
  refine ⟨fun i => ⟨?_, .inr (Affine.block_words_dvd (of_decide_eq_true rfl) (by decide))⟩,
    fun i => ⟨?_, .inr (Affine.block_words_dvd (of_decide_eq_true rfl) (by decide))⟩,
    fun i => ⟨?_, .inr (Affine.block_words_dvd (of_decide_eq_true rfl) (by decide))⟩,
    fun i => ⟨?_, .inr (Affine.block_words_dvd (of_decide_eq_true rfl) (by decide))⟩⟩
  · rw [tr0_eq, at0_tbl]; exact blk_inb (i 0).isLt (lit0_lt (i 1)) rfl rfl (by decide)
  · rw [tr1_eq, at1_tbl]; exact blk_inb (i 0).isLt (lit1_lt (i 1)) rfl rfl (by decide)
  · rw [tr2_eq, at1_tbl]; exact blk_inb (i 0).isLt (lit1_lt (i 1)) rfl rfl (by decide)
  · rw [tr3_eq, at0_tbl]; exact blk_inb (i 0).isLt (lit0_lt (i 1)) rfl rfl (by decide)

/-- The tables as admissible contents, and the pipeline at them. -/
abbrev adm : (pcfg1 (F := F)).Adm := ⟨tbl, ok_tbl⟩
abbrev cfgM : Pipeline.Cfg sig Λ₀ := cfg1 (adm (F := F))

/-- The query-block and key-block words the body loads at point `t`. -/
def qiN (n : ℕ) : BitVec 32 := lit0 ⟨n % 36, Nat.mod_lt _ (by decide)⟩
def kiN (n : ℕ) : BitVec 32 := lit1 ⟨n % 36, Nat.mod_lt _ (by decide)⟩
abbrev qiW (t : Fin (cfgM (F := F)).N) : BitVec 32 := qiN t.val
abbrev kiW (t : Fin (cfgM (F := F)).N) : BitVec 32 := kiN t.val

/-! ## The grid's points -/

theorem N_eq : (cfgM (F := F)).N = 72 := (by decide : grid1.N = 72)

theorem coords0 (t : Fin (cfgM (F := F)).N) : ((cfgM (F := F)).grid.coords t 0).val = t.val / 36 := by
  have h : t.val < 72 := lt_of_lt_of_eq t.isLt N_eq
  show t.val / (cfgM (F := F)).grid.stride 0 % 2 = t.val / 36
  rw [show (cfgM (F := F)).grid.stride 0 = 36 from (by decide : grid1.stride 0 = 36)]
  omega

theorem coords1 (t : Fin (cfgM (F := F)).N) : (cfgM (F := F)).grid.coords t 1 = ⟨t.val % 36, Nat.mod_lt _ (by decide)⟩ := by
  refine Fin.ext ?_
  show t.val / (cfgM (F := F)).grid.stride 1 % 36 = t.val % 36
  rw [show (cfgM (F := F)).grid.stride 1 = 1 from (by decide : grid1.stride 1 = 1), Nat.div_one]

theorem word0_eq (t : Fin (cfgM (F := F)).N) :
    (tbl (F := F)).at 0 (Rect.unit (s := S36) (k1_off1 ((cfgM (F := F)).grid.coords t)) S1.size (k1_off1_inb _)) numel1_S1 = qiW t := by
  rw [at0_tbl, coords1]; rfl

theorem word1_eq (t : Fin (cfgM (F := F)).N) :
    (tbl (F := F)).at 1 (Rect.unit (s := S36) (k1_off1 ((cfgM (F := F)).grid.coords t)) S1.size (k1_off1_inb _)) numel1_S1 = kiW t := by
  rw [at1_tbl, coords1]; rfl

theorem index_0 (t : Fin (cfgM (F := F)).N) : ((cfgM (F := F)).win 0).index t = ![t.val / 36, (qiW t).toNat, 0] := by
  show cc1_transform_0 k1_off1_inb numel1_S1 (tbl (F := F)) ((cfgM (F := F)).grid.coords t) = _
  rw [tr0_eq, word0_eq, coords0]

theorem index_1 (t : Fin (cfgM (F := F)).N) : ((cfgM (F := F)).win 1).index t = ![t.val / 36, (kiW t).toNat, 1] := by
  show cc1_transform_1 k1_off1_inb numel1_S1 (tbl (F := F)) ((cfgM (F := F)).grid.coords t) = _
  rw [tr1_eq, word1_eq, coords0]

theorem index_2 (t : Fin (cfgM (F := F)).N) : ((cfgM (F := F)).win 2).index t = ![t.val / 36, (kiW t).toNat, 2] := by
  show cc1_transform_2 k1_off1_inb numel1_S1 (tbl (F := F)) ((cfgM (F := F)).grid.coords t) = _
  rw [tr2_eq, word1_eq, coords0]

theorem index_3 (t : Fin (cfgM (F := F)).N) : ((cfgM (F := F)).win 3).index t = ![t.val / 36, (qiW t).toNat, 0] := by
  show cc1_transform_3 k1_off1_inb numel1_S1 (tbl (F := F)) ((cfgM (F := F)).grid.coords t) = _
  rw [tr3_eq, word0_eq, coords0]

/-! ## The body's two conditions -/

theorem cond2_iff (a b : BitVec 32) : k1_cond2 a b = 1#1 ↔ b = a := by
  unfold k1_cond2
  rw [Scalar.guard_iff]
  exact IntOp.cmpi_eq

theorem isFirst_iff (k : BitVec 32) : isFirst k ↔ k = 0#32 := by
  unfold isFirst
  rw [Scalar.guard_iff]
  exact IntOp.cmpi_eq

/-! ## The steps' pairs: facts decided over the 72 points -/

theorem first_zero : isFirst (kiN 0) := by decide
theorem first_of_batch : isFirst (kiN 36) := by decide

theorem prev_of_not_first : ∀ n < 72, ¬ isFirst (kiN n) →
    n ≠ 0 ∧ (n - 1) / 36 = n / 36 ∧ qiN (n - 1) = qiN n ∧ (kiN (n - 1)).toNat + 1 = (kiN n).toNat := by decide

theorem ki_le_qi : ∀ n < 72, (kiN n).toNat ≤ (qiN n).toNat ∧ (qiN n).toNat < 8 := by decide

theorem diag_point : ∀ b < 2, ∀ q < 8, ∃ n < 72, n / 36 = b ∧ (qiN n).toNat = q ∧ (kiN n).toNat = q := by decide

theorem point_unique : ∀ n < 72, ∀ n' < 72, n / 36 = n' / 36 → qiN n = qiN n' → kiN n = kiN n' → n = n' := by decide

/-- The output block changes after a point, or the point is the last, exactly where the key block is the query block. -/
theorem flush_nat : ∀ n < 72, (n + 1 = 72 ∨ (n + 1 < 72 ∧
    (![(n + 1) / 36, (qiN (n + 1)).toNat, 0] : Fin 3 → ℕ) ≠ ![n / 36, (qiN n).toNat, 0])) ↔ kiN n = qiN n := by decide

/-! ## Where the windows are idle, and where the output is written back -/

theorem atD0_tbl (i : grid1.Coords) : (tbl (F := F)).atD 0 (k1_off1 i) = lit0 (i 1) := by
  have hin : ∀ a, k1_off1 i a + 1 ≤ (pre1.ref 0).ty.shape.size a := Fin.forall_fin_one.2 (k1_off1_inb i 0)
  refine (dif_pos hin).trans ?_
  show lit0 (S36.rowMajor _) = lit0 (i 1)
  refine congrArg lit0 (Fin.ext ?_)
  refine (Shape.rowMajor_val_one (d := ![36]) _).trans ?_
  show k1_off1 i 0 = (i 1).val
  rw [off_eq]; rfl

theorem atD1_tbl (i : grid1.Coords) : (tbl (F := F)).atD 1 (k1_off1 i) = lit1 (i 1) := by
  have hin : ∀ a, k1_off1 i a + 1 ≤ (pre1.ref 1).ty.shape.size a := Fin.forall_fin_one.2 (k1_off1_inb i 0)
  refine (dif_pos hin).trans ?_
  show lit1 (S36.rowMajor _) = lit1 (i 1)
  refine congrArg lit1 (Fin.ext ?_)
  refine (Shape.rowMajor_val_one (d := ![36]) _).trans ?_
  show k1_off1 i 0 = (i 1).val
  rw [off_eq]; rfl

theorem idle_0 (t : Fin (cfgM (F := F)).N) : (cfgM (F := F)).idle 0 ((cfgM (F := F)).grid.coords t) = false := rfl
theorem idle_1 (t : Fin (cfgM (F := F)).N) : (cfgM (F := F)).idle 1 ((cfgM (F := F)).grid.coords t) = false := rfl
theorem idle_2 (t : Fin (cfgM (F := F)).N) : (cfgM (F := F)).idle 2 ((cfgM (F := F)).grid.coords t) = false := rfl

theorem idle_3 (t : Fin (cfgM (F := F)).N) :
    (cfgM (F := F)).idle 3 ((cfgM (F := F)).grid.coords t) = !(k1_cond2 (qiW t) (kiW t) == 1#1) := by
  show (!(k1_cond2 ((tbl (F := F)).atD 0 (k1_off1 ((cfgM (F := F)).grid.coords t)))
    ((tbl (F := F)).atD 1 (k1_off1 ((cfgM (F := F)).grid.coords t))) == 1#1)) = _
  rw [atD0_tbl, atD1_tbl, coords1]; rfl

theorem flush_3 (t : Fin (cfgM (F := F)).N) :
    ((cfgM (F := F)).win 3).flush t = true ↔ k1_cond2 (qiW t) (kiW t) = 1#1 := by
  have ht : t.val < 72 := lt_of_lt_of_eq t.isLt N_eq
  rw [cond2_iff, ← flush_nat t.val ht]
  unfold Window.flush
  rw [show ((cfgM (F := F)).win 3).isOut = true from rfl, Bool.true_and, Bool.or_eq_true, decide_eq_true_eq, decide_eq_true_eq]
  constructor
  · rintro (h | ⟨h, hne⟩)
    · exact .inl (h.trans N_eq)
    · rw [index_3, index_3] at hne
      exact .inr ⟨lt_of_lt_of_eq h N_eq, hne⟩
  · rintro (h | ⟨h, hne⟩)
    · exact .inl (h.trans N_eq.symm)
    · refine .inr ⟨lt_of_lt_of_eq h N_eq.symm, ?_⟩
      rw [index_3, index_3]; exact hne

/-! ## The words as a load through the tables' memrefs reads them -/

theorem rd0_eq (t : Fin (cfgM (F := F)).N) :
    ((Memref.whole main_c : Memref sig .tc .smem S36 .i32).access
        (Rect.unit (s := S36) (k1_off1 ((cfgM (F := F)).grid.coords t)) S1.size (k1_off1_inb _))).read (Elt F)
      ((tbl (F := F)) 0) (Shape.Idx.first (numel1_S1.symm ▸ Nat.one_pos)) = qiW t := by
  rw [← word0_eq t]; rfl

theorem rd1_eq (t : Fin (cfgM (F := F)).N) :
    ((Memref.whole main_c_0 : Memref sig .tc .smem S36 .i32).access
        (Rect.unit (s := S36) (k1_off1 ((cfgM (F := F)).grid.coords t)) S1.size (k1_off1_inb _))).read (Elt F)
      ((tbl (F := F)) 1) (Shape.Idx.first (numel1_S1.symm ▸ Nat.one_pos)) = kiW t := by
  rw [← word1_eq t]; rfl

end Cert.KernelIdeal.Reg1

end
-- ==== Proof.Reg1.lean ====
import proofs.«148066_j74620761800951_2_alg».proof.Proof.Reg1Tab
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

-- the core's buffer contents when the call is entered
variable (V : (c : Dev nD) → (b : Ref sig .tc) → Buf (Elt F) ((c : Thread nD τ).loc b))

/-- Window `w`'s block at point `t`, read off its array as the call finds it. -/
def iblk (c : Dev nD) (w : Fin (cfgM (F := F)).W) (t : Fin (cfgM (F := F)).N) :
    (((cfgM (F := F)).win w).xblock ((cfgM (F := F)).grid.coords t)).Idx → Elt F ((cfgM (F := F)).win w).elt :=
  (((cfgM (F := F)).win w).blk t).view.read (Elt F) (V c (Pipeline.arrRef spec1 w))

/-- The carried arrays before point `n` (after point `n - 1`); before the first point anything (never read:
    the first point is a first key block). -/
def scrAt (c : Dev nD) : ℕ → Scr F
  | 0 => reset
  | n + 1 =>
    if h : n < (cfgM (F := F)).N then
      step (qiW ⟨n, h⟩) (kiW ⟨n, h⟩) (iblk V c 0 ⟨n, h⟩) (iblk V c 1 ⟨n, h⟩) (iblk V c 2 ⟨n, h⟩) (scrAt c n)
    else scrAt c n

/-- The shares of the fused projection's array held by the three windows that read it. -/
abbrev shQ : PosShare TreeShare := fullShare.left
abbrev shK : PosShare TreeShare := fullShare.right.left
abbrev shV : PosShare TreeShare := fullShare.right.right

/-- The core's scoped buffers that are neither a staging buffer of this call nor one of its three carried
    arrays, each at some contents, and the generator register at some state. -/
def restScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ ∃ r, prngReg c r)

/-- The three carried arrays' buffers at `s`. -/
def scrHeld (c : Dev nD) (s : Scr F) : sProp 𝕄 :=
  iprop(owns (c : Thread nD τ) (Memref.whole cc1_scratch0 : Memref sig .tc .vmem S16x256x1 .f32) fullShare s.m
    ∗ owns (c : Thread nD τ) (Memref.whole cc1_scratch1 : Memref sig .tc .vmem S16x256x1 .f32) fullShare s.l
    ∗ owns (c : Thread nD τ) (Memref.whole cc1_scratch2 : Memref sig .tc .vmem S16x256x64 .f32) fullShare s.acc)

/-- The invariant between points: the rest of the scoped memory and the generator register untouched, the tables
    held whole at their contents, the carried arrays at the trajectory's value (before the first point at anything). -/
def Phi (c : Dev nD) (n : ℕ) : sProp 𝕄 :=
  iprop(restScoped c ∗ Pipeline.prefHeld (Ix := Unit) (Name := ℕ) (U := UR sig nD τ) (Lvl := ℕ) pre1 c (fun _ => fullShare) (tbl (F := F))
    ∗ ∃ s : Scr F, ⌜n ≠ 0 → s = scrAt V c n⌝ ∗ scrHeld c s)

/-- The proof data of the attention call's pipeline on core `c`. -/
def dat (c : Dev nD) : Dat τ (Elt F) Unit ℕ (UR sig nD τ) ℕ (cfgM (F := F)) c where
  A w := V c (Pipeline.arrRef spec1 w)
  after w t := match w with
    | ⟨0, _⟩ => iblk V c 0 t
    | ⟨1, _⟩ => iblk V c 1 t
    | ⟨2, _⟩ => iblk V c 2 t
    | ⟨3, _⟩ => outBlk (scrAt V c (t.val + 1))
  Φ t := Phi V c t.val
  q w := match w with
    | ⟨0, _⟩ => shQ
    | ⟨1, _⟩ => shK
    | ⟨2, _⟩ => shV
    | ⟨3, _⟩ => fullShare
  owed _ := 0

theorem A_eq (c : Dev nD) (w : Fin (cfgM (F := F)).W) : (dat V c).A w = V c (Pipeline.arrRef spec1 w) := by
  dsimp only [dat]

end Cert.KernelIdeal.Reg1

end
-- ==== Proof.Reg2.lean ====
import proofs.«148066_j74620761800951_2_alg».proof.Proof.Gen.KernelIdeal.Launch
import proofs.«148066_j74620761800951_2_alg».proof.Proof.Gen.KernelIdeal.Skeleton
import proofs.«148066_j74620761800951_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The third pallas_call: a whole-K matrix product, block row by block row

The call's grid has four points. At point `t` the left operand's window holds rows
`1024·t … 1024·t + 1023` of the 4096×1024 left array, the right operand's window holds the whole
1024×1024 right array (brought in once, at the first point, and left in place afterwards), and the
result window is block row `t` of the 4096×1024 result. The body reads both operand windows whole,
reads the result window once (the value is not used), and writes over the whole result window the
product of the two operand blocks, accumulated from zero.

This file states, at any entry contents `V` of the core's buffers and for any float instance: each
window's block at a point, what the body leaves in the result window as a function of the two operand
blocks, the body's triple, the pipeline's proof data and its body obligation.
-/

-- membership in a rectangle of 1024×1024 extents: the elaborator's structural look recurses once per
-- coordinate of the long axes
set_option maxRecDepth 16384

noncomputable section

namespace Cert.KernelIdeal.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The windows' blocks -/

/-- Window `w`'s block at point `t`, read off its array as the call finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's window holds its block at every point (it is brought in afresh at each), for any
    proof data whose array is `V`'s and whose body leaves the block in place. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The right operand's window holds its block at every point: brought in at the first point, and at the
    later points the block index has not moved and the body has left the window as it was. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole 1024×1024 window: the one rectangle every load and the store of the body address. -/
abbrev r : Rect S1024x1024 := Rect.unit (s := S1024x1024) ![0, 0] S1024x1024.size inb_S1024x1024_S1024x1024_0_0

/-! ## What the body leaves in the result window -/

/-- The result window after the body, from the operand windows' blocks: its one store, over the whole
    window, of the product of the two blocks read whole. -/
def outBlk (x0 x1 : Vec F S1024x1024 .bf16) : Vec F S1024x1024 .f32 :=
  View.canon [⟨r, k2_pay1 (View.ld x0 r) (View.ld x1 r)⟩]

/-- The store's rectangle is the whole window, so it covers it. -/
theorem cover (p0 : Vec F S1024x1024 .f32) (y : S1024x1024.Idx) :
    ∃ pc ∈ ([⟨r, p0⟩] : List (View.Piece (Elt F) S1024x1024 .f32)), y ∈ pc.1.set :=
  View.cover_of_tiled [⟨r, p0⟩] S1024x1024.size (by rfl) y

/-! ## The body's triple -/

set_option maxHeartbeats 1000000 in
/-- The body on whole staging memrefs, the operands' at read contents `x0`, `x1` and the result's at anything,
    runs to the continuation holding the operands' as they were and the result's at `outBlk x0 x1`. -/
theorem sound_kernel (c : Dev nD) (E : Set ℕ) (i : grid2.Coords)
    (arg2 : Memref sig .tc .vmem S1024x1024 .bf16) (harg2 : arg2.IsWhole)
    (arg3 : Memref sig .tc .vmem S1024x1024 .bf16) (harg3 : arg3.IsWhole)
    (arg4 : Memref sig .tc .vmem S1024x1024 .f32) (harg4 : arg4.IsWhole)
    (x0 x1 : Vec F S1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlk x0 x1)) -∗ K ⟨⟩))
      ⊢ wp frame (wpE (defs₀ (F := F)) Variants.none c none) E (cc2__matmul_kernel i arg2 harg2 arg3 harg3 arg4 harg4) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-! ## The pipeline's proof data -/

/-- The proof data of the call's pipeline on core `c`: the arrays as the call finds them (`V`); after the
    body at point `t` each operand's window at its block and the result's at `outBlk` of the two blocks; the
    invariant keeps the rest of the core's scoped memory and the generator register untouched; nothing owed;
    full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => outBlk (iblk V c 0 t) (iblk V c 1 t)
  Φ _ := Pipeline.ΦA spec2 c
  q _ := fullShare
  owed _ := 0

/-- The proof data's arrays are the entry contents. -/
theorem A_eq (c : Dev nD) (w : Fin cfg2.W) : (dat V c).A w = V c (Pipeline.arrRef spec2 w) := by
  dsimp only [dat]

/-- What the body leaves, window by window. -/
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = outBlk (iblk V c 0 t) (iblk V c 1 t) := by dsimp only [dat]

/-- Each operand's current staging buffer holds its block at every point. -/
theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d

/-! ## The body obligation, at a generic point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

/-- The body at any point: the operands' memrefs hold their blocks, so `sound_kernel` applies; the invariant
    and the core's debts pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W2, bigSep_W2]
  exact sound_body V c t

end Cert.KernelIdeal.Reg2

end
-- ==== Proof.RunVals.lean ====
import proofs.«148066_j74620761800951_2_alg».proof.Proof.Reg0
import proofs.«148066_j74620761800951_2_alg».proof.Proof.Reg1
import proofs.«148066_j74620761800951_2_alg».proof.Proof.Reg2

/-!
# The buffers' contents at each boundary of the program

The program is: host operations, the projection call, a reshape, the attention call, a reshape and a transpose,
the output-projection call, a reshape. Between two of these items every unscoped buffer of a core holds a
definite contents: the launch memory, then each stretch of host operations applied, then — after a call — the
call's arrays at what its pipeline leaves (each output's blocks written back over the entry contents) and every
other buffer as it was. This file names those contents and the three pipelines' proof data at them.
-/

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat)
open Cert.KernelIdeal.Gen

variable {F : FTy → Type} [FloatOps F] [Named F]

variable (m : (ℓ : Loc nD τ sig) → Buf (Elt F) ℓ)

/-- Core `c`'s unscoped buffers at launch. -/
abbrev W0 : Dev nD → Valuation τ sig (Elt F) := fun c b => m ((c : Dev nD), b)
/-- After the first stretch of host operations: the projection call's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection call: its arrays at what its pipeline leaves. -/
def W2 (c : Dev nD) : Valuation τ sig (Elt F) :=
  Pipeline.withArrays spec0 c (W1 m c) fun w => (Reg0.dat (V1 m) c).arrAt w cfg0.N
abbrev V2 : (c : Dev nD) → (b : Ref sig .tc) → Buf (Elt F) ((c : Thread nD τ).loc b) := fun c b => W2 m c b
/-- After the reshape: the attention call's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the attention call. -/
def W4 (c : Dev nD) : Valuation τ sig (Elt F) :=
  Pipeline.withArrays spec1 c (W3 m c) fun w => (Reg1.dat (V3 m) c).arrAt w (Reg1.cfgM (F := F)).N
abbrev V4 : (c : Dev nD) → (b : Ref sig .tc) → Buf (Elt F) ((c : Thread nD τ).loc b) := fun c b => W4 m c b
/-- After the reshape and the transpose: the output-projection call's entry. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After the output-projection call. -/
def W6 (c : Dev nD) : Valuation τ sig (Elt F) :=
  Pipeline.withArrays spec2 c (W5 m c) fun w => (Reg2.dat (V5 m) c).arrAt w cfg2.N
abbrev V6 : (c : Dev nD) → (b : Ref sig .tc) → Buf (Elt F) ((c : Thread nD τ).loc b) := fun c b => W6 m c b
/-- After the last reshape: what the program ends with. -/
abbrev W7 : Dev nD → Valuation τ sig (Elt F) := fun c => StableHlo.after hostOps3 (W6 m c)

/-- The tables' admissible contents, per pipeline: the attention call's literal tables, none for the other two. -/
abbrev adm : (p : Fin 3) → (pcfgs (F := F) p).Adm
  | ⟨0, _⟩ => cfg0.toPCfg_adm
  | ⟨1, _⟩ => Reg1.adm
  | ⟨2, _⟩ => cfg2.toPCfg_adm

/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => Reg0.dat (V1 m) c
  | ⟨1, _⟩ => fun c => Reg1.dat (V3 m) c
  | ⟨2, _⟩ => fun c => Reg2.dat (V5 m) c

end Cert.KernelIdeal.Run

end
-- ==== Proof.RunW4.lean ====
import proofs.«148066_j74620761800951_2_alg».proof.Proof.RunVals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-! # What rides beside the buffers, and the attention call's exit contents -/

/-- No core owes another anything: no level is assigned. -/
abbrev L : GSem nD τ sig → Finset Unit := fun _ => ∅
abbrev lv : GSem nD τ sig → Unit → ℕ := fun _ _ => 0
/-- What rides beside the buffers through every segment: the core's random-number register at some state and its
    `owes`, at nothing. -/
abbrev R (c : Dev nD) : sProp 𝕄 := iprop((∃ r, prngReg c r) ∗ ∃ W, owes (c : Thread nD τ) (0 : CellTallies nD τ sig Unit) W)

/-! ## The attention call's exit contents

Three of its four windows read one array, the fused projection; the fourth writes the output's. So the exit
contents hold the output's array at what the pipeline leaves, the fused projection as it was entered (an input
window's array is never written), and every other buffer as entered. -/

/-- The contents with a pipeline's arrays overwritten, at a buffer some window has for array, when every window on
    that buffer carries the same contents there. -/
theorem withArrays_of_forall {gr : Nat} {W : Nat} (win : Fin W → Pipeline.WinSpec sig gr) (c : Dev nD)
    (V : Valuation τ sig (Elt F)) (A : (w : Fin W) → Buf (Elt F) ((win w).arr.view.loc (c : Thread nD τ)))
    (b : Ref sig .tc) (x : (Proc.devRef .tc b : DevRef τ sig).ty.Contents (Elt F)) (hex : ∃ w, Pipeline.arrRef win w = b)
    (h : ∀ w (e : Proc.devRef .tc (Pipeline.arrRef win w) = Proc.devRef (τ := τ) .tc b),
      cast (congrArg (fun b' : DevRef τ sig => b'.ty.Contents (Elt F)) e) (A w) = x) :
    Pipeline.withArrays win c V A (Proc.devRef .tc b) = x := by
  unfold Pipeline.withArrays
  have hex' : ∃ w, Proc.devRef .tc (Pipeline.arrRef win w) = Proc.devRef (τ := τ) .tc b := by
    obtain ⟨w, hw⟩ := hex; exact ⟨w, congrArg _ hw⟩
  rw [dif_pos hex']
  exact h _ hex'.choose_spec

/-- Over the attention call's windows: the output's array holds the fourth window's contents. -/
theorem withArrays1_v7 (c : Dev nD) (V : Valuation τ sig (Elt F))
    (A : (w : Fin 4) → Buf (Elt F) ((spec1 w).arr.view.loc (c : Thread nD τ))) :
    Pipeline.withArrays spec1 c V A (Proc.devRef .tc main_v7) = A 3 :=
  withArrays_of_forall spec1 c V A main_v7 (A 3) ⟨3, rfl⟩ fun
    | 0 => fun e => absurd (Proc.devRef_injective _ e) (by decide)
    | 1 => fun e => absurd (Proc.devRef_injective _ e) (by decide)
    | 2 => fun e => absurd (Proc.devRef_injective _ e) (by decide)
    | 3 => fun e => rfl
    | ⟨_ + 4, h⟩ => absurd h (Nat.not_lt.2 (Nat.le_add_left _ _))

/-- Over the attention call's windows: the fused projection's array holds what its three windows agree on. -/
theorem withArrays1_v6 (c : Dev nD) (V : Valuation τ sig (Elt F))
    (A : (w : Fin 4) → Buf (Elt F) ((spec1 w).arr.view.loc (c : Thread nD τ)))
    (x : (Proc.devRef .tc main_v6 : DevRef τ sig).ty.Contents (Elt F)) (h0 : A 0 = x) (h1 : A 1 = x) (h2 : A 2 = x) :
    Pipeline.withArrays spec1 c V A (Proc.devRef .tc main_v6) = x :=
  withArrays_of_forall spec1 c V A main_v6 x ⟨0, rfl⟩ fun
    | 0 => fun e => h0
    | 1 => fun e => h1
    | 2 => fun e => h2
    | 3 => fun e => absurd (Proc.devRef_injective _ e) (by decide)
    | ⟨_ + 4, h⟩ => absurd h (Nat.not_lt.2 (Nat.le_add_left _ _))

/-- The output's array ends at what the pipeline leaves in it. -/
theorem W4_main_v7 (c : Dev nD) :
    W4 m c (Proc.devRef .tc main_v7) = (Reg1.dat (V3 m) c).arrAt 3 (Reg1.cfgM (F := F)).N := by
  unfold W4; exact withArrays1_v7 c _ _

/-- The fused projection's array ends as it was entered: the three windows on it only read. -/
theorem W4_main_v6 (c : Dev nD) :
    W4 m c (Proc.devRef .tc main_v6) = W3 m c (Proc.devRef .tc main_v6) := by
  unfold W4
  exact withArrays1_v6 c _ _ _
    (((Reg1.dat (V3 m) c).arrAt_in 0 rfl _).trans (Reg1.A_eq (V3 m) c 0))
    (((Reg1.dat (V3 m) c).arrAt_in 1 rfl _).trans (Reg1.A_eq (V3 m) c 1))
    (((Reg1.dat (V3 m) c).arrAt_in 2 rfl _).trans (Reg1.A_eq (V3 m) c 2))

/-- Every buffer that is no window's array ends as it was entered. -/
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

end Cert.KernelIdeal.Run

end
-- ==== Proof.RunReg1.lean ====
import proofs.«148066_j74620761800951_2_alg».proof.Proof.RunW4
import proofs.«148066_j74620761800951_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The attention call's entry and exit

At the attention call's entry the core holds every unscoped buffer whole at the entry contents. Three of the
call's four windows read ONE array, the fused projection; the fourth writes the result. So the entry deals the
fused projection's full share among its three windows (left half; left and right halves of the right half), hands
the result's array whole to the fourth, sets the two prefetched tables — still the literals written at the
program's start — apart at the full share, and leaves the rest. The exit is the converse at the exit contents,
which differ from the entry contents at the result's array only.
-/

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-- The first table under the attention call's entry contents is the literal written at the program's start. -/
theorem V3_c (c : Dev nD) : V3 m c main_c = fun i => lit0 (S36.rowMajor i) := by
  have h3 : W3 m c (Proc.devRef .tc main_c) = W2 m c (Proc.devRef .tc main_c) :=
    StableHlo.after_of_writes_sub hostOps1 _ hostOps1_writes (by decide)
  have h2 : W2 m c (Proc.devRef .tc main_c) = W1 m c (Proc.devRef .tc main_c) := by
    unfold W2; exact Pipeline.withArrays_of_ne spec0 c _ _ main_c (by decide)
  have h1 : W1 m c (Proc.devRef .tc main_c) = fun i => lit0 (S36.rowMajor i) := by
    show StableHlo.after hostOps0 (fun b => m (c, b)) (Proc.devRef .tc main_c) = _
    after_results; rfl
  exact h3.trans (h2.trans h1)

/-- The second table likewise. -/
theorem V3_c0 (c : Dev nD) : V3 m c main_c_0 = fun i => lit1 (S36.rowMajor i) := by
  have h3 : W3 m c (Proc.devRef .tc main_c_0) = W2 m c (Proc.devRef .tc main_c_0) :=
    StableHlo.after_of_writes_sub hostOps1 _ hostOps1_writes (by decide)
  have h2 : W2 m c (Proc.devRef .tc main_c_0) = W1 m c (Proc.devRef .tc main_c_0) := by
    unfold W2; exact Pipeline.withArrays_of_ne spec0 c _ _ main_c_0 (by decide)
  have h1 : W1 m c (Proc.devRef .tc main_c_0) = fun i => lit1 (S36.rowMajor i) := by
    show StableHlo.after hostOps0 (fun b => m (c, b)) (Proc.devRef .tc main_c_0) = _
    after_results; rfl
  exact h3.trans (h2.trans h1)

/-- The two tables under the entry contents are the literal tables. -/
theorem V3_tbl (c : Dev nD) : (fun k => V3 m c (pre1.ref k)) = Reg1.tbl (F := F) := by
  funext k
  match k with
  | ⟨0, _⟩ => exact V3_c m c
  | ⟨1, _⟩ => exact V3_c0 m c

/-- The attention call's windowed arrays are two buffers: the fused projection (read by three windows, its full
    share dealt among them) and the result (one window, the full share). -/
theorem arrays_iff (c : Dev nD) (V : (b : Ref sig .tc) → Buf (Elt F) ((c : Thread nD τ).loc b))
    (A : (w : Fin (Pipeline.pin (pcfgs (F := F)) adm 1).W) → Buf (Elt F) ((((Pipeline.pin (pcfgs (F := F)) adm 1).win w).arr.view.loc (c : Thread nD τ))))
    (hA : ∀ w, A w = V (Pipeline.arrRef spec1 w)) :
    (pdats m 1 c).arrays A ⊣⊢ (Pipeline.arrBufs spec1 c V : sProp 𝕄) := by
  have hs : ∀ w : Fin 4, ((Pipeline.pin (pcfgs (F := F)) adm 1).win w).arr.view.set = Finset.univ := fun w => (arr_whole1 w).set_eq_univ
  have hA' : ∀ w : Fin 4, A w = V (Pipeline.arrRef spec1 w) := hA
  unfold Pipeline.arrBufs Pipeline.Dat.arrays
  rw [bigSep_eq_bigSepL_of_eq [main_v6, main_v7] (by decide) (by decide)]
  rw [bigSep_W1, hs 0, hs 1, hs 2, hs 3, hA' 0, hA' 1, hA' 2, hA' 3]
  show iprop((((c : Thread nD τ).loc main_v6) ↦{Reg1.shQ} V main_v6) ∗ (((c : Thread nD τ).loc main_v6) ↦{Reg1.shK} V main_v6)
      ∗ (((c : Thread nD τ).loc main_v6) ↦{Reg1.shV} V main_v6) ∗ (((c : Thread nD τ).loc main_v7) ↦{fullShare} V main_v7))
    ⊣⊢ iprop((((c : Thread nD τ).loc main_v6) ↦{fullShare} V main_v6) ∗ (((c : Thread nD τ).loc main_v7) ↦{fullShare} V main_v7))
  have h1 := pointsTo_share (Ix := Unit) (Name := ℕ) (U := UR sig nD τ) (Lvl := ℕ) (ℓ := (c : Thread nD τ).loc main_v6) (I := Finset.univ) (f := V main_v6) (PosShare.mem_left_op_right fullShare)
  have h2 := pointsTo_share (Ix := Unit) (Name := ℕ) (U := UR sig nD τ) (Lvl := ℕ) (ℓ := (c : Thread nD τ).loc main_v6) (I := Finset.univ) (f := V main_v6) (PosShare.mem_left_op_right fullShare.right)
  constructor
  · iintro ⟨Hq, Hk, Hv, Ho⟩
    isplitr [Ho]
    · iapply h1.2
      isplitl [Hq]; · iexact Hq
      iapply h2.2
      isplitl [Hk] <;> iassumption
    · iexact Ho
  · iintro ⟨Hi, Ho⟩
    ihave H := h1.1 $$ Hi
    icases H with ⟨Hq, Hr⟩
    ihave H := h2.1 $$ Hr
    icases H with ⟨Hk, Hv⟩
    isplitl [Hq]; · iexact Hq
    isplitl [Hk]; · iexact Hk
    isplitl [Hv]; · iexact Hv
    iexact Ho

/-- After the attention call each of its four windows' arrays holds what the pipeline leaves there: the three
    windows on the fused projection only read, and an input's array is left as it was entered. -/
theorem W4_arr (c : Dev nD) : ∀ w : Fin 4,
    W4 m c (Proc.devRef .tc (Pipeline.arrRef spec1 w)) = (Reg1.dat (V3 m) c).arrAt w (Reg1.cfgM (F := F)).N
  | 0 => (W4_main_v6 m c).trans (((Reg1.dat (V3 m) c).arrAt_in 0 rfl _).trans (Reg1.A_eq (V3 m) c 0)).symm
  | 1 => (W4_main_v6 m c).trans (((Reg1.dat (V3 m) c).arrAt_in 1 rfl _).trans (Reg1.A_eq (V3 m) c 1)).symm
  | 2 => (W4_main_v6 m c).trans (((Reg1.dat (V3 m) c).arrAt_in 2 rfl _).trans (Reg1.A_eq (V3 m) c 2)).symm
  | 3 => W4_main_v7 m c
  | ⟨_ + 4, h⟩ => absurd h (Nat.not_lt.2 (Nat.le_add_left _ _))

/-- ENTRY of the attention call: every unscoped buffer at the entry contents is the call's arrays at the proof
    data's entry contents (the fused projection's full share dealt to its three windows), the two tables whole at
    their literal contents, and the rest; the dues, none, are within what the pipeline allows at its first point. -/
theorem entry1 (c : Dev nD) :
    iprop((StableHlo.held (c : Thread nD τ) (Pipeline.ucRefs τ sig) (W3 m c) ∗ R (F := F) c)
        ∗ Pipeline.ownSems0 (fun k : PEmpty => (k.elim : SemLoc sig)) c ∗ levAts L lv)
      ⊢ |={Set.univ}=> iprop((pdats m 1 c).arrays ((pdats m 1 c).arrAt · 0)
          ∗ Pipeline.prefHeld (pcfgs (F := F) 1).pre c (fun _ => fullShare) (adm (F := F) 1).1
          ∗ (pdats m 1 c).owesAt () 0 ∗ (∃ r, prngReg c r)
          ∗ Pipeline.unscopedRestP (Ix := Unit) (Name := ℕ) (U := UR sig nD τ) (Lvl := ℕ) pre1 spec1 c (V3 m c)) := by
  have hub : (unscopedBufs c (V3 m c) : sProp 𝕄)
      = iprop(Pipeline.arrBufs spec1 c (V3 m c) ∗ Pipeline.unscopedRest spec1 c (V3 m c)) :=
    Pipeline.unscopedBufs_split₀ (Ix := Unit) (Name := ℕ) (U := UR sig nD τ) (Lvl := ℕ)
      (Pipeline.pin (pcfgs (F := F)) adm) 1 winFacts₀1.arr_unscoped c (V3 m c)
  have hur := Pipeline.unscopedRest_split (Ix := Unit) (Name := ℕ) (U := UR sig nD τ) (Lvl := ℕ) preFacts1 c (V3 m c)
  have hsplit : (StableHlo.held (c : Thread nD τ) (Pipeline.ucRefs τ sig) (W3 m c) : sProp 𝕄)
      ⊢ iprop((pdats m 1 c).arrays ((pdats m 1 c).arrAt · 0)
          ∗ Pipeline.prefHeld pre1 c (fun _ => fullShare) (Reg1.tbl (F := F))
          ∗ Pipeline.unscopedRestP pre1 spec1 c (V3 m c)) := by
    rw [← Pipeline.unscopedBufs_held, hub, hur, V3_tbl]
    exact sep_mono (arrays_iff m c (V3 m c) _ (fun w => Reg1.A_eq (V3 m) c w)).2 .rfl
  rw [Pipeline.ownSems0_none]
  iintro ⟨⟨Hub, Hp, HO⟩, -, -⟩
  ihave H := hsplit $$ Hub
  icases H with ⟨Ha, Ht, Hrest⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  isplitl [Hp]; · iexact Hp
  iexact Hrest

/-- EXIT of the attention call: the three windows' shares of the fused projection rejoin at its entry contents,
    the result is at what the pipeline leaves, the tables and the rest are as entered — every unscoped buffer at
    the exit contents. -/
theorem exit1 (c : Dev nD) :
    iprop((pdats m 1 c).arrays ((pdats m 1 c).arrAt · (Pipeline.pin (pcfgs (F := F)) adm 1).N)
        ∗ (pdats m 1 c).owesAt () (Fin.last (Pipeline.pin (pcfgs (F := F)) adm 1).N)
        ∗ ((∃ r, prngReg c r) ∗ Pipeline.prefHeld (Ix := Unit) (Name := ℕ) (U := UR sig nD τ) (Lvl := ℕ) pre1 c (fun _ => fullShare) (Reg1.tbl (F := F)))
        ∗ Pipeline.unscopedRestP (Ix := Unit) (Name := ℕ) (U := UR sig nD τ) (Lvl := ℕ) pre1 spec1 c (V3 m c))
      ⊢ |={Set.univ}=> iprop(StableHlo.held (c : Thread nD τ) (Pipeline.ucRefs τ sig) (W4 m c) ∗ R (F := F) c) := by
  have hub : (unscopedBufs c (V4 m c) : sProp 𝕄)
      = iprop(Pipeline.arrBufs spec1 c (V4 m c) ∗ Pipeline.unscopedRest spec1 c (V4 m c)) :=
    Pipeline.unscopedBufs_split₀ (Ix := Unit) (Name := ℕ) (U := UR sig nD τ) (Lvl := ℕ)
      (Pipeline.pin (pcfgs (F := F)) adm) 1 winFacts₀1.arr_unscoped c (V4 m c)
  have hur := Pipeline.unscopedRest_split (Ix := Unit) (Name := ℕ) (U := UR sig nD τ) (Lvl := ℕ) preFacts1 c (V4 m c)
  have htbl : (fun k => V4 m c (pre1.ref k)) = Reg1.tbl (F := F) := by
    rw [← V3_tbl m c]; funext k
    exact W4_of_ne m c (pre1.ref k) fun w => (preFacts1.disj k w).symm
  have hrest : (Pipeline.unscopedRestP pre1 spec1 c (V4 m c) : sProp 𝕄) = Pipeline.unscopedRestP pre1 spec1 c (V3 m c) := by
    unfold Pipeline.unscopedRestP
    exact bigSep_congr fun b hb => by
      rw [show V4 m c b = V3 m c b from W4_of_ne m c b fun w e =>
        (Finset.mem_sdiff.mp (Finset.mem_sdiff.mp hb).1).2 (Finset.mem_image.mpr ⟨w, Finset.mem_univ _, e⟩)]
  have hjoin : iprop((pdats m 1 c).arrays ((pdats m 1 c).arrAt · (Pipeline.pin (pcfgs (F := F)) adm 1).N)
          ∗ Pipeline.prefHeld pre1 c (fun _ => fullShare) (Reg1.tbl (F := F))
          ∗ Pipeline.unscopedRestP pre1 spec1 c (V3 m c))
      ⊢ (StableHlo.held (c : Thread nD τ) (Pipeline.ucRefs τ sig) (W4 m c) : sProp 𝕄) := by
    rw [← Pipeline.unscopedBufs_held, hub, hur, htbl, hrest]
    exact sep_mono (arrays_iff m c (V4 m c) _ (fun w => (W4_arr m c w).symm)).1 .rfl
  iintro ⟨Ha, HO, ⟨Hp, Ht⟩, Hrest⟩
  imodintro
  isplitl [Ha Ht Hrest]
  · iapply hjoin
    isplitl [Ha]; · iexact Ha
    isplitl [Ht] <;> iassumption
  isplitl [Hp]; · iexact Hp
  unfold Pipeline.Dat.owesAt Pipeline.owesWithin
  icases HO with ⟨%W, -, HO⟩; iexists W; iexact HO

end Cert.KernelIdeal.Run

end
-- ==== Proof.Reg1Inv.lean ====
import proofs.«148066_j74620761800951_2_alg».proof.Proof.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The three carried arrays held at `s` are their three whole buffers' points-to at `s`'s components. -/
theorem scrHeld_eq (c : Dev nD) (s : Scr F) :
    (scrHeld c s : sProp 𝕄)
      = iprop((((c : Thread nD τ).loc cc1_scratch0) ↦{fullShare} s.m)
        ∗ (((c : Thread nD τ).loc cc1_scratch1) ↦{fullShare} s.l)
        ∗ (((c : Thread nD τ).loc cc1_scratch2) ↦{fullShare} s.acc)) := by
  unfold scrHeld
  rw [owns_whole (c : Thread nD τ) cc1_scratch0, owns_whole (c : Thread nD τ) cc1_scratch1,
    owns_whole (c : Thread nD τ) cc1_scratch2]

/-- The invariant at the first point, from the generator register, the tables and the scoped rest. -/
theorem Phi_in (c : Dev nD) :
    iprop((∃ r, prngReg c r) ∗ Pipeline.prefHeld (Ix := Unit) (Name := ℕ) (U := UR sig nD τ) (Lvl := ℕ) pre1 c (fun _ => fullShare) (tbl (F := F))
        ∗ Pipeline.scopedRest (Ix := Unit) (Name := ℕ) (U := UR sig nD τ) (Lvl := ℕ) (Val := Elt F) spec1 c)
      ⊢ (dat V c).Φ 0 := by
  rw [scopedRest1_eq]
  show _ ⊢ Phi V c 0
  unfold Phi restScoped
  simp only [scrHeld_eq]
  iintro ⟨Hr, Hp, H1, H2, H3, H4, H5, H6, ⟨%f7, H7⟩, ⟨%f8, H8⟩, ⟨%f9, H9⟩, H10, H11, H12, H13, H14⟩
  isplitl [Hr H1 H2 H3 H4 H5 H6 H10 H11 H12 H13 H14]
  · isplitl [H1]; · iexact H1
    isplitl [H2]; · iexact H2
    isplitl [H3]; · iexact H3
    isplitl [H4]; · iexact H4
    isplitl [H5]; · iexact H5
    isplitl [H6]; · iexact H6
    isplitl [H10]; · iexact H10
    isplitl [H11]; · iexact H11
    isplitl [H12]; · iexact H12
    isplitl [H13]; · iexact H13
    isplitl [H14]; · iexact H14
    iexact Hr
  isplitl [Hp]; · iexact Hp
  iexists (⟨f7, f8, f9⟩ : Scr F)
  isplitr; · ipureintro; intro h; exact absurd rfl h
  isplitl [H7]; · iexact H7
  isplitl [H8]; · iexact H8
  iexact H9

/-- The invariant at the last point gives them back. -/
theorem Phi_out (c : Dev nD) :
    (dat V c).Φ (Fin.last (cfgM (F := F)).N)
      ⊢ iprop(((∃ r, prngReg c r) ∗ Pipeline.prefHeld (Ix := Unit) (Name := ℕ) (U := UR sig nD τ) (Lvl := ℕ) pre1 c (fun _ => fullShare) (tbl (F := F)))
          ∗ Pipeline.scopedRest (Ix := Unit) (Name := ℕ) (U := UR sig nD τ) (Lvl := ℕ) (Val := Elt F) spec1 c) := by
  rw [scopedRest1_eq]
  show Phi V c (cfgM (F := F)).N ⊢ _
  unfold Phi restScoped
  simp only [scrHeld_eq]
  iintro ⟨⟨H1, H2, H3, H4, H5, H6, H10, H11, H12, H13, H14, Hr⟩, Hp, ⟨%s, -, H7, H8, H9⟩⟩
  isplitl [Hr Hp]
  · isplitl [Hr]; · iexact Hr
    iexact Hp
  isplitl [H1]; · iexact H1
  isplitl [H2]; · iexact H2
  isplitl [H3]; · iexact H3
  isplitl [H4]; · iexact H4
  isplitl [H5]; · iexact H5
  isplitl [H6]; · iexact H6
  isplitl [H7]; · iexists s.m; iexact H7
  isplitl [H8]; · iexists s.l; iexact H8
  isplitl [H9]; · iexists s.acc; iexact H9
  isplitl [H10]; · iexact H10
  isplitl [H11]; · iexact H11
  isplitl [H12]; · iexact H12
  isplitl [H13]; · iexact H13
  iexact H14

end Cert.KernelIdeal.Reg1

end
-- ==== Proof.Reg1Run.lean ====
import proofs.«148066_j74620761800951_2_alg».proof.Proof.Reg1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! # The attention body at one grid point

At a grid point the body reads two words from the two tables (the point's query block and key block), resets the
three carried arrays when the key block is the first of its row, absorbs the block of scores into them, and, when
the key block is the query block (the last of the row), writes the normalised output block. This file states what
one run of the body does to the memory it is handed, for any contents of the tables and of the windows, as ONE
triple: the carried arrays go from `s` to `step qi ki xq xk xv s`, the output window to `outBlk` of that when
`ki = qi` and is left as it was otherwise, everything else is handed back unchanged. -/

/-- The two tables as the body is handed them: each whole buffer as a memref. -/
abbrev tbM0 : Memref sig .tc .smem S36 .i32 := Memref.whole main_c
abbrev tbM1 : Memref sig .tc .smem S36 .i32 := Memref.whole main_c_0

/-- A table memref's buffer contents on core `c`, and the buffer held at share `q` at contents `f`. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (q : PosShare TreeShare) (f : TbBuf (F := F) c M) : sProp 𝕄 :=
  M.view.loc (c : Thread nD τ) ↦{q} f

/-- The word of the first table (the query block) the body reads at grid coordinates `i`: entry `i 1`. -/
def wordQ (c : Dev nD) (i : grid1.Coords) (xt0 : TbBuf (F := F) c tbM0) : BitVec 32 :=
  tbM0.view.readAt (Elt F) (Rect.unit (s := S36) (k1_off1 i) S1.size (k1_off1_inb i)).toLoadRect xt0 (Shape.Idx.first (numel1_S1.symm ▸ Nat.one_pos))
/-- The word of the second table (the key block) the body reads at grid coordinates `i`: entry `i 1`. -/
def wordK (c : Dev nD) (i : grid1.Coords) (xt1 : TbBuf (F := F) c tbM1) : BitVec 32 :=
  tbM1.view.readAt (Elt F) (Rect.unit (s := S36) (k1_off1 i) S1.size (k1_off1_inb i)).toLoadRect xt1 (Shape.Idx.first (numel1_S1.symm ▸ Nat.one_pos))

/-! ## Whole-buffer loads and stores -/

theorem hz3 : (![0, 0, 0] : Fin 3 → Nat) = fun _ => 0 := funext fun a => by fin_cases a <;> rfl

section Whole
variable {κ : Kind} {sp : Space} {S : Shape} {e : EltTy}

/-- A load of the whole shape reads the contents. -/
theorem readAt_whole {off : Fin S.rank → Nat} (hz : off = fun _ => 0) (v : View sig κ sp S e)
    (inb : ∀ a, off a + S.size a ≤ S.size a) (g : v.ty.Contents (Elt F)) :
    v.readAt (Elt F) (Rect.unit off S.size inb).toLoadRect g = v.read (Elt F) g :=
  (View.readAt_eq_ld v g _).trans (View.ld_unit_zero hz inb _)

/-- After ONE store of the whole shape the contents are what was stored. -/
theorem read_store_whole {off : Fin S.rank → Nat} (hz : off = fun _ => 0) (v : View sig κ sp S e)
    (inb : ∀ a, off a + S.size a ≤ S.size a) (g : v.ty.Contents (Elt F)) (w : S.Idx → Elt F e) :
    v.read (Elt F) (v.writes (Elt F) g [(⟨Rect.unit off S.size inb, w⟩ : View.Piece (Elt F) S e)]) = w :=
  (View.read_writes_eq_canon v g _ (fun y => ⟨_, List.mem_singleton_self _, View.mem_set_unit_zero hz inb y⟩)).trans
    (View.canon_unit_zero hz inb w)

/-- After a store of the whole shape made only when `C` holds, the contents are what was stored when `C` holds and
    the old contents otherwise. -/
theorem read_ite_store_whole {off : Fin S.rank → Nat} (hz : off = fun _ => 0) (v : View sig κ sp S e)
    (inb : ∀ a, off a + S.size a ≤ S.size a) (g : v.ty.Contents (Elt F)) (w : S.Idx → Elt F e) {C : Prop} {dC : Decidable C} :
    v.read (Elt F) (@dite _ C dC (fun _ => v.writes (Elt F) g [(⟨Rect.unit off S.size inb, w⟩ : View.Piece (Elt F) S e)]) (fun _ => g))
      = @ite _ C dC w (v.read (Elt F) g) := by
  by_cases h : C
  · rw [dif_pos h, if_pos h]; exact read_store_whole hz v inb g w
  · rw [dif_neg h, if_neg h]

/-- A load of the whole shape after one store of the whole shape reads what was stored. -/
theorem readCov_whole {off : Fin S.rank → Nat} (hz : off = fun _ => 0) (v : View sig κ sp S e)
    (inb : ∀ a, off a + S.size a ≤ S.size a) (w : S.Idx → Elt F e) :
    v.readCov [(⟨Rect.unit off S.size inb, w⟩ : View.Piece (Elt F) S e)] (Rect.unit off S.size inb).toLoadRect = w :=
  View.readCov_unit_zero v hz inb w

end Whole

/-! ## The step's three fields and the output block, with the reset spelt as a choice -/

section Fields
variable {qi ki : BitVec 32} {C : Prop} {dC : Decidable C}

theorem step_m_ite (hC : C ↔ isFirst ki) (q k v : Vec F S1x256x1024 .bf16) (s : Scr F) :
    k1_pay5 (k1_pay12 qi ki q k (@ite _ C dC k1_pay7 s.m)) = (step qi ki q k v s).m := by
  by_cases h : C
  · simp only [step, start, reset, if_pos h, if_pos (hC.mp h)]
  · simp only [step, start, reset, if_neg h, if_neg (mt hC.mpr h)]

theorem step_l_ite (hC : C ↔ isFirst ki) (q k v : Vec F S1x256x1024 .bf16) (s : Scr F) :
    k1_pay3 (k1_pay11 qi ki q k) (@ite _ C dC k1_pay7 s.m) (k1_pay12 qi ki q k (@ite _ C dC k1_pay7 s.m)) (@ite _ C dC k1_pay8 s.l)
      = (step qi ki q k v s).l := by
  by_cases h : C
  · simp only [step, start, reset, if_pos h, if_pos (hC.mp h)]
  · simp only [step, start, reset, if_neg h, if_neg (mt hC.mpr h)]

theorem step_acc_ite (hC : C ↔ isFirst ki) (q k v : Vec F S1x256x1024 .bf16) (s : Scr F) :
    k1_pay4 (k1_pay10 v) (k1_pay11 qi ki q k) (@ite _ C dC k1_pay7 s.m) (k1_pay12 qi ki q k (@ite _ C dC k1_pay7 s.m)) (@ite _ C dC k1_pay9 s.acc)
      = (step qi ki q k v s).acc := by
  by_cases h : C
  · simp only [step, start, reset, if_pos h, if_pos (hC.mp h)]
  · simp only [step, start, reset, if_neg h, if_neg (mt hC.mpr h)]

theorem out_ite (hC : C ↔ isFirst ki) {C2 : Prop} {d2 : Decidable C2} (q k v xo : Vec F S1x256x1024 .bf16) (s : Scr F) :
    @ite _ C2 d2
        (k1_pay6
          (k1_pay4 (k1_pay10 v) (k1_pay11 qi ki q k) (@ite _ C dC k1_pay7 s.m) (k1_pay12 qi ki q k (@ite _ C dC k1_pay7 s.m)) (@ite _ C dC k1_pay9 s.acc))
          (k1_pay3 (k1_pay11 qi ki q k) (@ite _ C dC k1_pay7 s.m) (k1_pay12 qi ki q k (@ite _ C dC k1_pay7 s.m)) (@ite _ C dC k1_pay8 s.l)))
        xo
      = @ite _ C2 d2 (outBlk (step qi ki q k v s)) xo := by
  rw [step_acc_ite hC q k v s, step_l_ite hC q k v s]; rfl

end Fields

/-! ## The body's triple -/

set_option maxHeartbeats 1000000 in
/-- The body at grid coordinates `i`, on whole staging memrefs holding a query block `xq`, a key block `xk`, a value
    block `xv` and an output window at `xo`, the tables held at any shares at contents `xt0`, `xt1`, the carried arrays
    at `s`: it runs to the continuation with the three input windows and the tables as they were, the carried arrays at
    `step qi ki xq xk xv s` (`qi`, `ki` the two words read), and the output window at `outBlk` of that when the key block
    is the query block, untouched otherwise. -/
theorem sound_kernel (c : Dev nD) (E : Set ℕ) (i : grid1.Coords)
    (arg4 arg5 arg6 arg7 : Memref sig .tc .vmem S1x256x1024 .bf16) (harg4 : arg4.IsWhole) (harg5 : arg5.IsWhole) (harg6 : arg6.IsWhole) (harg7 : arg7.IsWhole)
    (xq xk xv xo : Vec F S1x256x1024 .bf16) (q0 q1 : PosShare TreeShare) (xt0 : TbBuf (F := F) c tbM0) (xt1 : TbBuf (F := F) c tbM1) (s : Scr F)
    (K : PUnit → sProp 𝕄) :
    iprop(owns (c : Thread nD τ) arg4 fullShare xq ∗ owns (c : Thread nD τ) arg5 fullShare xk ∗ owns (c : Thread nD τ) arg6 fullShare xv
        ∗ owns (c : Thread nD τ) arg7 fullShare xo
        ∗ tbPt c tbM0 q0 xt0 ∗ tbPt c tbM1 q1 xt1 ∗ scrHeld c s
        ∗ (iprop(owns (c : Thread nD τ) arg4 fullShare xq ∗ owns (c : Thread nD τ) arg5 fullShare xk ∗ owns (c : Thread nD τ) arg6 fullShare xv
            ∗ owns (c : Thread nD τ) arg7 fullShare (if k1_cond2 (wordQ c i xt0) (wordK c i xt1) = 1#1 then outBlk (step (wordQ c i xt0) (wordK c i xt1) xq xk xv s) else xo)
            ∗ tbPt c tbM0 q0 xt0 ∗ tbPt c tbM1 q1 xt1 ∗ scrHeld c (step (wordQ c i xt0) (wordK c i xt1) xq xk xv s)) -∗ K ⟨⟩))
      ⊢ wp frame (wpE (defs₀ (F := F)) Variants.none c none) E (cc1__attn_kernel i (Memref.whole main_c) (Memref.isWhole_whole _) (Memref.whole main_c_0) (Memref.isWhole_whole _) arg4 harg4 arg5 harg5 arg6 harg6 arg7 harg7 (Memref.whole cc1_scratch0) (Memref.isWhole_whole _) (Memref.whole cc1_scratch1) (Memref.isWhole_whole _) (Memref.whole cc1_scratch2) (Memref.isWhole_whole _)) K := by
  simp only [cc1__attn_kernel_eq_skeleton]; unfold cc1__attn_kernel_skel
  simp only [k1_part1_eq_skeleton]; unfold k1_part1_skel
  unfold scrHeld owns
  iintro ⟨⟨%f4, %hf4, H4⟩, ⟨%f5, %hf5, H5⟩, ⟨%f6, %hf6, H6⟩, ⟨%f7, %hf7, H7⟩, HT0, HT1, ⟨⟨%f8, %hf8, H8⟩, ⟨%f9, %hf9, H9⟩, ⟨%f10, %hf10, H10⟩⟩, Hk⟩
  obtain rfl := harg4.eq_unread hf4; obtain rfl := harg5.eq_unread hf5; obtain rfl := harg6.eq_unread hf6; obtain rfl := harg7.eq_unread hf7
  sl_exec
  sl_step
  sl_unfold_words
  iapply Hk
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr
    swap; · iexact H7
    ipureintro
    simp only [readAt_whole (S := S1x256x1024) hz3, readAt_whole (S := S16x256x1) hz3, readAt_whole (S := S16x256x64) hz3,
      read_ite_store_whole (S := S1x256x1024) hz3, read_ite_store_whole (S := S16x256x1) hz3, read_ite_store_whole (S := S16x256x64) hz3,
      readCov_whole (S := S16x256x1) hz3, readCov_whole (S := S16x256x64) hz3, hf4, hf5, hf6, hf7, hf8, hf9, hf10]
    exact out_ite Iff.rfl _ _ _ _ _
  isplitl [HT0]; · iexact HT0
  isplitl [HT1]; · iexact HT1
  isplitl [H8]
  · iexists _; isplitr
    swap; · iexact H8
    ipureintro
    refine (read_store_whole (S := S16x256x1) hz3 _ _ _ _).trans ?_
    simp only [readAt_whole (S := S1x256x1024) hz3, readAt_whole (S := S16x256x1) hz3,
      read_ite_store_whole (S := S16x256x1) hz3, hf4, hf5, hf8]
    exact step_m_ite Iff.rfl _ _ _ _
  isplitl [H9]
  · iexists _; isplitr
    swap; · iexact H9
    ipureintro
    refine (read_store_whole (S := S16x256x1) hz3 _ _ _ _).trans ?_
    simp only [readAt_whole (S := S1x256x1024) hz3, readAt_whole (S := S16x256x1) hz3,
      read_ite_store_whole (S := S16x256x1) hz3, hf4, hf5, hf8, hf9]
    exact step_l_ite Iff.rfl _ _ _ _
  · iexists _; isplitr
    swap; · iexact H10
    ipureintro
    refine (read_store_whole (S := S16x256x64) hz3 _ _ _ _).trans ?_
    simp only [readAt_whole (S := S1x256x1024) hz3, readAt_whole (S := S16x256x1) hz3, readAt_whole (S := S16x256x64) hz3,
      read_ite_store_whole (S := S16x256x1) hz3, read_ite_store_whole (S := S16x256x64) hz3, hf4, hf5, hf6, hf8, hf10]
    exact step_acc_ite Iff.rfl _ _ _ _

end Cert.KernelIdeal.Reg1

end
-- ==== Proof.Reg1Body.lean ====
import proofs.«148066_j74620761800951_2_alg».proof.Proof.Reg1
import proofs.«148066_j74620761800951_2_alg».proof.Proof.Reg1Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The staging memrefs and the body at a point -/

/-- The current staging memref of each window at point `t`. -/
abbrev st_0 (t : Fin (cfgM (F := F)).N) : Memref sig .tc .vmem S1x256x1024 .bf16 := spec1_0.stage ((cfgM (F := F)).slots t 0)
abbrev st_1 (t : Fin (cfgM (F := F)).N) : Memref sig .tc .vmem S1x256x1024 .bf16 := spec1_1.stage ((cfgM (F := F)).slots t 1)
abbrev st_2 (t : Fin (cfgM (F := F)).N) : Memref sig .tc .vmem S1x256x1024 .bf16 := spec1_2.stage ((cfgM (F := F)).slots t 2)
abbrev st_3 (t : Fin (cfgM (F := F)).N) : Memref sig .tc .vmem S1x256x1024 .bf16 := spec1_3.stage ((cfgM (F := F)).slots t 3)
abbrev hst_0 (t : Fin (cfgM (F := F)).N) : (st_0 (F := F) t).IsWhole := hstage1_0 (((cfgM (F := F)).slots t 0).cast nbuf1_0)
abbrev hst_1 (t : Fin (cfgM (F := F)).N) : (st_1 (F := F) t).IsWhole := hstage1_1 (((cfgM (F := F)).slots t 1).cast nbuf1_1)
abbrev hst_2 (t : Fin (cfgM (F := F)).N) : (st_2 (F := F) t).IsWhole := hstage1_2 (((cfgM (F := F)).slots t 2).cast nbuf1_2)
abbrev hst_3 (t : Fin (cfgM (F := F)).N) : (st_3 (F := F) t).IsWhole := hstage1_3 (((cfgM (F := F)).slots t 3).cast nbuf1_3)

/-- The kernel body at point `t`, on what the pipeline calls it with. -/
abbrev bodyAt (t : Fin (cfgM (F := F)).N) : Prog (TpuEff nD τ sig (Elt F) Λ₀ .tc) PUnit :=
  cc1__attn_kernel (grid1.coords t) (Memref.whole main_c) (Memref.isWhole_whole _) (Memref.whole main_c_0) (Memref.isWhole_whole _)
    (spec1_0.stage ((cfgM (F := F)).slots t 0)) (hstage1_0 (((cfgM (F := F)).slots t 0).cast nbuf1_0))
    (spec1_1.stage ((cfgM (F := F)).slots t 1)) (hstage1_1 (((cfgM (F := F)).slots t 1).cast nbuf1_1))
    (spec1_2.stage ((cfgM (F := F)).slots t 2)) (hstage1_2 (((cfgM (F := F)).slots t 2).cast nbuf1_2))
    (spec1_3.stage ((cfgM (F := F)).slots t 3)) (hstage1_3 (((cfgM (F := F)).slots t 3).cast nbuf1_3))
    (Memref.whole cc1_scratch0) (Memref.isWhole_whole _) (Memref.whole cc1_scratch1) (Memref.isWhole_whole _)
    (Memref.whole cc1_scratch2) (Memref.isWhole_whole _)

theorem bodyAt_eq (t : Fin (cfgM (F := F)).N) :
    (defs₀ (F := F)) .tc (cfgM (F := F)).body ((cfgM (F := F)).bodyArgs t ((cfgM (F := F)).slots t)) = bodyAt (F := F) t := rfl

/-! ## The input windows hold their blocks -/

theorem after_0 (c : Dev nD) (t : Fin (cfgM (F := F)).N) : (dat V c).after 0 t = iblk V c 0 t := by dsimp only [dat]; rfl
theorem after_1 (c : Dev nD) (t : Fin (cfgM (F := F)).N) : (dat V c).after 1 t = iblk V c 1 t := by dsimp only [dat]; rfl
theorem after_2 (c : Dev nD) (t : Fin (cfgM (F := F)).N) : (dat V c).after 2 t = iblk V c 2 t := by dsimp only [dat]; rfl
theorem after_3 (c : Dev nD) (t : Fin (cfgM (F := F)).N) : (dat V c).after 3 t = outBlk (scrAt V c (t.val + 1)) := by dsimp only [dat]; rfl

theorem before_0 (c : Dev nD) (t : Fin (cfgM (F := F)).N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin (cfgM (F := F)).N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin (cfgM (F := F)).N) (d) : (dat V c).before 2 t d = iblk V c 2 t :=
  ((dat V c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)

/-! ## The invariant at a point -/

/-- The two tables, held whole, one by one. -/
theorem prefHeld_eq (c : Dev nD) :
    (Pipeline.prefHeld (Ix := Unit) (Name := ℕ) (U := UR sig nD τ) (Lvl := ℕ) pre1 c (fun _ => fullShare) (tbl (F := F)) : sProp 𝕄)
      = iprop((((c : Thread nD τ).loc main_c) ↦{fullShare} (tbl (F := F) 0)) ∗ (((c : Thread nD τ).loc main_c_0) ↦{fullShare} (tbl (F := F) 1))) := by
  unfold Pipeline.prefHeld
  rw [show (Finset.univ : Finset (Fin 2)) = insert (0 : Fin 2) {(1 : Fin 2)} from by decide,
    bigSep_insert (by decide), bigSep_singleton]
  rfl

theorem Phi_castSucc (c : Dev nD) (t : Fin (cfgM (F := F)).N) : (dat V c).Φ t.castSucc = Phi V c t.val := by
  dsimp only [dat]; simp only [Fin.coe_castSucc]
theorem Phi_succ (c : Dev nD) (t : Fin (cfgM (F := F)).N) : (dat V c).Φ t.succ = Phi V c (t.val + 1) := by
  dsimp only [dat]; simp only [Fin.val_succ]

/-- The trajectory one point on. -/
theorem scrAt_succ (c : Dev nD) (t : Fin (cfgM (F := F)).N) :
    scrAt V c (t.val + 1) = step (qiW t) (kiW t) (iblk V c 0 t) (iblk V c 1 t) (iblk V c 2 t) (scrAt V c t.val) := by
  rw [scrAt, dif_pos t.isLt]

/-- The carried arrays after point `t`, from any contents before it that are the trajectory's unless `t` is the first point. -/
theorem step_eq_scrAt (c : Dev nD) (t : Fin (cfgM (F := F)).N) (s : Scr F) (hs : t.val ≠ 0 → s = scrAt V c t.val) :
    step (qiW t) (kiW t) (iblk V c 0 t) (iblk V c 1 t) (iblk V c 2 t) s = scrAt V c (t.val + 1) := by
  rw [scrAt_succ]
  by_cases h0 : t.val = 0
  · have hk : isFirst (kiW t) := by
      show isFirst (kiN t.val); rw [h0]; exact first_zero
    exact step_of_first hk _ _ _ _ _
  · rw [hs h0]

/-! ## What the obligation asks of each window's buffer after the body -/

theorem live_0 (t : Fin (cfgM (F := F)).N) : (cfgM (F := F)).idle 0 ((cfgM (F := F)).grid.coords t) = false := rfl
theorem live_1 (t : Fin (cfgM (F := F)).N) : (cfgM (F := F)).idle 1 ((cfgM (F := F)).grid.coords t) = false := rfl
theorem live_2 (t : Fin (cfgM (F := F)).N) : (cfgM (F := F)).idle 2 ((cfgM (F := F)).grid.coords t) = false := rfl

theorem leaves_0 (c : Dev nD) (t : Fin (cfgM (F := F)).N) :
    (dat V c).leavesExact 0 t = owns (c : Thread nD τ) (st_0 (F := F) t) fullShare (iblk V c 0 t) := by
  unfold Dat.leavesExact; rw [live_0 t, after_0]; rfl
theorem leaves_1 (c : Dev nD) (t : Fin (cfgM (F := F)).N) :
    (dat V c).leavesExact 1 t = owns (c : Thread nD τ) (st_1 (F := F) t) fullShare (iblk V c 1 t) := by
  unfold Dat.leavesExact; rw [live_1 t, after_1]; rfl
theorem leaves_2 (c : Dev nD) (t : Fin (cfgM (F := F)).N) :
    (dat V c).leavesExact 2 t = owns (c : Thread nD τ) (st_2 (F := F) t) fullShare (iblk V c 2 t) := by
  unfold Dat.leavesExact; rw [live_2 t, after_2]; rfl

/-- At a point whose key block is its query block the output window is stored: the obligation asks the output block. -/
theorem leaves_3_live (c : Dev nD) (t : Fin (cfgM (F := F)).N) (hc : k1_cond2 (qiW t) (kiW t) = 1#1) :
    (dat V c).leavesExact 3 t = owns (c : Thread nD τ) (st_3 (F := F) t) fullShare (outBlk (scrAt V c (t.val + 1))) := by
  have hi : (cfgM (F := F)).idle 3 ((cfgM (F := F)).grid.coords t) = false := by rw [idle_3 t, hc]; rfl
  unfold Dat.leavesExact; rw [hi, after_3]; rfl

/-- At the other points the output window is idle and not written back: the obligation asks the buffer as it was found. -/
theorem leaves_3_idle (c : Dev nD) (t : Fin (cfgM (F := F)).N) (hc : ¬ k1_cond2 (qiW t) (kiW t) = 1#1) :
    (dat V c).leavesExact 3 t = iprop(∃ d, owns (c : Thread nD τ) (st_3 (F := F) t) fullShare ((dat V c).before 3 t d)) := by
  have hi : (cfgM (F := F)).idle 3 ((cfgM (F := F)).grid.coords t) = true := by
    rw [idle_3 t]; simp only [Bool.not_eq_true', beq_eq_false_iff_ne, ne_eq]; exact hc
  have hf : ((cfgM (F := F)).win 3).flush t = false := Bool.eq_false_iff.mpr fun h => hc ((flush_3 t).mp h)
  exact Dat.leavesExact_idle (dat V c) 3 t hi hf

/-! ## The words the body reads off the tables -/

/-- The word the body loads from the first table at point `t` is the point's query block, -/
theorem wordQ_tbl (c : Dev nD) (t : Fin (cfgM (F := F)).N) : wordQ (F := F) c (grid1.coords t) (tbl (F := F) 0) = qiW t :=
  (rfl : wordQ (F := F) c (grid1.coords t) (tbl (F := F) 0)
    = (tbl (F := F)).at 0 (Rect.unit (s := S36) (k1_off1 (grid1.coords t)) S1.size (k1_off1_inb (grid1.coords t))) numel1_S1).trans (word0_eq t)
/-- and the one from the second its key block. -/
theorem wordK_tbl (c : Dev nD) (t : Fin (cfgM (F := F)).N) : wordK (F := F) c (grid1.coords t) (tbl (F := F) 1) = kiW t :=
  (rfl : wordK (F := F) c (grid1.coords t) (tbl (F := F) 1)
    = (tbl (F := F)).at 1 (Rect.unit (s := S36) (k1_off1 (grid1.coords t)) S1.size (k1_off1_inb (grid1.coords t))) numel1_S1).trans (word1_eq t)

/-! ## The kernel's run at a point of the trajectory -/

/-- At a storing point: from the blocks, the tables and the carried arrays at `s` (the trajectory's value unless the
    point is the first), the body leaves the carried arrays at the trajectory's next value and the output buffer at its
    output block. -/
theorem run_live (c : Dev nD) (t : Fin (cfgM (F := F)).N) (s : Scr F) (hs : t.val ≠ 0 → s = scrAt V c t.val)
    (hc : k1_cond2 (qiW t) (kiW t) = 1#1) (xo : Vec F S1x256x1024 .bf16) (K : PUnit → sProp 𝕄) :
    iprop(owns (c : Thread nD τ) (st_0 (F := F) t) fullShare (iblk V c 0 t) ∗ owns (c : Thread nD τ) (st_1 (F := F) t) fullShare (iblk V c 1 t)
        ∗ owns (c : Thread nD τ) (st_2 (F := F) t) fullShare (iblk V c 2 t) ∗ owns (c : Thread nD τ) (st_3 (F := F) t) fullShare xo
        ∗ (((c : Thread nD τ).loc main_c) ↦{fullShare} (tbl (F := F) 0)) ∗ (((c : Thread nD τ).loc main_c_0) ↦{fullShare} (tbl (F := F) 1))
        ∗ scrHeld c s
        ∗ (iprop(owns (c : Thread nD τ) (st_0 (F := F) t) fullShare (iblk V c 0 t) ∗ owns (c : Thread nD τ) (st_1 (F := F) t) fullShare (iblk V c 1 t)
            ∗ owns (c : Thread nD τ) (st_2 (F := F) t) fullShare (iblk V c 2 t)
            ∗ owns (c : Thread nD τ) (st_3 (F := F) t) fullShare (outBlk (scrAt V c (t.val + 1)))
            ∗ (((c : Thread nD τ).loc main_c) ↦{fullShare} (tbl (F := F) 0)) ∗ (((c : Thread nD τ).loc main_c_0) ↦{fullShare} (tbl (F := F) 1))
            ∗ scrHeld c (scrAt V c (t.val + 1))) -∗ K ⟨⟩))
      ⊢ wp frame (wpE (defs₀ (F := F)) Variants.none c none) Set.univ (bodyAt (F := F) t) K := by
  have h := sound_kernel (F := F) (c := c) (E := Set.univ) (i := grid1.coords t) (arg4 := st_0 (F := F) t) (arg5 := st_1 (F := F) t)
    (arg6 := st_2 (F := F) t) (arg7 := st_3 (F := F) t) (harg4 := hst_0 t) (harg5 := hst_1 t) (harg6 := hst_2 t) (harg7 := hst_3 t)
    (xq := iblk V c 0 t) (xk := iblk V c 1 t) (xv := iblk V c 2 t) (xo := xo) (q0 := fullShare) (q1 := fullShare)
    (xt0 := tbl (F := F) 0) (xt1 := tbl (F := F) 1) (s := s) (K := K)
  rw [wordQ_tbl c t, wordK_tbl c t, if_pos hc, step_eq_scrAt V c t s hs] at h
  exact h

/-- At the other points: the same, the output buffer left as found. -/
theorem run_idle (c : Dev nD) (t : Fin (cfgM (F := F)).N) (s : Scr F) (hs : t.val ≠ 0 → s = scrAt V c t.val)
    (hc : ¬ k1_cond2 (qiW t) (kiW t) = 1#1) (xo : Vec F S1x256x1024 .bf16) (K : PUnit → sProp 𝕄) :
    iprop(owns (c : Thread nD τ) (st_0 (F := F) t) fullShare (iblk V c 0 t) ∗ owns (c : Thread nD τ) (st_1 (F := F) t) fullShare (iblk V c 1 t)
        ∗ owns (c : Thread nD τ) (st_2 (F := F) t) fullShare (iblk V c 2 t) ∗ owns (c : Thread nD τ) (st_3 (F := F) t) fullShare xo
        ∗ (((c : Thread nD τ).loc main_c) ↦{fullShare} (tbl (F := F) 0)) ∗ (((c : Thread nD τ).loc main_c_0) ↦{fullShare} (tbl (F := F) 1))
        ∗ scrHeld c s
        ∗ (iprop(owns (c : Thread nD τ) (st_0 (F := F) t) fullShare (iblk V c 0 t) ∗ owns (c : Thread nD τ) (st_1 (F := F) t) fullShare (iblk V c 1 t)
            ∗ owns (c : Thread nD τ) (st_2 (F := F) t) fullShare (iblk V c 2 t)
            ∗ owns (c : Thread nD τ) (st_3 (F := F) t) fullShare xo
            ∗ (((c : Thread nD τ).loc main_c) ↦{fullShare} (tbl (F := F) 0)) ∗ (((c : Thread nD τ).loc main_c_0) ↦{fullShare} (tbl (F := F) 1))
            ∗ scrHeld c (scrAt V c (t.val + 1))) -∗ K ⟨⟩))
      ⊢ wp frame (wpE (defs₀ (F := F)) Variants.none c none) Set.univ (bodyAt (F := F) t) K := by
  have h := sound_kernel (F := F) (c := c) (E := Set.univ) (i := grid1.coords t) (arg4 := st_0 (F := F) t) (arg5 := st_1 (F := F) t)
    (arg6 := st_2 (F := F) t) (arg7 := st_3 (F := F) t) (harg4 := hst_0 t) (harg5 := hst_1 t) (harg6 := hst_2 t) (harg7 := hst_3 t)
    (xq := iblk V c 0 t) (xk := iblk V c 1 t) (xv := iblk V c 2 t) (xo := xo) (q0 := fullShare) (q1 := fullShare)
    (xt0 := tbl (F := F) 0) (xt1 := tbl (F := F) 1) (s := s) (K := K)
  rw [wordQ_tbl c t, wordK_tbl c t, if_neg hc, step_eq_scrAt V c t s hs] at h
  exact h

/-! ## The body obligation, at a generic point -/

/-- What the body is called with at point `t`, the windows one by one, -/
def bodyPre (c : Dev nD) (t : Fin (cfgM (F := F)).N) : sProp 𝕄 :=
  iprop((dat V c).Φ t.castSucc ∗ (dat V c).owesAt () t.castSucc
    ∗ (∃ d, owns (c : Thread nD τ) (st_0 (F := F) t) fullShare ((dat V c).before 0 t d))
    ∗ (∃ d, owns (c : Thread nD τ) (st_1 (F := F) t) fullShare ((dat V c).before 1 t d))
    ∗ (∃ d, owns (c : Thread nD τ) (st_2 (F := F) t) fullShare ((dat V c).before 2 t d))
    ∗ (∃ d, owns (c : Thread nD τ) (st_3 (F := F) t) fullShare ((dat V c).before 3 t d)))

/-- and what it returns. -/
def bodyPost (c : Dev nD) (t : Fin (cfgM (F := F)).N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

/-- The body at any point: the three input windows hold their blocks; the invariant hands the body the tables and the
    carried arrays at the trajectory's value (at anything at the first point, whose key block is a first one) and takes the
    carried arrays back at the next value; the output window is stored where the key block is the query block and is
    handed back as found elsewhere; the rest of the invariant and the core's debts pass through unread. -/
theorem sound_body (c : Dev nD) (t : Fin (cfgM (F := F)).N) :
    bodyPre V c t ⊢ wp frame (wpE (defs₀ (F := F)) Variants.none c none) Set.univ (bodyAt (F := F) t) (fun _ => bodyPost V c t) := by
  unfold bodyPre bodyPost
  simp only [before_0, before_1, before_2]
  rw [show (dat V c).owesAt () t.succ = (dat V c).owesAt () t.castSucc from rfl, Phi_castSucc, Phi_succ,
    leaves_0, leaves_1, leaves_2]
  unfold Phi
  rw [prefHeld_eq]
  by_cases hc : k1_cond2 (qiW t) (kiW t) = 1#1
  · rw [leaves_3_live V c t hc]
    iintro ⟨⟨HR, ⟨HT0, HT1⟩, ⟨%s, %hs, HS⟩⟩, Ho, ⟨%d0, H0⟩, ⟨%d1, H1⟩, ⟨%d2, H2⟩, ⟨%d3, H3⟩⟩
    iapply (run_live V c t s hs hc _ _)
    isplitl [H0]; · iexact H0
    isplitl [H1]; · iexact H1
    isplitl [H2]; · iexact H2
    isplitl [H3]; · iexact H3
    isplitl [HT0]; · iexact HT0
    isplitl [HT1]; · iexact HT1
    isplitl [HS]; · iexact HS
    iintro ⟨H0, H1, H2, H3, HT0, HT1, HS⟩
    isplitl [HR HT0 HT1 HS]
    · isplitl [HR]; · iexact HR
      isplitl [HT0 HT1]
      · isplitl [HT0]; · iexact HT0
        iexact HT1
      iexists (scrAt V c (t.val + 1))
      isplitr; · ipureintro; intro _; rfl
      iexact HS
    isplitl [Ho]; · iexact Ho
    isplitl [H0]; · iexact H0
    isplitl [H1]; · iexact H1
    isplitl [H2]; · iexact H2
    iexact H3
  · rw [leaves_3_idle V c t hc]
    iintro ⟨⟨HR, ⟨HT0, HT1⟩, ⟨%s, %hs, HS⟩⟩, Ho, ⟨%d0, H0⟩, ⟨%d1, H1⟩, ⟨%d2, H2⟩, ⟨%d3, H3⟩⟩
    iapply (run_idle V c t s hs hc _ _)
    isplitl [H0]; · iexact H0
    isplitl [H1]; · iexact H1
    isplitl [H2]; · iexact H2
    isplitl [H3]; · iexact H3
    isplitl [HT0]; · iexact HT0
    isplitl [HT1]; · iexact HT1
    isplitl [HS]; · iexact HS
    iintro ⟨H0, H1, H2, H3, HT0, HT1, HS⟩
    isplitl [HR HT0 HT1 HS]
    · isplitl [HR]; · iexact HR
      isplitl [HT0 HT1]
      · isplitl [HT0]; · iexact HT0
        iexact HT1
      iexists (scrAt V c (t.val + 1))
      isplitr; · ipureintro; intro _; rfl
      iexact HS
    isplitl [Ho]; · iexact Ho
    isplitl [H0]; · iexact H0
    isplitl [H1]; · iexact H1
    isplitl [H2]; · iexact H2
    iexists d3; iexact H3

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Reg1

end
-- ==== Proof.Run.lean ====
import proofs.«148066_j74620761800951_2_alg».proof.Proof.RunVals
import proofs.«148066_j74620761800951_2_alg».proof.Proof.RunW4
import proofs.«148066_j74620761800951_2_alg».proof.Proof.RunReg1
import proofs.«148066_j74620761800951_2_alg».proof.Proof.Reg1Inv
import proofs.«148066_j74620761800951_2_alg».proof.Proof.Reg1Body
import proofs.«148066_j74620761800951_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-! # The program's run, segment by segment, and what its last contents hold -/

/-! ## The two matmul calls' exit contents -/

theorem W2_arr (c : Dev nD) (w : Fin cfg0.W) :
    W2 m c (Proc.devRef .tc (Pipeline.arrRef spec0 w)) = (Reg0.dat (V1 m) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- At the call's exit each of its arrays holds what the pipeline leaves and every other buffer what it held at entry. -/
theorem hF0 (c : Dev nD) (w : Fin cfg0.W) : (Reg0.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W6_arr (c : Dev nD) (w : Fin cfg2.W) :
    W6 m c (Proc.devRef .tc (Pipeline.arrRef spec2 w)) = (Reg2.dat (V5 m) c).arrAt w cfg2.N := by
  unfold W6; exact Pipeline.withArrays_arr spec2 (launch2 (F := F)).win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- At the call's exit each of its arrays holds what the pipeline leaves and every other buffer what it held at entry. -/
theorem hF2 (c : Dev nD) (w : Fin cfg2.W) : (Reg2.dat (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## The regions as segments -/

set_option backward.isDefEq.respectTransparency.types false in
/-- The projection call over the thread state: entered from every unscoped buffer at `W1`, left at
    `W2`. Its arrays split out of the unscoped buffers and put back at the exit contents; the random-number
    register into the invariant and out; nothing owed; no semaphore of the kernel's own. -/
def reg0 : Pipeline.RegionSeg (pcfgs (F := F)) adm (pdats m) () defs₀ Variants.none L lv 0 where
  win := (launch0 (F := F)).win.to₀
  block_pos := (launch0 (F := F)).block_pos
  stage_whole := (launch0 (F := F)).stage_whole
  K := PEmpty
  osem k := k.elim
  ho := Pipeline.OwnSemFacts.none _
  hbody c := (Reg0.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) (launch0 (F := F)).win (launch0 (F := F)).arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      (launch0 (F := F)).win (launch0 (F := F)).arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call over the thread state: entered from every unscoped buffer at `W3`, left at `W4`. The
    random-number register and the two tables enter the invariant and come back; the buffers that are neither an
    array of the call nor a table bypass it; nothing owed; no semaphore of the kernel's own. -/
def reg1 : Pipeline.RegionSeg (pcfgs (F := F)) adm (pdats m) () defs₀ Variants.none L lv 1 where
  win := winFacts₀1
  block_pos := block_pos1
  stage_whole := stage_whole1
  K := PEmpty
  osem k := k.elim
  ho := Pipeline.OwnSemFacts.none _
  hbody c := (Reg1.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop((∃ r, prngReg c r) ∗ Pipeline.prefHeld (Ix := Unit) (Name := ℕ) (U := UR sig nD τ) (Lvl := ℕ) pre1 c (fun _ => fullShare) (Reg1.tbl (F := F)))
  Z c := Pipeline.unscopedRestP (Ix := Unit) (Name := ℕ) (U := UR sig nD τ) (Lvl := ℕ) pre1 spec1 c (V3 m c)
  hentry c := entry1 m c
  hin c := Reg1.Phi_in (V3 m) c
  hout c := by
    rw [Pipeline.ownSems0_none]
    refine (Reg1.Phi_out (V3 m) c).trans ?_
    iintro ⟨HY, Hs⟩
    isplitl [HY]; · iexact HY
    isplitr; · iempintro
    iexact Hs
  hexit c := exit1 m c

set_option backward.isDefEq.respectTransparency.types false in
/-- The output-projection call over the thread state: entered from every unscoped buffer at `W5`, left at
    `W6`. Its arrays split out of the unscoped buffers and put back at the exit contents; the random-number
    register into the invariant and out; nothing owed; no semaphore of the kernel's own. -/
def reg2 : Pipeline.RegionSeg (pcfgs (F := F)) adm (pdats m) () defs₀ Variants.none L lv 2 where
  win := (launch2 (F := F)).win.to₀
  block_pos := (launch2 (F := F)).block_pos
  stage_whole := (launch2 (F := F)).stage_whole
  K := PEmpty
  osem k := k.elim
  ho := Pipeline.OwnSemFacts.none _
  hbody c := (Reg2.body_obligation (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) (launch2 (F := F)).win (launch2 (F := F)).arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      (launch2 (F := F)).win (launch2 (F := F)).arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The host stretches as segments -/

/-- A host stretch as a segment over the unscoped references from the contents `W`, `R` riding along: it ends at
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every unscoped buffer at the last boundary's contents, the
    random-number register at some state. -/
abbrev Tₙ (c : Dev nD) : sProp 𝕄 := iprop(StableHlo.held (c : Thread nD τ) (Pipeline.ucRefs τ sig) (W7 m c) ∗ ∃ r, prngReg c r)

/-! ## The program as segments, and the launch -/

/-- The program's seven segments in order: a host segment per stretch from its boundary's contents, a region per call. -/
abbrev segs : List (Pipeline.Seg (pcfgs (F := F)) adm (pdats m) () defs₀ Variants.none L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

/-- The program IS the run of the segments. -/
theorem main_run (c : Dev nD) : main (F := F) c = Pipeline.Seg.run (segs m) :=
  main_segs adm (pdats m) () Variants.none L lv _ _ _ _ (reg0 m) (reg1 m) (reg2 m) rfl rfl rfl rfl c

set_option backward.isDefEq.respectTransparency.types false in
/-- THE RUN. From any memory with zero counters, every weakly fair execution of the program on the TensorCores
    terminates, nothing faulting, and in every final state each core's unscoped buffers hold the last boundary's
    contents `W7`. -/
theorem run (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W7 m c b) :=
  Pipeline.θ_run_regions_kit (pcfgs (F := F)) adm (pdats m) () (cellOf_inj adm) emb₁ defs₀ Variants.none L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) (cellOf_inj adm)) (Pipeline.launchToks (Pipeline.pin (pcfgs (F := F)) adm) (cellOf_inj adm)))
    (hu₀ := by
      iintro Hu; imodintro
      isplitl [Hu]
      · iapply (show (ownU (initOf (Pipeline.cells (Pipeline.pin (pcfgs (F := F)) adm) (cellOf_inj adm)) (Pipeline.launchToks (Pipeline.pin (pcfgs (F := F)) adm) (cellOf_inj adm))) : sProp 𝕄)
            ⊢ BI.own (emb₁ (initOf (Pipeline.cells (Pipeline.pin (pcfgs (F := F)) adm) (cellOf_inj adm)) (Pipeline.launchToks (Pipeline.pin (pcfgs (F := F)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-! ## What the last contents hold

The arguments end as launched: no host stretch writes one, and no call has one for an array. The result buffer is
the last reshape of what the output-projection call leaves in its output's array. -/

theorem W7_of (c : Dev nD) (r : Ref sig .tc) (h : r ∉ hostOps3_W) : W7 m c (Proc.devRef .tc r) = W6 m c (Proc.devRef .tc r) :=
  StableHlo.after_of_writes_sub hostOps3 _ hostOps3_writes h
theorem W5_of (c : Dev nD) (r : Ref sig .tc) (h : r ∉ hostOps2_W) : W5 m c (Proc.devRef .tc r) = W4 m c (Proc.devRef .tc r) :=
  StableHlo.after_of_writes_sub hostOps2 _ hostOps2_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W1_of (c : Dev nD) (r : Ref sig .tc) (h : r ∉ hostOps0_W) : W1 m c (Proc.devRef .tc r) = W0 m c (Proc.devRef .tc r) :=
  StableHlo.after_of_writes_sub hostOps0 _ hostOps0_writes h

/-- A buffer no host stretch writes and no call has for an array ends as launched. -/
theorem W7_of_untouched (c : Dev nD) (r : Ref sig .tc) (h3 : r ∉ hostOps3_W) (h2 : r ∉ hostOps2_W) (h1 : r ∉ hostOps1_W)
    (h0 : r ∉ hostOps0_W) (ha0 : ∀ w, Pipeline.arrRef spec0 w ≠ r) (ha1 : ∀ w, Pipeline.arrRef spec1 w ≠ r)
    (ha2 : ∀ w, Pipeline.arrRef spec2 w ≠ r) :
    W7 m c (Proc.devRef .tc r) = m ((c : Thread nD τ).loc r) :=
  (W7_of m c r h3).trans <| (W6_of_ne m c r ha2).trans <| (W5_of m c r h2).trans <| (W4_of_ne m c r ha1).trans <|
    (W3_of m c r h1).trans <| (W2_of_ne m c r ha0).trans <| (W1_of m c r h0).trans rfl

theorem W7_main_arg0 (c : Dev nD) : W7 m c (Proc.devRef .tc main_arg0) = m ((c : Thread nD τ).loc main_arg0) :=
  W7_of_untouched m c main_arg0 (by decide) (by decide) (by decide) (by decide) (by decide) (by decide) (by decide)
theorem W7_main_arg1 (c : Dev nD) : W7 m c (Proc.devRef .tc main_arg1) = m ((c : Thread nD τ).loc main_arg1) :=
  W7_of_untouched m c main_arg1 (by decide) (by decide) (by decide) (by decide) (by decide) (by decide) (by decide)
theorem W7_main_arg2 (c : Dev nD) : W7 m c (Proc.devRef .tc main_arg2) = m ((c : Thread nD τ).loc main_arg2) :=
  W7_of_untouched m c main_arg2 (by decide) (by decide) (by decide) (by decide) (by decide) (by decide) (by decide)

/-- The output-projection call's output array ends at what its pipeline leaves in it. -/
theorem W6_main_v10 (c : Dev nD) :
    W6 m c (Proc.devRef .tc main_v10) = (Reg2.dat (V5 m) c).arrAt 2 cfg2.N :=
  W6_arr m c 2

/-- The result buffer is that array, reshaped. -/
theorem W7_main_v11 (c : Dev nD) :
    W7 m c (Proc.devRef .tc main_v11)
      = fun i => shapeCast S2x2048x1024 (W6 m c (Proc.devRef .tc main_v10)) shapeCasts_S4096x1024_S2x2048x1024 i := by
  show StableHlo.after hostOps3 (W6 m c) (Proc.devRef .tc main_v11) = _
  after_results
  rfl

end Cert.KernelIdeal.Run

end
-- ==== Proof.K.Reg0.lean ====
import proofs.«148066_j74620761800951_2_alg».proof.Proof.Gen.Kernel.Launch
import proofs.«148066_j74620761800951_2_alg».proof.Proof.Gen.Kernel.Skeleton
import proofs.«148066_j74620761800951_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: the first whole-K matrix product, as a pipeline body

The region multiplies a 4096×1024 array by a 1024×3072 array in 1024×1024 blocks over a 4×3 grid of
points. At a point the body reads the left operand's block and the right operand's block whole,
forms their product (accumulated from zero, then rounded to the narrow type) and writes it whole over
the result's block. What the body leaves in the result's block is therefore a closed function of the
two input blocks: the single write's value laid over the block, which it covers.

Everything here is stated at a parameter `V`, the contents of the core's buffers when the region is
entered, and is generic in the float instance.
-/

set_option maxRecDepth 16384

noncomputable section

namespace Cert.Kernel.Reg0

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's current buffer holds its block at every point — also at the points where the block
    index has not moved and nothing is fetched —, for any proof data whose array is the entry contents and whose
    body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same of the right operand. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's one rectangle: the whole block -/

abbrev rWhole : Rect S1024x1024 := Rect.unit (s := S1024x1024) ![0, 0] S1024x1024.size inb_S1024x1024_S1024x1024_0_0

/-! ## What the body leaves in the result's block -/

/-- The result's buffer after the body, from the two input blocks: the one write, of the product of the blocks
    read whole, laid over the block. -/
def outBlk (x0 x1 : Vec F S1024x1024 .bf16) : Vec F S1024x1024 .bf16 :=
  View.canon [⟨rWhole, k0_pay1 (View.ld x0 rWhole) (View.ld x1 rWhole)⟩]

/-- The one write covers the block. -/
theorem cover (p0 : Vec F S1024x1024 .bf16) (y : S1024x1024.Idx) :
    ∃ pc ∈ ([⟨rWhole, p0⟩] : List (View.Piece (Elt F) S1024x1024 .bf16)), y ∈ pc.1.set :=
  View.cover_of_tiled [⟨rWhole, p0⟩] S1024x1024.size (by rfl) y

/-! ## The body's triple -/

set_option maxHeartbeats 1000000 in
/-- The body on whole memrefs, the two inputs' at read contents `x0`, `x1` and the result's at anything, runs to
    the continuation holding the inputs' as they were and the result's at `outBlk x0 x1`. The body also reads the
    result's buffer once before writing it; the value is not used. -/
theorem sound_kernel (c : Dev nD) (E : Set ℕ) (i : grid0.Coords)
    (arg2 : Memref sig .tc .vmem S1024x1024 .bf16) (harg2 : arg2.IsWhole)
    (arg3 : Memref sig .tc .vmem S1024x1024 .bf16) (harg3 : arg3.IsWhole)
    (arg4 : Memref sig .tc .vmem S1024x1024 .bf16) (harg4 : arg4.IsWhole)
    (x0 x1 : Vec F S1024x1024 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (outBlk x0 x1)) -∗ K ⟨⟩))
      ⊢ wp frame (wpE (defs₀ (F := F)) Variants.none c none) E (cc0__matmul_kernel i arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-! ## The pipeline's proof data -/

/-- The proof data of the region's pipeline on core `c`: the arrays as the region finds them; after the body at
    point `t` each input's buffer at its block and the result's at `outBlk` of the two input blocks; the
    invariant the plain one (the rest of the core's scoped memory and the generator register, untouched);
    nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outBlk (iblk V c 0 t) (iblk V c 1 t)
  Φ _ := Pipeline.ΦA spec0 c
  q _ := fullShare
  owed _ := 0

/-- The proof data's arrays are the entry contents. -/
theorem A_eq (c : Dev nD) (w : Fin cfg0.W) : (dat V c).A w = V c (Pipeline.arrRef spec0 w) := by
  dsimp only [dat]

/-- What the body leaves, window by window. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = outBlk (iblk V c 0 t) (iblk V c 1 t) := by dsimp only [dat]

/-- Each input's current buffer holds its block at every point. -/
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks, so the body's triple applies; the invariant and
    what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Reg0

end
-- ==== Proof.K.Reg1Step.lean ====
/-
  The attention kernel's body as pure functions of what it loads. Between two grid points the kernel keeps three
  arrays: a running maximum `m`, a running normaliser `l` (both one value per head and query row) and a
  running weighted sum `acc` (one row of 64 features per head and query row). At a point whose key block is the
  first of its row of blocks they are reset to `-∞`, `0`, `0`; then the point's block of scores is absorbed:
  the new maximum, the old sums rescaled by `exp (m_old - m_new)` plus the block's own sums. At the last key block of
  a row of blocks the output block is `acc / l`, the heads laid side by side.
-/
import proofs.«148066_j74620761800951_2_alg».proof.Proof.Gen.Kernel.Skeleton

noncomputable section

namespace Cert.Kernel.Reg1

open Idealize.ShloMosaic Cert.Kernel Cert.Kernel.Gen

variable {F : FTy → Type} [FloatOps F]

/-- The three arrays carried between grid points. -/
structure Scr (F : FTy → Type) where
  m : Vec F S16x256x1 .f32
  l : Vec F S16x256x1 .f32
  acc : Vec F S16x256x64 .f32

/-- The body's test "this is the first key block", as it computes it from the key-block word. -/
def isFirst (ki : BitVec 32) : Prop :=
  Scalar.cmpi .ne (Scalar.extui (Scalar.cmpi .eq ki 0#32) : BitVec 32) 0#32 = 1#1

instance (ki : BitVec 32) : Decidable (isFirst ki) := by unfold isFirst; infer_instance

/-- The reset values: `-∞`, `0`, `0`. -/
def reset : Scr F := ⟨k1_pay7, k1_pay8, k1_pay9⟩

/-- What the carried arrays hold when the point's block is absorbed: reset at a first key block, else as carried. -/
def start (ki : BitVec 32) (s : Scr F) : Scr F := if isFirst ki then reset else s

/-- One grid point: the block of scores of query block `q` against key block `k` (positions `256 qi + ·` against
    `256 ki + ·`, masked after the diagonal) absorbed into the carried arrays, with value block `v`. -/
def step (qi ki : BitVec 32) (q k v : Vec F S1x256x1024 .bf16) (s : Scr F) : Scr F :=
  let s0 := start ki s
  let mNew := k1_pay12 qi ki q k s0.m
  ⟨k1_pay5 mNew, k1_pay3 (k1_pay11 qi ki q k) s0.m mNew s0.l, k1_pay4 (k1_pay10 v) (k1_pay11 qi ki q k) s0.m mNew s0.acc⟩

/-- The output block from the carried arrays after the row's last key block: `acc / l`, heads side by side. -/
def outBlk (s : Scr F) : Vec F S1x256x1024 .bf16 := k1_pay6 s.acc s.l

/-- A first key block's point does not read what was carried. -/
theorem step_of_first {qi ki : BitVec 32} (h : isFirst ki) (q k v : Vec F S1x256x1024 .bf16) (s s' : Scr F) :
    step qi ki q k v s = step qi ki q k v s' := by
  unfold step start; rw [if_pos h, if_pos h]

end Cert.Kernel.Reg1

end
-- ==== Proof.K.Reg1Tab.lean ====
import proofs.«148066_j74620761800951_2_alg».proof.Proof.Gen.Kernel.Launch
import proofs.«148066_j74620761800951_2_alg».proof.Proof.Gen.Kernel.Skeleton
import proofs.«148066_j74620761800951_2_alg».proof.Proof.Gen.Kernel.Points
import proofs.«148066_j74620761800951_2_alg».proof.Proof.K.Reg1Step
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The two prefetched tables -/

/-- The tables' contents: step ↦ query block, step ↦ key block, the 36 pairs `ki ≤ qi` of 8 blocks, row by row. -/
def tbl : pre1.Contents (Elt F) := fun k => match k with
  | ⟨0, _⟩ => fun i => lit0 (S36.rowMajor i)
  | ⟨1, _⟩ => fun i => lit1 (S36.rowMajor i)

/-- Every table word is a block number below 8. -/
theorem lit0_lt : ∀ n : Fin 36, (lit0 n).toNat < 8 := by decide
theorem lit1_lt : ∀ n : Fin 36, (lit1 n).toNat < 8 := by decide

/-- The offset of the tables' loads at a point is the point's step. -/
theorem off_eq (i : grid1.Coords) : k1_off1 i = ![(i 1).val] := by
  unfold k1_off1
  simp only [Scalar.indexCast, BitVec.toNat_ofNat]
  have : (i 1).val < 36 := (i 1).isLt
  rw [Nat.mod_eq_of_lt (by omega)]

/-- The four index maps at any contents of the tables: batch, the table's word at the step, the column block. -/
theorem tr0_eq (pf : pre1.Contents (Elt F)) (i : grid1.Coords) :
    cc1_transform_0 k1_off1_inb numel1_S1 pf i = ![(i 0).val, (pf.at 0 (Rect.unit (s := S36) (k1_off1 i) S1.size (k1_off1_inb i)) numel1_S1).toNat, 0] := by
  unfold cc1_transform_0
  simp only [BitVec.toNat_ofNat]
  have : (i 0).val < 2 := (i 0).isLt
  rw [Nat.mod_eq_of_lt (by omega)]
  rfl

theorem tr1_eq (pf : pre1.Contents (Elt F)) (i : grid1.Coords) :
    cc1_transform_1 k1_off1_inb numel1_S1 pf i = ![(i 0).val, (pf.at 1 (Rect.unit (s := S36) (k1_off1 i) S1.size (k1_off1_inb i)) numel1_S1).toNat, 1] := by
  unfold cc1_transform_1
  simp only [BitVec.toNat_ofNat]
  have : (i 0).val < 2 := (i 0).isLt
  rw [Nat.mod_eq_of_lt (by omega)]
  rfl

theorem tr2_eq (pf : pre1.Contents (Elt F)) (i : grid1.Coords) :
    cc1_transform_2 k1_off1_inb numel1_S1 pf i = ![(i 0).val, (pf.at 1 (Rect.unit (s := S36) (k1_off1 i) S1.size (k1_off1_inb i)) numel1_S1).toNat, 2] := by
  unfold cc1_transform_2
  simp only [BitVec.toNat_ofNat]
  have : (i 0).val < 2 := (i 0).isLt
  rw [Nat.mod_eq_of_lt (by omega)]
  rfl

theorem tr3_eq (pf : pre1.Contents (Elt F)) (i : grid1.Coords) :
    cc1_transform_3 k1_off1_inb numel1_S1 pf i = ![(i 0).val, (pf.at 0 (Rect.unit (s := S36) (k1_off1 i) S1.size (k1_off1_inb i)) numel1_S1).toNat, 0] := by
  unfold cc1_transform_3
  simp only [BitVec.toNat_ofNat]
  have : (i 0).val < 2 := (i 0).isLt
  rw [Nat.mod_eq_of_lt (by omega)]
  rfl

/-- The word the literal tables hold at a point's step. -/
theorem at0_tbl (i : grid1.Coords) :
    (tbl (F := F)).at 0 (Rect.unit (s := S36) (k1_off1 i) S1.size (k1_off1_inb i)) numel1_S1 = lit0 (i 1) := by
  show lit0 (S36.rowMajor _) = lit0 (i 1)
  refine congrArg lit0 (Fin.ext ?_)
  refine (Shape.rowMajor_val_one (d := ![36]) _).trans ?_
  have h := off_eq i
  show k1_off1 i 0 + 1 * 0 = (i 1).val
  rw [h]; rfl

theorem at1_tbl (i : grid1.Coords) :
    (tbl (F := F)).at 1 (Rect.unit (s := S36) (k1_off1 i) S1.size (k1_off1_inb i)) numel1_S1 = lit1 (i 1) := by
  show lit1 (S36.rowMajor _) = lit1 (i 1)
  refine congrArg lit1 (Fin.ext ?_)
  refine (Shape.rowMajor_val_one (d := ![36]) _).trans ?_
  have h := off_eq i
  show k1_off1 i 0 + 1 * 0 = (i 1).val
  rw [h]; rfl

/-- A block (b, w, j) of extents (1, 256, 1024) with b < 2, w < 8 lies inside an array of 2 × 2048 × J when its last axis does. -/
theorem blk_inb {b w j B W J : ℕ} (hb : b < 2) (hw : w < 8) (h0 : B = 2) (h1 : W = 2048) (hj : (j + 1) * 1024 ≤ J) :
    ∀ a : Fin 3, (![b, w, j] a + 1) * ![1, 256, 1024] a ≤ ![B, W, J] a := by
  subst h0 h1
  intro a
  fin_cases a
  · show (b + 1) * 1 ≤ 2; omega
  · show (w + 1) * 256 ≤ 2048; omega
  · exact hj

/-- Every block the tables name lies inside its array. -/
theorem ok_tbl : ok1 (F := F) tbl := by
  unfold ok1
  refine ⟨fun i => ⟨?_, .inr (Affine.block_words_dvd (of_decide_eq_true rfl) (by decide))⟩,
    fun i => ⟨?_, .inr (Affine.block_words_dvd (of_decide_eq_true rfl) (by decide))⟩,
    fun i => ⟨?_, .inr (Affine.block_words_dvd (of_decide_eq_true rfl) (by decide))⟩,
    fun i => ⟨?_, .inr (Affine.block_words_dvd (of_decide_eq_true rfl) (by decide))⟩⟩
  · rw [tr0_eq, at0_tbl]; exact blk_inb (i 0).isLt (lit0_lt (i 1)) rfl rfl (by decide)
  · rw [tr1_eq, at1_tbl]; exact blk_inb (i 0).isLt (lit1_lt (i 1)) rfl rfl (by decide)
  · rw [tr2_eq, at1_tbl]; exact blk_inb (i 0).isLt (lit1_lt (i 1)) rfl rfl (by decide)
  · rw [tr3_eq, at0_tbl]; exact blk_inb (i 0).isLt (lit0_lt (i 1)) rfl rfl (by decide)

/-- The tables as admissible contents, and the pipeline at them. -/
abbrev adm : (pcfg1 (F := F)).Adm := ⟨tbl, ok_tbl⟩
abbrev cfgM : Pipeline.Cfg sig Λ₀ := cfg1 (adm (F := F))

/-- The query-block and key-block words the body loads at point `t`. -/
def qiN (n : ℕ) : BitVec 32 := lit0 ⟨n % 36, Nat.mod_lt _ (by decide)⟩
def kiN (n : ℕ) : BitVec 32 := lit1 ⟨n % 36, Nat.mod_lt _ (by decide)⟩
abbrev qiW (t : Fin (cfgM (F := F)).N) : BitVec 32 := qiN t.val
abbrev kiW (t : Fin (cfgM (F := F)).N) : BitVec 32 := kiN t.val

/-! ## The grid's points -/

theorem N_eq : (cfgM (F := F)).N = 72 := (by decide : grid1.N = 72)

theorem coords0 (t : Fin (cfgM (F := F)).N) : ((cfgM (F := F)).grid.coords t 0).val = t.val / 36 := by
  have h : t.val < 72 := lt_of_lt_of_eq t.isLt N_eq
  show t.val / (cfgM (F := F)).grid.stride 0 % 2 = t.val / 36
  rw [show (cfgM (F := F)).grid.stride 0 = 36 from (by decide : grid1.stride 0 = 36)]
  omega

theorem coords1 (t : Fin (cfgM (F := F)).N) : (cfgM (F := F)).grid.coords t 1 = ⟨t.val % 36, Nat.mod_lt _ (by decide)⟩ := by
  refine Fin.ext ?_
  show t.val / (cfgM (F := F)).grid.stride 1 % 36 = t.val % 36
  rw [show (cfgM (F := F)).grid.stride 1 = 1 from (by decide : grid1.stride 1 = 1), Nat.div_one]

theorem word0_eq (t : Fin (cfgM (F := F)).N) :
    (tbl (F := F)).at 0 (Rect.unit (s := S36) (k1_off1 ((cfgM (F := F)).grid.coords t)) S1.size (k1_off1_inb _)) numel1_S1 = qiW t := by
  rw [at0_tbl, coords1]; rfl

theorem word1_eq (t : Fin (cfgM (F := F)).N) :
    (tbl (F := F)).at 1 (Rect.unit (s := S36) (k1_off1 ((cfgM (F := F)).grid.coords t)) S1.size (k1_off1_inb _)) numel1_S1 = kiW t := by
  rw [at1_tbl, coords1]; rfl

theorem index_0 (t : Fin (cfgM (F := F)).N) : ((cfgM (F := F)).win 0).index t = ![t.val / 36, (qiW t).toNat, 0] := by
  show cc1_transform_0 k1_off1_inb numel1_S1 (tbl (F := F)) ((cfgM (F := F)).grid.coords t) = _
  rw [tr0_eq, word0_eq, coords0]

theorem index_1 (t : Fin (cfgM (F := F)).N) : ((cfgM (F := F)).win 1).index t = ![t.val / 36, (kiW t).toNat, 1] := by
  show cc1_transform_1 k1_off1_inb numel1_S1 (tbl (F := F)) ((cfgM (F := F)).grid.coords t) = _
  rw [tr1_eq, word1_eq, coords0]

theorem index_2 (t : Fin (cfgM (F := F)).N) : ((cfgM (F := F)).win 2).index t = ![t.val / 36, (kiW t).toNat, 2] := by
  show cc1_transform_2 k1_off1_inb numel1_S1 (tbl (F := F)) ((cfgM (F := F)).grid.coords t) = _
  rw [tr2_eq, word1_eq, coords0]

theorem index_3 (t : Fin (cfgM (F := F)).N) : ((cfgM (F := F)).win 3).index t = ![t.val / 36, (qiW t).toNat, 0] := by
  show cc1_transform_3 k1_off1_inb numel1_S1 (tbl (F := F)) ((cfgM (F := F)).grid.coords t) = _
  rw [tr3_eq, word0_eq, coords0]

/-! ## The body's two conditions -/

theorem cond2_iff (a b : BitVec 32) : k1_cond2 a b = 1#1 ↔ b = a := by
  unfold k1_cond2
  rw [Scalar.guard_iff]
  exact IntOp.cmpi_eq

theorem isFirst_iff (k : BitVec 32) : isFirst k ↔ k = 0#32 := by
  unfold isFirst
  rw [Scalar.guard_iff]
  exact IntOp.cmpi_eq

/-! ## The steps' pairs: facts decided over the 72 points -/

theorem first_zero : isFirst (kiN 0) := by decide
theorem first_of_batch : isFirst (kiN 36) := by decide

theorem prev_of_not_first : ∀ n < 72, ¬ isFirst (kiN n) →
    n ≠ 0 ∧ (n - 1) / 36 = n / 36 ∧ qiN (n - 1) = qiN n ∧ (kiN (n - 1)).toNat + 1 = (kiN n).toNat := by decide

theorem ki_le_qi : ∀ n < 72, (kiN n).toNat ≤ (qiN n).toNat ∧ (qiN n).toNat < 8 := by decide

theorem diag_point : ∀ b < 2, ∀ q < 8, ∃ n < 72, n / 36 = b ∧ (qiN n).toNat = q ∧ (kiN n).toNat = q := by decide

theorem point_unique : ∀ n < 72, ∀ n' < 72, n / 36 = n' / 36 → qiN n = qiN n' → kiN n = kiN n' → n = n' := by decide

/-- The output block changes after a point, or the point is the last, exactly where the key block is the query block. -/
theorem flush_nat : ∀ n < 72, (n + 1 = 72 ∨ (n + 1 < 72 ∧
    (![(n + 1) / 36, (qiN (n + 1)).toNat, 0] : Fin 3 → ℕ) ≠ ![n / 36, (qiN n).toNat, 0])) ↔ kiN n = qiN n := by decide

/-! ## Where the windows are idle, and where the output is written back -/

theorem atD0_tbl (i : grid1.Coords) : (tbl (F := F)).atD 0 (k1_off1 i) = lit0 (i 1) := by
  have hin : ∀ a, k1_off1 i a + 1 ≤ (pre1.ref 0).ty.shape.size a := Fin.forall_fin_one.2 (k1_off1_inb i 0)
  refine (dif_pos hin).trans ?_
  show lit0 (S36.rowMajor _) = lit0 (i 1)
  refine congrArg lit0 (Fin.ext ?_)
  refine (Shape.rowMajor_val_one (d := ![36]) _).trans ?_
  show k1_off1 i 0 = (i 1).val
  rw [off_eq]; rfl

theorem atD1_tbl (i : grid1.Coords) : (tbl (F := F)).atD 1 (k1_off1 i) = lit1 (i 1) := by
  have hin : ∀ a, k1_off1 i a + 1 ≤ (pre1.ref 1).ty.shape.size a := Fin.forall_fin_one.2 (k1_off1_inb i 0)
  refine (dif_pos hin).trans ?_
  show lit1 (S36.rowMajor _) = lit1 (i 1)
  refine congrArg lit1 (Fin.ext ?_)
  refine (Shape.rowMajor_val_one (d := ![36]) _).trans ?_
  show k1_off1 i 0 = (i 1).val
  rw [off_eq]; rfl

theorem idle_0 (t : Fin (cfgM (F := F)).N) : (cfgM (F := F)).idle 0 ((cfgM (F := F)).grid.coords t) = false := rfl
theorem idle_1 (t : Fin (cfgM (F := F)).N) : (cfgM (F := F)).idle 1 ((cfgM (F := F)).grid.coords t) = false := rfl
theorem idle_2 (t : Fin (cfgM (F := F)).N) : (cfgM (F := F)).idle 2 ((cfgM (F := F)).grid.coords t) = false := rfl

theorem idle_3 (t : Fin (cfgM (F := F)).N) :
    (cfgM (F := F)).idle 3 ((cfgM (F := F)).grid.coords t) = !(k1_cond2 (qiW t) (kiW t) == 1#1) := by
  show (!(k1_cond2 ((tbl (F := F)).atD 0 (k1_off1 ((cfgM (F := F)).grid.coords t)))
    ((tbl (F := F)).atD 1 (k1_off1 ((cfgM (F := F)).grid.coords t))) == 1#1)) = _
  rw [atD0_tbl, atD1_tbl, coords1]; rfl

theorem flush_3 (t : Fin (cfgM (F := F)).N) :
    ((cfgM (F := F)).win 3).flush t = true ↔ k1_cond2 (qiW t) (kiW t) = 1#1 := by
  have ht : t.val < 72 := lt_of_lt_of_eq t.isLt N_eq
  rw [cond2_iff, ← flush_nat t.val ht]
  unfold Window.flush
  rw [show ((cfgM (F := F)).win 3).isOut = true from rfl, Bool.true_and, Bool.or_eq_true, decide_eq_true_eq, decide_eq_true_eq]
  constructor
  · rintro (h | ⟨h, hne⟩)
    · exact .inl (h.trans N_eq)
    · rw [index_3, index_3] at hne
      exact .inr ⟨lt_of_lt_of_eq h N_eq, hne⟩
  · rintro (h | ⟨h, hne⟩)
    · exact .inl (h.trans N_eq.symm)
    · refine .inr ⟨lt_of_lt_of_eq h N_eq.symm, ?_⟩
      rw [index_3, index_3]; exact hne

/-! ## The words as a load through the tables' memrefs reads them -/

theorem rd0_eq (t : Fin (cfgM (F := F)).N) :
    ((Memref.whole main_c : Memref sig .tc .smem S36 .i32).access
        (Rect.unit (s := S36) (k1_off1 ((cfgM (F := F)).grid.coords t)) S1.size (k1_off1_inb _))).read (Elt F)
      ((tbl (F := F)) 0) (Shape.Idx.first (numel1_S1.symm ▸ Nat.one_pos)) = qiW t := by
  rw [← word0_eq t]; rfl

theorem rd1_eq (t : Fin (cfgM (F := F)).N) :
    ((Memref.whole main_c_0 : Memref sig .tc .smem S36 .i32).access
        (Rect.unit (s := S36) (k1_off1 ((cfgM (F := F)).grid.coords t)) S1.size (k1_off1_inb _))).read (Elt F)
      ((tbl (F := F)) 1) (Shape.Idx.first (numel1_S1.symm ▸ Nat.one_pos)) = kiW t := by
  rw [← word1_eq t]; rfl

end Cert.Kernel.Reg1

end
-- ==== Proof.K.Reg1.lean ====
import proofs.«148066_j74620761800951_2_alg».proof.Proof.K.Reg1Tab
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-- Window `w`'s block at point `t`, read off its array as the call finds it. -/
def iblk (c : Dev nD) (w : Fin (cfgM (F := F)).W) (t : Fin (cfgM (F := F)).N) :
    (((cfgM (F := F)).win w).xblock ((cfgM (F := F)).grid.coords t)).Idx → Elt F ((cfgM (F := F)).win w).elt :=
  (((cfgM (F := F)).win w).blk t).view.read (Elt F) (V c (Pipeline.arrRef spec1 w))

/-- The carried arrays before point `n` (after point `n - 1`); before the first point anything (never read:
    the first point is a first key block). -/
def scrAt (c : Dev nD) : ℕ → Scr F
  | 0 => reset
  | n + 1 =>
    if h : n < (cfgM (F := F)).N then
      step (qiW ⟨n, h⟩) (kiW ⟨n, h⟩) (iblk V c 0 ⟨n, h⟩) (iblk V c 1 ⟨n, h⟩) (iblk V c 2 ⟨n, h⟩) (scrAt c n)
    else scrAt c n

/-- The shares of the fused projection's array held by the three windows that read it. -/
abbrev shQ : PosShare TreeShare := fullShare.left
abbrev shK : PosShare TreeShare := fullShare.right.left
abbrev shV : PosShare TreeShare := fullShare.right.right

/-- The core's scoped buffers that are neither a staging buffer of this call nor one of its three carried
    arrays, each at some contents, and the generator register at some state. -/
def restScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ ∃ r, prngReg c r)

/-- The three carried arrays' buffers at `s`. -/
def scrHeld (c : Dev nD) (s : Scr F) : sProp 𝕄 :=
  iprop(owns (c : Thread nD τ) (Memref.whole cc1_scratch0 : Memref sig .tc .vmem S16x256x1 .f32) fullShare s.m
    ∗ owns (c : Thread nD τ) (Memref.whole cc1_scratch1 : Memref sig .tc .vmem S16x256x1 .f32) fullShare s.l
    ∗ owns (c : Thread nD τ) (Memref.whole cc1_scratch2 : Memref sig .tc .vmem S16x256x64 .f32) fullShare s.acc)

/-- The invariant between points: the rest of the scoped memory and the generator register untouched, the tables
    held whole at their contents, the carried arrays at the trajectory's value (before the first point at anything). -/
def Phi (c : Dev nD) (n : ℕ) : sProp 𝕄 :=
  iprop(restScoped c ∗ Pipeline.prefHeld (Ix := Unit) (Name := ℕ) (U := UR sig nD τ) (Lvl := ℕ) pre1 c (fun _ => fullShare) (tbl (F := F))
    ∗ ∃ s : Scr F, ⌜n ≠ 0 → s = scrAt V c n⌝ ∗ scrHeld c s)

/-- The proof data of the attention call's pipeline on core `c`. -/
def dat (c : Dev nD) : Dat τ (Elt F) Unit ℕ (UR sig nD τ) ℕ (cfgM (F := F)) c where
  A w := V c (Pipeline.arrRef spec1 w)
  after w t := match w with
    | ⟨0, _⟩ => iblk V c 0 t
    | ⟨1, _⟩ => iblk V c 1 t
    | ⟨2, _⟩ => iblk V c 2 t
    | ⟨3, _⟩ => outBlk (scrAt V c (t.val + 1))
  Φ t := Phi V c t.val
  q w := match w with
    | ⟨0, _⟩ => shQ
    | ⟨1, _⟩ => shK
    | ⟨2, _⟩ => shV
    | ⟨3, _⟩ => fullShare
  owed _ := 0

theorem A_eq (c : Dev nD) (w : Fin (cfgM (F := F)).W) : (dat V c).A w = V c (Pipeline.arrRef spec1 w) := by
  dsimp only [dat]

end Cert.Kernel.Reg1

end
-- ==== Proof.K.Reg2.lean ====
import proofs.«148066_j74620761800951_2_alg».proof.Proof.Gen.Kernel.Launch
import proofs.«148066_j74620761800951_2_alg».proof.Proof.Gen.Kernel.Skeleton
import proofs.«148066_j74620761800951_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The third pallas_call: a whole-K matrix product, block row by block row

The call's grid has four points. At point `t` the left operand's window holds rows
`1024·t … 1024·t + 1023` of the 4096×1024 left array, the right operand's window holds the whole
1024×1024 right array (brought in once, at the first point, and left in place afterwards), and the
result window is block row `t` of the 4096×1024 result. The body reads both operand windows whole,
reads the result window once (the value is not used), and writes over the whole result window the
product of the two operand blocks, accumulated from zero.

This file states, at any entry contents `V` of the core's buffers and for any float instance: each
window's block at a point, what the body leaves in the result window as a function of the two operand
blocks, the body's triple, the pipeline's proof data and its body obligation.
-/

-- membership in a rectangle of 1024×1024 extents: the elaborator's structural look recurses once per
-- coordinate of the long axes
set_option maxRecDepth 16384

noncomputable section

namespace Cert.Kernel.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The windows' blocks -/

/-- Window `w`'s block at point `t`, read off its array as the call finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's window holds its block at every point (it is brought in afresh at each), for any
    proof data whose array is `V`'s and whose body leaves the block in place. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The right operand's window holds its block at every point: brought in at the first point, and at the
    later points the block index has not moved and the body has left the window as it was. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole 1024×1024 window: the one rectangle every load and the store of the body address. -/
abbrev r : Rect S1024x1024 := Rect.unit (s := S1024x1024) ![0, 0] S1024x1024.size inb_S1024x1024_S1024x1024_0_0

/-! ## What the body leaves in the result window -/

/-- The result window after the body, from the operand windows' blocks: its one store, over the whole
    window, of the product of the two blocks read whole. -/
def outBlk (x0 x1 : Vec F S1024x1024 .bf16) : Vec F S1024x1024 .f32 :=
  View.canon [⟨r, k2_pay1 (View.ld x0 r) (View.ld x1 r)⟩]

/-- The store's rectangle is the whole window, so it covers it. -/
theorem cover (p0 : Vec F S1024x1024 .f32) (y : S1024x1024.Idx) :
    ∃ pc ∈ ([⟨r, p0⟩] : List (View.Piece (Elt F) S1024x1024 .f32)), y ∈ pc.1.set :=
  View.cover_of_tiled [⟨r, p0⟩] S1024x1024.size (by rfl) y

/-! ## The body's triple -/

set_option maxHeartbeats 1000000 in
/-- The body on whole staging memrefs, the operands' at read contents `x0`, `x1` and the result's at anything,
    runs to the continuation holding the operands' as they were and the result's at `outBlk x0 x1`. -/
theorem sound_kernel (c : Dev nD) (E : Set ℕ) (i : grid2.Coords)
    (arg2 : Memref sig .tc .vmem S1024x1024 .bf16) (harg2 : arg2.IsWhole)
    (arg3 : Memref sig .tc .vmem S1024x1024 .bf16) (harg3 : arg3.IsWhole)
    (arg4 : Memref sig .tc .vmem S1024x1024 .f32) (harg4 : arg4.IsWhole)
    (x0 x1 : Vec F S1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlk x0 x1)) -∗ K ⟨⟩))
      ⊢ wp frame (wpE (defs₀ (F := F)) Variants.none c none) E (cc2__matmul_kernel i arg2 harg2 arg3 harg3 arg4 harg4) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-! ## The pipeline's proof data -/

/-- The proof data of the call's pipeline on core `c`: the arrays as the call finds them (`V`); after the
    body at point `t` each operand's window at its block and the result's at `outBlk` of the two blocks; the
    invariant keeps the rest of the core's scoped memory and the generator register untouched; nothing owed;
    full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => outBlk (iblk V c 0 t) (iblk V c 1 t)
  Φ _ := Pipeline.ΦA spec2 c
  q _ := fullShare
  owed _ := 0

/-- The proof data's arrays are the entry contents. -/
theorem A_eq (c : Dev nD) (w : Fin cfg2.W) : (dat V c).A w = V c (Pipeline.arrRef spec2 w) := by
  dsimp only [dat]

/-- What the body leaves, window by window. -/
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = outBlk (iblk V c 0 t) (iblk V c 1 t) := by dsimp only [dat]

/-- Each operand's current staging buffer holds its block at every point. -/
theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d

/-! ## The body obligation, at a generic point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

/-- The body at any point: the operands' memrefs hold their blocks, so `sound_kernel` applies; the invariant
    and the core's debts pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W2, bigSep_W2]
  exact sound_body V c t

end Cert.Kernel.Reg2

end
-- ==== Proof.K.RunVals.lean ====
import proofs.«148066_j74620761800951_2_alg».proof.Proof.K.Reg0
import proofs.«148066_j74620761800951_2_alg».proof.Proof.K.Reg1
import proofs.«148066_j74620761800951_2_alg».proof.Proof.K.Reg2

/-!
# The buffers' contents at each boundary of the program

The program is: host operations, the projection call, a reshape, the attention call, a reshape and a transpose,
the output-projection call, a reshape. Between two of these items every unscoped buffer of a core holds a
definite contents: the launch memory, then each stretch of host operations applied, then — after a call — the
call's arrays at what its pipeline leaves (each output's blocks written back over the entry contents) and every
other buffer as it was. This file names those contents and the three pipelines' proof data at them.
-/

set_option maxRecDepth 16384

noncomputable section

namespace Cert.Kernel.Run

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat)
open Cert.Kernel.Gen

variable {F : FTy → Type} [FloatOps F]

variable (m : (ℓ : Loc nD τ sig) → Buf (Elt F) ℓ)

/-- Core `c`'s unscoped buffers at launch. -/
abbrev W0 : Dev nD → Valuation τ sig (Elt F) := fun c b => m ((c : Dev nD), b)
/-- After the first stretch of host operations: the projection call's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection call: its arrays at what its pipeline leaves. -/
def W2 (c : Dev nD) : Valuation τ sig (Elt F) :=
  Pipeline.withArrays spec0 c (W1 m c) fun w => (Reg0.dat (V1 m) c).arrAt w cfg0.N
abbrev V2 : (c : Dev nD) → (b : Ref sig .tc) → Buf (Elt F) ((c : Thread nD τ).loc b) := fun c b => W2 m c b
/-- After the reshape: the attention call's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the attention call. -/
def W4 (c : Dev nD) : Valuation τ sig (Elt F) :=
  Pipeline.withArrays spec1 c (W3 m c) fun w => (Reg1.dat (V3 m) c).arrAt w (Reg1.cfgM (F := F)).N
abbrev V4 : (c : Dev nD) → (b : Ref sig .tc) → Buf (Elt F) ((c : Thread nD τ).loc b) := fun c b => W4 m c b
/-- After the reshape and the transpose: the output-projection call's entry. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After the output-projection call. -/
def W6 (c : Dev nD) : Valuation τ sig (Elt F) :=
  Pipeline.withArrays spec2 c (W5 m c) fun w => (Reg2.dat (V5 m) c).arrAt w cfg2.N
abbrev V6 : (c : Dev nD) → (b : Ref sig .tc) → Buf (Elt F) ((c : Thread nD τ).loc b) := fun c b => W6 m c b
/-- After the last reshape: what the program ends with. -/
abbrev W7 : Dev nD → Valuation τ sig (Elt F) := fun c => StableHlo.after hostOps3 (W6 m c)

/-- The tables' admissible contents, per pipeline: the attention call's literal tables, none for the other two. -/
abbrev adm : (p : Fin 3) → (pcfgs (F := F) p).Adm
  | ⟨0, _⟩ => cfg0.toPCfg_adm
  | ⟨1, _⟩ => Reg1.adm
  | ⟨2, _⟩ => cfg2.toPCfg_adm

/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => Reg0.dat (V1 m) c
  | ⟨1, _⟩ => fun c => Reg1.dat (V3 m) c
  | ⟨2, _⟩ => fun c => Reg2.dat (V5 m) c

end Cert.Kernel.Run

end
-- ==== Proof.K.RunW4.lean ====
import proofs.«148066_j74620761800951_2_alg».proof.Proof.K.RunVals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ)

/-! # What rides beside the buffers, and the attention call's exit contents -/

/-- No core owes another anything: no level is assigned. -/
abbrev L : GSem nD τ sig → Finset Unit := fun _ => ∅
abbrev lv : GSem nD τ sig → Unit → ℕ := fun _ _ => 0
/-- What rides beside the buffers through every segment: the core's random-number register at some state and its
    `owes`, at nothing. -/
abbrev R (c : Dev nD) : sProp 𝕄 := iprop((∃ r, prngReg c r) ∗ ∃ W, owes (c : Thread nD τ) (0 : CellTallies nD τ sig Unit) W)

/-! ## The attention call's exit contents

Three of its four windows read one array, the fused projection; the fourth writes the output's. So the exit
contents hold the output's array at what the pipeline leaves, the fused projection as it was entered (an input
window's array is never written), and every other buffer as entered. -/

/-- The contents with a pipeline's arrays overwritten, at a buffer some window has for array, when every window on
    that buffer carries the same contents there. -/
theorem withArrays_of_forall {gr : Nat} {W : Nat} (win : Fin W → Pipeline.WinSpec sig gr) (c : Dev nD)
    (V : Valuation τ sig (Elt F)) (A : (w : Fin W) → Buf (Elt F) ((win w).arr.view.loc (c : Thread nD τ)))
    (b : Ref sig .tc) (x : (Proc.devRef .tc b : DevRef τ sig).ty.Contents (Elt F)) (hex : ∃ w, Pipeline.arrRef win w = b)
    (h : ∀ w (e : Proc.devRef .tc (Pipeline.arrRef win w) = Proc.devRef (τ := τ) .tc b),
      cast (congrArg (fun b' : DevRef τ sig => b'.ty.Contents (Elt F)) e) (A w) = x) :
    Pipeline.withArrays win c V A (Proc.devRef .tc b) = x := by
  unfold Pipeline.withArrays
  have hex' : ∃ w, Proc.devRef .tc (Pipeline.arrRef win w) = Proc.devRef (τ := τ) .tc b := by
    obtain ⟨w, hw⟩ := hex; exact ⟨w, congrArg _ hw⟩
  rw [dif_pos hex']
  exact h _ hex'.choose_spec

/-- Over the attention call's windows: the output's array holds the fourth window's contents. -/
theorem withArrays1_v7 (c : Dev nD) (V : Valuation τ sig (Elt F))
    (A : (w : Fin 4) → Buf (Elt F) ((spec1 w).arr.view.loc (c : Thread nD τ))) :
    Pipeline.withArrays spec1 c V A (Proc.devRef .tc main_v7) = A 3 :=
  withArrays_of_forall spec1 c V A main_v7 (A 3) ⟨3, rfl⟩ fun
    | 0 => fun e => absurd (Proc.devRef_injective _ e) (by decide)
    | 1 => fun e => absurd (Proc.devRef_injective _ e) (by decide)
    | 2 => fun e => absurd (Proc.devRef_injective _ e) (by decide)
    | 3 => fun e => rfl
    | ⟨_ + 4, h⟩ => absurd h (Nat.not_lt.2 (Nat.le_add_left _ _))

/-- Over the attention call's windows: the fused projection's array holds what its three windows agree on. -/
theorem withArrays1_v6 (c : Dev nD) (V : Valuation τ sig (Elt F))
    (A : (w : Fin 4) → Buf (Elt F) ((spec1 w).arr.view.loc (c : Thread nD τ)))
    (x : (Proc.devRef .tc main_v6 : DevRef τ sig).ty.Contents (Elt F)) (h0 : A 0 = x) (h1 : A 1 = x) (h2 : A 2 = x) :
    Pipeline.withArrays spec1 c V A (Proc.devRef .tc main_v6) = x :=
  withArrays_of_forall spec1 c V A main_v6 x ⟨0, rfl⟩ fun
    | 0 => fun e => h0
    | 1 => fun e => h1
    | 2 => fun e => h2
    | 3 => fun e => absurd (Proc.devRef_injective _ e) (by decide)
    | ⟨_ + 4, h⟩ => absurd h (Nat.not_lt.2 (Nat.le_add_left _ _))

/-- The output's array ends at what the pipeline leaves in it. -/
theorem W4_main_v7 (c : Dev nD) :
    W4 m c (Proc.devRef .tc main_v7) = (Reg1.dat (V3 m) c).arrAt 3 (Reg1.cfgM (F := F)).N := by
  unfold W4; exact withArrays1_v7 c _ _

/-- The fused projection's array ends as it was entered: the three windows on it only read. -/
theorem W4_main_v6 (c : Dev nD) :
    W4 m c (Proc.devRef .tc main_v6) = W3 m c (Proc.devRef .tc main_v6) := by
  unfold W4
  exact withArrays1_v6 c _ _ _
    (((Reg1.dat (V3 m) c).arrAt_in 0 rfl _).trans (Reg1.A_eq (V3 m) c 0))
    (((Reg1.dat (V3 m) c).arrAt_in 1 rfl _).trans (Reg1.A_eq (V3 m) c 1))
    (((Reg1.dat (V3 m) c).arrAt_in 2 rfl _).trans (Reg1.A_eq (V3 m) c 2))

/-- Every buffer that is no window's array ends as it was entered. -/
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

end Cert.Kernel.Run

end
-- ==== Proof.K.RunReg1.lean ====
import proofs.«148066_j74620761800951_2_alg».proof.Proof.K.RunW4
import proofs.«148066_j74620761800951_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The attention call's entry and exit

At the attention call's entry the core holds every unscoped buffer whole at the entry contents. Three of the
call's four windows read ONE array, the fused projection; the fourth writes the result. So the entry deals the
fused projection's full share among its three windows (left half; left and right halves of the right half), hands
the result's array whole to the fourth, sets the two prefetched tables — still the literals written at the
program's start — apart at the full share, and leaves the rest. The exit is the converse at the exit contents,
which differ from the entry contents at the result's array only.
-/

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ)

/-- The first table under the attention call's entry contents is the literal written at the program's start. -/
theorem V3_c (c : Dev nD) : V3 m c main_c = fun i => lit0 (S36.rowMajor i) := by
  have h3 : W3 m c (Proc.devRef .tc main_c) = W2 m c (Proc.devRef .tc main_c) :=
    StableHlo.after_of_writes_sub hostOps1 _ hostOps1_writes (by decide)
  have h2 : W2 m c (Proc.devRef .tc main_c) = W1 m c (Proc.devRef .tc main_c) := by
    unfold W2; exact Pipeline.withArrays_of_ne spec0 c _ _ main_c (by decide)
  have h1 : W1 m c (Proc.devRef .tc main_c) = fun i => lit0 (S36.rowMajor i) := by
    show StableHlo.after hostOps0 (fun b => m (c, b)) (Proc.devRef .tc main_c) = _
    after_results; rfl
  exact h3.trans (h2.trans h1)

/-- The second table likewise. -/
theorem V3_c0 (c : Dev nD) : V3 m c main_c_0 = fun i => lit1 (S36.rowMajor i) := by
  have h3 : W3 m c (Proc.devRef .tc main_c_0) = W2 m c (Proc.devRef .tc main_c_0) :=
    StableHlo.after_of_writes_sub hostOps1 _ hostOps1_writes (by decide)
  have h2 : W2 m c (Proc.devRef .tc main_c_0) = W1 m c (Proc.devRef .tc main_c_0) := by
    unfold W2; exact Pipeline.withArrays_of_ne spec0 c _ _ main_c_0 (by decide)
  have h1 : W1 m c (Proc.devRef .tc main_c_0) = fun i => lit1 (S36.rowMajor i) := by
    show StableHlo.after hostOps0 (fun b => m (c, b)) (Proc.devRef .tc main_c_0) = _
    after_results; rfl
  exact h3.trans (h2.trans h1)

/-- The two tables under the entry contents are the literal tables. -/
theorem V3_tbl (c : Dev nD) : (fun k => V3 m c (pre1.ref k)) = Reg1.tbl (F := F) := by
  funext k
  match k with
  | ⟨0, _⟩ => exact V3_c m c
  | ⟨1, _⟩ => exact V3_c0 m c

/-- The attention call's windowed arrays are two buffers: the fused projection (read by three windows, its full
    share dealt among them) and the result (one window, the full share). -/
theorem arrays_iff (c : Dev nD) (V : (b : Ref sig .tc) → Buf (Elt F) ((c : Thread nD τ).loc b))
    (A : (w : Fin (Pipeline.pin (pcfgs (F := F)) adm 1).W) → Buf (Elt F) ((((Pipeline.pin (pcfgs (F := F)) adm 1).win w).arr.view.loc (c : Thread nD τ))))
    (hA : ∀ w, A w = V (Pipeline.arrRef spec1 w)) :
    (pdats m 1 c).arrays A ⊣⊢ (Pipeline.arrBufs spec1 c V : sProp 𝕄) := by
  have hs : ∀ w : Fin 4, ((Pipeline.pin (pcfgs (F := F)) adm 1).win w).arr.view.set = Finset.univ := fun w => (arr_whole1 w).set_eq_univ
  have hA' : ∀ w : Fin 4, A w = V (Pipeline.arrRef spec1 w) := hA
  unfold Pipeline.arrBufs Pipeline.Dat.arrays
  rw [bigSep_eq_bigSepL_of_eq [main_v6, main_v7] (by decide) (by decide)]
  rw [bigSep_W1, hs 0, hs 1, hs 2, hs 3, hA' 0, hA' 1, hA' 2, hA' 3]
  show iprop((((c : Thread nD τ).loc main_v6) ↦{Reg1.shQ} V main_v6) ∗ (((c : Thread nD τ).loc main_v6) ↦{Reg1.shK} V main_v6)
      ∗ (((c : Thread nD τ).loc main_v6) ↦{Reg1.shV} V main_v6) ∗ (((c : Thread nD τ).loc main_v7) ↦{fullShare} V main_v7))
    ⊣⊢ iprop((((c : Thread nD τ).loc main_v6) ↦{fullShare} V main_v6) ∗ (((c : Thread nD τ).loc main_v7) ↦{fullShare} V main_v7))
  have h1 := pointsTo_share (Ix := Unit) (Name := ℕ) (U := UR sig nD τ) (Lvl := ℕ) (ℓ := (c : Thread nD τ).loc main_v6) (I := Finset.univ) (f := V main_v6) (PosShare.mem_left_op_right fullShare)
  have h2 := pointsTo_share (Ix := Unit) (Name := ℕ) (U := UR sig nD τ) (Lvl := ℕ) (ℓ := (c : Thread nD τ).loc main_v6) (I := Finset.univ) (f := V main_v6) (PosShare.mem_left_op_right fullShare.right)
  constructor
  · iintro ⟨Hq, Hk, Hv, Ho⟩
    isplitr [Ho]
    · iapply h1.2
      isplitl [Hq]; · iexact Hq
      iapply h2.2
      isplitl [Hk] <;> iassumption
    · iexact Ho
  · iintro ⟨Hi, Ho⟩
    ihave H := h1.1 $$ Hi
    icases H with ⟨Hq, Hr⟩
    ihave H := h2.1 $$ Hr
    icases H with ⟨Hk, Hv⟩
    isplitl [Hq]; · iexact Hq
    isplitl [Hk]; · iexact Hk
    isplitl [Hv]; · iexact Hv
    iexact Ho

/-- After the attention call each of its four windows' arrays holds what the pipeline leaves there: the three
    windows on the fused projection only read, and an input's array is left as it was entered. -/
theorem W4_arr (c : Dev nD) : ∀ w : Fin 4,
    W4 m c (Proc.devRef .tc (Pipeline.arrRef spec1 w)) = (Reg1.dat (V3 m) c).arrAt w (Reg1.cfgM (F := F)).N
  | 0 => (W4_main_v6 m c).trans (((Reg1.dat (V3 m) c).arrAt_in 0 rfl _).trans (Reg1.A_eq (V3 m) c 0)).symm
  | 1 => (W4_main_v6 m c).trans (((Reg1.dat (V3 m) c).arrAt_in 1 rfl _).trans (Reg1.A_eq (V3 m) c 1)).symm
  | 2 => (W4_main_v6 m c).trans (((Reg1.dat (V3 m) c).arrAt_in 2 rfl _).trans (Reg1.A_eq (V3 m) c 2)).symm
  | 3 => W4_main_v7 m c
  | ⟨_ + 4, h⟩ => absurd h (Nat.not_lt.2 (Nat.le_add_left _ _))

/-- ENTRY of the attention call: every unscoped buffer at the entry contents is the call's arrays at the proof
    data's entry contents (the fused projection's full share dealt to its three windows), the two tables whole at
    their literal contents, and the rest; the dues, none, are within what the pipeline allows at its first point. -/
theorem entry1 (c : Dev nD) :
    iprop((StableHlo.held (c : Thread nD τ) (Pipeline.ucRefs τ sig) (W3 m c) ∗ R (F := F) c)
        ∗ Pipeline.ownSems0 (fun k : PEmpty => (k.elim : SemLoc sig)) c ∗ levAts L lv)
      ⊢ |={Set.univ}=> iprop((pdats m 1 c).arrays ((pdats m 1 c).arrAt · 0)
          ∗ Pipeline.prefHeld (pcfgs (F := F) 1).pre c (fun _ => fullShare) (adm (F := F) 1).1
          ∗ (pdats m 1 c).owesAt () 0 ∗ (∃ r, prngReg c r)
          ∗ Pipeline.unscopedRestP (Ix := Unit) (Name := ℕ) (U := UR sig nD τ) (Lvl := ℕ) pre1 spec1 c (V3 m c)) := by
  have hub : (unscopedBufs c (V3 m c) : sProp 𝕄)
      = iprop(Pipeline.arrBufs spec1 c (V3 m c) ∗ Pipeline.unscopedRest spec1 c (V3 m c)) :=
    Pipeline.unscopedBufs_split₀ (Ix := Unit) (Name := ℕ) (U := UR sig nD τ) (Lvl := ℕ)
      (Pipeline.pin (pcfgs (F := F)) adm) 1 winFacts₀1.arr_unscoped c (V3 m c)
  have hur := Pipeline.unscopedRest_split (Ix := Unit) (Name := ℕ) (U := UR sig nD τ) (Lvl := ℕ) preFacts1 c (V3 m c)
  have hsplit : (StableHlo.held (c : Thread nD τ) (Pipeline.ucRefs τ sig) (W3 m c) : sProp 𝕄)
      ⊢ iprop((pdats m 1 c).arrays ((pdats m 1 c).arrAt · 0)
          ∗ Pipeline.prefHeld pre1 c (fun _ => fullShare) (Reg1.tbl (F := F))
          ∗ Pipeline.unscopedRestP pre1 spec1 c (V3 m c)) := by
    rw [← Pipeline.unscopedBufs_held, hub, hur, V3_tbl]
    exact sep_mono (arrays_iff m c (V3 m c) _ (fun w => Reg1.A_eq (V3 m) c w)).2 .rfl
  rw [Pipeline.ownSems0_none]
  iintro ⟨⟨Hub, Hp, HO⟩, -, -⟩
  ihave H := hsplit $$ Hub
  icases H with ⟨Ha, Ht, Hrest⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  isplitl [Hp]; · iexact Hp
  iexact Hrest

/-- EXIT of the attention call: the three windows' shares of the fused projection rejoin at its entry contents,
    the result is at what the pipeline leaves, the tables and the rest are as entered — every unscoped buffer at
    the exit contents. -/
theorem exit1 (c : Dev nD) :
    iprop((pdats m 1 c).arrays ((pdats m 1 c).arrAt · (Pipeline.pin (pcfgs (F := F)) adm 1).N)
        ∗ (pdats m 1 c).owesAt () (Fin.last (Pipeline.pin (pcfgs (F := F)) adm 1).N)
        ∗ ((∃ r, prngReg c r) ∗ Pipeline.prefHeld (Ix := Unit) (Name := ℕ) (U := UR sig nD τ) (Lvl := ℕ) pre1 c (fun _ => fullShare) (Reg1.tbl (F := F)))
        ∗ Pipeline.unscopedRestP (Ix := Unit) (Name := ℕ) (U := UR sig nD τ) (Lvl := ℕ) pre1 spec1 c (V3 m c))
      ⊢ |={Set.univ}=> iprop(StableHlo.held (c : Thread nD τ) (Pipeline.ucRefs τ sig) (W4 m c) ∗ R (F := F) c) := by
  have hub : (unscopedBufs c (V4 m c) : sProp 𝕄)
      = iprop(Pipeline.arrBufs spec1 c (V4 m c) ∗ Pipeline.unscopedRest spec1 c (V4 m c)) :=
    Pipeline.unscopedBufs_split₀ (Ix := Unit) (Name := ℕ) (U := UR sig nD τ) (Lvl := ℕ)
      (Pipeline.pin (pcfgs (F := F)) adm) 1 winFacts₀1.arr_unscoped c (V4 m c)
  have hur := Pipeline.unscopedRest_split (Ix := Unit) (Name := ℕ) (U := UR sig nD τ) (Lvl := ℕ) preFacts1 c (V4 m c)
  have htbl : (fun k => V4 m c (pre1.ref k)) = Reg1.tbl (F := F) := by
    rw [← V3_tbl m c]; funext k
    exact W4_of_ne m c (pre1.ref k) fun w => (preFacts1.disj k w).symm
  have hrest : (Pipeline.unscopedRestP pre1 spec1 c (V4 m c) : sProp 𝕄) = Pipeline.unscopedRestP pre1 spec1 c (V3 m c) := by
    unfold Pipeline.unscopedRestP
    exact bigSep_congr fun b hb => by
      rw [show V4 m c b = V3 m c b from W4_of_ne m c b fun w e =>
        (Finset.mem_sdiff.mp (Finset.mem_sdiff.mp hb).1).2 (Finset.mem_image.mpr ⟨w, Finset.mem_univ _, e⟩)]
  have hjoin : iprop((pdats m 1 c).arrays ((pdats m 1 c).arrAt · (Pipeline.pin (pcfgs (F := F)) adm 1).N)
          ∗ Pipeline.prefHeld pre1 c (fun _ => fullShare) (Reg1.tbl (F := F))
          ∗ Pipeline.unscopedRestP pre1 spec1 c (V3 m c))
      ⊢ (StableHlo.held (c : Thread nD τ) (Pipeline.ucRefs τ sig) (W4 m c) : sProp 𝕄) := by
    rw [← Pipeline.unscopedBufs_held, hub, hur, htbl, hrest]
    exact sep_mono (arrays_iff m c (V4 m c) _ (fun w => (W4_arr m c w).symm)).1 .rfl
  iintro ⟨Ha, HO, ⟨Hp, Ht⟩, Hrest⟩
  imodintro
  isplitl [Ha Ht Hrest]
  · iapply hjoin
    isplitl [Ha]; · iexact Ha
    isplitl [Ht] <;> iassumption
  isplitl [Hp]; · iexact Hp
  unfold Pipeline.Dat.owesAt Pipeline.owesWithin
  icases HO with ⟨%W, -, HO⟩; iexists W; iexact HO

end Cert.Kernel.Run

end
-- ==== Proof.K.Reg1Inv.lean ====
import proofs.«148066_j74620761800951_2_alg».proof.Proof.K.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three carried arrays held at `s` are their three whole buffers' points-to at `s`'s components. -/
theorem scrHeld_eq (c : Dev nD) (s : Scr F) :
    (scrHeld c s : sProp 𝕄)
      = iprop((((c : Thread nD τ).loc cc1_scratch0) ↦{fullShare} s.m)
        ∗ (((c : Thread nD τ).loc cc1_scratch1) ↦{fullShare} s.l)
        ∗ (((c : Thread nD τ).loc cc1_scratch2) ↦{fullShare} s.acc)) := by
  unfold scrHeld
  rw [owns_whole (c : Thread nD τ) cc1_scratch0, owns_whole (c : Thread nD τ) cc1_scratch1,
    owns_whole (c : Thread nD τ) cc1_scratch2]

/-- The invariant at the first point, from the generator register, the tables and the scoped rest. -/
theorem Phi_in (c : Dev nD) :
    iprop((∃ r, prngReg c r) ∗ Pipeline.prefHeld (Ix := Unit) (Name := ℕ) (U := UR sig nD τ) (Lvl := ℕ) pre1 c (fun _ => fullShare) (tbl (F := F))
        ∗ Pipeline.scopedRest (Ix := Unit) (Name := ℕ) (U := UR sig nD τ) (Lvl := ℕ) (Val := Elt F) spec1 c)
      ⊢ (dat V c).Φ 0 := by
  rw [scopedRest1_eq]
  show _ ⊢ Phi V c 0
  unfold Phi restScoped
  simp only [scrHeld_eq]
  iintro ⟨Hr, Hp, H1, H2, H3, H4, H5, H6, ⟨%f7, H7⟩, ⟨%f8, H8⟩, ⟨%f9, H9⟩, H10, H11, H12, H13, H14⟩
  isplitl [Hr H1 H2 H3 H4 H5 H6 H10 H11 H12 H13 H14]
  · isplitl [H1]; · iexact H1
    isplitl [H2]; · iexact H2
    isplitl [H3]; · iexact H3
    isplitl [H4]; · iexact H4
    isplitl [H5]; · iexact H5
    isplitl [H6]; · iexact H6
    isplitl [H10]; · iexact H10
    isplitl [H11]; · iexact H11
    isplitl [H12]; · iexact H12
    isplitl [H13]; · iexact H13
    isplitl [H14]; · iexact H14
    iexact Hr
  isplitl [Hp]; · iexact Hp
  iexists (⟨f7, f8, f9⟩ : Scr F)
  isplitr; · ipureintro; intro h; exact absurd rfl h
  isplitl [H7]; · iexact H7
  isplitl [H8]; · iexact H8
  iexact H9

/-- The invariant at the last point gives them back. -/
theorem Phi_out (c : Dev nD) :
    (dat V c).Φ (Fin.last (cfgM (F := F)).N)
      ⊢ iprop(((∃ r, prngReg c r) ∗ Pipeline.prefHeld (Ix := Unit) (Name := ℕ) (U := UR sig nD τ) (Lvl := ℕ) pre1 c (fun _ => fullShare) (tbl (F := F)))
          ∗ Pipeline.scopedRest (Ix := Unit) (Name := ℕ) (U := UR sig nD τ) (Lvl := ℕ) (Val := Elt F) spec1 c) := by
  rw [scopedRest1_eq]
  show Phi V c (cfgM (F := F)).N ⊢ _
  unfold Phi restScoped
  simp only [scrHeld_eq]
  iintro ⟨⟨H1, H2, H3, H4, H5, H6, H10, H11, H12, H13, H14, Hr⟩, Hp, ⟨%s, -, H7, H8, H9⟩⟩
  isplitl [Hr Hp]
  · isplitl [Hr]; · iexact Hr
    iexact Hp
  isplitl [H1]; · iexact H1
  isplitl [H2]; · iexact H2
  isplitl [H3]; · iexact H3
  isplitl [H4]; · iexact H4
  isplitl [H5]; · iexact H5
  isplitl [H6]; · iexact H6
  isplitl [H7]; · iexists s.m; iexact H7
  isplitl [H8]; · iexists s.l; iexact H8
  isplitl [H9]; · iexists s.acc; iexact H9
  isplitl [H10]; · iexact H10
  isplitl [H11]; · iexact H11
  isplitl [H12]; · iexact H12
  isplitl [H13]; · iexact H13
  iexact H14

end Cert.Kernel.Reg1

end
-- ==== Proof.K.Reg1Run.lean ====
import proofs.«148066_j74620761800951_2_alg».proof.Proof.K.Reg1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The attention body at one grid point

At a grid point the body reads two words from the two tables (the point's query block and key block), resets the
three carried arrays when the key block is the first of its row, absorbs the block of scores into them, and, when
the key block is the query block (the last of the row), writes the normalised output block. This file states what
one run of the body does to the memory it is handed, for any contents of the tables and of the windows, as ONE
triple: the carried arrays go from `s` to `step qi ki xq xk xv s`, the output window to `outBlk` of that when
`ki = qi` and is left as it was otherwise, everything else is handed back unchanged. -/

/-- The two tables as the body is handed them: each whole buffer as a memref. -/
abbrev tbM0 : Memref sig .tc .smem S36 .i32 := Memref.whole main_c
abbrev tbM1 : Memref sig .tc .smem S36 .i32 := Memref.whole main_c_0

/-- A table memref's buffer contents on core `c`, and the buffer held at share `q` at contents `f`. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (q : PosShare TreeShare) (f : TbBuf (F := F) c M) : sProp 𝕄 :=
  M.view.loc (c : Thread nD τ) ↦{q} f

/-- The word of the first table (the query block) the body reads at grid coordinates `i`: entry `i 1`. -/
def wordQ (c : Dev nD) (i : grid1.Coords) (xt0 : TbBuf (F := F) c tbM0) : BitVec 32 :=
  tbM0.view.readAt (Elt F) (Rect.unit (s := S36) (k1_off1 i) S1.size (k1_off1_inb i)).toLoadRect xt0 (Shape.Idx.first (numel1_S1.symm ▸ Nat.one_pos))
/-- The word of the second table (the key block) the body reads at grid coordinates `i`: entry `i 1`. -/
def wordK (c : Dev nD) (i : grid1.Coords) (xt1 : TbBuf (F := F) c tbM1) : BitVec 32 :=
  tbM1.view.readAt (Elt F) (Rect.unit (s := S36) (k1_off1 i) S1.size (k1_off1_inb i)).toLoadRect xt1 (Shape.Idx.first (numel1_S1.symm ▸ Nat.one_pos))

/-! ## Whole-buffer loads and stores -/

theorem hz3 : (![0, 0, 0] : Fin 3 → Nat) = fun _ => 0 := funext fun a => by fin_cases a <;> rfl

section Whole
variable {κ : Kind} {sp : Space} {S : Shape} {e : EltTy}

/-- A load of the whole shape reads the contents. -/
theorem readAt_whole {off : Fin S.rank → Nat} (hz : off = fun _ => 0) (v : View sig κ sp S e)
    (inb : ∀ a, off a + S.size a ≤ S.size a) (g : v.ty.Contents (Elt F)) :
    v.readAt (Elt F) (Rect.unit off S.size inb).toLoadRect g = v.read (Elt F) g :=
  (View.readAt_eq_ld v g _).trans (View.ld_unit_zero hz inb _)

/-- After ONE store of the whole shape the contents are what was stored. -/
theorem read_store_whole {off : Fin S.rank → Nat} (hz : off = fun _ => 0) (v : View sig κ sp S e)
    (inb : ∀ a, off a + S.size a ≤ S.size a) (g : v.ty.Contents (Elt F)) (w : S.Idx → Elt F e) :
    v.read (Elt F) (v.writes (Elt F) g [(⟨Rect.unit off S.size inb, w⟩ : View.Piece (Elt F) S e)]) = w :=
  (View.read_writes_eq_canon v g _ (fun y => ⟨_, List.mem_singleton_self _, View.mem_set_unit_zero hz inb y⟩)).trans
    (View.canon_unit_zero hz inb w)

/-- After a store of the whole shape made only when `C` holds, the contents are what was stored when `C` holds and
    the old contents otherwise. -/
theorem read_ite_store_whole {off : Fin S.rank → Nat} (hz : off = fun _ => 0) (v : View sig κ sp S e)
    (inb : ∀ a, off a + S.size a ≤ S.size a) (g : v.ty.Contents (Elt F)) (w : S.Idx → Elt F e) {C : Prop} {dC : Decidable C} :
    v.read (Elt F) (@dite _ C dC (fun _ => v.writes (Elt F) g [(⟨Rect.unit off S.size inb, w⟩ : View.Piece (Elt F) S e)]) (fun _ => g))
      = @ite _ C dC w (v.read (Elt F) g) := by
  by_cases h : C
  · rw [dif_pos h, if_pos h]; exact read_store_whole hz v inb g w
  · rw [dif_neg h, if_neg h]

/-- A load of the whole shape after one store of the whole shape reads what was stored. -/
theorem readCov_whole {off : Fin S.rank → Nat} (hz : off = fun _ => 0) (v : View sig κ sp S e)
    (inb : ∀ a, off a + S.size a ≤ S.size a) (w : S.Idx → Elt F e) :
    v.readCov [(⟨Rect.unit off S.size inb, w⟩ : View.Piece (Elt F) S e)] (Rect.unit off S.size inb).toLoadRect = w :=
  View.readCov_unit_zero v hz inb w

end Whole

/-! ## The step's three fields and the output block, with the reset spelt as a choice -/

section Fields
variable {qi ki : BitVec 32} {C : Prop} {dC : Decidable C}

theorem step_m_ite (hC : C ↔ isFirst ki) (q k v : Vec F S1x256x1024 .bf16) (s : Scr F) :
    k1_pay5 (k1_pay12 qi ki q k (@ite _ C dC k1_pay7 s.m)) = (step qi ki q k v s).m := by
  by_cases h : C
  · simp only [step, start, reset, if_pos h, if_pos (hC.mp h)]
  · simp only [step, start, reset, if_neg h, if_neg (mt hC.mpr h)]

theorem step_l_ite (hC : C ↔ isFirst ki) (q k v : Vec F S1x256x1024 .bf16) (s : Scr F) :
    k1_pay3 (k1_pay11 qi ki q k) (@ite _ C dC k1_pay7 s.m) (k1_pay12 qi ki q k (@ite _ C dC k1_pay7 s.m)) (@ite _ C dC k1_pay8 s.l)
      = (step qi ki q k v s).l := by
  by_cases h : C
  · simp only [step, start, reset, if_pos h, if_pos (hC.mp h)]
  · simp only [step, start, reset, if_neg h, if_neg (mt hC.mpr h)]

theorem step_acc_ite (hC : C ↔ isFirst ki) (q k v : Vec F S1x256x1024 .bf16) (s : Scr F) :
    k1_pay4 (k1_pay10 v) (k1_pay11 qi ki q k) (@ite _ C dC k1_pay7 s.m) (k1_pay12 qi ki q k (@ite _ C dC k1_pay7 s.m)) (@ite _ C dC k1_pay9 s.acc)
      = (step qi ki q k v s).acc := by
  by_cases h : C
  · simp only [step, start, reset, if_pos h, if_pos (hC.mp h)]
  · simp only [step, start, reset, if_neg h, if_neg (mt hC.mpr h)]

theorem out_ite (hC : C ↔ isFirst ki) {C2 : Prop} {d2 : Decidable C2} (q k v xo : Vec F S1x256x1024 .bf16) (s : Scr F) :
    @ite _ C2 d2
        (k1_pay6
          (k1_pay4 (k1_pay10 v) (k1_pay11 qi ki q k) (@ite _ C dC k1_pay7 s.m) (k1_pay12 qi ki q k (@ite _ C dC k1_pay7 s.m)) (@ite _ C dC k1_pay9 s.acc))
          (k1_pay3 (k1_pay11 qi ki q k) (@ite _ C dC k1_pay7 s.m) (k1_pay12 qi ki q k (@ite _ C dC k1_pay7 s.m)) (@ite _ C dC k1_pay8 s.l)))
        xo
      = @ite _ C2 d2 (outBlk (step qi ki q k v s)) xo := by
  rw [step_acc_ite hC q k v s, step_l_ite hC q k v s]; rfl

end Fields

/-! ## The body's triple -/

set_option maxHeartbeats 1000000 in
/-- The body at grid coordinates `i`, on whole staging memrefs holding a query block `xq`, a key block `xk`, a value
    block `xv` and an output window at `xo`, the tables held at any shares at contents `xt0`, `xt1`, the carried arrays
    at `s`: it runs to the continuation with the three input windows and the tables as they were, the carried arrays at
    `step qi ki xq xk xv s` (`qi`, `ki` the two words read), and the output window at `outBlk` of that when the key block
    is the query block, untouched otherwise. -/
theorem sound_kernel (c : Dev nD) (E : Set ℕ) (i : grid1.Coords)
    (arg4 arg5 arg6 arg7 : Memref sig .tc .vmem S1x256x1024 .bf16) (harg4 : arg4.IsWhole) (harg5 : arg5.IsWhole) (harg6 : arg6.IsWhole) (harg7 : arg7.IsWhole)
    (xq xk xv xo : Vec F S1x256x1024 .bf16) (q0 q1 : PosShare TreeShare) (xt0 : TbBuf (F := F) c tbM0) (xt1 : TbBuf (F := F) c tbM1) (s : Scr F)
    (K : PUnit → sProp 𝕄) :
    iprop(owns (c : Thread nD τ) arg4 fullShare xq ∗ owns (c : Thread nD τ) arg5 fullShare xk ∗ owns (c : Thread nD τ) arg6 fullShare xv
        ∗ owns (c : Thread nD τ) arg7 fullShare xo
        ∗ tbPt c tbM0 q0 xt0 ∗ tbPt c tbM1 q1 xt1 ∗ scrHeld c s
        ∗ (iprop(owns (c : Thread nD τ) arg4 fullShare xq ∗ owns (c : Thread nD τ) arg5 fullShare xk ∗ owns (c : Thread nD τ) arg6 fullShare xv
            ∗ owns (c : Thread nD τ) arg7 fullShare (if k1_cond2 (wordQ c i xt0) (wordK c i xt1) = 1#1 then outBlk (step (wordQ c i xt0) (wordK c i xt1) xq xk xv s) else xo)
            ∗ tbPt c tbM0 q0 xt0 ∗ tbPt c tbM1 q1 xt1 ∗ scrHeld c (step (wordQ c i xt0) (wordK c i xt1) xq xk xv s)) -∗ K ⟨⟩))
      ⊢ wp frame (wpE (defs₀ (F := F)) Variants.none c none) E (cc1__attn_kernel i (Memref.whole main_c) (Memref.isWhole_whole _) (Memref.whole main_c_0) (Memref.isWhole_whole _) arg4 harg4 arg5 harg5 arg6 harg6 arg7 harg7 (Memref.whole cc1_scratch0) (Memref.isWhole_whole _) (Memref.whole cc1_scratch1) (Memref.isWhole_whole _) (Memref.whole cc1_scratch2) (Memref.isWhole_whole _)) K := by
  simp only [cc1__attn_kernel_eq_skeleton]; unfold cc1__attn_kernel_skel
  simp only [k1_part1_eq_skeleton]; unfold k1_part1_skel
  unfold scrHeld owns
  iintro ⟨⟨%f4, %hf4, H4⟩, ⟨%f5, %hf5, H5⟩, ⟨%f6, %hf6, H6⟩, ⟨%f7, %hf7, H7⟩, HT0, HT1, ⟨⟨%f8, %hf8, H8⟩, ⟨%f9, %hf9, H9⟩, ⟨%f10, %hf10, H10⟩⟩, Hk⟩
  obtain rfl := harg4.eq_unread hf4; obtain rfl := harg5.eq_unread hf5; obtain rfl := harg6.eq_unread hf6; obtain rfl := harg7.eq_unread hf7
  sl_exec
  sl_step
  sl_unfold_words
  iapply Hk
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr
    swap; · iexact H7
    ipureintro
    simp only [readAt_whole (S := S1x256x1024) hz3, readAt_whole (S := S16x256x1) hz3, readAt_whole (S := S16x256x64) hz3,
      read_ite_store_whole (S := S1x256x1024) hz3, read_ite_store_whole (S := S16x256x1) hz3, read_ite_store_whole (S := S16x256x64) hz3,
      readCov_whole (S := S16x256x1) hz3, readCov_whole (S := S16x256x64) hz3, hf4, hf5, hf6, hf7, hf8, hf9, hf10]
    exact out_ite Iff.rfl _ _ _ _ _
  isplitl [HT0]; · iexact HT0
  isplitl [HT1]; · iexact HT1
  isplitl [H8]
  · iexists _; isplitr
    swap; · iexact H8
    ipureintro
    refine (read_store_whole (S := S16x256x1) hz3 _ _ _ _).trans ?_
    simp only [readAt_whole (S := S1x256x1024) hz3, readAt_whole (S := S16x256x1) hz3,
      read_ite_store_whole (S := S16x256x1) hz3, hf4, hf5, hf8]
    exact step_m_ite Iff.rfl _ _ _ _
  isplitl [H9]
  · iexists _; isplitr
    swap; · iexact H9
    ipureintro
    refine (read_store_whole (S := S16x256x1) hz3 _ _ _ _).trans ?_
    simp only [readAt_whole (S := S1x256x1024) hz3, readAt_whole (S := S16x256x1) hz3,
      read_ite_store_whole (S := S16x256x1) hz3, hf4, hf5, hf8, hf9]
    exact step_l_ite Iff.rfl _ _ _ _
  · iexists _; isplitr
    swap; · iexact H10
    ipureintro
    refine (read_store_whole (S := S16x256x64) hz3 _ _ _ _).trans ?_
    simp only [readAt_whole (S := S1x256x1024) hz3, readAt_whole (S := S16x256x1) hz3, readAt_whole (S := S16x256x64) hz3,
      read_ite_store_whole (S := S16x256x1) hz3, read_ite_store_whole (S := S16x256x64) hz3, hf4, hf5, hf6, hf8, hf10]
    exact step_acc_ite Iff.rfl _ _ _ _

end Cert.Kernel.Reg1

end
-- ==== Proof.K.Reg1Body.lean ====
import proofs.«148066_j74620761800951_2_alg».proof.Proof.K.Reg1
import proofs.«148066_j74620761800951_2_alg».proof.Proof.K.Reg1Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The staging memrefs and the body at a point -/

/-- The current staging memref of each window at point `t`. -/
abbrev st_0 (t : Fin (cfgM (F := F)).N) : Memref sig .tc .vmem S1x256x1024 .bf16 := spec1_0.stage ((cfgM (F := F)).slots t 0)
abbrev st_1 (t : Fin (cfgM (F := F)).N) : Memref sig .tc .vmem S1x256x1024 .bf16 := spec1_1.stage ((cfgM (F := F)).slots t 1)
abbrev st_2 (t : Fin (cfgM (F := F)).N) : Memref sig .tc .vmem S1x256x1024 .bf16 := spec1_2.stage ((cfgM (F := F)).slots t 2)
abbrev st_3 (t : Fin (cfgM (F := F)).N) : Memref sig .tc .vmem S1x256x1024 .bf16 := spec1_3.stage ((cfgM (F := F)).slots t 3)
abbrev hst_0 (t : Fin (cfgM (F := F)).N) : (st_0 (F := F) t).IsWhole := hstage1_0 (((cfgM (F := F)).slots t 0).cast nbuf1_0)
abbrev hst_1 (t : Fin (cfgM (F := F)).N) : (st_1 (F := F) t).IsWhole := hstage1_1 (((cfgM (F := F)).slots t 1).cast nbuf1_1)
abbrev hst_2 (t : Fin (cfgM (F := F)).N) : (st_2 (F := F) t).IsWhole := hstage1_2 (((cfgM (F := F)).slots t 2).cast nbuf1_2)
abbrev hst_3 (t : Fin (cfgM (F := F)).N) : (st_3 (F := F) t).IsWhole := hstage1_3 (((cfgM (F := F)).slots t 3).cast nbuf1_3)

/-- The kernel body at point `t`, on what the pipeline calls it with. -/
abbrev bodyAt (t : Fin (cfgM (F := F)).N) : Prog (TpuEff nD τ sig (Elt F) Λ₀ .tc) PUnit :=
  cc1__attn_kernel (grid1.coords t) (Memref.whole main_c) (Memref.isWhole_whole _) (Memref.whole main_c_0) (Memref.isWhole_whole _)
    (spec1_0.stage ((cfgM (F := F)).slots t 0)) (hstage1_0 (((cfgM (F := F)).slots t 0).cast nbuf1_0))
    (spec1_1.stage ((cfgM (F := F)).slots t 1)) (hstage1_1 (((cfgM (F := F)).slots t 1).cast nbuf1_1))
    (spec1_2.stage ((cfgM (F := F)).slots t 2)) (hstage1_2 (((cfgM (F := F)).slots t 2).cast nbuf1_2))
    (spec1_3.stage ((cfgM (F := F)).slots t 3)) (hstage1_3 (((cfgM (F := F)).slots t 3).cast nbuf1_3))
    (Memref.whole cc1_scratch0) (Memref.isWhole_whole _) (Memref.whole cc1_scratch1) (Memref.isWhole_whole _)
    (Memref.whole cc1_scratch2) (Memref.isWhole_whole _)

theorem bodyAt_eq (t : Fin (cfgM (F := F)).N) :
    (defs₀ (F := F)) .tc (cfgM (F := F)).body ((cfgM (F := F)).bodyArgs t ((cfgM (F := F)).slots t)) = bodyAt (F := F) t := rfl

/-! ## The input windows hold their blocks -/

theorem after_0 (c : Dev nD) (t : Fin (cfgM (F := F)).N) : (dat V c).after 0 t = iblk V c 0 t := by dsimp only [dat]; rfl
theorem after_1 (c : Dev nD) (t : Fin (cfgM (F := F)).N) : (dat V c).after 1 t = iblk V c 1 t := by dsimp only [dat]; rfl
theorem after_2 (c : Dev nD) (t : Fin (cfgM (F := F)).N) : (dat V c).after 2 t = iblk V c 2 t := by dsimp only [dat]; rfl
theorem after_3 (c : Dev nD) (t : Fin (cfgM (F := F)).N) : (dat V c).after 3 t = outBlk (scrAt V c (t.val + 1)) := by dsimp only [dat]; rfl

theorem before_0 (c : Dev nD) (t : Fin (cfgM (F := F)).N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin (cfgM (F := F)).N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin (cfgM (F := F)).N) (d) : (dat V c).before 2 t d = iblk V c 2 t :=
  ((dat V c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)

/-! ## The invariant at a point -/

/-- The two tables, held whole, one by one. -/
theorem prefHeld_eq (c : Dev nD) :
    (Pipeline.prefHeld (Ix := Unit) (Name := ℕ) (U := UR sig nD τ) (Lvl := ℕ) pre1 c (fun _ => fullShare) (tbl (F := F)) : sProp 𝕄)
      = iprop((((c : Thread nD τ).loc main_c) ↦{fullShare} (tbl (F := F) 0)) ∗ (((c : Thread nD τ).loc main_c_0) ↦{fullShare} (tbl (F := F) 1))) := by
  unfold Pipeline.prefHeld
  rw [show (Finset.univ : Finset (Fin 2)) = insert (0 : Fin 2) {(1 : Fin 2)} from by decide,
    bigSep_insert (by decide), bigSep_singleton]
  rfl

theorem Phi_castSucc (c : Dev nD) (t : Fin (cfgM (F := F)).N) : (dat V c).Φ t.castSucc = Phi V c t.val := by
  dsimp only [dat]; simp only [Fin.coe_castSucc]
theorem Phi_succ (c : Dev nD) (t : Fin (cfgM (F := F)).N) : (dat V c).Φ t.succ = Phi V c (t.val + 1) := by
  dsimp only [dat]; simp only [Fin.val_succ]

/-- The trajectory one point on. -/
theorem scrAt_succ (c : Dev nD) (t : Fin (cfgM (F := F)).N) :
    scrAt V c (t.val + 1) = step (qiW t) (kiW t) (iblk V c 0 t) (iblk V c 1 t) (iblk V c 2 t) (scrAt V c t.val) := by
  rw [scrAt, dif_pos t.isLt]

/-- The carried arrays after point `t`, from any contents before it that are the trajectory's unless `t` is the first point. -/
theorem step_eq_scrAt (c : Dev nD) (t : Fin (cfgM (F := F)).N) (s : Scr F) (hs : t.val ≠ 0 → s = scrAt V c t.val) :
    step (qiW t) (kiW t) (iblk V c 0 t) (iblk V c 1 t) (iblk V c 2 t) s = scrAt V c (t.val + 1) := by
  rw [scrAt_succ]
  by_cases h0 : t.val = 0
  · have hk : isFirst (kiW t) := by
      show isFirst (kiN t.val); rw [h0]; exact first_zero
    exact step_of_first hk _ _ _ _ _
  · rw [hs h0]

/-! ## What the obligation asks of each window's buffer after the body -/

theorem live_0 (t : Fin (cfgM (F := F)).N) : (cfgM (F := F)).idle 0 ((cfgM (F := F)).grid.coords t) = false := rfl
theorem live_1 (t : Fin (cfgM (F := F)).N) : (cfgM (F := F)).idle 1 ((cfgM (F := F)).grid.coords t) = false := rfl
theorem live_2 (t : Fin (cfgM (F := F)).N) : (cfgM (F := F)).idle 2 ((cfgM (F := F)).grid.coords t) = false := rfl

theorem leaves_0 (c : Dev nD) (t : Fin (cfgM (F := F)).N) :
    (dat V c).leavesExact 0 t = owns (c : Thread nD τ) (st_0 (F := F) t) fullShare (iblk V c 0 t) := by
  unfold Dat.leavesExact; rw [live_0 t, after_0]; rfl
theorem leaves_1 (c : Dev nD) (t : Fin (cfgM (F := F)).N) :
    (dat V c).leavesExact 1 t = owns (c : Thread nD τ) (st_1 (F := F) t) fullShare (iblk V c 1 t) := by
  unfold Dat.leavesExact; rw [live_1 t, after_1]; rfl
theorem leaves_2 (c : Dev nD) (t : Fin (cfgM (F := F)).N) :
    (dat V c).leavesExact 2 t = owns (c : Thread nD τ) (st_2 (F := F) t) fullShare (iblk V c 2 t) := by
  unfold Dat.leavesExact; rw [live_2 t, after_2]; rfl

/-- At a point whose key block is its query block the output window is stored: the obligation asks the output block. -/
theorem leaves_3_live (c : Dev nD) (t : Fin (cfgM (F := F)).N) (hc : k1_cond2 (qiW t) (kiW t) = 1#1) :
    (dat V c).leavesExact 3 t = owns (c : Thread nD τ) (st_3 (F := F) t) fullShare (outBlk (scrAt V c (t.val + 1))) := by
  have hi : (cfgM (F := F)).idle 3 ((cfgM (F := F)).grid.coords t) = false := by rw [idle_3 t, hc]; rfl
  unfold Dat.leavesExact; rw [hi, after_3]; rfl

/-- At the other points the output window is idle and not written back: the obligation asks the buffer as it was found. -/
theorem leaves_3_idle (c : Dev nD) (t : Fin (cfgM (F := F)).N) (hc : ¬ k1_cond2 (qiW t) (kiW t) = 1#1) :
    (dat V c).leavesExact 3 t = iprop(∃ d, owns (c : Thread nD τ) (st_3 (F := F) t) fullShare ((dat V c).before 3 t d)) := by
  have hi : (cfgM (F := F)).idle 3 ((cfgM (F := F)).grid.coords t) = true := by
    rw [idle_3 t]; simp only [Bool.not_eq_true', beq_eq_false_iff_ne, ne_eq]; exact hc
  have hf : ((cfgM (F := F)).win 3).flush t = false := Bool.eq_false_iff.mpr fun h => hc ((flush_3 t).mp h)
  exact Dat.leavesExact_idle (dat V c) 3 t hi hf

/-! ## The words the body reads off the tables -/

/-- The word the body loads from the first table at point `t` is the point's query block, -/
theorem wordQ_tbl (c : Dev nD) (t : Fin (cfgM (F := F)).N) : wordQ (F := F) c (grid1.coords t) (tbl (F := F) 0) = qiW t :=
  (rfl : wordQ (F := F) c (grid1.coords t) (tbl (F := F) 0)
    = (tbl (F := F)).at 0 (Rect.unit (s := S36) (k1_off1 (grid1.coords t)) S1.size (k1_off1_inb (grid1.coords t))) numel1_S1).trans (word0_eq t)
/-- and the one from the second its key block. -/
theorem wordK_tbl (c : Dev nD) (t : Fin (cfgM (F := F)).N) : wordK (F := F) c (grid1.coords t) (tbl (F := F) 1) = kiW t :=
  (rfl : wordK (F := F) c (grid1.coords t) (tbl (F := F) 1)
    = (tbl (F := F)).at 1 (Rect.unit (s := S36) (k1_off1 (grid1.coords t)) S1.size (k1_off1_inb (grid1.coords t))) numel1_S1).trans (word1_eq t)

/-! ## The kernel's run at a point of the trajectory -/

/-- At a storing point: from the blocks, the tables and the carried arrays at `s` (the trajectory's value unless the
    point is the first), the body leaves the carried arrays at the trajectory's next value and the output buffer at its
    output block. -/
theorem run_live (c : Dev nD) (t : Fin (cfgM (F := F)).N) (s : Scr F) (hs : t.val ≠ 0 → s = scrAt V c t.val)
    (hc : k1_cond2 (qiW t) (kiW t) = 1#1) (xo : Vec F S1x256x1024 .bf16) (K : PUnit → sProp 𝕄) :
    iprop(owns (c : Thread nD τ) (st_0 (F := F) t) fullShare (iblk V c 0 t) ∗ owns (c : Thread nD τ) (st_1 (F := F) t) fullShare (iblk V c 1 t)
        ∗ owns (c : Thread nD τ) (st_2 (F := F) t) fullShare (iblk V c 2 t) ∗ owns (c : Thread nD τ) (st_3 (F := F) t) fullShare xo
        ∗ (((c : Thread nD τ).loc main_c) ↦{fullShare} (tbl (F := F) 0)) ∗ (((c : Thread nD τ).loc main_c_0) ↦{fullShare} (tbl (F := F) 1))
        ∗ scrHeld c s
        ∗ (iprop(owns (c : Thread nD τ) (st_0 (F := F) t) fullShare (iblk V c 0 t) ∗ owns (c : Thread nD τ) (st_1 (F := F) t) fullShare (iblk V c 1 t)
            ∗ owns (c : Thread nD τ) (st_2 (F := F) t) fullShare (iblk V c 2 t)
            ∗ owns (c : Thread nD τ) (st_3 (F := F) t) fullShare (outBlk (scrAt V c (t.val + 1)))
            ∗ (((c : Thread nD τ).loc main_c) ↦{fullShare} (tbl (F := F) 0)) ∗ (((c : Thread nD τ).loc main_c_0) ↦{fullShare} (tbl (F := F) 1))
            ∗ scrHeld c (scrAt V c (t.val + 1))) -∗ K ⟨⟩))
      ⊢ wp frame (wpE (defs₀ (F := F)) Variants.none c none) Set.univ (bodyAt (F := F) t) K := by
  have h := sound_kernel (F := F) (c := c) (E := Set.univ) (i := grid1.coords t) (arg4 := st_0 (F := F) t) (arg5 := st_1 (F := F) t)
    (arg6 := st_2 (F := F) t) (arg7 := st_3 (F := F) t) (harg4 := hst_0 t) (harg5 := hst_1 t) (harg6 := hst_2 t) (harg7 := hst_3 t)
    (xq := iblk V c 0 t) (xk := iblk V c 1 t) (xv := iblk V c 2 t) (xo := xo) (q0 := fullShare) (q1 := fullShare)
    (xt0 := tbl (F := F) 0) (xt1 := tbl (F := F) 1) (s := s) (K := K)
  rw [wordQ_tbl c t, wordK_tbl c t, if_pos hc, step_eq_scrAt V c t s hs] at h
  exact h

/-- At the other points: the same, the output buffer left as found. -/
theorem run_idle (c : Dev nD) (t : Fin (cfgM (F := F)).N) (s : Scr F) (hs : t.val ≠ 0 → s = scrAt V c t.val)
    (hc : ¬ k1_cond2 (qiW t) (kiW t) = 1#1) (xo : Vec F S1x256x1024 .bf16) (K : PUnit → sProp 𝕄) :
    iprop(owns (c : Thread nD τ) (st_0 (F := F) t) fullShare (iblk V c 0 t) ∗ owns (c : Thread nD τ) (st_1 (F := F) t) fullShare (iblk V c 1 t)
        ∗ owns (c : Thread nD τ) (st_2 (F := F) t) fullShare (iblk V c 2 t) ∗ owns (c : Thread nD τ) (st_3 (F := F) t) fullShare xo
        ∗ (((c : Thread nD τ).loc main_c) ↦{fullShare} (tbl (F := F) 0)) ∗ (((c : Thread nD τ).loc main_c_0) ↦{fullShare} (tbl (F := F) 1))
        ∗ scrHeld c s
        ∗ (iprop(owns (c : Thread nD τ) (st_0 (F := F) t) fullShare (iblk V c 0 t) ∗ owns (c : Thread nD τ) (st_1 (F := F) t) fullShare (iblk V c 1 t)
            ∗ owns (c : Thread nD τ) (st_2 (F := F) t) fullShare (iblk V c 2 t)
            ∗ owns (c : Thread nD τ) (st_3 (F := F) t) fullShare xo
            ∗ (((c : Thread nD τ).loc main_c) ↦{fullShare} (tbl (F := F) 0)) ∗ (((c : Thread nD τ).loc main_c_0) ↦{fullShare} (tbl (F := F) 1))
            ∗ scrHeld c (scrAt V c (t.val + 1))) -∗ K ⟨⟩))
      ⊢ wp frame (wpE (defs₀ (F := F)) Variants.none c none) Set.univ (bodyAt (F := F) t) K := by
  have h := sound_kernel (F := F) (c := c) (E := Set.univ) (i := grid1.coords t) (arg4 := st_0 (F := F) t) (arg5 := st_1 (F := F) t)
    (arg6 := st_2 (F := F) t) (arg7 := st_3 (F := F) t) (harg4 := hst_0 t) (harg5 := hst_1 t) (harg6 := hst_2 t) (harg7 := hst_3 t)
    (xq := iblk V c 0 t) (xk := iblk V c 1 t) (xv := iblk V c 2 t) (xo := xo) (q0 := fullShare) (q1 := fullShare)
    (xt0 := tbl (F := F) 0) (xt1 := tbl (F := F) 1) (s := s) (K := K)
  rw [wordQ_tbl c t, wordK_tbl c t, if_neg hc, step_eq_scrAt V c t s hs] at h
  exact h

/-! ## The body obligation, at a generic point -/

/-- What the body is called with at point `t`, the windows one by one, -/
def bodyPre (c : Dev nD) (t : Fin (cfgM (F := F)).N) : sProp 𝕄 :=
  iprop((dat V c).Φ t.castSucc ∗ (dat V c).owesAt () t.castSucc
    ∗ (∃ d, owns (c : Thread nD τ) (st_0 (F := F) t) fullShare ((dat V c).before 0 t d))
    ∗ (∃ d, owns (c : Thread nD τ) (st_1 (F := F) t) fullShare ((dat V c).before 1 t d))
    ∗ (∃ d, owns (c : Thread nD τ) (st_2 (F := F) t) fullShare ((dat V c).before 2 t d))
    ∗ (∃ d, owns (c : Thread nD τ) (st_3 (F := F) t) fullShare ((dat V c).before 3 t d)))

/-- and what it returns. -/
def bodyPost (c : Dev nD) (t : Fin (cfgM (F := F)).N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

/-- The body at any point: the three input windows hold their blocks; the invariant hands the body the tables and the
    carried arrays at the trajectory's value (at anything at the first point, whose key block is a first one) and takes the
    carried arrays back at the next value; the output window is stored where the key block is the query block and is
    handed back as found elsewhere; the rest of the invariant and the core's debts pass through unread. -/
theorem sound_body (c : Dev nD) (t : Fin (cfgM (F := F)).N) :
    bodyPre V c t ⊢ wp frame (wpE (defs₀ (F := F)) Variants.none c none) Set.univ (bodyAt (F := F) t) (fun _ => bodyPost V c t) := by
  unfold bodyPre bodyPost
  simp only [before_0, before_1, before_2]
  rw [show (dat V c).owesAt () t.succ = (dat V c).owesAt () t.castSucc from rfl, Phi_castSucc, Phi_succ,
    leaves_0, leaves_1, leaves_2]
  unfold Phi
  rw [prefHeld_eq]
  by_cases hc : k1_cond2 (qiW t) (kiW t) = 1#1
  · rw [leaves_3_live V c t hc]
    iintro ⟨⟨HR, ⟨HT0, HT1⟩, ⟨%s, %hs, HS⟩⟩, Ho, ⟨%d0, H0⟩, ⟨%d1, H1⟩, ⟨%d2, H2⟩, ⟨%d3, H3⟩⟩
    iapply (run_live V c t s hs hc _ _)
    isplitl [H0]; · iexact H0
    isplitl [H1]; · iexact H1
    isplitl [H2]; · iexact H2
    isplitl [H3]; · iexact H3
    isplitl [HT0]; · iexact HT0
    isplitl [HT1]; · iexact HT1
    isplitl [HS]; · iexact HS
    iintro ⟨H0, H1, H2, H3, HT0, HT1, HS⟩
    isplitl [HR HT0 HT1 HS]
    · isplitl [HR]; · iexact HR
      isplitl [HT0 HT1]
      · isplitl [HT0]; · iexact HT0
        iexact HT1
      iexists (scrAt V c (t.val + 1))
      isplitr; · ipureintro; intro _; rfl
      iexact HS
    isplitl [Ho]; · iexact Ho
    isplitl [H0]; · iexact H0
    isplitl [H1]; · iexact H1
    isplitl [H2]; · iexact H2
    iexact H3
  · rw [leaves_3_idle V c t hc]
    iintro ⟨⟨HR, ⟨HT0, HT1⟩, ⟨%s, %hs, HS⟩⟩, Ho, ⟨%d0, H0⟩, ⟨%d1, H1⟩, ⟨%d2, H2⟩, ⟨%d3, H3⟩⟩
    iapply (run_idle V c t s hs hc _ _)
    isplitl [H0]; · iexact H0
    isplitl [H1]; · iexact H1
    isplitl [H2]; · iexact H2
    isplitl [H3]; · iexact H3
    isplitl [HT0]; · iexact HT0
    isplitl [HT1]; · iexact HT1
    isplitl [HS]; · iexact HS
    iintro ⟨H0, H1, H2, H3, HT0, HT1, HS⟩
    isplitl [HR HT0 HT1 HS]
    · isplitl [HR]; · iexact HR
      isplitl [HT0 HT1]
      · isplitl [HT0]; · iexact HT0
        iexact HT1
      iexists (scrAt V c (t.val + 1))
      isplitr; · ipureintro; intro _; rfl
      iexact HS
    isplitl [Ho]; · iexact Ho
    isplitl [H0]; · iexact H0
    isplitl [H1]; · iexact H1
    isplitl [H2]; · iexact H2
    iexists d3; iexact H3

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Reg1

end
-- ==== Proof.K.Run.lean ====
import proofs.«148066_j74620761800951_2_alg».proof.Proof.K.RunVals
import proofs.«148066_j74620761800951_2_alg».proof.Proof.K.RunW4
import proofs.«148066_j74620761800951_2_alg».proof.Proof.K.RunReg1
import proofs.«148066_j74620761800951_2_alg».proof.Proof.K.Reg1Inv
import proofs.«148066_j74620761800951_2_alg».proof.Proof.K.Reg1Body
import proofs.«148066_j74620761800951_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ)

/-! # The program's run, segment by segment, and what its last contents hold -/

/-! ## The two matmul calls' exit contents -/

theorem W2_arr (c : Dev nD) (w : Fin cfg0.W) :
    W2 m c (Proc.devRef .tc (Pipeline.arrRef spec0 w)) = (Reg0.dat (V1 m) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- At the call's exit each of its arrays holds what the pipeline leaves and every other buffer what it held at entry. -/
theorem hF0 (c : Dev nD) (w : Fin cfg0.W) : (Reg0.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W6_arr (c : Dev nD) (w : Fin cfg2.W) :
    W6 m c (Proc.devRef .tc (Pipeline.arrRef spec2 w)) = (Reg2.dat (V5 m) c).arrAt w cfg2.N := by
  unfold W6; exact Pipeline.withArrays_arr spec2 (launch2 (F := F)).win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- At the call's exit each of its arrays holds what the pipeline leaves and every other buffer what it held at entry. -/
theorem hF2 (c : Dev nD) (w : Fin cfg2.W) : (Reg2.dat (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## The regions as segments -/

set_option backward.isDefEq.respectTransparency.types false in
/-- The projection call over the thread state: entered from every unscoped buffer at `W1`, left at
    `W2`. Its arrays split out of the unscoped buffers and put back at the exit contents; the random-number
    register into the invariant and out; nothing owed; no semaphore of the kernel's own. -/
def reg0 : Pipeline.RegionSeg (pcfgs (F := F)) adm (pdats m) () defs₀ Variants.none L lv 0 where
  win := (launch0 (F := F)).win.to₀
  block_pos := (launch0 (F := F)).block_pos
  stage_whole := (launch0 (F := F)).stage_whole
  K := PEmpty
  osem k := k.elim
  ho := Pipeline.OwnSemFacts.none _
  hbody c := (Reg0.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) (launch0 (F := F)).win (launch0 (F := F)).arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      (launch0 (F := F)).win (launch0 (F := F)).arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call over the thread state: entered from every unscoped buffer at `W3`, left at `W4`. The
    random-number register and the two tables enter the invariant and come back; the buffers that are neither an
    array of the call nor a table bypass it; nothing owed; no semaphore of the kernel's own. -/
def reg1 : Pipeline.RegionSeg (pcfgs (F := F)) adm (pdats m) () defs₀ Variants.none L lv 1 where
  win := winFacts₀1
  block_pos := block_pos1
  stage_whole := stage_whole1
  K := PEmpty
  osem k := k.elim
  ho := Pipeline.OwnSemFacts.none _
  hbody c := (Reg1.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop((∃ r, prngReg c r) ∗ Pipeline.prefHeld (Ix := Unit) (Name := ℕ) (U := UR sig nD τ) (Lvl := ℕ) pre1 c (fun _ => fullShare) (Reg1.tbl (F := F)))
  Z c := Pipeline.unscopedRestP (Ix := Unit) (Name := ℕ) (U := UR sig nD τ) (Lvl := ℕ) pre1 spec1 c (V3 m c)
  hentry c := entry1 m c
  hin c := Reg1.Phi_in (V3 m) c
  hout c := by
    rw [Pipeline.ownSems0_none]
    refine (Reg1.Phi_out (V3 m) c).trans ?_
    iintro ⟨HY, Hs⟩
    isplitl [HY]; · iexact HY
    isplitr; · iempintro
    iexact Hs
  hexit c := exit1 m c

set_option backward.isDefEq.respectTransparency.types false in
/-- The output-projection call over the thread state: entered from every unscoped buffer at `W5`, left at
    `W6`. Its arrays split out of the unscoped buffers and put back at the exit contents; the random-number
    register into the invariant and out; nothing owed; no semaphore of the kernel's own. -/
def reg2 : Pipeline.RegionSeg (pcfgs (F := F)) adm (pdats m) () defs₀ Variants.none L lv 2 where
  win := (launch2 (F := F)).win.to₀
  block_pos := (launch2 (F := F)).block_pos
  stage_whole := (launch2 (F := F)).stage_whole
  K := PEmpty
  osem k := k.elim
  ho := Pipeline.OwnSemFacts.none _
  hbody c := (Reg2.body_obligation (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) (launch2 (F := F)).win (launch2 (F := F)).arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      (launch2 (F := F)).win (launch2 (F := F)).arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The host stretches as segments -/

/-- A host stretch as a segment over the unscoped references from the contents `W`, `R` riding along: it ends at
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every unscoped buffer at the last boundary's contents, the
    random-number register at some state. -/
abbrev Tₙ (c : Dev nD) : sProp 𝕄 := iprop(StableHlo.held (c : Thread nD τ) (Pipeline.ucRefs τ sig) (W7 m c) ∗ ∃ r, prngReg c r)

/-! ## The program as segments, and the launch -/

/-- The program's seven segments in order: a host segment per stretch from its boundary's contents, a region per call. -/
abbrev segs : List (Pipeline.Seg (pcfgs (F := F)) adm (pdats m) () defs₀ Variants.none L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

/-- The program IS the run of the segments. -/
theorem main_run (c : Dev nD) : main (F := F) c = Pipeline.Seg.run (segs m) :=
  main_segs adm (pdats m) () Variants.none L lv _ _ _ _ (reg0 m) (reg1 m) (reg2 m) rfl rfl rfl rfl c

set_option backward.isDefEq.respectTransparency.types false in
/-- THE RUN. From any memory with zero counters, every weakly fair execution of the program on the TensorCores
    terminates, nothing faulting, and in every final state each core's unscoped buffers hold the last boundary's
    contents `W7`. -/
theorem run (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W7 m c b) :=
  Pipeline.θ_run_regions_kit (pcfgs (F := F)) adm (pdats m) () (cellOf_inj adm) emb₁ defs₀ Variants.none L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) (cellOf_inj adm)) (Pipeline.launchToks (Pipeline.pin (pcfgs (F := F)) adm) (cellOf_inj adm)))
    (hu₀ := by
      iintro Hu; imodintro
      isplitl [Hu]
      · iapply (show (ownU (initOf (Pipeline.cells (Pipeline.pin (pcfgs (F := F)) adm) (cellOf_inj adm)) (Pipeline.launchToks (Pipeline.pin (pcfgs (F := F)) adm) (cellOf_inj adm))) : sProp 𝕄)
            ⊢ BI.own (emb₁ (initOf (Pipeline.cells (Pipeline.pin (pcfgs (F := F)) adm) (cellOf_inj adm)) (Pipeline.launchToks (Pipeline.pin (pcfgs (F := F)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-! ## What the last contents hold

The arguments end as launched: no host stretch writes one, and no call has one for an array. The result buffer is
the last reshape of what the output-projection call leaves in its output's array. -/

theorem W7_of (c : Dev nD) (r : Ref sig .tc) (h : r ∉ hostOps3_W) : W7 m c (Proc.devRef .tc r) = W6 m c (Proc.devRef .tc r) :=
  StableHlo.after_of_writes_sub hostOps3 _ hostOps3_writes h
theorem W5_of (c : Dev nD) (r : Ref sig .tc) (h : r ∉ hostOps2_W) : W5 m c (Proc.devRef .tc r) = W4 m c (Proc.devRef .tc r) :=
  StableHlo.after_of_writes_sub hostOps2 _ hostOps2_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W1_of (c : Dev nD) (r : Ref sig .tc) (h : r ∉ hostOps0_W) : W1 m c (Proc.devRef .tc r) = W0 m c (Proc.devRef .tc r) :=
  StableHlo.after_of_writes_sub hostOps0 _ hostOps0_writes h

/-- A buffer no host stretch writes and no call has for an array ends as launched. -/
theorem W7_of_untouched (c : Dev nD) (r : Ref sig .tc) (h3 : r ∉ hostOps3_W) (h2 : r ∉ hostOps2_W) (h1 : r ∉ hostOps1_W)
    (h0 : r ∉ hostOps0_W) (ha0 : ∀ w, Pipeline.arrRef spec0 w ≠ r) (ha1 : ∀ w, Pipeline.arrRef spec1 w ≠ r)
    (ha2 : ∀ w, Pipeline.arrRef spec2 w ≠ r) :
    W7 m c (Proc.devRef .tc r) = m ((c : Thread nD τ).loc r) :=
  (W7_of m c r h3).trans <| (W6_of_ne m c r ha2).trans <| (W5_of m c r h2).trans <| (W4_of_ne m c r ha1).trans <|
    (W3_of m c r h1).trans <| (W2_of_ne m c r ha0).trans <| (W1_of m c r h0).trans rfl

theorem W7_main_arg0 (c : Dev nD) : W7 m c (Proc.devRef .tc main_arg0) = m ((c : Thread nD τ).loc main_arg0) :=
  W7_of_untouched m c main_arg0 (by decide) (by decide) (by decide) (by decide) (by decide) (by decide) (by decide)
theorem W7_main_arg1 (c : Dev nD) : W7 m c (Proc.devRef .tc main_arg1) = m ((c : Thread nD τ).loc main_arg1) :=
  W7_of_untouched m c main_arg1 (by decide) (by decide) (by decide) (by decide) (by decide) (by decide) (by decide)
theorem W7_main_arg2 (c : Dev nD) : W7 m c (Proc.devRef .tc main_arg2) = m ((c : Thread nD τ).loc main_arg2) :=
  W7_of_untouched m c main_arg2 (by decide) (by decide) (by decide) (by decide) (by decide) (by decide) (by decide)

/-- The output-projection call's output array ends at what its pipeline leaves in it. -/
theorem W6_main_v10 (c : Dev nD) :
    W6 m c (Proc.devRef .tc main_v10) = (Reg2.dat (V5 m) c).arrAt 2 cfg2.N :=
  W6_arr m c 2

/-- The result buffer is that array, reshaped. -/
theorem W7_main_v11 (c : Dev nD) :
    W7 m c (Proc.devRef .tc main_v11)
      = fun i => shapeCast S2x2048x1024 (W6 m c (Proc.devRef .tc main_v10)) shapeCasts_S4096x1024_S2x2048x1024 i := by
  show StableHlo.after hostOps3 (W6 m c) (Proc.devRef .tc main_v11) = _
  after_results
  rfl

end Cert.Kernel.Run

end
-- ==== Proof.AttnSpec.lean ====
/-
  The mathematics both programs compute, written once over the extended reals, index by index, as a
  function of the three argument arrays: a fused projection `qkv = x · w_qkvᵀ`, causal soft-max attention
  per head over the three thirds of `qkv`, and an output projection `· w_oᵀ`.

  A row of scores is `(q · k) · 1/8` at the positions `n ≤ s` and `-∞` after them; the soft-max of a row is
  `exp (score - M) / L` with `M` the row's maximum (the fold of `max` from `-∞`) and `L` the row's sum of
  `exp (score - M)`; the attention output is the weighted sum of the value rows.
-/
import Idealize.ShloMosaic.PureOps.Ideal
import Idealize.ShloMosaic.Lib.ValueIdx

noncomputable section

open scoped BigOperators

namespace Cert.AttnSpec

open Idealize.ShloMosaic Idealize.ShloMosaic.ValueIdx

/-- The three argument arrays as functions of their indices. -/
abbrev XArr : Type := (⟨3, ![2, 2048, 1024]⟩ : Shape).Idx → EReal
abbrev WqkvArr : Type := (⟨2, ![3072, 1024]⟩ : Shape).Idx → EReal
abbrev WoArr : Type := (⟨2, ![1024, 1024]⟩ : Shape).Idx → EReal

/-- Column `64 h + e` of the query third, of the key third (offset 1024) and of the value third (offset 2048)
    of the fused projection, and column `64 h + e` of the model dimension. -/
def qcol (h : Fin 16) (e : Fin 64) : Fin 3072 := ⟨64 * h.val + e.val, by omega⟩
def kcol (h : Fin 16) (e : Fin 64) : Fin 3072 := ⟨1024 + 64 * h.val + e.val, by omega⟩
def vcol (h : Fin 16) (e : Fin 64) : Fin 3072 := ⟨2048 + 64 * h.val + e.val, by omega⟩
def dcol (h : Fin 16) (e : Fin 64) : Fin 1024 := ⟨64 * h.val + e.val, by omega⟩

/-- The scale `1/8 = 1/√64`, as the f32 word `0.125`. -/
def scale : EReal := Ideal.ofBits .f32 0x3E000000#32

/-- The fused projection: `qkv[b, s, o] = ∑ d, x[b, s, d] · w_qkv[o, d]`. -/
def qkv (x : XArr) (w : WqkvArr) (b : Fin 2) (s : Fin 2048) (o : Fin 3072) : EReal :=
  ∑ d : Fin 1024, x (ix3 b s d) * w (ix2 o d)

/-- The causal score of query position `s` against key position `n` in head `h`. -/
def score (x : XArr) (w : WqkvArr) (b : Fin 2) (h : Fin 16) (s n : Fin 2048) : EReal :=
  if n.val ≤ s.val then (∑ e : Fin 64, qkv x w b s (qcol h e) * qkv x w b n (kcol h e)) * scale else ⊥

/-- A row's maximum, the fold of `max` from `-∞`. -/
def rowMax (x : XArr) (w : WqkvArr) (b : Fin 2) (h : Fin 16) (s : Fin 2048) : EReal :=
  (Finset.univ : Finset (Fin 2048)).fold max ⊥ (fun n => score x w b h s n)

/-- The unnormalised weights and their sum. -/
def expo (x : XArr) (w : WqkvArr) (b : Fin 2) (h : Fin 16) (s n : Fin 2048) : EReal :=
  Ideal.exp (score x w b h s n - rowMax x w b h s)
def rowSum (x : XArr) (w : WqkvArr) (b : Fin 2) (h : Fin 16) (s : Fin 2048) : EReal :=
  ∑ n : Fin 2048, expo x w b h s n

/-- The attention output of head `h`, position `s`, feature `e`: the soft-max weights against the value rows. -/
def headOut (x : XArr) (w : WqkvArr) (b : Fin 2) (h : Fin 16) (s : Fin 2048) (e : Fin 64) : EReal :=
  ∑ n : Fin 2048, Ideal.div (expo x w b h s n) (rowSum x w b h s) * qkv x w b n (vcol h e)

/-- The heads laid side by side along the model dimension: column `d` is feature `d % 64` of head `d / 64`. -/
def attn (x : XArr) (w : WqkvArr) (b : Fin 2) (s : Fin 2048) (d : Fin 1024) : EReal :=
  headOut x w b ⟨d.val / 64, by omega⟩ s ⟨d.val % 64, by omega⟩

/-- The result: `out[b, s, o] = ∑ d, attn[b, s, d] · w_o[o, d]`. -/
def out (x : XArr) (w : WqkvArr) (wo : WoArr) : (⟨3, ![2, 2048, 1024]⟩ : Shape).Idx → EReal :=
  fun i => ∑ d : Fin 1024, attn x w (i 0) (i 1) d * wo (ix2 (i 2) d)

end Cert.AttnSpec

end
-- ==== Proof.AttnSpecG.lean ====
/-
  The attention stage of the specification stated over ANY array `g` in place of the fused projection: the same
  scores, maxima, weights and weighted sums, reading `g[b, s, 64 h + e]`, `g[b, n, 1024 + 64 h + e]`,
  `g[b, n, 2048 + 64 h + e]` for the query, key and value features. At `g := qkv x w` it is the specification's.
-/
import proofs.«148066_j74620761800951_2_alg».proof.Proof.AttnSpec

noncomputable section

open scoped BigOperators

namespace Cert.AttnSpec

open Idealize.ShloMosaic Idealize.ShloMosaic.ValueIdx

abbrev QkvArr : Type := (⟨3, ![2, 2048, 3072]⟩ : Shape).Idx → EReal

def scoreG (g : QkvArr) (b : Fin 2) (h : Fin 16) (s n : Fin 2048) : EReal :=
  if n.val ≤ s.val then (∑ e : Fin 64, g (ix3 b s (qcol h e)) * g (ix3 b n (kcol h e))) * scale else ⊥
def rowMaxG (g : QkvArr) (b : Fin 2) (h : Fin 16) (s : Fin 2048) : EReal :=
  (Finset.univ : Finset (Fin 2048)).fold max ⊥ (fun n => scoreG g b h s n)
def expoG (g : QkvArr) (b : Fin 2) (h : Fin 16) (s n : Fin 2048) : EReal :=
  Ideal.exp (scoreG g b h s n - rowMaxG g b h s)
def rowSumG (g : QkvArr) (b : Fin 2) (h : Fin 16) (s : Fin 2048) : EReal :=
  ∑ n : Fin 2048, expoG g b h s n
def headOutG (g : QkvArr) (b : Fin 2) (h : Fin 16) (s : Fin 2048) (e : Fin 64) : EReal :=
  ∑ n : Fin 2048, Ideal.div (expoG g b h s n) (rowSumG g b h s) * g (ix3 b n (vcol h e))
def attnG (g : QkvArr) (b : Fin 2) (s : Fin 2048) (d : Fin 1024) : EReal :=
  headOutG g b ⟨d.val / 64, by omega⟩ s ⟨d.val % 64, by omega⟩

/-- The fused projection as an array. -/
def qkvArr (x : XArr) (w : WqkvArr) : QkvArr := fun i => qkv x w (i 0) (i 1) (i 2)

theorem scoreG_qkv (x : XArr) (w : WqkvArr) (b : Fin 2) (h : Fin 16) (s n : Fin 2048) :
    scoreG (qkvArr x w) b h s n = score x w b h s n := rfl
theorem rowMaxG_qkv (x : XArr) (w : WqkvArr) (b : Fin 2) (h : Fin 16) (s : Fin 2048) :
    rowMaxG (qkvArr x w) b h s = rowMax x w b h s := rfl
theorem expoG_qkv (x : XArr) (w : WqkvArr) (b : Fin 2) (h : Fin 16) (s n : Fin 2048) :
    expoG (qkvArr x w) b h s n = expo x w b h s n := rfl
theorem rowSumG_qkv (x : XArr) (w : WqkvArr) (b : Fin 2) (h : Fin 16) (s : Fin 2048) :
    rowSumG (qkvArr x w) b h s = rowSum x w b h s := rfl
theorem headOutG_qkv (x : XArr) (w : WqkvArr) (b : Fin 2) (h : Fin 16) (s : Fin 2048) (e : Fin 64) :
    headOutG (qkvArr x w) b h s e = headOut x w b h s e := rfl
/-- At the fused projection the attention stage is the specification's. -/
theorem attnG_qkv (x : XArr) (w : WqkvArr) (b : Fin 2) (s : Fin 2048) (d : Fin 1024) :
    attnG (qkvArr x w) b s d = attn x w b s d := rfl

end Cert.AttnSpec

end
-- ==== Proof.Val0.lean ====
import proofs.«148066_j74620761800951_2_alg».proof.Proof.Reg0
import proofs.«148066_j74620761800951_2_alg».proof.Proof.Gen.KernelIdeal.Launch
import proofs.«148066_j74620761800951_2_alg».proof.Proof.Gen.KernelIdeal.Skeleton
import proofs.«148066_j74620761800951_2_alg».proof.Proof.Gen.KernelIdeal.Points
import Idealize.ShloMosaic.Lib.Pipeline.FrameBody
import Idealize.ShloMosaic.Lib.Pipeline.Value
import Idealize.ShloMosaic.Lib.ValueIdx
import Idealize.ShloMosaic.PureOps.Ideal.Laws

set_option maxRecDepth 16384

noncomputable section

/-!
# Region 0 at the ideal values: the result array as one function of the two operand arrays

At the ideal values the body's one write is, index by index, an inner product of a row of the left block with a
column of the right block. The left operand's block at a point lies on the result's block row and spans the whole
contraction axis; the right operand's block spans the whole contraction axis and lies on the result's block column.
So what each point writes back is its block of the matrix product of the two operand arrays, and the twelve blocks
tile the result: after the region the result array is that product.
-/

namespace Cert.KernelIdeal.Val0

open Cert.KernelIdeal.Gen
open Idealize.ShloMosaic Idealize.ShloMosaic.TcCoe Idealize.SL.Sem
open Idealize.ShloMosaic.ValueIdx
open Idealize.ShloMosaic.Pipeline (Dat)

/-! ## The product's index maps

The block product contracts the left block's second axis with the right block's first axis: the
left operand is read at (row of the result, contraction index), the right operand at (contraction
index, column of the result). -/

theorem lhs_axis0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_axis1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_axis0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_axis1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-! ## The body's value at an index -/

/-- At the ideal values the body's one write, read at row `p` and column `q`, is the inner product of row `p` of
    the left block with column `q` of the right block: the casts to the same shape are the identity, the
    accumulator starts from zero, and the narrowing is the identity on extended reals. -/
theorem pay_apply (x0 x1 : Vec Ideal S1024x1024 .bf16) (p q : Fin 1024) :
    k0_pay1 (F := Ideal) x0 x1 (ix2 p q) = ∑ d : Fin 1024, (x0 (ix2 p d) : EReal) * (x1 (ix2 d q) : EReal) := by
  unfold k0_pay1
  rw [truncf_apply]
  refine (Ideal.matmul_constant_zero_apply dot_S1024x1024_S1024x1024_S1024x1024_1_0_0_1_n_n none _ _ (ix2 p q)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (rhs_axis0 _ _).trans hk
    | ⟨1, _⟩ => exact rhs_axis1 _ _)
  rw [el, er, shapeCast_self, shapeCast_self]

/-! ## From blocks to the array -/

variable (V : (c : Dev nD) → (b : Ref sig .tc) → Buf (Elt Ideal) ((c : Thread nD τ).loc b))

theorem hz : (![0, 0] : Fin 2 → Nat) = fun _ => 0 := funext fun a => by
  match a with
  | ⟨0, _⟩ => rfl
  | ⟨1, _⟩ => rfl

/-- The matrix product of a 4096×1024 array and a 1024×3072 array, index by index. -/
abbrev prod (a : S4096x1024.Idx → EReal) (b : S1024x3072.Idx → EReal) : S4096x3072.Idx → EReal :=
  fun i => ∑ d : Fin 1024, a (ix2 (i 0) d) * b (ix2 d (i 1))

/-- The block indices, decided over the grid: the left operand's block is on the result's block row and spans the
    whole contraction axis; the right operand's block spans the whole contraction axis and is on the result's block
    column; the result's block indices stay in their ranges. -/
theorem idx_facts : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 3
    ∧ win0_2.index t (1 : Fin 2) ≤ 2 :=
  (by decide +kernel : ∀ t : Fin grid0.N, _)

/-- Every block of the result is some point's. -/
theorem idx_onto : ∀ (q0 : Fin 4) (q1 : Fin 3), ∃ t : Fin cfg0.N, win0_2.index t = ![q0.val, q1.val] :=
  (by decide +kernel : ∀ (q0 : Fin 4) (q1 : Fin 3), ∃ t : Fin grid0.N, win0_2.index t = ![q0.val, q1.val])

/-- What the body leaves at point `t`, read at row `p` and column `q` of the block, is the product of the two
    operand arrays at the block's place in the result: row `p` of the left block is the result's row there over the
    whole contraction axis, column `q` of the right block the result's column there. -/
theorem block_apply (a : S4096x1024.Idx → EReal) (b : S1024x3072.Idx → EReal) (t : Fin cfg0.N) (p q : Fin 1024) :
    k0_pay1 (F := Ideal) (((cfg0.win 0).blk t).view.read (Elt Ideal) a) (((cfg0.win 1).blk t).view.read (Elt Ideal) b) (ix2 p q)
      = prod a b (((cfg0.win 2).blk t).view.emb (ix2 p q)) := by
  obtain ⟨e0, e1, e2, e3, e4, e5⟩ := idx_facts t
  rw [pay_apply]
  refine Finset.sum_congr rfl fun d _ => ?_
  show a (((cfg0.win 0).blk t).view.emb (ix2 p d)) * b (((cfg0.win 1).blk t).view.emb (ix2 d q))
    = a (ix2 ((((cfg0.win 2).blk t).view.emb (ix2 p q)) 0) d) * b (ix2 d ((((cfg0.win 2).blk t).view.emb (ix2 p q)) 1))
  have h0 : ((cfg0.win 0).blk t).view.emb (ix2 p d) = ix2 ((((cfg0.win 2).blk t).view.emb (ix2 p q)) 0) d := by
    funext a; apply Fin.ext
    match a with
    | ⟨0, _⟩ => show win0_0.index t (0 : Fin 2) * 1024 + 1 * p.val = win0_2.index t (0 : Fin 2) * 1024 + 1 * p.val; omega
    | ⟨1, _⟩ => show win0_0.index t (1 : Fin 2) * 1024 + 1 * d.val = d.val; omega
  have h1 : ((cfg0.win 1).blk t).view.emb (ix2 d q) = ix2 d ((((cfg0.win 2).blk t).view.emb (ix2 p q)) 1) := by
    funext a; apply Fin.ext
    match a with
    | ⟨0, _⟩ => show win0_1.index t (0 : Fin 2) * 1024 + 1 * d.val = d.val; omega
    | ⟨1, _⟩ => show win0_1.index t (1 : Fin 2) * 1024 + 1 * q.val = win0_2.index t (1 : Fin 2) * 1024 + 1 * q.val; omega
  rw [h0, h1]
  rfl

/-- What point `t` writes back is its block of the product of the operand arrays as the region finds them. -/
theorem flushed_eq (c : Dev nD) (t : Fin cfg0.N) :
    (Reg0.dat (F := Ideal) V c).flushed 2 t = ((cfg0.win 2).blk t).view.read (Elt Ideal) (prod (V c main_v3) (V c main_v4)) := by
  show (cfg0.win 2).cut (grid0.coords t) ((Reg0.dat V c).after 2 t) = _
  rw [Reg0.after_2]
  unfold Reg0.outBlk
  rw [View.canon_unit_zero hz]
  simp only [View.ld_unit_zero (S := S1024x1024) hz]
  funext j
  obtain ⟨p, q, rfl⟩ : ∃ (p q : Fin 1024), j = ix2 p q := ⟨j 0, j 1, eq_ix2 j⟩
  exact block_apply (V c main_v3) (V c main_v4) t p q

/-- An index of the result is in point `t`'s block iff each coordinate is in the block's range on its axis. -/
theorem mem_blk (t : Fin cfg0.N) (i : S4096x3072.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v5).slice (win0_2.rect t)).set ↔ _
  rw [View.set_slice_whole, Rect.mem_set_unit]
  exact Iff.rfl

/-- The blocks cover the result: index (r, s) is in the block of the point whose block row is r / 1024 and whose
    block column is s / 1024. -/
theorem cover (i : S4096x3072.Idx) : ∃ t : Fin cfg0.N, (cfg0.win 2).flush t = true ∧ i ∈ ((cfg0.win 2).blk t).view.set := by
  have hi0 : (i 0).val < 4096 := (i 0).isLt
  have hi1 : (i 1).val < 3072 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The result array after the region: the matrix product of the two operand arrays as the region finds them. -/
theorem final (c : Dev nD) :
    (Reg0.dat (F := Ideal) V c).arrAt 2 cfg0.N = prod (V c main_v3) (V c main_v4) :=
  (Reg0.dat (F := Ideal) V c).arrAt_eq_of_cover 2 (prod (V c main_v3) (V c main_v4)) (fun t _ => flushed_eq V c t) cover

end Cert.KernelIdeal.Val0

end
-- ==== Proof.Val2.lean ====
import proofs.«148066_j74620761800951_2_alg».proof.Proof.Reg2
import Idealize.ShloMosaic.Lib.Pipeline.Value
import Idealize.ShloMosaic.Lib.ValueIdx
import Idealize.ShloMosaic.PureOps.Ideal.Laws

/-!
# The third pallas_call's result as one function of its two operand arrays

With exact arithmetic the body's payload, read at an index `(p, q)` of its 1024×1024 window, is the sum
over the contraction index `d` of the left block at `(p, d)` times the right block at `(d, q)`. Point `t`
of the grid holds block row `t` of the left array, the whole right array and block row `t` of the
result, so what point `t` writes back is block row `t` of the matrix product of the two arrays; the four
block rows tile the result, hence the result array after the call is that product.
-/

noncomputable section

namespace Cert.KernelIdeal.Val2

open Cert.KernelIdeal Cert.KernelIdeal.Gen Idealize.ShloMosaic Idealize.ShloMosaic.TcCoe Idealize.SL.Sem
open Idealize.ShloMosaic.Pipeline (Dat)
open Idealize.ShloMosaic.ValueIdx

/-! ## The dot's operand indices, axis by axis -/

theorem lhs_axis0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_axis1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_axis0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_axis1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-! ## The payload at an index -/

/-- The body's payload at `(p, q)`: row `p` of the left block against column `q` of the right block. -/
theorem pay_apply (x0 x1 : Vec Ideal S1024x1024 .bf16) (p q : Fin 1024) :
    k2_pay1 (F := Ideal) x0 x1 (ix2 p q) = ∑ d : Fin 1024, (x0 (ix2 p d) : EReal) * (x1 (ix2 d q) : EReal) := by
  unfold k2_pay1
  simp only [shapeCast_self]
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (rhs_axis0 _ _).trans hk
    | ⟨1, _⟩ => exact rhs_axis1 _ _)
  rw [el, er]

/-! ## From the blocks to the array -/

theorem hz : (![0, 0] : Fin 2 → Nat) = fun _ => 0 := funext fun a => by fin_cases a <;> rfl

/-- The matrix product of a 4096×1024 array with a 1024×1024 array, index by index. -/
def G (a : S4096x1024.Idx → EReal) (b : S1024x1024.Idx → EReal) : S4096x1024.Idx → EReal :=
  fun i => ∑ d : Fin 1024, a (ix2 (i 0) d) * b (ix2 d (i 1))

/-- The payload of two blocks at `(p, q)` is the product of two arrays at `i` as soon as row `p` of the left
    block is row `i 0` of the left array and column `q` of the right block is column `i 1` of the right array. -/
theorem pay_eq_G (A : S4096x1024.Idx → EReal) (B : S1024x1024.Idx → EReal) (x0 x1 : Vec Ideal S1024x1024 .bf16)
    (i : S4096x1024.Idx) (p q : Fin 1024)
    (h0 : ∀ d : Fin 1024, (x0 (ix2 p d) : EReal) = A (ix2 (i 0) d)) (h1 : ∀ d : Fin 1024, (x1 (ix2 d q) : EReal) = B (ix2 d (i 1))) :
    k2_pay1 (F := Ideal) x0 x1 (ix2 p q) = G A B i := by
  rw [pay_apply]
  unfold G
  exact Finset.sum_congr rfl fun d _ => by rw [h0 d, h1 d]

/-- The block indices at a point, decided over the four points: the left operand's and the result's
    windows sit on block row `t`, and every other block index is zero. -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point `t` writes back is block row `t` of the product of the two operand arrays. -/
theorem flushed_eq (V : (c : Dev nD) → (b : Ref sig .tc) → Buf (Elt Ideal) ((c : Thread nD τ).loc b)) (c : Dev nD) (t : Fin cfg2.N) :
    (Reg2.dat (F := Ideal) V c).flushed 2 t = ((cfg2.win 2).blk t).view.read (Elt Ideal) (G (V c main_v8) (V c main_v9)) := by
  show (cfg2.win 2).cut (grid2.coords t) ((Reg2.dat (F := Ideal) V c).after 2 t) = _
  rw [Reg2.after_2]
  unfold Reg2.outBlk
  rw [View.canon_unit_zero hz]
  simp only [View.ld_unit_zero (S := S1024x1024) hz]
  obtain ⟨e0, e1, e2, e3, e4, e5⟩ := idx_facts t
  funext j
  obtain ⟨p, q, rfl⟩ : ∃ (p q : Fin 1024), j = ix2 p q := ⟨j 0, j 1, eq_ix2 j⟩
  show k2_pay1 (F := Ideal) (Reg2.iblk V c 0 t) (Reg2.iblk V c 1 t) (ix2 p q) = G (V c main_v8) (V c main_v9) (((cfg2.win 2).blk t).view.emb (ix2 p q))
  refine pay_eq_G _ _ _ _ _ p q (fun d => ?_) (fun d => ?_)
  · show V c main_v8 (((cfg2.win 0).blk t).view.emb (ix2 p d)) = V c main_v8 (ix2 ((((cfg2.win 2).blk t).view.emb (ix2 p q)) 0) d)
    refine congrArg (V c main_v8) (funext fun a => Fin.ext ?_)
    match a with
    | ⟨0, _⟩ => show win2_0.index t (0 : Fin 2) * 1024 + 1 * p.val = win2_2.index t (0 : Fin 2) * 1024 + 1 * p.val; omega
    | ⟨1, _⟩ => show win2_0.index t (1 : Fin 2) * 1024 + 1 * d.val = d.val; omega
  · show V c main_v9 (((cfg2.win 1).blk t).view.emb (ix2 d q)) = V c main_v9 (ix2 d ((((cfg2.win 2).blk t).view.emb (ix2 p q)) 1))
    refine congrArg (V c main_v9) (funext fun a => Fin.ext ?_)
    match a with
    | ⟨0, _⟩ => show win2_1.index t (0 : Fin 2) * 1024 + 1 * d.val = d.val; omega
    | ⟨1, _⟩ => show win2_1.index t (1 : Fin 2) * 1024 + 1 * q.val = win2_2.index t (1 : Fin 2) * 1024 + 1 * q.val; omega

/-- An index of the result array is in point `t`'s block iff each coordinate is in the block's range on its axis. -/
theorem mem_blk (t : Fin cfg2.N) (i : S4096x1024.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v10).slice (win2_2.rect t)).set ↔ _
  rw [View.set_slice_whole, Rect.mem_set_unit]
  exact Iff.rfl

/-- Every index of the result array is in the block of the point its row falls in: row `r` is in block row `r / 1024`. -/
theorem cover (i : S4096x1024.Idx) : ∃ t : Fin cfg2.N, (cfg2.win 2).flush t = true ∧ i ∈ ((cfg2.win 2).blk t).view.set := by
  have hi0 : (i 0).val < 4096 := (i 0).isLt
  have hi1 : (i 1).val < 1024 := (i 1).isLt
  obtain ⟨t, ht⟩ : ∃ t : Fin cfg2.N, t.val = (i 0).val / 1024 :=
    ⟨⟨(i 0).val / 1024, by show (i 0).val / 1024 < grid2.N; rw [N_2]; omega⟩, rfl⟩
  refine ⟨t, flush2_2 t, ?_⟩
  rw [mem_blk]
  obtain ⟨-, -, -, -, e4, e5⟩ := idx_facts t
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 1024 ≤ (i 1).val ∧ (i 1).val < win2_2.index t (1 : Fin 2) * 1024 + 1024; omega

/-- The result array after the call is the matrix product of the two operand arrays as the call found them. -/
theorem final_G (V : (c : Dev nD) → (b : Ref sig .tc) → Buf (Elt Ideal) ((c : Thread nD τ).loc b)) (c : Dev nD) :
    (Reg2.dat (F := Ideal) V c).arrAt 2 cfg2.N = G (V c main_v8) (V c main_v9) :=
  (Reg2.dat (F := Ideal) V c).arrAt_eq_of_cover 2 (G (V c main_v8) (V c main_v9)) (fun t _ => flushed_eq V c t) cover

/-- The same with the product written out: entry `i` is the sum over `d` of the left array at `(i 0, d)` times
    the right array at `(d, i 1)`. -/
theorem final (V : (c : Dev nD) → (b : Ref sig .tc) → Buf (Elt Ideal) ((c : Thread nD τ).loc b)) (c : Dev nD) :
    (Reg2.dat (F := Ideal) V c).arrAt 2 cfg2.N = (fun i : S4096x1024.Idx => ∑ d : Fin 1024, @HMul.hMul EReal EReal EReal _ (V c main_v8 (ix2 (i 0) d)) (V c main_v9 (ix2 d (i 1))) : S4096x1024.Idx → EReal) :=
  final_G V c

end Cert.KernelIdeal.Val2

end
-- ==== Proof.LibOnlineSoftmax.lean ====
/-
  The streaming ("online") soft-max-weighted sum equals the plain soft-max-weighted sum, over the
  extended reals.

  A stream of blocks of scores "s j k" (reals or "-∞") and values "v j k" (reals) is absorbed block by
  block into a running triple (maximum, normaliser, weighted sum): the new maximum "m'" is the old one
  joined with the block's maximum, the old normaliser and weighted sum are rescaled by "exp (m - m')", and
  the block adds "∑ k, exp (s k - m')" and "∑ k, exp (s k - m') * v k".

  Every absorbed block has a real score, so every running maximum after the first block is a real.
  "exp (-∞ - real) = 0" kills the initial state; "exp (m - m') * exp (x - m) = exp (x - m')" on the reals
  rescales the old sums; a masked score contributes "exp (-∞) = 0"; the normaliser is a positive real, so
  the final division distributes over the finite sum.

  The proof moves to the reals at once: "w x m" is the real number "exp (x - m)" of a score "x" that is a
  real or "-∞", every state after the first block is the coercion of a real triple, and the algebra is
  done in the field of reals, where multiplication distributes over finite sums.
-/
import Idealize.ShloMosaic.PureOps.Ideal
import Mathlib.Data.Finset.Fold
import Mathlib.Data.Finset.Range
import Mathlib.Data.EReal.Inv
import Mathlib.Algebra.BigOperators.Field
import Mathlib.Algebra.BigOperators.Ring.Finset
import Mathlib.Algebra.Order.BigOperators.Group.Finset
import Mathlib.Analysis.SpecialFunctions.Exp

noncomputable section

open scoped BigOperators

namespace Cert.OnlineSoftmax

open Idealize.ShloMosaic

variable {ι : Type} [Fintype ι]

/-- One block absorbed into the running (maximum, normaliser, weighted sum). -/
def step (s v : ι → EReal) (st : EReal × EReal × EReal) : EReal × EReal × EReal :=
  let m' := max st.1 ((Finset.univ : Finset ι).fold max ⊥ s)
  let a := Ideal.exp (st.1 - m')
  (m', a * st.2.1 + ∑ k, Ideal.exp (s k - m'), a * st.2.2 + ∑ k, Ideal.exp (s k - m') * v k)

/-- The state after the first n blocks, from (⊥, 0, 0). -/
def run (s v : ℕ → ι → EReal) : ℕ → EReal × EReal × EReal
  | 0 => (⊥, 0, 0)
  | n + 1 => step (s n) (v n) (run s v n)

/-! ### The real weight of a score -/

/-- The real number "exp (x - m)" of a score "x" that is a real or "-∞": zero at "-∞". -/
def w (x : EReal) (m : ℝ) : ℝ := if x = ⊥ then 0 else Real.exp (x.toReal - m)

theorem w_bot (m : ℝ) : w ⊥ m = 0 := by simp [w]

theorem w_nonneg (x : EReal) (m : ℝ) : 0 ≤ w x m := by
  unfold w; split_ifs
  · exact le_rfl
  · exact (Real.exp_pos _).le

theorem w_pos {x : EReal} (hx : x ≠ ⊥) (m : ℝ) : 0 < w x m := by
  unfold w; rw [if_neg hx]; exact Real.exp_pos _

/-- On the reals "exp (m - m') * exp (x - m) = exp (x - m')"; at "-∞" both sides are zero. -/
theorem w_rescale (x : EReal) (m m' : ℝ) : Real.exp (m - m') * w x m = w x m' := by
  unfold w; split_ifs
  · exact mul_zero _
  · rw [← Real.exp_add]; congr 1; ring

/-- The extended-real "exp (x - m)" of a score below "+∞" against a real "m" is the real weight. -/
theorem exp_sub_coe {x : EReal} (hx : x ≠ ⊤) (m : ℝ) :
    Ideal.exp (x - (m : EReal)) = ((w x m : ℝ) : EReal) := by
  induction x using EReal.rec with
  | bot => rw [EReal.bot_sub, Ideal.exp_bot, w_bot, EReal.coe_zero]
  | top => exact absurd rfl hx
  | coe r =>
    rw [← EReal.coe_sub, Ideal.exp_coe]
    simp [w, EReal.coe_ne_bot]

/-- A real times an extended real that is neither infinity is the coercion of the real product. -/
theorem coe_mul_toReal (a : ℝ) {u : EReal} (hu : u ≠ ⊤ ∧ u ≠ ⊥) :
    (a : EReal) * u = ((a * u.toReal : ℝ) : EReal) := by
  rw [EReal.coe_mul, EReal.coe_toReal hu.1 hu.2]

/-- The product of a weight and a real value is the coercion of the real product. -/
theorem exp_sub_mul_coe {x u : EReal} (hx : x ≠ ⊤) (hu : u ≠ ⊤ ∧ u ≠ ⊥) (m : ℝ) :
    Ideal.exp (x - (m : EReal)) * u = ((w x m * u.toReal : ℝ) : EReal) := by
  rw [exp_sub_coe hx, coe_mul_toReal _ hu]

/-- The coercion of the reals into the extended reals commutes with finite sums. -/
theorem coe_sum {α : Type} (t : Finset α) (f : α → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The coercion commutes with a finite double sum. -/
theorem coe_sum_sum {α β : Type} (t : Finset α) (u : Finset β) (f : α → β → ℝ) :
    ((∑ i ∈ t, ∑ k ∈ u, f i k : ℝ) : EReal) = ∑ i ∈ t, ∑ k ∈ u, (f i k : EReal) := by
  rw [coe_sum]
  exact Finset.sum_congr rfl fun i _ => coe_sum u _

/-- A real over a nonzero real: the extended-real division is the coercion of the real quotient. -/
theorem div_coe (a l : ℝ) (hl : l ≠ 0) : Ideal.div (a : EReal) (l : EReal) = ((a / l : ℝ) : EReal) := by
  unfold Ideal.div
  rw [if_neg (by exact_mod_cast hl), ← EReal.coe_inv, ← EReal.coe_mul, div_eq_mul_inv]

/-! ### Block maxima -/

/-- A block of scores below "+∞" has its maximum below "+∞". -/
theorem blockMax_ne_top {s : ι → EReal} (hs : ∀ k, s k ≠ ⊤) :
    (Finset.univ : Finset ι).fold max ⊥ s ≠ ⊤ := by
  apply ne_of_lt
  rw [Finset.fold_max_lt]
  exact ⟨bot_lt_top, fun k _ => lt_top_iff_ne_top.2 (hs k)⟩

/-- A block with a score above "-∞" has its maximum above "-∞". -/
theorem blockMax_ne_bot {s : ι → EReal} (h : ∃ k, s k ≠ ⊥) :
    (Finset.univ : Finset ι).fold max ⊥ s ≠ ⊥ := by
  obtain ⟨k, hk⟩ := h
  apply ne_of_gt
  rw [Finset.lt_fold_max]
  exact Or.inr ⟨k, Finset.mem_univ k, bot_lt_iff_ne_bot.2 hk⟩

/-- A block of scores all "-∞" has maximum "-∞". -/
theorem blockMax_eq_bot {s : ι → EReal} (h : ∀ k, s k = ⊥) :
    (Finset.univ : Finset ι).fold max ⊥ s = ⊥ := by
  apply le_antisymm _ bot_le
  rw [Finset.fold_max_le]
  exact ⟨le_rfl, fun k _ => (h k).le⟩

/-- The maximum over the first "n + 1" blocks is the maximum over the first "n" joined with block "n". -/
theorem fold_range_succ (B : ℕ → EReal) (n : ℕ) :
    (Finset.range (n + 1)).fold max ⊥ B = max ((Finset.range n).fold max ⊥ B) (B n) := by
  rw [Finset.range_add_one, Finset.fold_insert Finset.notMem_range_self, max_comm]

/-- An extended real that is neither infinity is the coercion of a real. -/
theorem exists_coe {x : EReal} (h1 : x ≠ ⊤) (h2 : x ≠ ⊥) : ∃ r : ℝ, x = (r : EReal) :=
  ⟨x.toReal, (EReal.coe_toReal h1 h2).symm⟩

/-! ### One step on real states -/

/-- The first block absorbed into the initial state "(-∞, 0, 0)": the rescaling factor is
    "exp (-∞) = 0" and the new maximum is the block's own. -/
theorem step_init (s v : ι → EReal) (hs : ∀ k, s k ≠ ⊤) (hv : ∀ k, v k ≠ ⊤ ∧ v k ≠ ⊥) (m' : ℝ)
    (hm' : (Finset.univ : Finset ι).fold max ⊥ s = (m' : EReal)) :
    step s v (⊥, 0, 0)
      = ((m' : EReal), ((∑ k, w (s k) m' : ℝ) : EReal), ((∑ k, w (s k) m' * (v k).toReal : ℝ) : EReal)) := by
  unfold step
  simp only [max_eq_right bot_le, hm', mul_zero, zero_add]
  simp only [exp_sub_coe (hs _), coe_mul_toReal _ (hv _)]
  rw [← coe_sum, ← coe_sum]

/-- A block absorbed into a real state "(m, l, a)" whose new maximum is the real "m'": the old sums
    are rescaled by the real "exp (m - m')" and the block's real weights are added. -/
theorem step_coe (s v : ι → EReal) (hs : ∀ k, s k ≠ ⊤) (hv : ∀ k, v k ≠ ⊤ ∧ v k ≠ ⊥) (m m' l a : ℝ)
    (hm' : max (m : EReal) ((Finset.univ : Finset ι).fold max ⊥ s) = (m' : EReal)) :
    step s v ((m : EReal), (l : EReal), (a : EReal))
      = ((m' : EReal), ((Real.exp (m - m') * l + ∑ k, w (s k) m' : ℝ) : EReal),
          ((Real.exp (m - m') * a + ∑ k, w (s k) m' * (v k).toReal : ℝ) : EReal)) := by
  unfold step
  simp only [hm']
  rw [← EReal.coe_sub, Ideal.exp_coe]
  simp only [exp_sub_coe (hs _), coe_mul_toReal _ (hv _)]
  rw [← coe_sum, ← coe_sum, ← EReal.coe_mul, ← EReal.coe_mul, ← EReal.coe_add, ← EReal.coe_add]

/-! ### The invariant, on the reals -/

/-- After "n + 1" blocks, the first of which has a real score, the state is the coercion of the real
    triple (maximum "m" of the blocks so far, sum of the weights against "m", weighted sum of the values). -/
theorem run_succ_real (s v : ℕ → ι → EReal) (hs : ∀ j k, s j k ≠ ⊤)
    (hv : ∀ j k, v j k ≠ ⊤ ∧ v j k ≠ ⊥) (h0 : ∃ k, s 0 k ≠ ⊥) (n : ℕ) :
    ∃ m : ℝ,
      (Finset.range (n + 1)).fold max ⊥ (fun j => (Finset.univ : Finset ι).fold max ⊥ (s j)) = (m : EReal) ∧
      run s v (n + 1)
        = ((m : EReal), ((∑ j ∈ Finset.range (n + 1), ∑ k, w (s j k) m : ℝ) : EReal),
            ((∑ j ∈ Finset.range (n + 1), ∑ k, w (s j k) m * (v j k).toReal : ℝ) : EReal)) := by
  induction n with
  | zero =>
    obtain ⟨m, hm⟩ := exists_coe (blockMax_ne_top (hs 0)) (blockMax_ne_bot h0)
    refine ⟨m, ?_, ?_⟩
    · rw [fold_range_succ, Finset.range_zero, Finset.fold_empty, max_eq_right bot_le, hm]
    · show step (s 0) (v 0) (⊥, 0, 0) = _
      rw [step_init (s 0) (v 0) (hs 0) (hv 0) m hm, Finset.sum_range_one, Finset.sum_range_one]
  | succ n ih =>
    obtain ⟨m, hM, hrun⟩ := ih
    have h1 : max (m : EReal) ((Finset.univ : Finset ι).fold max ⊥ (s (n + 1))) ≠ ⊤ := by
      rcases max_choice (m : EReal) ((Finset.univ : Finset ι).fold max ⊥ (s (n + 1))) with h | h
      · rw [h]; exact EReal.coe_ne_top m
      · rw [h]; exact blockMax_ne_top (hs (n + 1))
    have h2 : max (m : EReal) ((Finset.univ : Finset ι).fold max ⊥ (s (n + 1))) ≠ ⊥ :=
      ne_of_gt (lt_of_lt_of_le (EReal.bot_lt_coe m) (le_max_left _ _))
    obtain ⟨m', hm'⟩ := exists_coe h1 h2
    refine ⟨m', ?_, ?_⟩
    · rw [fold_range_succ, hM, hm']
    · show step (s (n + 1)) (v (n + 1)) (run s v (n + 1)) = _
      rw [hrun, step_coe _ _ (hs _) (hv _) m m' _ _ hm']
      have e1 : Real.exp (m - m') * (∑ j ∈ Finset.range (n + 1), ∑ k, w (s j k) m)
            + ∑ k, w (s (n + 1) k) m'
          = ∑ j ∈ Finset.range (n + 1 + 1), ∑ k, w (s j k) m' := by
        rw [Finset.sum_range_succ _ (n + 1), Finset.mul_sum]
        congr 1
        refine Finset.sum_congr rfl fun j _ => ?_
        rw [Finset.mul_sum]
        exact Finset.sum_congr rfl fun k _ => w_rescale _ _ _
      have e2 : Real.exp (m - m') * (∑ j ∈ Finset.range (n + 1), ∑ k, w (s j k) m * (v j k).toReal)
            + ∑ k, w (s (n + 1) k) m' * (v (n + 1) k).toReal
          = ∑ j ∈ Finset.range (n + 1 + 1), ∑ k, w (s j k) m' * (v j k).toReal := by
        rw [Finset.sum_range_succ _ (n + 1), Finset.mul_sum]
        congr 1
        refine Finset.sum_congr rfl fun j _ => ?_
        rw [Finset.mul_sum]
        refine Finset.sum_congr rfl fun k _ => ?_
        rw [← mul_assoc, w_rescale]
      rw [e1, e2]

/-! ### The invariant, on the extended reals -/

/-- After "n + 1" blocks, the first of which has a real score, the state is (the maximum "Mn" of the
    blocks so far, the sum of "exp (s j k - Mn)", the sum of "exp (s j k - Mn) * v j k"), and "Mn" is a
    real. -/
theorem run_succ_eq_of_first (s v : ℕ → ι → EReal) (hs : ∀ j k, s j k ≠ ⊤)
    (hv : ∀ j k, v j k ≠ ⊤ ∧ v j k ≠ ⊥) (h0 : ∃ k, s 0 k ≠ ⊥) (n : ℕ) :
    let Mn := (Finset.range (n + 1)).fold max ⊥ (fun j => (Finset.univ : Finset ι).fold max ⊥ (s j))
    run s v (n + 1)
        = (Mn, ∑ j ∈ Finset.range (n + 1), ∑ k, Ideal.exp (s j k - Mn),
            ∑ j ∈ Finset.range (n + 1), ∑ k, Ideal.exp (s j k - Mn) * v j k)
      ∧ Mn ≠ ⊥ ∧ Mn ≠ ⊤ := by
  intro Mn
  obtain ⟨m, hM, hrun⟩ := run_succ_real s v hs hv h0 n
  have hMn : Mn = (m : EReal) := hM
  rw [hMn]
  refine ⟨?_, EReal.coe_ne_bot m, EReal.coe_ne_top m⟩
  rw [hrun, coe_sum_sum, coe_sum_sum]
  simp only [exp_sub_coe (hs _ _), coe_mul_toReal _ (hv _ _)]

/-- The invariant of the stream: while every absorbed block has a real score ("n ≤ q"), the state
    after the blocks "0, …, n" is (their maximum "Mn", the sum of "exp (s j k - Mn)", the sum of
    "exp (s j k - Mn) * v j k"), and "Mn" is a real. -/
theorem run_succ_eq (s v : ℕ → ι → EReal) (q : ℕ) (hs : ∀ j k, s j k ≠ ⊤)
    (hv : ∀ j k, v j k ≠ ⊤ ∧ v j k ≠ ⊥) (hvis : ∀ j, j ≤ q → ∃ k, s j k ≠ ⊥) (n : ℕ) (_hn : n ≤ q) :
    let Mn := (Finset.range (n + 1)).fold max ⊥ (fun j => (Finset.univ : Finset ι).fold max ⊥ (s j))
    run s v (n + 1)
        = (Mn, ∑ j ∈ Finset.range (n + 1), ∑ k, Ideal.exp (s j k - Mn),
            ∑ j ∈ Finset.range (n + 1), ∑ k, Ideal.exp (s j k - Mn) * v j k)
      ∧ Mn ≠ ⊥ ∧ Mn ≠ ⊤ :=
  run_succ_eq_of_first s v hs hv (hvis 0 (Nat.zero_le q)) n

/-! ### Masked blocks -/

/-- Blocks whose maximum is "-∞" do not move the maximum. -/
theorem fold_range_mask (B : ℕ → EReal) (q J : ℕ) (hq : q < J) (hB : ∀ j, q < j → B j = ⊥) :
    (Finset.range J).fold max ⊥ B = (Finset.range (q + 1)).fold max ⊥ B := by
  apply le_antisymm
  · rw [Finset.fold_max_le]
    refine ⟨bot_le, fun j _ => ?_⟩
    rcases Nat.lt_or_ge q j with h | h
    · rw [hB j h]; exact bot_le
    · rw [Finset.le_fold_max]
      exact Or.inr ⟨j, Finset.mem_range.2 (by omega), le_rfl⟩
  · rw [Finset.fold_max_le]
    refine ⟨bot_le, fun j hj => ?_⟩
    rw [Finset.le_fold_max]
    exact Or.inr ⟨j, Finset.mem_range.2 (by have := Finset.mem_range.1 hj; omega), le_rfl⟩

/-- Terms that vanish after "q" do not move a sum over "range J", "q < J". -/
theorem sum_range_mask (f : ℕ → ℝ) (q J : ℕ) (hq : q < J) (hf : ∀ j, q < j → f j = 0) :
    ∑ j ∈ Finset.range (q + 1), f j = ∑ j ∈ Finset.range J, f j := by
  apply Finset.sum_subset
  · intro j hj
    rw [Finset.mem_range] at *
    omega
  · intro j _ hnj
    apply hf
    rw [Finset.mem_range] at hnj
    omega

/-! ### The streaming sum is the soft-max-weighted sum -/

/-- In the reals, a division by the normaliser distributes over the finite double sum. -/
theorem sum_sum_div (J : ℕ) (W N : ℕ → ι → ℝ) (l : ℝ) :
    (∑ j ∈ Finset.range J, ∑ k, W j k * N j k) / l = ∑ j ∈ Finset.range J, ∑ k, W j k / l * N j k := by
  rw [Finset.sum_div]
  refine Finset.sum_congr rfl fun j _ => ?_
  rw [Finset.sum_div]
  exact Finset.sum_congr rfl fun k _ => by ring

/-- The streaming soft-max-weighted sum is the plain one: when the blocks "0, …, q" each have a real
    score and the blocks after "q" are all "-∞", the weighted sum over the normaliser after "q + 1" blocks
    is "∑ j k, exp (s j k - M) / L * v j k" over all "J" blocks, "M" their maximum and "L" their sum of
    "exp (s j k - M)". The masked blocks move neither the maximum nor the sums, the normaliser is a
    positive real, and the rest is the invariant on the reals. -/
theorem run_eq_softmax [Nonempty ι] (J : ℕ) (s v : ℕ → ι → EReal) (q : ℕ) (hq : q < J)
    (hs : ∀ j k, s j k ≠ ⊤) (hv : ∀ j k, v j k ≠ ⊤ ∧ v j k ≠ ⊥)
    (hvis : ∀ j, j ≤ q → ∃ k, s j k ≠ ⊥)
    (hmask : ∀ j, q < j → ∀ k, s j k = ⊥) :
    let M := (Finset.range J).fold max ⊥ (fun j => (Finset.univ : Finset ι).fold max ⊥ (s j))
    let L := ∑ j ∈ Finset.range J, ∑ k, Ideal.exp (s j k - M)
    Ideal.div (run s v (q + 1)).2.2 (run s v (q + 1)).2.1
      = ∑ j ∈ Finset.range J, ∑ k, Ideal.div (Ideal.exp (s j k - M)) L * v j k := by
  intro M L
  obtain ⟨m, hM, hrun⟩ := run_succ_real s v hs hv (hvis 0 (Nat.zero_le q)) q
  have hMm : M = (m : EReal) := by
    rw [← hM]
    exact fold_range_mask _ q J hq fun j hj => blockMax_eq_bot (hmask j hj)
  have hw0 : ∀ j, q < j → ∀ k, w (s j k) m = 0 := fun j hj k => by rw [hmask j hj k, w_bot]
  have hl : ∑ j ∈ Finset.range (q + 1), ∑ k, w (s j k) m = ∑ j ∈ Finset.range J, ∑ k, w (s j k) m :=
    sum_range_mask _ q J hq fun j hj => Finset.sum_eq_zero fun k _ => hw0 j hj k
  have ha : ∑ j ∈ Finset.range (q + 1), ∑ k, w (s j k) m * (v j k).toReal
      = ∑ j ∈ Finset.range J, ∑ k, w (s j k) m * (v j k).toReal :=
    sum_range_mask _ q J hq fun j hj => Finset.sum_eq_zero fun k _ => by rw [hw0 j hj k, zero_mul]
  have hlpos : 0 < ∑ j ∈ Finset.range J, ∑ k, w (s j k) m := by
    obtain ⟨k0, hk0⟩ := hvis 0 (Nat.zero_le q)
    refine Finset.sum_pos' (fun j _ => Finset.sum_nonneg fun k _ => w_nonneg _ _) ?_
    exact ⟨0, Finset.mem_range.2 (by omega),
      Finset.sum_pos' (fun k _ => w_nonneg _ _) ⟨k0, Finset.mem_univ _, w_pos hk0 m⟩⟩
  have hL : L = ((∑ j ∈ Finset.range J, ∑ k, w (s j k) m : ℝ) : EReal) := by
    show (∑ j ∈ Finset.range J, ∑ k, Ideal.exp (s j k - M)) = _
    rw [hMm, coe_sum_sum]
    simp only [exp_sub_coe (hs _ _)]
  rw [hrun, hL, hMm]
  show Ideal.div ((∑ j ∈ Finset.range (q + 1), ∑ k, w (s j k) m * (v j k).toReal : ℝ) : EReal)
      ((∑ j ∈ Finset.range (q + 1), ∑ k, w (s j k) m : ℝ) : EReal) = _
  rw [hl, ha, div_coe _ _ hlpos.ne', sum_sum_div, coe_sum_sum]
  refine Finset.sum_congr rfl fun j _ => Finset.sum_congr rfl fun k _ => ?_
  rw [exp_sub_coe (hs j k), div_coe _ _ hlpos.ne', coe_mul_toReal _ (hv j k)]

end Cert.OnlineSoftmax
-- ==== Proof.Val1Step.lean ====
/-
  One grid point of the attention kernel, read per head, query row and feature, is one step of the streaming
  soft-max.

  The kernel views a block of 256 rows × 1024 columns as 16 heads of 64 features: at (head h, row r, feature e) the
  heads view reads column 64 h + e of row r. Per head the scores of the 256 query rows against the 256 key rows
  are the sums over the 64 features of query times key, times 1/8; a score whose key position 256 ki + n lies
  after its query position 256 qi + r is replaced by minus infinity. The row maximum from minus infinity joined
  with the carried maximum is the new maximum m'; the carried normaliser and weighted sum are rescaled by
  exp (m - m') and the block adds the sum over the keys of exp (score - m'), respectively of
  exp (score - m') times the value row's feature. Read at (h, r, e) this is the step of the abstract stream on
  the block of scores of (h, r) and the block of values of (h, e).
-/
import proofs.«148066_j74620761800951_2_alg».proof.Proof.Reg1Step
import proofs.«148066_j74620761800951_2_alg».proof.Proof.LibOnlineSoftmax
import proofs.«148066_j74620761800951_2_alg».proof.Proof.AttnSpec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Val1

open Idealize.ShloMosaic Idealize.ShloMosaic.ValueIdx Cert.KernelIdeal Cert.KernelIdeal.Gen Cert.KernelIdeal.Reg1

/-- the block of scores of head h, query row r against the key block's 256 positions -/
def blkScore (qi ki : BitVec 32) (q k : Vec Ideal S1x256x1024 .bf16) (h : Fin 16) (r : Fin 256) : Fin 256 → EReal :=
  fun n => if 256 * ki.toNat + n.val ≤ 256 * qi.toNat + r.val then (∑ e : Fin 64, q (ix3 0 r (Cert.AttnSpec.dcol h e)) * k (ix3 0 n (Cert.AttnSpec.dcol h e))) * Cert.AttnSpec.scale else ⊥

/-- the block of values of head h, feature e at the key block's 256 positions -/
def blkVal (v : Vec Ideal S1x256x1024 .bf16) (h : Fin 16) (e : Fin 64) : Fin 256 → EReal := fun n => v (ix3 0 n (Cert.AttnSpec.dcol h e))

/-- the carried state of head h, row r, feature e -/
def st (s : Scr Ideal) (h : Fin 16) (r : Fin 256) (e : Fin 64) : EReal × EReal × EReal := (s.m (ix3 h r 0), s.l (ix3 h r 0), s.acc (ix3 h r e))

/-- The heads view of a block: the block cast to rows × (heads × features), the heads brought to the front. At
    (head, row, feature) it reads the block at (row, column 64 head + feature). -/
theorem heads_apply (x : Vec Ideal S1x256x1024 .bf16) (h : Fin 16) (n : Fin 256) (e : Fin 64) :
    transpose S16x256x64 [1, 0, 2]
        (shapeCast S256x16x64 (shapeCast S256x1024 x shapeCasts_S1x256x1024_S256x1024) shapeCasts_S256x1024_S256x16x64)
        transposes_S256x16x64_p1_0_2_S16x256x64 (ix3 h n e)
      = x (ix3 0 n (Cert.AttnSpec.dcol h e)) := by
  refine (transpose_apply [1, 0, 2] _ transposes_S256x16x64_p1_0_2_S16x256x64 (ix3 h n e) (ix3 n h e)
    (fun b => match b with | ⟨0, _⟩ => rfl | ⟨1, _⟩ => rfl | ⟨2, _⟩ => rfl)).trans ?_
  refine (shapeCast_apply _ shapeCasts_S256x1024_S256x16x64 (ix3 n h e) (ix2 n (Cert.AttnSpec.dcol h e)) ?_).trans ?_
  · rw [Shape.rowMajor_val_two, Shape.rowMajor_val_three]
    show n.val * 1024 + (64 * h.val + e.val) = (n.val * 16 + h.val) * 64 + e.val
    omega
  · exact shapeCast_1ab_ab_apply x shapeCasts_S1x256x1024_S256x1024 n (Cert.AttnSpec.dcol h e)

theorem pay10_apply (v : Vec Ideal S1x256x1024 .bf16) (h : Fin 16) (n : Fin 256) (e : Fin 64) :
    k1_pay10 (F := Ideal) v (ix3 h n e) = v (ix3 0 n (Cert.AttnSpec.dcol h e)) :=
  heads_apply v h n e

/-! ### The two batched products at an index -/

theorem lhsA_0 (i : S16x256x256.Idx) (q : dot_S16x256x64_S16x256x64_S16x256x256_2_2_1_1_0_0.contr.Idx) :
    (dot_S16x256x64_S16x256x64_S16x256x256_2_2_1_1_0_0.lhsIdx i q 0).val = (i 0).val := by
  unfold DotDims.lhsIdx
  rw [dif_pos (show (0 : Fin S16x256x64.rank) ∈ dot_S16x256x64_S16x256x64_S16x256x256_2_2_1_1_0_0.lhsBatch by decide)]
  rfl
theorem lhsA_1 (i : S16x256x256.Idx) (q : dot_S16x256x64_S16x256x64_S16x256x256_2_2_1_1_0_0.contr.Idx) :
    (dot_S16x256x64_S16x256x64_S16x256x256_2_2_1_1_0_0.lhsIdx i q 1).val = (i 1).val := by
  unfold DotDims.lhsIdx
  rw [dif_neg (show ¬(1 : Fin S16x256x64.rank) ∈ dot_S16x256x64_S16x256x64_S16x256x256_2_2_1_1_0_0.lhsBatch by decide), dif_pos (show (1 : Fin S16x256x64.rank) ∈ dot_S16x256x64_S16x256x64_S16x256x256_2_2_1_1_0_0.lhsNonContracting by decide)]
  rfl
theorem lhsA_2 (i : S16x256x256.Idx) (q : dot_S16x256x64_S16x256x64_S16x256x256_2_2_1_1_0_0.contr.Idx) :
    (dot_S16x256x64_S16x256x64_S16x256x256_2_2_1_1_0_0.lhsIdx i q 2).val = (q ⟨0, by decide⟩).val :=
  dot_S16x256x64_S16x256x64_S16x256x256_2_2_1_1_0_0.lhsIdx_val_of_single rfl i q
theorem rhsA_0 (i : S16x256x256.Idx) (q : dot_S16x256x64_S16x256x64_S16x256x256_2_2_1_1_0_0.contr.Idx) :
    (dot_S16x256x64_S16x256x64_S16x256x256_2_2_1_1_0_0.rhsIdx i q 0).val = (i 0).val := by
  unfold DotDims.rhsIdx
  rw [dif_pos (show (0 : Fin S16x256x64.rank) ∈ dot_S16x256x64_S16x256x64_S16x256x256_2_2_1_1_0_0.rhsBatch by decide)]
  rfl
theorem rhsA_1 (i : S16x256x256.Idx) (q : dot_S16x256x64_S16x256x64_S16x256x256_2_2_1_1_0_0.contr.Idx) :
    (dot_S16x256x64_S16x256x64_S16x256x256_2_2_1_1_0_0.rhsIdx i q 1).val = (i 2).val := by
  unfold DotDims.rhsIdx
  rw [dif_neg (show ¬(1 : Fin S16x256x64.rank) ∈ dot_S16x256x64_S16x256x64_S16x256x256_2_2_1_1_0_0.rhsBatch by decide), dif_pos (show (1 : Fin S16x256x64.rank) ∈ dot_S16x256x64_S16x256x64_S16x256x256_2_2_1_1_0_0.rhsNonContracting by decide)]
  rfl
theorem rhsA_2 (i : S16x256x256.Idx) (q : dot_S16x256x64_S16x256x64_S16x256x256_2_2_1_1_0_0.contr.Idx) :
    (dot_S16x256x64_S16x256x64_S16x256x256_2_2_1_1_0_0.rhsIdx i q 2).val = (q ⟨0, by decide⟩).val :=
  dot_S16x256x64_S16x256x64_S16x256x256_2_2_1_1_0_0.rhsIdx_val_of_single rfl i q

/-- The product of queries against keys, per head: at (head, row, key) the sum over the 64 features. -/
theorem matmulA_apply (a b : FVec Ideal S16x256x64 .bf16) (h : Fin 16) (r n : Fin 256) :
    matmul dot_S16x256x64_S16x256x64_S16x256x256_2_2_1_1_0_0 none a b (constant (F := Ideal) S16x256x256 .f32 0x00000000#32) (ix3 h r n)
      = ∑ e : Fin 64, a (ix3 h r e) * b (ix3 h n e) := by
  simp only [matmul]
  rw [Ideal.matmul_constant_zero_apply, ← Equiv.sum_comp (contrEquiv1 dot_S16x256x64_S16x256x64_S16x256x256_2_2_1_1_0_0 64 rfl rfl).symm]
  refine Finset.sum_congr rfl fun e _ => ?_
  have hk := contrEquiv1_symm_val dot_S16x256x64_S16x256x64_S16x256x256_2_2_1_1_0_0 64 rfl rfl e
  have el : dot_S16x256x64_S16x256x64_S16x256x256_2_2_1_1_0_0.lhsIdx (ix3 h r n) ((contrEquiv1 dot_S16x256x64_S16x256x64_S16x256x256_2_2_1_1_0_0 64 rfl rfl).symm e) = ix3 h r e := funext fun a => Fin.ext (by
    match a with
    | ⟨0, _⟩ => exact lhsA_0 _ _
    | ⟨1, _⟩ => exact lhsA_1 _ _
    | ⟨2, _⟩ => exact (lhsA_2 _ _).trans hk)
  have er : dot_S16x256x64_S16x256x64_S16x256x256_2_2_1_1_0_0.rhsIdx (ix3 h r n) ((contrEquiv1 dot_S16x256x64_S16x256x64_S16x256x256_2_2_1_1_0_0 64 rfl rfl).symm e) = ix3 h n e := funext fun a => Fin.ext (by
    match a with
    | ⟨0, _⟩ => exact rhsA_0 _ _
    | ⟨1, _⟩ => exact rhsA_1 _ _
    | ⟨2, _⟩ => exact (rhsA_2 _ _).trans hk)
  rw [el, er]

theorem lhsB_0 (i : S16x256x64.Idx) (q : dot_S16x256x256_S16x256x64_S16x256x64_2_1_1_2_0_0.contr.Idx) :
    (dot_S16x256x256_S16x256x64_S16x256x64_2_1_1_2_0_0.lhsIdx i q 0).val = (i 0).val := by
  unfold DotDims.lhsIdx
  rw [dif_pos (show (0 : Fin S16x256x256.rank) ∈ dot_S16x256x256_S16x256x64_S16x256x64_2_1_1_2_0_0.lhsBatch by decide)]
  rfl
theorem lhsB_1 (i : S16x256x64.Idx) (q : dot_S16x256x256_S16x256x64_S16x256x64_2_1_1_2_0_0.contr.Idx) :
    (dot_S16x256x256_S16x256x64_S16x256x64_2_1_1_2_0_0.lhsIdx i q 1).val = (i 1).val := by
  unfold DotDims.lhsIdx
  rw [dif_neg (show ¬(1 : Fin S16x256x256.rank) ∈ dot_S16x256x256_S16x256x64_S16x256x64_2_1_1_2_0_0.lhsBatch by decide), dif_pos (show (1 : Fin S16x256x256.rank) ∈ dot_S16x256x256_S16x256x64_S16x256x64_2_1_1_2_0_0.lhsNonContracting by decide)]
  rfl
theorem lhsB_2 (i : S16x256x64.Idx) (q : dot_S16x256x256_S16x256x64_S16x256x64_2_1_1_2_0_0.contr.Idx) :
    (dot_S16x256x256_S16x256x64_S16x256x64_2_1_1_2_0_0.lhsIdx i q 2).val = (q ⟨0, by decide⟩).val :=
  dot_S16x256x256_S16x256x64_S16x256x64_2_1_1_2_0_0.lhsIdx_val_of_single rfl i q
theorem rhsB_0 (i : S16x256x64.Idx) (q : dot_S16x256x256_S16x256x64_S16x256x64_2_1_1_2_0_0.contr.Idx) :
    (dot_S16x256x256_S16x256x64_S16x256x64_2_1_1_2_0_0.rhsIdx i q 0).val = (i 0).val := by
  unfold DotDims.rhsIdx
  rw [dif_pos (show (0 : Fin S16x256x64.rank) ∈ dot_S16x256x256_S16x256x64_S16x256x64_2_1_1_2_0_0.rhsBatch by decide)]
  rfl
theorem rhsB_1 (i : S16x256x64.Idx) (q : dot_S16x256x256_S16x256x64_S16x256x64_2_1_1_2_0_0.contr.Idx) :
    (dot_S16x256x256_S16x256x64_S16x256x64_2_1_1_2_0_0.rhsIdx i q 1).val = (q ⟨0, by decide⟩).val :=
  dot_S16x256x256_S16x256x64_S16x256x64_2_1_1_2_0_0.rhsIdx_val_of_single rfl i q
theorem rhsB_2 (i : S16x256x64.Idx) (q : dot_S16x256x256_S16x256x64_S16x256x64_2_1_1_2_0_0.contr.Idx) :
    (dot_S16x256x256_S16x256x64_S16x256x64_2_1_1_2_0_0.rhsIdx i q 2).val = (i 2).val := by
  unfold DotDims.rhsIdx
  rw [dif_neg (show ¬(2 : Fin S16x256x64.rank) ∈ dot_S16x256x256_S16x256x64_S16x256x64_2_1_1_2_0_0.rhsBatch by decide), dif_pos (show (2 : Fin S16x256x64.rank) ∈ dot_S16x256x256_S16x256x64_S16x256x64_2_1_1_2_0_0.rhsNonContracting by decide)]
  rfl

/-- The product of weights against values, per head: at (head, row, feature) the sum over the 256 keys. -/
theorem matmulB_apply (a : FVec Ideal S16x256x256 .bf16) (b : FVec Ideal S16x256x64 .bf16) (h : Fin 16) (r : Fin 256) (e : Fin 64) :
    matmul dot_S16x256x256_S16x256x64_S16x256x64_2_1_1_2_0_0 none a b (constant (F := Ideal) S16x256x64 .f32 0x00000000#32) (ix3 h r e)
      = ∑ n : Fin 256, a (ix3 h r n) * b (ix3 h n e) := by
  simp only [matmul]
  rw [Ideal.matmul_constant_zero_apply, ← Equiv.sum_comp (contrEquiv1 dot_S16x256x256_S16x256x64_S16x256x64_2_1_1_2_0_0 256 rfl rfl).symm]
  refine Finset.sum_congr rfl fun n _ => ?_
  have hk := contrEquiv1_symm_val dot_S16x256x256_S16x256x64_S16x256x64_2_1_1_2_0_0 256 rfl rfl n
  have el : dot_S16x256x256_S16x256x64_S16x256x64_2_1_1_2_0_0.lhsIdx (ix3 h r e) ((contrEquiv1 dot_S16x256x256_S16x256x64_S16x256x64_2_1_1_2_0_0 256 rfl rfl).symm n) = ix3 h r n := funext fun a => Fin.ext (by
    match a with
    | ⟨0, _⟩ => exact lhsB_0 _ _
    | ⟨1, _⟩ => exact lhsB_1 _ _
    | ⟨2, _⟩ => exact (lhsB_2 _ _).trans hk)
  have er : dot_S16x256x256_S16x256x64_S16x256x64_2_1_1_2_0_0.rhsIdx (ix3 h r e) ((contrEquiv1 dot_S16x256x256_S16x256x64_S16x256x64_2_1_1_2_0_0 256 rfl rfl).symm n) = ix3 h n e := funext fun a => Fin.ext (by
    match a with
    | ⟨0, _⟩ => exact rhsB_0 _ _
    | ⟨1, _⟩ => exact (rhsB_1 _ _).trans hk
    | ⟨2, _⟩ => exact rhsB_2 _ _)
  rw [el, er]

/-! ### The causal mask at an index -/

/-- A block offset plus a position inside the block, as a word: no wrap, so its value is the sum. -/
theorem pos_toNat (w : BitVec 32) (hw : w.toNat < 8) (r : Fin 256) :
    (IntOp.addi (Scalar.muli w 256#32) (BitVec.ofNat 32 r.val)).toNat = 256 * w.toNat + r.val := by
  have hr := r.isLt
  show (w * 256#32 + BitVec.ofNat 32 r.val).toNat = _
  rw [BitVec.toNat_add, BitVec.toNat_mul, BitVec.toNat_ofNat, BitVec.toNat_ofNat]
  omega

theorem pos_toInt (w : BitVec 32) (hw : w.toNat < 8) (r : Fin 256) :
    (IntOp.addi (Scalar.muli w 256#32) (BitVec.ofNat 32 r.val)).toInt = ((256 * w.toNat + r.val : ℕ) : ℤ) := by
  have hr := r.isLt
  rw [BitVec.toInt_eq_toNat_cond, pos_toNat w hw r, if_pos (by omega)]

/-- The signed comparison of two such words is the comparison of the positions. -/
theorem mask_word (qi ki : BitVec 32) (hq : qi.toNat < 8) (hk : ki.toNat < 8) (r n : Fin 256) :
    IntOp.cmpi .sge (IntOp.addi (Scalar.muli qi 256#32) (BitVec.ofNat 32 r.val))
        (IntOp.addi (Scalar.muli ki 256#32) (BitVec.ofNat 32 n.val))
      = if 256 * ki.toNat + n.val ≤ 256 * qi.toNat + r.val then 1#1 else 0#1 := by
  show BitVec.ofBool (BitVec.sle _ _) = _
  rw [BitVec.sle_eq_decide, pos_toInt qi hq r, pos_toInt ki hk n]
  by_cases hc : 256 * ki.toNat + n.val ≤ 256 * qi.toNat + r.val
  · rw [if_pos hc, decide_eq_true (by exact_mod_cast hc)]; rfl
  · rw [if_neg hc, decide_eq_false (by exact_mod_cast hc)]; rfl

/-- The mask at (head, row, key): set exactly when the key's position is not after the query's. -/
theorem mask_apply (qi ki : BitVec 32) (hq : qi.toNat < 8) (hk : ki.toNat < 8) (h : Fin 16) (r n : Fin 256) :
    cmpi .sge (addi (broadcast S16x256x256 (Scalar.muli qi 256#32)) (iota .tc S16x256x256 32 [1] iota_S16x256x256_d1_w32))
        (addi (broadcast S16x256x256 (Scalar.muli ki 256#32)) (iota .tc S16x256x256 32 [2] iota_S16x256x256_d2_w32)) (ix3 h r n)
      = if 256 * ki.toNat + n.val ≤ 256 * qi.toNat + r.val then 1#1 else 0#1 := by
  show IntOp.cmpi .sge (IntOp.addi (Scalar.muli qi 256#32) (iota .tc S16x256x256 32 [1] iota_S16x256x256_d1_w32 (ix3 h r n)))
      (IntOp.addi (Scalar.muli ki 256#32) (iota .tc S16x256x256 32 [2] iota_S16x256x256_d2_w32 (ix3 h r n))) = _
  rw [iota_single_apply, iota_single_apply]
  exact mask_word qi ki hq hk r n

/-- The masked scaled scores at (head, row, key). -/
theorem pay11_apply (qi ki : BitVec 32) (hq : qi.toNat < 8) (hk : ki.toNat < 8) (q k : Vec Ideal S1x256x1024 .bf16)
    (h : Fin 16) (r n : Fin 256) :
    k1_pay11 (F := Ideal) qi ki q k (ix3 h r n) = blkScore qi ki q k h r n := by
  simp only [k1_pay11]
  rw [select_apply, mask_apply qi ki hq hk h r n]
  unfold blkScore
  by_cases hc : 256 * ki.toNat + n.val ≤ 256 * qi.toNat + r.val
  · rw [if_pos hc, if_pos hc, select_one, mulf_apply, matmulA_apply, broadcast_apply]
    refine congrArg₂ (· * ·) (Finset.sum_congr rfl fun e _ => ?_) rfl
    exact congrArg₂ (· * ·) (heads_apply q h r e) (heads_apply k h n e)
  · rw [if_neg hc, if_neg hc, select_zero, broadcast_apply]
    rfl

/-! ### Columns, row maxima and row sums at an index -/

/-- The f32 word of minus infinity. -/
theorem ofBits_negInf_f32 : Ideal.ofBits .f32 0xFF800000#32 = ⊥ := by simp [Ideal.ofBits, Ideal.ieee]

/-- One value per (head, row) cast to a column: at (head, row, 0) it reads the vector at (head, row). -/
theorem col_apply {α : Type} (x : S16x256.Idx → α) (h : Fin 16) (r : Fin 256) (u : Fin 1) :
    shapeCast S16x256x1 x shapeCasts_S16x256_S16x256x1 (ix3 h r u) = x (ix2 h r) :=
  shapeCast_apply x shapeCasts_S16x256_S16x256x1 (ix3 h r u) (ix2 h r) (by
    rw [Shape.rowMajor_val_two, Shape.rowMajor_val_three]
    show h.val * 256 + r.val = (h.val * 256 + r.val) * 1 + u.val
    omega)

/-- A column broadcast along the keys reads the column. -/
theorem bcast256_apply {α : Type} (x : S16x256x1.Idx → α) (h : Fin 16) (r n : Fin 256) :
    broadcastTo S16x256x256 x broadcasts_S16x256x1_S16x256x256 (ix3 h r n) = x (ix3 h r 0) :=
  broadcastTo_apply x broadcasts_S16x256x1_S16x256x256 (ix3 h r n) (ix3 h r 0) (fun a => match a with
    | ⟨0, _⟩ => rfl | ⟨1, _⟩ => rfl | ⟨2, _⟩ => rfl)

/-- A column broadcast along the features reads the column. -/
theorem bcast64_apply {α : Type} (x : S16x256x1.Idx → α) (h : Fin 16) (r : Fin 256) (e : Fin 64) :
    broadcastTo S16x256x64 x broadcasts_S16x256x1_S16x256x64 (ix3 h r e) = x (ix3 h r 0) :=
  broadcastTo_apply x broadcasts_S16x256x1_S16x256x64 (ix3 h r e) (ix3 h r 0) (fun a => match a with
    | ⟨0, _⟩ => rfl | ⟨1, _⟩ => rfl | ⟨2, _⟩ => rfl)

/-- The maximum over the keys, from minus infinity. -/
theorem rowmax_apply (x : FVec Ideal S16x256x256 .f32) (hφ : FKind.Formats .f32)
    (hacc : (0xFF800000#32 : BitVec 32) = FKind.maximumf.neutral .f32 hφ) (h : Fin 16) (r : Fin 256) :
    multiReduction .maximumf [2] S16x256 x 0xFF800000#32 reduces_S16x256x256_S16x256 hφ hacc (ix2 h r)
      = (Finset.univ : Finset (Fin 256)).fold max ⊥ (fun n => x (ix3 h r n)) := by
  refine (Ideal.multiReduction_maximumf_single x 0xFF800000#32 reduces_S16x256x256_S16x256 hφ hacc (ix2 h r)).trans ?_
  show (Finset.univ : Finset (Fin 256)).fold max (Ideal.ofBits .f32 0xFF800000#32) _ = _
  rw [ofBits_negInf_f32]
  refine congrArg (fun f => Finset.fold max (⊥ : EReal) f (Finset.univ : Finset (Fin 256))) (funext fun n => ?_)
  show x _ = x _
  refine congrArg x (funext fun a => ?_)
  match a with
  | ⟨0, _⟩ => rfl
  | ⟨1, _⟩ => rfl
  | ⟨2, _⟩ => rfl

/-- The sum over the keys. -/
theorem rowsum_apply (x : FVec Ideal S16x256x256 .f32) (hφ : FKind.Formats .f32)
    (hacc : (0x00000000#32 : BitVec 32) = FKind.add.neutral .f32 hφ) (h : Fin 16) (r : Fin 256) :
    multiReduction .add [2] S16x256 x 0x00000000#32 reduces_S16x256x256_S16x256 hφ hacc (ix2 h r)
      = ∑ n : Fin 256, x (ix3 h r n) := by
  refine (Ideal.multiReduction_add_single x 0x00000000#32 reduces_S16x256x256_S16x256 hφ hacc (ix2 h r)).trans ?_
  show ∑ n : Fin 256, _ = _
  refine Finset.sum_congr rfl fun n _ => congrArg x (funext fun a => ?_)
  match a with
  | ⟨0, _⟩ => rfl
  | ⟨1, _⟩ => rfl
  | ⟨2, _⟩ => rfl

/-! ### The new maximum, the weights and the new sums at an index -/

/-- The new running maximum at (head, row): the carried one joined with the block's row maximum. -/
theorem pay12_apply (qi ki : BitVec 32) (hq : qi.toNat < 8) (hk : ki.toNat < 8) (q k : Vec Ideal S1x256x1024 .bf16)
    (m : Vec Ideal S16x256x1 .f32) (h : Fin 16) (r : Fin 256) :
    k1_pay12 (F := Ideal) qi ki q k m (ix3 h r 0)
      = max (m (ix3 h r 0)) ((Finset.univ : Finset (Fin 256)).fold max ⊥ (blkScore qi ki q k h r)) := by
  simp only [k1_pay12]
  refine (maximumf_apply _ _ _).trans (congrArg (max (m (ix3 h r 0))) ?_)
  refine (col_apply _ h r 0).trans ?_
  refine (rowmax_apply _ _ _ h r).trans ?_
  exact congrArg (fun f => Finset.fold max (⊥ : EReal) f (Finset.univ : Finset (Fin 256)))
    (funext fun n => pay11_apply qi ki hq hk q k h r n)

/-- The rescaling factor of the carried sums. -/
theorem pay1_apply (m mN : Vec Ideal S16x256x1 .f32) (i : S16x256x1.Idx) :
    k1_pay1 (F := Ideal) m mN i = Ideal.exp (m i - mN i) := rfl

/-- The block's unnormalised weights. -/
theorem pay2_apply (sc : FVec Ideal S16x256x256 .f32) (mN : Vec Ideal S16x256x1 .f32) (h : Fin 16) (r n : Fin 256) :
    k1_pay2 (F := Ideal) sc mN (ix3 h r n) = Ideal.exp (sc (ix3 h r n) - mN (ix3 h r 0)) := by
  simp only [k1_pay2]
  show Ideal.exp (sc (ix3 h r n) - broadcastTo S16x256x256 mN broadcasts_S16x256x1_S16x256x256 (ix3 h r n)) = _
  rw [bcast256_apply]

/-- The new normaliser: the carried one rescaled plus the block's sum of weights. -/
theorem pay3_apply (sc : FVec Ideal S16x256x256 .f32) (m mN l : Vec Ideal S16x256x1 .f32) (h : Fin 16) (r : Fin 256) :
    k1_pay3 (F := Ideal) sc m mN l (ix3 h r 0)
      = Ideal.exp (m (ix3 h r 0) - mN (ix3 h r 0)) * l (ix3 h r 0)
        + ∑ n : Fin 256, Ideal.exp (sc (ix3 h r n) - mN (ix3 h r 0)) := by
  simp only [k1_pay3]
  rw [shapeCast_self]
  refine (addf_apply _ _ _).trans (congrArg₂ (· + ·) rfl ?_)
  refine (col_apply _ h r 0).trans ?_
  refine (rowsum_apply _ _ _ h r).trans ?_
  exact Finset.sum_congr rfl fun n _ => pay2_apply sc mN h r n

/-- The new weighted sum: the carried one rescaled plus the block's weights against the value rows. -/
theorem pay4_apply (vv : FVec Ideal S16x256x64 .bf16) (sc : FVec Ideal S16x256x256 .f32) (m mN : Vec Ideal S16x256x1 .f32)
    (acc : Vec Ideal S16x256x64 .f32) (h : Fin 16) (r : Fin 256) (e : Fin 64) :
    k1_pay4 (F := Ideal) vv sc m mN acc (ix3 h r e)
      = Ideal.exp (m (ix3 h r 0) - mN (ix3 h r 0)) * acc (ix3 h r e)
        + ∑ n : Fin 256, Ideal.exp (sc (ix3 h r n) - mN (ix3 h r 0)) * vv (ix3 h n e) := by
  simp only [k1_pay4]
  rw [shapeCast_self]
  refine (addf_apply _ _ _).trans (congrArg₂ (· + ·) ?_ ?_)
  · refine (mulf_apply _ _ _).trans (congrArg (· * acc (ix3 h r e)) ?_)
    exact (bcast64_apply _ h r e).trans (pay1_apply m mN _)
  · refine (matmulB_apply _ vv h r e).trans (Finset.sum_congr rfl fun n _ => ?_)
    exact congrArg (· * vv (ix3 h n e)) ((truncf_apply (ψ := .bf16) (k1_pay2 (F := Ideal) sc mN) bitsLt_bf16_f32 (ix3 h r n)).trans (pay2_apply sc mN h r n))

/-- The stored maximum is the new maximum. -/
theorem pay5_eq (mN : FVec Ideal S16x256x1 .f32) : k1_pay5 (F := Ideal) mN = mN := by
  simp only [k1_pay5]
  exact shapeCast_self _ _

/-! ### The carried state, per head, row and feature -/

theorem st_reset (h : Fin 16) (r : Fin 256) (e : Fin 64) : st (reset (F := Ideal)) h r e = (⊥, 0, 0) := by
  unfold st reset
  simp only [k1_pay7, k1_pay8, k1_pay9, shapeCast_self, broadcast_apply]
  refine Prod.ext ?_ (Prod.ext ?_ ?_)
  · exact ofBits_negInf_f32
  · exact Ideal.ofBits_zero_f32
  · exact Ideal.ofBits_zero_f32

theorem st_step (qi ki : BitVec 32) (hq : qi.toNat < 8) (hk : ki.toNat < 8) (q k v : Vec Ideal S1x256x1024 .bf16) (s : Scr Ideal)
    (h : Fin 16) (r : Fin 256) (e : Fin 64) :
    st (step qi ki q k v s) h r e
      = Cert.OnlineSoftmax.step (blkScore qi ki q k h r) (blkVal v h e) (st (start ki s) h r e) := by
  have hm : k1_pay12 (F := Ideal) qi ki q k (start ki s).m (ix3 h r 0)
      = max ((start ki s).m (ix3 h r 0)) ((Finset.univ : Finset (Fin 256)).fold max ⊥ (blkScore qi ki q k h r)) :=
    pay12_apply qi ki hq hk q k _ h r
  refine Prod.ext ?_ (Prod.ext ?_ ?_)
  · show k1_pay5 (k1_pay12 (F := Ideal) qi ki q k (start ki s).m) (ix3 h r 0) = _
    rw [pay5_eq]
    exact hm
  · show k1_pay3 (k1_pay11 (F := Ideal) qi ki q k) (start ki s).m (k1_pay12 (F := Ideal) qi ki q k (start ki s).m)
        (start ki s).l (ix3 h r 0) = _
    rw [pay3_apply, hm]
    refine congrArg₂ (· + ·) rfl (Finset.sum_congr rfl fun n _ => ?_)
    rw [pay11_apply qi ki hq hk]
    rfl
  · show k1_pay4 (k1_pay10 v) (k1_pay11 (F := Ideal) qi ki q k) (start ki s).m (k1_pay12 (F := Ideal) qi ki q k (start ki s).m)
        (start ki s).acc (ix3 h r e) = _
    rw [pay4_apply, hm]
    refine congrArg₂ (· + ·) rfl (Finset.sum_congr rfl fun n _ => ?_)
    rw [pay11_apply qi ki hq hk, pay10_apply]
    rfl

end Cert.KernelIdeal.Val1

end
-- ==== Proof.Val1Traj.lean ====
/-
  The trajectory of the attention kernel's carried arrays, read at one (head, query row, feature).

  The grid point "n" lies in batch "n / 36" and carries the query block "qi" and the key block "ki" of the
  two tables. Its three input blocks are rectangles of one array "g" (batch, position, column): rows
  "256 qi + ·" of the query columns, rows "256 ki + ·" of the key columns (offset 1024) and of the value
  columns (offset 2048). So the point's block of scores is the row of scores of query position "256 qi + r"
  against key block "ki", and the point's step is the streaming soft-max step on that block.

  A point whose key block is the first restarts from "(-∞, 0, 0)"; any other point continues the point before
  it, which has the same batch and query block and the key block before. By induction over the points, after
  point "n" the carried arrays hold the streaming state after the key blocks "0, …, ki" of that row.
-/
import proofs.«148066_j74620761800951_2_alg».proof.Proof.Reg1
import proofs.«148066_j74620761800951_2_alg».proof.Proof.Val1Step
import proofs.«148066_j74620761800951_2_alg».proof.Proof.LibOnlineSoftmax
import proofs.«148066_j74620761800951_2_alg».proof.Proof.AttnSpecG
import Idealize.ShloMosaic.Lib.Pipeline.Value
import Idealize.ShloMosaic.Lib.ValueIdx
import Idealize.ShloMosaic.Lib.Tactic

set_option maxRecDepth 16384

noncomputable section

open scoped BigOperators

namespace Cert.KernelIdeal.Val1

open Idealize.ShloMosaic Idealize.ShloMosaic.TcCoe Idealize.ShloMosaic.ValueIdx
open Cert.KernelIdeal.Gen Cert.KernelIdeal.Reg1

variable (V : (c : Dev nD) → (b : Ref sig .tc) → Buf (Elt Ideal) ((c : Thread nD τ).loc b))

/-! ## The array the three input windows read, at natural-number coordinates -/

/-- The array "g" at batch "b", position "s", column "col" given as natural numbers (zero outside the array). -/
def gAt (g : Cert.AttnSpec.QkvArr) (b s col : ℕ) : EReal :=
  if h : b < 2 ∧ s < 2048 ∧ col < 3072 then g (ix3 ⟨b, h.1⟩ ⟨s, h.2.1⟩ ⟨col, h.2.2⟩) else 0

/-- The scores of query position "sN" of batch "b", head "h", against the 256 positions of key block "j":
    the scaled dot product of the query and key features up to the diagonal, "-∞" after it. -/
def rowScore (g : Cert.AttnSpec.QkvArr) (b : ℕ) (h : Fin 16) (sN : ℕ) (j : ℕ) : Fin 256 → EReal := fun k =>
  if 256 * j + k.val ≤ sN then
    (∑ e : Fin 64, gAt g b sN (64 * h.val + e.val) * gAt g b (256 * j + k.val) (1024 + (64 * h.val + e.val)))
      * Cert.AttnSpec.scale
  else ⊥

/-- Feature "e" of head "h" of the 256 value rows of key block "j". -/
def rowVal (g : Cert.AttnSpec.QkvArr) (b : ℕ) (h : Fin 16) (e : Fin 64) (j : ℕ) : Fin 256 → EReal := fun k =>
  gAt g b (256 * j + k.val) (2048 + (64 * h.val + e.val))

theorem lt72 (t : Fin (cfgM (F := Ideal)).N) : t.val < 72 := by
  have h1 := t.isLt
  have h2 : (cfgM (F := Ideal)).N = 72 := N_eq
  omega

/-! ## From blocks to the array -/

/-- The query window's block at point "t" is rows "256 qi + ·" of batch "t / 36", columns "0 …". -/
theorem iblk0_apply (c : Dev nD) (t : Fin (cfgM (F := Ideal)).N) (r : Fin 256) (col : Fin 1024) :
    (iblk V c 0 t : Vec Ideal S1x256x1024 .bf16) (ix3 0 r col)
      = gAt (V c main_v6) (t.val / 36) (256 * (qiN t.val).toNat + r.val) col.val := by
  have hi := index_0 t
  have hN := lt72 t
  have hq : (qiN t.val).toNat < 8 := (ki_le_qi t.val hN).2
  have h0 : ((cfgM (F := Ideal)).win 0).index t 0 = t.val / 36 := by rw [hi]; rfl
  have h1 : ((cfgM (F := Ideal)).win 0).index t 1 = (qiN t.val).toNat := by rw [hi]; rfl
  have h2 : ((cfgM (F := Ideal)).win 0).index t 2 = 0 := by rw [hi]; rfl
  have y1 : r.val < 256 := r.isLt
  have y2 : col.val < 1024 := col.isLt
  unfold iblk
  rw [View.read_apply]
  show (V c main_v6 : S2x2048x3072.Idx → EReal) _ = _
  unfold gAt
  rw [dif_pos ⟨by omega, by omega, by omega⟩]
  congr 1
  funext a
  apply Fin.ext
  match a with
  | ⟨0, _⟩ => show ((cfgM (F := Ideal)).win 0).index t 0 * 1 + 1 * 0 = t.val / 36; rw [h0]; omega
  | ⟨1, _⟩ => show ((cfgM (F := Ideal)).win 0).index t 1 * 256 + 1 * r.val = 256 * (qiN t.val).toNat + r.val; rw [h1]; omega
  | ⟨2, _⟩ => show ((cfgM (F := Ideal)).win 0).index t 2 * 1024 + 1 * col.val = col.val; rw [h2]; omega

/-- The key window's block at point "t" is rows "256 ki + ·" of batch "t / 36", columns "1024 …". -/
theorem iblk1_apply (c : Dev nD) (t : Fin (cfgM (F := Ideal)).N) (r : Fin 256) (col : Fin 1024) :
    (iblk V c 1 t : Vec Ideal S1x256x1024 .bf16) (ix3 0 r col)
      = gAt (V c main_v6) (t.val / 36) (256 * (kiN t.val).toNat + r.val) (1024 + col.val) := by
  have hi := index_1 t
  have hN := lt72 t
  have hq : (qiN t.val).toNat < 8 := (ki_le_qi t.val hN).2
  have hk : (kiN t.val).toNat ≤ (qiN t.val).toNat := (ki_le_qi t.val hN).1
  have h0 : ((cfgM (F := Ideal)).win 1).index t 0 = t.val / 36 := by rw [hi]; rfl
  have h1 : ((cfgM (F := Ideal)).win 1).index t 1 = (kiN t.val).toNat := by rw [hi]; rfl
  have h2 : ((cfgM (F := Ideal)).win 1).index t 2 = 1 := by rw [hi]; rfl
  have y1 : r.val < 256 := r.isLt
  have y2 : col.val < 1024 := col.isLt
  unfold iblk
  rw [View.read_apply]
  show (V c main_v6 : S2x2048x3072.Idx → EReal) _ = _
  unfold gAt
  rw [dif_pos ⟨by omega, by omega, by omega⟩]
  congr 1
  funext a
  apply Fin.ext
  match a with
  | ⟨0, _⟩ => show ((cfgM (F := Ideal)).win 1).index t 0 * 1 + 1 * 0 = t.val / 36; rw [h0]; omega
  | ⟨1, _⟩ => show ((cfgM (F := Ideal)).win 1).index t 1 * 256 + 1 * r.val = 256 * (kiN t.val).toNat + r.val; rw [h1]; omega
  | ⟨2, _⟩ => show ((cfgM (F := Ideal)).win 1).index t 2 * 1024 + 1 * col.val = 1024 + col.val; rw [h2]; omega

/-- The value window's block at point "t" is rows "256 ki + ·" of batch "t / 36", columns "2048 …". -/
theorem iblk2_apply (c : Dev nD) (t : Fin (cfgM (F := Ideal)).N) (r : Fin 256) (col : Fin 1024) :
    (iblk V c 2 t : Vec Ideal S1x256x1024 .bf16) (ix3 0 r col)
      = gAt (V c main_v6) (t.val / 36) (256 * (kiN t.val).toNat + r.val) (2048 + col.val) := by
  have hi := index_2 t
  have hN := lt72 t
  have hq : (qiN t.val).toNat < 8 := (ki_le_qi t.val hN).2
  have hk : (kiN t.val).toNat ≤ (qiN t.val).toNat := (ki_le_qi t.val hN).1
  have h0 : ((cfgM (F := Ideal)).win 2).index t 0 = t.val / 36 := by rw [hi]; rfl
  have h1 : ((cfgM (F := Ideal)).win 2).index t 1 = (kiN t.val).toNat := by rw [hi]; rfl
  have h2 : ((cfgM (F := Ideal)).win 2).index t 2 = 2 := by rw [hi]; rfl
  have y1 : r.val < 256 := r.isLt
  have y2 : col.val < 1024 := col.isLt
  unfold iblk
  rw [View.read_apply]
  show (V c main_v6 : S2x2048x3072.Idx → EReal) _ = _
  unfold gAt
  rw [dif_pos ⟨by omega, by omega, by omega⟩]
  congr 1
  funext a
  apply Fin.ext
  match a with
  | ⟨0, _⟩ => show ((cfgM (F := Ideal)).win 2).index t 0 * 1 + 1 * 0 = t.val / 36; rw [h0]; omega
  | ⟨1, _⟩ => show ((cfgM (F := Ideal)).win 2).index t 1 * 256 + 1 * r.val = 256 * (kiN t.val).toNat + r.val; rw [h1]; omega
  | ⟨2, _⟩ => show ((cfgM (F := Ideal)).win 2).index t 2 * 1024 + 1 * col.val = 2048 + col.val; rw [h2]; omega

/-! ## One grid point -/

/-- The point's block of scores is the row's scores against key block "ki". -/
theorem blkScore_eq (c : Dev nD) (n : ℕ) (hN : n < (cfgM (F := Ideal)).N) (h : Fin 16) (r : Fin 256) :
    blkScore (qiN n) (kiN n) (iblk V c 0 ⟨n, hN⟩) (iblk V c 1 ⟨n, hN⟩) h r
      = rowScore (V c main_v6) (n / 36) h (256 * (qiN n).toNat + r.val) (kiN n).toNat := by
  funext k
  unfold blkScore rowScore
  refine if_congr Iff.rfl ?_ rfl
  congr 1
  refine Finset.sum_congr rfl fun e _ => ?_
  rw [iblk0_apply, iblk1_apply]
  rfl

/-- The point's block of values is the value column of key block "ki". -/
theorem blkVal_eq (c : Dev nD) (n : ℕ) (hN : n < (cfgM (F := Ideal)).N) (h : Fin 16) (e : Fin 64) :
    blkVal (iblk V c 2 ⟨n, hN⟩) h e = rowVal (V c main_v6) (n / 36) h e (kiN n).toNat := by
  funext k
  unfold blkVal rowVal
  rw [iblk2_apply]
  rfl

/-- The carried arrays after point "n" are the point's step of those before it. -/
theorem scrAt_succ (c : Dev nD) (n : ℕ) (hn : n < (cfgM (F := Ideal)).N) :
    scrAt V c (n + 1)
      = step (qiN n) (kiN n) (iblk V c 0 ⟨n, hn⟩) (iblk V c 1 ⟨n, hn⟩) (iblk V c 2 ⟨n, hn⟩) (scrAt V c n) := by
  rw [scrAt, dif_pos hn]

/-- One point, at one (head, row, feature): the streaming step on the row's block "ki" of scores and values. -/
theorem st_scrAt_succ (c : Dev nD) (n : ℕ) (hn : n < 72) (h : Fin 16) (r : Fin 256) (e : Fin 64) :
    st (scrAt V c (n + 1)) h r e
      = Cert.OnlineSoftmax.step (rowScore (V c main_v6) (n / 36) h (256 * (qiN n).toNat + r.val) (kiN n).toNat)
          (rowVal (V c main_v6) (n / 36) h e (kiN n).toNat) (st (start (kiN n) (scrAt V c n)) h r e) := by
  have hN : n < (cfgM (F := Ideal)).N := by rw [N_eq]; exact hn
  have hq := ki_le_qi n hn
  rw [scrAt_succ V c n hN, st_step _ _ hq.2 (by omega), blkScore_eq, blkVal_eq]

/-! ## The trajectory -/

/-- THE TRAJECTORY. After point "n" the carried arrays hold, at each (head, row, feature), the streaming state
    after the key blocks "0, …, ki" of the row of scores of query position "256 qi + r" of batch "n / 36". -/
theorem traj (c : Dev nD) (n : ℕ) (hn : n < 72) (h : Fin 16) (r : Fin 256) (e : Fin 64) :
    st (scrAt V c (n + 1)) h r e
      = Cert.OnlineSoftmax.run (rowScore (V c main_v6) (n / 36) h (256 * (qiN n).toNat + r.val))
          (rowVal (V c main_v6) (n / 36) h e) ((kiN n).toNat + 1) := by
  induction n with
  | zero =>
    have hk0 : (kiN 0).toNat = 0 := by rw [(isFirst_iff _).1 first_zero]; rfl
    rw [st_scrAt_succ V c 0 hn, start, if_pos first_zero, st_reset, hk0]
    rfl
  | succ m ih =>
    rw [st_scrAt_succ V c (m + 1) hn]
    by_cases hf : isFirst (kiN (m + 1))
    · have hk0 : (kiN (m + 1)).toNat = 0 := by rw [(isFirst_iff _).1 hf]; rfl
      rw [start, if_pos hf, st_reset, hk0]
      rfl
    · obtain ⟨-, hb, hqq, hkk⟩ := prev_of_not_first (m + 1) hn hf
      rw [Nat.add_sub_cancel] at hb hqq hkk
      rw [start, if_neg hf, ih (by omega), hb, hqq, hkk]
      rfl

end Cert.KernelIdeal.Val1

end
-- ==== Proof.Val1Out.lean ====
import proofs.«148066_j74620761800951_2_alg».proof.Proof.Reg1Step
import Idealize.ShloMosaic.Lib.Pipeline.Value
import Idealize.ShloMosaic.Lib.ValueIdx

/-!
# The attention output block at an index

After a row's last key block the output block is the running weighted sum divided by the running normaliser, the
sixteen heads' rows of 64 features laid side by side in a row of 1024: column `d` of the row is feature `d % 64`
of head `d / 64`. Read at row `r` and column `d`, the block is the quotient of the weighted sum at (head, `r`,
feature) by the normaliser at (head, `r`).
-/

noncomputable section

namespace Cert.KernelIdeal.Val1

open Idealize.ShloMosaic Cert.KernelIdeal Cert.KernelIdeal.Gen
open Idealize.ShloMosaic.ValueIdx

/-- The output block at row `r`, column `d`: the weighted sum of head `d / 64` at row `r`, feature `d % 64`,
    divided by that head's normaliser at row `r`. The two casts keep the row-major position (column `d` of a row of
    1024 is position `64 (d / 64) + d % 64` of a row of 16 × 64), the transpose exchanges head and row, the narrowing
    is the identity on extended reals, and the normaliser is read at feature 0 whatever the feature. -/
theorem outBlk_apply (s : Cert.KernelIdeal.Reg1.Scr Ideal) (r : Fin 256) (d : Fin 1024) :
    Cert.KernelIdeal.Reg1.outBlk s (ix3 (0 : Fin 1) r d)
      = Ideal.div (s.acc (ix3 (⟨d.val / 64, by omega⟩ : Fin 16) r (⟨d.val % 64, by omega⟩ : Fin 64)))
          (s.l (ix3 (⟨d.val / 64, by omega⟩ : Fin 16) r (0 : Fin 1))) := by
  have hd : d.val < 1024 := d.isLt
  have hr : r.val < 256 := r.isLt
  unfold Cert.KernelIdeal.Reg1.outBlk k1_pay6
  -- the cast adding the leading unit axis: [1,256,1024] at (0, r, d) reads [256,1024] at (r, d)
  refine (shapeCast_apply _ _ (ix3 (0 : Fin 1) r d) (ix2 r d) (by
    rw [Shape.rowMajor_val_two, Shape.rowMajor_val_three]
    show r.val * 1024 + d.val = ((0 : ℕ) * 256 + r.val) * 1024 + d.val
    omega)).trans ?_
  -- the narrowing is the identity
  rw [truncf_apply]
  -- the cast merging head and feature: [256,1024] at (r, d) reads [256,16,64] at (r, d / 64, d % 64)
  refine (shapeCast_apply _ _ (ix2 r d) (ix3 r (⟨d.val / 64, by omega⟩ : Fin 16) (⟨d.val % 64, by omega⟩ : Fin 64)) (by
    rw [Shape.rowMajor_val_three, Shape.rowMajor_val_two]
    show (r.val * 16 + d.val / 64) * 64 + d.val % 64 = r.val * 1024 + d.val
    omega)).trans ?_
  -- the transpose [1,0,2]: [256,16,64] at (r, h, e) reads [16,256,64] at (h, r, e)
  refine (transpose_apply _ _ _ _ (ix3 (⟨d.val / 64, by omega⟩ : Fin 16) r (⟨d.val % 64, by omega⟩ : Fin 64))
    (fun b => match b with | ⟨0, _⟩ => rfl | ⟨1, _⟩ => rfl | ⟨2, _⟩ => rfl)).trans ?_
  -- the quotient, element by element
  rw [divf_apply]
  refine congrArg (Ideal.div _) ?_
  -- the normaliser broadcast along the features: [16,256,64] at (h, r, e) reads [16,256,1] at (h, r, 0)
  exact broadcastTo_apply _ _ _ (ix3 (⟨d.val / 64, by omega⟩ : Fin 16) r (0 : Fin 1))
    (fun a => match a with | ⟨0, _⟩ => rfl | ⟨1, _⟩ => rfl | ⟨2, _⟩ => rfl)

end Cert.KernelIdeal.Val1

end
-- ==== Proof.LibBlockSums.lean ====
import Mathlib.Data.EReal.Basic
import Mathlib.Data.Finset.Fold
import Mathlib.Data.Fintype.BigOperators
import Mathlib.Algebra.BigOperators.Fin
import Mathlib.Algebra.BigOperators.Group.Finset.Defs

/-!
# A row of 2048 positions read as 8 blocks of 256

Position `n` of the row is position `n % 256` of block `n / 256`, and position `k` of block `j` is position
`256 j + k` of the row: a bijection between (block, position in the block) and position in the row. A sum over
the row is therefore the sum over the blocks of the sums over each block, and the largest entry of the row is the
largest of the blocks' largest entries.
-/

namespace Cert.BlockSums

open scoped BigOperators

/-- Position `256 j + k` of a row, for a block `j < 8`; `⊥` for a block that does not exist. -/
noncomputable def blk (f : Fin 2048 → EReal) (j : ℕ) (k : Fin 256) : EReal :=
  if h : j < 8 then f ⟨256 * j + k.val, by omega⟩ else ⊥

/-- (block, position in the block) ↦ position in the row, `(j, k) ↦ 256 j + k`, with inverse
    `n ↦ (n / 256, n % 256)`. -/
def split : Fin 8 × Fin 256 ≃ Fin 2048 where
  toFun p := ⟨256 * p.1.val + p.2.val, by omega⟩
  invFun n := (⟨n.val / 256, by omega⟩, ⟨n.val % 256, by omega⟩)
  left_inv p := by
    obtain ⟨⟨j, hj⟩, ⟨k, hk⟩⟩ := p
    refine Prod.ext (Fin.ext ?_) (Fin.ext ?_)
    · show (256 * j + k) / 256 = j
      omega
    · show (256 * j + k) % 256 = k
      omega
  right_inv n := by
    apply Fin.ext
    show 256 * (n.val / 256) + n.val % 256 = n.val
    omega

theorem split_val (p : Fin 8 × Fin 256) : (split p).val = 256 * p.1.val + p.2.val := rfl

/-- Where the block exists, `blk` reads the row. -/
theorem blk_of_lt (f : Fin 2048 → EReal) (j : ℕ) (hj : j < 8) (k : Fin 256) :
    blk f j k = f ⟨256 * j + k.val, by omega⟩ := by
  unfold blk; rw [dif_pos hj]

/-- The sum over the blocks of the sums over each block is the sum over the row. -/
theorem sum_blocks (f : Fin 2048 → EReal) (g : ℕ → Fin 256 → EReal)
    (hg : ∀ j (hj : j < 8) (k : Fin 256), g j k = f ⟨256 * j + k.val, by omega⟩) :
    ∑ j ∈ Finset.range 8, ∑ k : Fin 256, g j k = ∑ n : Fin 2048, f n :=
  calc ∑ j ∈ Finset.range 8, ∑ k : Fin 256, g j k
      = ∑ j : Fin 8, ∑ k : Fin 256, g j k := Finset.sum_range (fun j => ∑ k : Fin 256, g j k)
    _ = ∑ p : Fin 8 × Fin 256, g p.1 p.2 := (Fintype.sum_prod_type' (fun (j : Fin 8) (k : Fin 256) => g j k)).symm
    _ = ∑ n : Fin 2048, f n := Fintype.sum_equiv split _ _ (fun p => hg p.1 p.1.isLt p.2)

/-- The largest of the blocks' largest entries is the largest entry of the row (each a fold of `max` from `⊥`):
    each side is below the other, an entry of a block being an entry of the row and an entry of the row an entry of
    its block. -/
theorem fold_max_blocks (f : Fin 2048 → EReal) (g : ℕ → Fin 256 → EReal)
    (hg : ∀ j (hj : j < 8) (k : Fin 256), g j k = f ⟨256 * j + k.val, by omega⟩) :
    (Finset.range 8).fold max ⊥ (fun j => (Finset.univ : Finset (Fin 256)).fold max ⊥ (g j))
      = (Finset.univ : Finset (Fin 2048)).fold max ⊥ f := by
  apply le_antisymm
  · refine (Finset.fold_max_le _).2 ⟨bot_le, fun j hj => (Finset.fold_max_le _).2 ⟨bot_le, fun k _ => ?_⟩⟩
    rw [hg j (Finset.mem_range.1 hj) k]
    exact (Finset.le_fold_max _).2 (Or.inr ⟨_, Finset.mem_univ _, le_rfl⟩)
  · refine (Finset.fold_max_le _).2 ⟨bot_le, fun n _ => ?_⟩
    have hn : n.val < 2048 := n.isLt
    have hj : n.val / 256 < 8 := by omega
    refine (Finset.le_fold_max _).2 (Or.inr ⟨n.val / 256, Finset.mem_range.2 hj,
      (Finset.le_fold_max _).2 (Or.inr ⟨⟨n.val % 256, by omega⟩, Finset.mem_univ _, ?_⟩)⟩)
    rw [hg (n.val / 256) hj ⟨n.val % 256, by omega⟩]
    refine le_of_eq (congrArg f (Fin.ext ?_))
    show n.val = 256 * (n.val / 256) + n.val % 256
    omega

end Cert.BlockSums
-- ==== Proof.Val1Row.lean ====
/-
  The row of scores of one query position, block by block, against the specification's row.

  For an array "g" of reals, the scores of a query position against key block "j" are reals up to the diagonal
  and "-∞" after it; the blocks "0, …, 7" of 256 positions are the specification's row of 2048 scores, so the
  largest of the blocks' largest scores is the row's maximum and the double sums over (block, position in the
  block) are the sums over the row. With the streaming soft-max law, the streaming state after the diagonal
  block — weighted sum over normaliser — is the specification's attention output at that position.
-/
import proofs.«148066_j74620761800951_2_alg».proof.Proof.Val1Traj
import proofs.«148066_j74620761800951_2_alg».proof.Proof.LibOnlineSoftmax
import proofs.«148066_j74620761800951_2_alg».proof.Proof.LibBlockSums
import proofs.«148066_j74620761800951_2_alg».proof.Proof.AttnSpecG
import Idealize.ShloMosaic.Lib.ValueIdx

noncomputable section

open scoped BigOperators

namespace Cert.KernelIdeal.Val1

open Idealize.ShloMosaic Idealize.ShloMosaic.TcCoe Idealize.ShloMosaic.ValueIdx
open Cert.KernelIdeal.Gen Cert.KernelIdeal.Reg1 Cert.AttnSpec

/-! ## The array's entries are reals -/

/-- Inside the array the natural-number read is the array's entry. -/
theorem gAt_of_lt (g : QkvArr) (b : Fin 2) (s : Fin 2048) (col : Fin 3072) :
    gAt g b.val s.val col.val = g (ix3 b s col) := by
  unfold gAt
  rw [dif_pos ⟨b.isLt, s.isLt, col.isLt⟩]

/-- With real entries every natural-number read is a real (zero outside the array). -/
theorem gAt_finite (g : QkvArr) (hg : ∀ i, g i ≠ ⊤ ∧ g i ≠ ⊥) (b s col : ℕ) :
    gAt g b s col ≠ ⊤ ∧ gAt g b s col ≠ ⊥ := by
  unfold gAt
  split_ifs
  · exact hg _
  · exact ⟨EReal.zero_ne_top, EReal.zero_ne_bot⟩

/-- The scale is the real "1/8". -/
theorem scale_coe : scale = (((1 : ℝ) / 8 : ℝ) : EReal) := by
  unfold scale
  simp [Ideal.ofBits, Ideal.ieee, -EReal.coe_mul]; norm_num

/-- A scaled dot product of real features is a real. -/
theorem dot_coe (a b : Fin 64 → EReal) (ha : ∀ e, a e ≠ ⊤ ∧ a e ≠ ⊥) (hb : ∀ e, b e ≠ ⊤ ∧ b e ≠ ⊥) :
    (∑ e, a e * b e) * scale = (((∑ e, (a e).toReal * (b e).toReal) * (1 / 8) : ℝ) : EReal) := by
  have h : ∀ e, a e * b e = (((a e).toReal * (b e).toReal : ℝ) : EReal) := fun e => by
    rw [EReal.coe_mul, EReal.coe_toReal (ha e).1 (ha e).2, EReal.coe_toReal (hb e).1 (hb e).2]
  simp only [h]
  rw [← Cert.OnlineSoftmax.coe_sum, scale_coe, ← EReal.coe_mul]

/-! ## The row's scores: reals up to the diagonal, "-∞" after it -/

theorem rowScore_ne_top (g : QkvArr) (hg : ∀ i, g i ≠ ⊤ ∧ g i ≠ ⊥) (b : ℕ) (h : Fin 16) (sN j : ℕ) (k : Fin 256) :
    rowScore g b h sN j k ≠ ⊤ := by
  unfold rowScore
  split_ifs
  · rw [dot_coe _ _ (fun e => gAt_finite g hg _ _ _) (fun e => gAt_finite g hg _ _ _)]
    exact EReal.coe_ne_top _
  · exact bot_ne_top

theorem rowScore_ne_bot (g : QkvArr) (hg : ∀ i, g i ≠ ⊤ ∧ g i ≠ ⊥) (b : ℕ) (h : Fin 16) (sN j : ℕ) (k : Fin 256)
    (hk : 256 * j + k.val ≤ sN) : rowScore g b h sN j k ≠ ⊥ := by
  unfold rowScore
  rw [if_pos hk, dot_coe _ _ (fun e => gAt_finite g hg _ _ _) (fun e => gAt_finite g hg _ _ _)]
  exact EReal.coe_ne_bot _

theorem rowScore_bot (g : QkvArr) (b : ℕ) (h : Fin 16) (sN j : ℕ) (k : Fin 256)
    (hk : sN < 256 * j + k.val) : rowScore g b h sN j k = ⊥ := by
  unfold rowScore
  rw [if_neg (by omega)]

/-! ## The blocks of the row are the specification's row -/

/-- Block "j" of the row of scores is the specification's scores at the positions "256 j + ·". -/
theorem rowScore_eq_scoreG (g : QkvArr) (b : Fin 2) (h : Fin 16) (s : Fin 2048) (j : ℕ) (hj : j < 8) (k : Fin 256) :
    rowScore g b.val h s.val j k = scoreG g b h s ⟨256 * j + k.val, by omega⟩ := by
  unfold rowScore scoreG
  refine if_congr Iff.rfl ?_ rfl
  congr 1
  refine Finset.sum_congr rfl fun e _ => ?_
  rw [← Nat.add_assoc]
  exact congrArg₂ (· * ·) (gAt_of_lt g b s (qcol h e)) (gAt_of_lt g b ⟨256 * j + k.val, by omega⟩ (kcol h e))

/-- Block "j" of the value column is the specification's value feature at the positions "256 j + ·". -/
theorem rowVal_eq (g : QkvArr) (b : Fin 2) (h : Fin 16) (e : Fin 64) (j : ℕ) (hj : j < 8) (k : Fin 256) :
    rowVal g b.val h e j k = g (ix3 b ⟨256 * j + k.val, by omega⟩ (vcol h e)) := by
  unfold rowVal
  rw [← Nat.add_assoc]
  exact gAt_of_lt g b ⟨256 * j + k.val, by omega⟩ (vcol h e)

/-! ## The streaming state after the diagonal block is the specification's attention -/

/-- THE ROW. For an array of reals and a query position "s" in query block "q", the streaming state after the
    key blocks "0, …, q" of the row of scores of "s", weighted sum over normaliser, is the specification's
    soft-max-weighted sum of the value feature: the blocks after "q" are all "-∞", each block up to "q" has its
    first score on or before the diagonal, and the double sums over (block, position in the block) are the sums
    over the row. -/
theorem row_eq_headOutG (g : QkvArr) (hg : ∀ i, g i ≠ ⊤ ∧ g i ≠ ⊥) (b : Fin 2) (h : Fin 16) (e : Fin 64)
    (s : Fin 2048) (q : ℕ) (hq : q < 8) (hlo : 256 * q ≤ s.val) (hhi : s.val < 256 * q + 256) :
    Ideal.div (Cert.OnlineSoftmax.run (rowScore g b.val h s.val) (rowVal g b.val h e) (q + 1)).2.2
        (Cert.OnlineSoftmax.run (rowScore g b.val h s.val) (rowVal g b.val h e) (q + 1)).2.1
      = headOutG g b h s e := by
  have hrun := Cert.OnlineSoftmax.run_eq_softmax (ι := Fin 256) 8 (rowScore g b.val h s.val) (rowVal g b.val h e) q hq
    (fun j k => rowScore_ne_top g hg _ _ _ _ _) (fun j k => gAt_finite g hg _ _ _)
    (fun j hj => ⟨0, rowScore_ne_bot g hg _ _ _ _ _ (by show 256 * j + 0 ≤ _; omega)⟩)
    (fun j hj k => rowScore_bot g _ _ _ _ _ (by have := k.isLt; omega))
  dsimp only at hrun
  rw [hrun]
  have hS : ∀ j (hj : j < 8) (k : Fin 256), rowScore g b.val h s.val j k = scoreG g b h s ⟨256 * j + k.val, by omega⟩ :=
    fun j hj k => rowScore_eq_scoreG g b h s j hj k
  have hM : (Finset.range 8).fold max ⊥ (fun j => (Finset.univ : Finset (Fin 256)).fold max ⊥ (rowScore g b.val h s.val j))
      = rowMaxG g b h s := Cert.BlockSums.fold_max_blocks (scoreG g b h s) _ hS
  rw [hM]
  have hL : ∑ j ∈ Finset.range 8, ∑ k : Fin 256, Ideal.exp (rowScore g b.val h s.val j k - rowMaxG g b h s)
      = rowSumG g b h s :=
    Cert.BlockSums.sum_blocks (expoG g b h s) _ fun j hj k => by rw [hS j hj k]; rfl
  rw [hL]
  exact Cert.BlockSums.sum_blocks
    (fun n => Ideal.div (expoG g b h s n) (rowSumG g b h s) * g (ix3 b n (vcol h e)))
    (fun j k => Ideal.div (Ideal.exp (rowScore g b.val h s.val j k - rowMaxG g b h s)) (rowSumG g b h s) * rowVal g b.val h e j k)
    (fun j hj k => by rw [hS j hj k, rowVal_eq g b h e j hj k]; rfl)

/-- The same at the column "d" of the output: head "d / 64", feature "d % 64". -/
theorem row_eq_attnG (g : QkvArr) (hg : ∀ i, g i ≠ ⊤ ∧ g i ≠ ⊥) (b : Fin 2) (q : ℕ) (hq : q < 8) (r : Fin 256)
    (d : Fin 1024) :
    Ideal.div
        (Cert.OnlineSoftmax.run (rowScore g b.val ⟨d.val / 64, by omega⟩ (256 * q + r.val))
          (rowVal g b.val ⟨d.val / 64, by omega⟩ ⟨d.val % 64, Nat.mod_lt _ (by decide)⟩) (q + 1)).2.2
        (Cert.OnlineSoftmax.run (rowScore g b.val ⟨d.val / 64, by omega⟩ (256 * q + r.val))
          (rowVal g b.val ⟨d.val / 64, by omega⟩ ⟨d.val % 64, Nat.mod_lt _ (by decide)⟩) (q + 1)).2.1
      = attnG g b ⟨256 * q + r.val, by omega⟩ d :=
  row_eq_headOutG g hg b ⟨d.val / 64, by omega⟩ ⟨d.val % 64, Nat.mod_lt _ (by decide)⟩ ⟨256 * q + r.val, by omega⟩ q hq
    (by show 256 * q ≤ 256 * q + r.val; omega) (by show 256 * q + r.val < 256 * q + 256; have := r.isLt; omega)

end Cert.KernelIdeal.Val1

end
-- ==== Proof.Val1Final.lean ====
/-
  The attention call's output array after the run.

  The output window is written back exactly at the grid points whose key block is their query block. At such a
  point the carried arrays hold, at each (head, row, feature), the streaming state of the whole row of scores of
  query position "256 qi + r", so the output block — weighted sum over normaliser, heads side by side — is the
  specification's attention of the entry array at batch "n / 36", positions "256 qi + ·". That is the point's block
  of one array over (batch, position, column); every index of the output array lies in the block of the diagonal
  point of its batch and query block; so the array ends holding the specification's attention of the entry array.
-/
import proofs.«148066_j74620761800951_2_alg».proof.Proof.Val1Traj
import proofs.«148066_j74620761800951_2_alg».proof.Proof.Val1Out
import proofs.«148066_j74620761800951_2_alg».proof.Proof.Val1Row
import proofs.«148066_j74620761800951_2_alg».proof.Proof.LibOnlineSoftmax
import proofs.«148066_j74620761800951_2_alg».proof.Proof.AttnSpecG
import Idealize.ShloMosaic.Lib.Pipeline.Value
import Idealize.ShloMosaic.Lib.ValueIdx
import Idealize.ShloMosaic.Lib.Tactic

set_option maxRecDepth 16384

noncomputable section

open scoped BigOperators

namespace Cert.KernelIdeal.Val1

open Idealize.ShloMosaic Idealize.ShloMosaic.TcCoe Idealize.ShloMosaic.ValueIdx
open Idealize.ShloMosaic.Pipeline (Dat)
open Cert.KernelIdeal.Gen Cert.KernelIdeal.Reg1 Cert.AttnSpec

variable (V : (c : Dev nD) → (b : Ref sig .tc) → Buf (Elt Ideal) ((c : Thread nD τ).loc b))

/-! ## The output block at a diagonal point -/

/-- At a point whose key block is its query block, the output block at row "r", column "d" is the
    specification's attention of the entry array at batch "n / 36", position "256 qi + r", column "d". -/
theorem outBlk_diag (c : Dev nD)
    (hg : ∀ i : S2x2048x3072.Idx, @Ne EReal (V c main_v6 i) ⊤ ∧ @Ne EReal (V c main_v6 i) ⊥)
    (n : ℕ) (hn : n < 72) (hd : (kiN n).toNat = (qiN n).toNat) (r : Fin 256) (d : Fin 1024) :
    outBlk (scrAt V c (n + 1)) (ix3 (0 : Fin 1) r d)
      = attnG (V c main_v6) ⟨n / 36, by omega⟩
          ⟨256 * (qiN n).toNat + r.val, by have := (ki_le_qi n hn).2; have := r.isLt; omega⟩ d := by
  have hq := (ki_le_qi n hn).2
  rw [outBlk_apply]
  have ht := traj V c n hn ⟨d.val / 64, by omega⟩ r ⟨d.val % 64, Nat.mod_lt _ (by decide)⟩
  rw [hd] at ht
  have e1 : (scrAt V c (n + 1)).acc (ix3 (⟨d.val / 64, by omega⟩ : Fin 16) r (⟨d.val % 64, by omega⟩ : Fin 64))
      = (st (scrAt V c (n + 1)) ⟨d.val / 64, by omega⟩ r ⟨d.val % 64, Nat.mod_lt _ (by decide)⟩).2.2 := rfl
  have e2 : (scrAt V c (n + 1)).l (ix3 (⟨d.val / 64, by omega⟩ : Fin 16) r (0 : Fin 1))
      = (st (scrAt V c (n + 1)) ⟨d.val / 64, by omega⟩ r ⟨d.val % 64, Nat.mod_lt _ (by decide)⟩).2.1 := rfl
  rw [e1, e2, ht]
  exact row_eq_attnG (V c main_v6) hg ⟨n / 36, by omega⟩ (qiN n).toNat hq r d

/-! ## What a diagonal point writes back -/

/-- The specification's attention of the entry array, as an array over (batch, position, column). -/
abbrev G (c : Dev nD) : S2x2048x1024.Idx → EReal := fun i => attnG (V c main_v6) (i 0) (i 1) (i 2)

/-- WHAT A FLUSHING POINT WRITES BACK is its block of the specification's attention of the entry array: the output
    window is written back exactly at the points whose key block is the query block, where the carried arrays hold
    the whole row's streaming state. -/
theorem flushed_eq (c : Dev nD)
    (hg : ∀ i : S2x2048x3072.Idx, @Ne EReal (V c main_v6 i) ⊤ ∧ @Ne EReal (V c main_v6 i) ⊥)
    (t : Fin (cfgM (F := Ideal)).N) (hf : ((cfgM (F := Ideal)).win 3).flush t = true) :
    (dat (F := Ideal) V c).flushed 3 t = (((cfgM (F := Ideal)).win 3).blk t).view.read (Elt Ideal) (G V c) := by
  have hN := lt72 t
  have hq : (qiN t.val).toNat < 8 := (ki_le_qi t.val hN).2
  have hd : kiN t.val = qiN t.val := (cond2_iff _ _).1 ((flush_3 t).1 hf)
  have hi := index_3 t
  have h0 : ((cfgM (F := Ideal)).win 3).index t 0 = t.val / 36 := by rw [hi]; rfl
  have h1 : ((cfgM (F := Ideal)).win 3).index t 1 = (qiN t.val).toNat := by rw [hi]; rfl
  have h2 : ((cfgM (F := Ideal)).win 3).index t 2 = 0 := by rw [hi]; rfl
  funext y
  obtain ⟨a, r, d, rfl⟩ : ∃ (a : Fin 1) (r : Fin 256) (d : Fin 1024), y = ix3 a r d := ⟨y 0, y 1, y 2, eq_ix3 y⟩
  obtain rfl : a = 0 := Subsingleton.elim _ _
  rw [View.read_apply]
  show outBlk (scrAt V c (t.val + 1)) _ = attnG (V c main_v6) _ _ _
  refine Eq.trans (congrArg (outBlk (scrAt V c (t.val + 1))) (?_ : _ = ix3 (0 : Fin 1) r d)) ?_
  · funext a
    match a with
    | ⟨0, _⟩ => rfl
    | ⟨1, _⟩ => rfl
    | ⟨2, _⟩ => rfl
  rw [outBlk_diag V c hg t.val hN (by rw [hd]) r d]
  have y1 : r.val < 256 := r.isLt
  have y2 : d.val < 1024 := d.isLt
  congr 1
  · apply Fin.ext
    show t.val / 36 = ((cfgM (F := Ideal)).win 3).index t 0 * 1 + 1 * 0
    rw [h0]; omega
  · apply Fin.ext
    show 256 * (qiN t.val).toNat + r.val = ((cfgM (F := Ideal)).win 3).index t 1 * 256 + 1 * r.val
    rw [h1]; omega
  · apply Fin.ext
    show d.val = ((cfgM (F := Ideal)).win 3).index t 2 * 1024 + 1 * d.val
    rw [h2]; omega

/-! ## The array after the run -/

/-- Every index of the output array is in the block of the diagonal point of its batch and query block. -/
theorem cover (c : Dev nD) (i : S2x2048x1024.Idx) :
    ∃ t : Fin (cfgM (F := Ideal)).N, ((cfgM (F := Ideal)).win 3).flush t = true
      ∧ i ∈ (((cfgM (F := Ideal)).win 3).blk t).view.set := by
  have i0 : (i 0).val < 2 := (i 0).isLt
  have i1 : (i 1).val < 2048 := (i 1).isLt
  have i2 : (i 2).val < 1024 := (i 2).isLt
  obtain ⟨n, hn, hb, hq, hk⟩ := diag_point (i 0).val i0 ((i 1).val / 256) (by omega)
  have hN : n < (cfgM (F := Ideal)).N := by rw [N_eq]; exact hn
  have hi := index_3 (F := Ideal) ⟨n, hN⟩
  have h0 : ((cfgM (F := Ideal)).win 3).index ⟨n, hN⟩ 0 = n / 36 := by rw [hi]; rfl
  have h1 : ((cfgM (F := Ideal)).win 3).index ⟨n, hN⟩ 1 = (qiN n).toNat := by rw [hi]; rfl
  have h2 : ((cfgM (F := Ideal)).win 3).index ⟨n, hN⟩ 2 = 0 := by rw [hi]; rfl
  refine ⟨⟨n, hN⟩, (flush_3 _).2 ((cond2_iff _ _).2 ?_), ?_⟩
  · show kiN n = qiN n
    exact BitVec.eq_of_toNat_eq (by rw [hk, hq])
  · show i ∈ ((View.whole main_v7).slice (((cfgM (F := Ideal)).win 3).rect ⟨n, hN⟩)).set
    rw [View.set_slice_whole, Rect.mem_set_unit]
    intro a
    match a with
    | ⟨0, _⟩ =>
      show ((cfgM (F := Ideal)).win 3).index ⟨n, hN⟩ 0 * 1 ≤ (i 0).val ∧ (i 0).val < ((cfgM (F := Ideal)).win 3).index ⟨n, hN⟩ 0 * 1 + 1
      rw [h0]; omega
    | ⟨1, _⟩ =>
      show ((cfgM (F := Ideal)).win 3).index ⟨n, hN⟩ 1 * 256 ≤ (i 1).val ∧ (i 1).val < ((cfgM (F := Ideal)).win 3).index ⟨n, hN⟩ 1 * 256 + 256
      rw [h1]; omega
    | ⟨2, _⟩ =>
      show ((cfgM (F := Ideal)).win 3).index ⟨n, hN⟩ 2 * 1024 ≤ (i 2).val ∧ (i 2).val < ((cfgM (F := Ideal)).win 3).index ⟨n, hN⟩ 2 * 1024 + 1024
      rw [h2]; omega

/-- THE FINAL ARRAY. For an entry array of reals, the output window's array ends holding the specification's
    attention of the entry array, index by index. -/
theorem final (c : Dev nD)
    (hg : ∀ i : S2x2048x3072.Idx, @Ne EReal (V c main_v6 i) ⊤ ∧ @Ne EReal (V c main_v6 i) ⊥) :
    (dat (F := Ideal) V c).arrAt 3 (cfgM (F := Ideal)).N
      = fun i : S2x2048x1024.Idx => attnG (V c main_v6) (i 0) (i 1) (i 2) :=
  (dat (F := Ideal) V c).arrAt_eq_of_cover 3 (G V c) (fun t hf => flushed_eq V c hg t hf) (cover c)

end Cert.KernelIdeal.Val1

end
-- ==== Proof.KernelValue.lean ====
import proofs.«148066_j74620761800951_2_alg».proof.Proof.RunVals
import proofs.«148066_j74620761800951_2_alg».proof.Proof.AttnSpecG
import proofs.«148066_j74620761800951_2_alg».proof.Proof.Val0
import proofs.«148066_j74620761800951_2_alg».proof.Proof.Val2
import proofs.«148066_j74620761800951_2_alg».proof.Proof.Val1Final
import proofs.«148066_j74620761800951_2_alg».proof.Proof.LibOnlineSoftmax
import Idealize.ShloMosaic.Lib.Pipeline.Value
import Idealize.ShloMosaic.Lib.Pipeline.FrameSuffix
import Idealize.ShloMosaic.Lib.ValueIdx
import Idealize.ShloMosaic.Lib.ValueLayout
import Idealize.ShloMosaic.Lib.StableHlo.Run
import Idealize.ShloMosaic.PureOps.Ideal.Laws

/-!
# The kernel program's result is the specification

The program's buffers are followed from the launch to the end, boundary by boundary, each read at an
index:

* the first host operations cast the three arguments and lay them out: the activations flattened to
  4096 rows (row `r` is batch `r / 2048`, position `r % 2048`), the fused weight transposed;
* the projection call leaves the matrix product of the two, which at `(r, o)` is the fused projection of
  the specification at batch `r / 2048`, position `r % 2048`, column `o`; split back to
  `[2, 2048, 3072]` it is the specification's fused projection as an array, whose entries are real numbers
  when the arguments' are (a finite sum of products of reals);
* the attention call leaves the attention stage of the specification over that array;
* flattened again and multiplied by the transposed output weight, then split back, it is the
  specification's result.

Every step is an equation at an index, obtained by rewriting; no two whole arrays are compared by
unfolding.
-/

set_option maxRecDepth 16384

noncomputable section

namespace Cert.KernelIdeal.KVal

open Cert.KernelIdeal Cert.KernelIdeal.Gen Cert.KernelIdeal.Run
open Idealize.ShloMosaic Idealize.ShloMosaic.TcCoe Idealize.SL.Sem Idealize.ShloMosaic.StableHlo
open Idealize.ShloMosaic.ValueIdx
open Idealize.ShloMosaic.Pipeline (Dat)

/-- Every entry of an array of extended reals is a real number. -/
abbrev AllReal {s : Shape} (x : s.Idx → EReal) : Prop := ∀ i, x i ≠ ⊤ ∧ x i ≠ ⊥

variable (m : (ℓ : Loc nD τ sig) → Buf (Elt Ideal) ℓ) (c : Dev nD)

/-! ## The program's reshapes read at an index -/

section Layout
variable {α : Type}

/-- A `[2, 2048, K]` array flattened to `[4096, K]` reads, at `(r, d)`, the operand at `(r / 2048, r % 2048, d)`. -/
theorem flatten_apply {K : ℕ} (x : (⟨3, ![2, 2048, K]⟩ : Shape).Idx → α)
    (h : (⟨3, ![2, 2048, K]⟩ : Shape).ShapeCasts ⟨2, ![4096, K]⟩) (r : Fin 4096) (d : Fin K) :
    shapeCast ⟨2, ![4096, K]⟩ x h (ix2 r d) = x (ix3 (⟨r.val / 2048, by omega⟩ : Fin 2) (⟨r.val % 2048, by omega⟩ : Fin 2048) d) :=
  shapeCast_apply x h _ _ (by
    rw [Shape.rowMajor_val_three, Shape.rowMajor_val_two]
    show (r.val / 2048 * 2048 + r.val % 2048) * K + d.val = r.val * K + d.val
    rw [Nat.div_add_mod' r.val 2048])

/-- A `[4096, K]` array split to `[2, 2048, K]` reads, at `(b, s, o)`, the operand at `(2048 b + s, o)`. -/
theorem split_apply {K : ℕ} (x : (⟨2, ![4096, K]⟩ : Shape).Idx → α)
    (h : (⟨2, ![4096, K]⟩ : Shape).ShapeCasts ⟨3, ![2, 2048, K]⟩) (b : Fin 2) (s : Fin 2048) (o : Fin K) :
    shapeCast ⟨3, ![2, 2048, K]⟩ x h (ix3 b s o) = x (ix2 (⟨b.val * 2048 + s.val, by omega⟩ : Fin 4096) o) :=
  shapeCast_apply x h _ _ (by
    rw [Shape.rowMajor_val_three, Shape.rowMajor_val_two]
    rfl)

end Layout

/-! ## Before the projection call -/

theorem W1_v3_apply (r : Fin 4096) (d : Fin 1024) :
    (W1 m c (Proc.devRef .tc main_v3) : S4096x1024.Idx → EReal) (ix2 r d)
      = (m ((c : Thread nD τ).loc main_arg0) : S2x2048x1024.Idx → EReal) (ix3 (⟨r.val / 2048, by omega⟩ : Fin 2) (⟨r.val % 2048, by omega⟩ : Fin 2048) d) := by
  dsimp only [W1, hostOps0]
  after_results
  show shapeCast S4096x1024 (truncf (F := Ideal) .bf16 (W0 m c (Proc.devRef .tc main_arg0)) bitsLt_bf16_f32) shapeCasts_S2x2048x1024_S4096x1024 (ix2 r d) = _
  rw [flatten_apply]
  rfl

theorem W1_v4_apply (d : Fin 1024) (o : Fin 3072) :
    (W1 m c (Proc.devRef .tc main_v4) : S1024x3072.Idx → EReal) (ix2 d o)
      = (m ((c : Thread nD τ).loc main_arg1) : S3072x1024.Idx → EReal) (ix2 o d) := by
  dsimp only [W1, hostOps0]
  after_results
  show transpose S1024x3072 [1, 0] (truncf (F := Ideal) .bf16 (W0 m c (Proc.devRef .tc main_arg1)) bitsLt_bf16_f32) transposes_S3072x1024_S1024x3072_1_0 (ix2 d o) = _
  rw [transpose_ix2_apply]
  rfl

theorem W1_v2_apply (i : S1024x1024.Idx) :
    (W1 m c (Proc.devRef .tc main_v2) : S1024x1024.Idx → EReal) i
      = (m ((c : Thread nD τ).loc main_arg2) : S1024x1024.Idx → EReal) i := by
  dsimp only [W1, hostOps0]
  after_results
  rfl

/-! ## Sums of products, factor by factor -/

theorem sum_mul_congr {ι : Type} [Fintype ι] (f g f' g' : ι → EReal) (hf : ∀ d, f d = f' d) (hg : ∀ d, g d = g' d) :
    ∑ d, f d * g d = ∑ d, f' d * g' d :=
  Finset.sum_congr rfl fun d _ => by rw [hf d, hg d]

/-! ## After the projection call -/

theorem W2_v5 : W2 m c (Proc.devRef .tc main_v5) = (Reg0.dat (V1 m) c).arrAt 2 cfg0.N := by
  unfold W2
  exact Pipeline.withArrays_arr spec0 winFacts0.arr_inj c _ _ 2

/-- The projection call's result at `(r, o)`: the fused projection at batch `r / 2048`, position `r % 2048`. -/
theorem W2_v5_apply (r : Fin 4096) (o : Fin 3072) :
    (W2 m c (Proc.devRef .tc main_v5) : S4096x3072.Idx → EReal) (ix2 r o)
      = Cert.AttnSpec.qkv (m ((c : Thread nD τ).loc main_arg0)) (m ((c : Thread nD τ).loc main_arg1))
          (⟨r.val / 2048, by omega⟩ : Fin 2) (⟨r.val % 2048, by omega⟩ : Fin 2048) o := by
  rw [W2_v5, Val0.final]
  unfold Cert.AttnSpec.qkv
  exact sum_mul_congr _ _ _ _ (fun d => W1_v3_apply m c r d) (fun d => W1_v4_apply m c d o)

/-- The output projection's weight, cast, is untouched by the projection call. -/
theorem W2_v2 : W2 m c (Proc.devRef .tc main_v2) = W1 m c (Proc.devRef .tc main_v2) := by
  unfold W2
  exact Pipeline.withArrays_of_ne spec0 c _ _ main_v2 (by decide)

/-! ## Before the attention call -/

/-- The reshaped projection at `(b, s, o)` is the fused projection there. -/
theorem W3_v6_apply (b : Fin 2) (s : Fin 2048) (o : Fin 3072) :
    (W3 m c (Proc.devRef .tc main_v6) : S2x2048x3072.Idx → EReal) (ix3 b s o)
      = Cert.AttnSpec.qkv (m ((c : Thread nD τ).loc main_arg0)) (m ((c : Thread nD τ).loc main_arg1)) b s o := by
  dsimp only [W3, hostOps1]
  after_results
  show shapeCast S2x2048x3072 (W2 m c (Proc.devRef .tc main_v5)) shapeCasts_S4096x3072_S2x2048x3072 (ix3 b s o) = _
  rw [split_apply, W2_v5_apply]
  exact congrArg₂ (fun b' s' => Cert.AttnSpec.qkv (m ((c : Thread nD τ).loc main_arg0)) (m ((c : Thread nD τ).loc main_arg1)) b' s' o)
    (Fin.ext (by show (b.val * 2048 + s.val) / 2048 = b.val; omega))
    (Fin.ext (by show (b.val * 2048 + s.val) % 2048 = s.val; omega))

/-- As an array, it is the fused projection. -/
theorem W3_v6 : (W3 m c (Proc.devRef .tc main_v6) : S2x2048x3072.Idx → EReal)
    = Cert.AttnSpec.qkvArr (m ((c : Thread nD τ).loc main_arg0)) (m ((c : Thread nD τ).loc main_arg1)) := by
  funext i
  obtain ⟨b, s, o, rfl⟩ : ∃ (b : Fin 2) (s : Fin 2048) (o : Fin 3072), i = ix3 b s o := ⟨i 0, i 1, i 2, eq_ix3 i⟩
  exact W3_v6_apply m c b s o

theorem W3_v2 : W3 m c (Proc.devRef .tc main_v2) = W2 m c (Proc.devRef .tc main_v2) := by
  dsimp only [W3, hostOps1]
  after_results <;> rfl

/-! ## Sums of products of reals are reals -/

theorem sum_mul_finite {ι : Type} [Fintype ι] (f g : ι → EReal) (hf : ∀ d, f d ≠ ⊤ ∧ f d ≠ ⊥) (hg : ∀ d, g d ≠ ⊤ ∧ g d ≠ ⊥) :
    (∑ d, f d * g d) ≠ ⊤ ∧ (∑ d, f d * g d) ≠ ⊥ := by
  have e : ∑ d, f d * g d = ((∑ d, (f d).toReal * (g d).toReal : ℝ) : EReal) := by
    rw [Cert.OnlineSoftmax.coe_sum]
    refine Finset.sum_congr rfl fun d _ => ?_
    rw [EReal.coe_mul, EReal.coe_toReal (hf d).1 (hf d).2, EReal.coe_toReal (hg d).1 (hg d).2]
  rw [e]
  exact ⟨EReal.coe_ne_top _, EReal.coe_ne_bot _⟩

/-- The fused projection of finite arrays is finite. -/
theorem qkv_finite (x : Cert.AttnSpec.XArr) (w : Cert.AttnSpec.WqkvArr) (hx : AllReal x) (hw : AllReal w)
    (b : Fin 2) (s : Fin 2048) (o : Fin 3072) : Cert.AttnSpec.qkv x w b s o ≠ ⊤ ∧ Cert.AttnSpec.qkv x w b s o ≠ ⊥ :=
  sum_mul_finite _ _ (fun d => hx _) (fun d => hw _)

/-! ## After the attention call -/

theorem arr1_eq_v7 : ∀ w' : Fin 4, Pipeline.arrRef spec1 w' = main_v7 → w' = 3 := by decide

theorem W4_v7 : W4 m c (Proc.devRef .tc main_v7) = (Reg1.dat (V3 m) c).arrAt 3 (Reg1.cfgM (F := Ideal)).N := by
  unfold W4 Pipeline.withArrays
  have h : ∃ w', Proc.devRef .tc (Pipeline.arrRef spec1 w') = Proc.devRef (τ := τ) .tc main_v7 := ⟨3, rfl⟩
  rw [dif_pos h]
  suffices ∀ (w' : Fin 4) (e : Proc.devRef .tc (Pipeline.arrRef spec1 w') = Proc.devRef (τ := τ) .tc main_v7),
      cast (congrArg (fun b' : DevRef τ sig => b'.ty.Contents (Elt Ideal)) e) ((Reg1.dat (V3 m) c).arrAt w' (Reg1.cfgM (F := Ideal)).N)
        = (Reg1.dat (V3 m) c).arrAt 3 (Reg1.cfgM (F := Ideal)).N from this _ h.choose_spec
  intro w' e
  obtain rfl : w' = 3 := arr1_eq_v7 w' (Proc.devRef_injective _ e)
  rfl

theorem W4_v2 : W4 m c (Proc.devRef .tc main_v2) = W3 m c (Proc.devRef .tc main_v2) := by
  unfold W4
  exact Pipeline.withArrays_of_ne spec1 c _ _ main_v2 (by decide)

/-- The attention call's result at `(b, s, d)` is the specification's attention output there. -/
theorem W4_v7_apply
    (hx : AllReal (s := S2x2048x1024) (m ((c : Thread nD τ).loc main_arg0)))
    (hw : AllReal (s := S3072x1024) (m ((c : Thread nD τ).loc main_arg1)))
    (b : Fin 2) (s : Fin 2048) (d : Fin 1024) :
    (W4 m c (Proc.devRef .tc main_v7) : S2x2048x1024.Idx → EReal) (ix3 b s d)
      = Cert.AttnSpec.attn (m ((c : Thread nD τ).loc main_arg0)) (m ((c : Thread nD τ).loc main_arg1)) b s d := by
  have e6 : (V3 m c main_v6 : S2x2048x3072.Idx → EReal)
      = Cert.AttnSpec.qkvArr (m ((c : Thread nD τ).loc main_arg0)) (m ((c : Thread nD τ).loc main_arg1)) := W3_v6 m c
  have hg : AllReal (s := S2x2048x3072) (V3 m c main_v6) := fun i => by
    rw [e6]; exact qkv_finite _ _ hx hw _ _ _
  rw [W4_v7, Val1.final (V3 m) c hg]
  show Cert.AttnSpec.attnG (V3 m c main_v6) b s d = _
  rw [e6]
  exact Cert.AttnSpec.attnG_qkv _ _ b s d

/-! ## Before the output-projection call -/

/-- The flattened attention output at `(r, d)`. -/
theorem W5_v8_apply
    (hx : AllReal (s := S2x2048x1024) (m ((c : Thread nD τ).loc main_arg0)))
    (hw : AllReal (s := S3072x1024) (m ((c : Thread nD τ).loc main_arg1)))
    (r : Fin 4096) (d : Fin 1024) :
    (W5 m c (Proc.devRef .tc main_v8) : S4096x1024.Idx → EReal) (ix2 r d)
      = Cert.AttnSpec.attn (m ((c : Thread nD τ).loc main_arg0)) (m ((c : Thread nD τ).loc main_arg1))
          (⟨r.val / 2048, by omega⟩ : Fin 2) (⟨r.val % 2048, by omega⟩ : Fin 2048) d := by
  dsimp only [W5, hostOps2]
  after_results
  show shapeCast S4096x1024 (W4 m c (Proc.devRef .tc main_v7)) shapeCasts_S2x2048x1024_S4096x1024 (ix2 r d) = _
  rw [flatten_apply]
  exact W4_v7_apply m c hx hw _ _ d

/-- The transposed output weight at `(d, o)` is the argument's entry at `(o, d)`. -/
theorem W5_v9_apply (d o : Fin 1024) :
    (W5 m c (Proc.devRef .tc main_v9) : S1024x1024.Idx → EReal) (ix2 d o)
      = (m ((c : Thread nD τ).loc main_arg2) : S1024x1024.Idx → EReal) (ix2 o d) := by
  dsimp only [W5, hostOps2]
  after_results
  show transpose S1024x1024 [1, 0] (W4 m c (Proc.devRef .tc main_v2)) transposes_S1024x1024_S1024x1024_1_0 (ix2 d o) = _
  rw [transpose_ix2_apply, W4_v2, W3_v2, W2_v2]
  exact W1_v2_apply m c (ix2 o d)

/-! ## After the output-projection call -/

theorem W6_v10 : W6 m c (Proc.devRef .tc main_v10) = (Reg2.dat (V5 m) c).arrAt 2 cfg2.N := by
  unfold W6
  exact Pipeline.withArrays_arr spec2 winFacts2.arr_inj c _ _ 2

/-- The output-projection call's result at `(r, o)`. -/
theorem W6_v10_apply
    (hx : AllReal (s := S2x2048x1024) (m ((c : Thread nD τ).loc main_arg0)))
    (hw : AllReal (s := S3072x1024) (m ((c : Thread nD τ).loc main_arg1)))
    (r : Fin 4096) (o : Fin 1024) :
    (W6 m c (Proc.devRef .tc main_v10) : S4096x1024.Idx → EReal) (ix2 r o)
      = ∑ d : Fin 1024, Cert.AttnSpec.attn (m ((c : Thread nD τ).loc main_arg0)) (m ((c : Thread nD τ).loc main_arg1))
          (⟨r.val / 2048, by omega⟩ : Fin 2) (⟨r.val % 2048, by omega⟩ : Fin 2048) d
          * (m ((c : Thread nD τ).loc main_arg2) : S1024x1024.Idx → EReal) (ix2 o d) := by
  rw [W6_v10, Val2.final_G]
  unfold Val2.G
  exact sum_mul_congr _ _ _ _ (fun d => W5_v8_apply m c hx hw r d) (fun d => W5_v9_apply m c d o)

/-! ## The program's result -/

/-- What the program ends with in its result buffer is the specification of the three argument arrays. -/
theorem result_eq
    (hx : AllReal (s := S2x2048x1024) (m ((c : Thread nD τ).loc main_arg0)))
    (hw : AllReal (s := S3072x1024) (m ((c : Thread nD τ).loc main_arg1)))
    (hwo : AllReal (s := S1024x1024) (m ((c : Thread nD τ).loc main_arg2))) :
    (W7 m c (Proc.devRef .tc main_v11) : S2x2048x1024.Idx → EReal)
      = Cert.AttnSpec.out (m ((c : Thread nD τ).loc main_arg0)) (m ((c : Thread nD τ).loc main_arg1)) (m ((c : Thread nD τ).loc main_arg2)) := by
  funext i
  obtain ⟨b, s, o, rfl⟩ : ∃ (b : Fin 2) (s : Fin 2048) (o : Fin 1024), i = ix3 b s o := ⟨i 0, i 1, i 2, eq_ix3 i⟩
  dsimp only [W7, hostOps3]
  after_results
  show shapeCast S2x2048x1024 (W6 m c (Proc.devRef .tc main_v10)) shapeCasts_S4096x1024_S2x2048x1024 (ix3 b s o) = _
  rw [split_apply, W6_v10_apply m c hx hw]
  unfold Cert.AttnSpec.out
  refine sum_mul_congr _ _ _ _ (fun d => ?_) (fun d => rfl)
  exact congrArg₂ (fun b' s' => Cert.AttnSpec.attn (m ((c : Thread nD τ).loc main_arg0)) (m ((c : Thread nD τ).loc main_arg1)) b' s' d)
    (Fin.ext (by show (b.val * 2048 + s.val) / 2048 = b.val; omega))
    (Fin.ext (by show (b.val * 2048 + s.val) % 2048 = s.val; omega))

end Cert.KernelIdeal.KVal

end
-- ==== Proof.RefValue.lean ====
/-
  The reference program read stage by stage at an index, and identified with the index-by-index
  specification of causal multi-head attention: the fused projection, the three thirds cut into heads,
  the scaled and masked scores, the row maximum, the exponentials and their row sum, the weighted sum
  of the value rows, the heads laid side by side, and the output projection.
-/
import proofs.«148066_j74620761800951_2_alg».proof.Proof.Gen.ReferenceIdeal.Run
import proofs.«148066_j74620761800951_2_alg».proof.Proof.Gen.ReferenceIdeal.Read
import proofs.«148066_j74620761800951_2_alg».proof.Proof.AttnSpec
import Idealize.ShloMosaic.Lib.StableHlo.Predicate

noncomputable section

open scoped BigOperators

namespace Cert.ReferenceIdeal.RefValue

open Cert.ReferenceIdeal Cert.ReferenceIdeal.Gen Cert.ReferenceIdeal.Read Cert.AttnSpec
open Idealize.ShloMosaic Idealize.ShloMosaic.ValueIdx

/-- The arrays of the three arguments. -/
abbrev X0 : Type := (⟨S2x2048x1024, .f32⟩ : BufTy).Contents (Elt Ideal)
abbrev X1 : Type := (⟨S3072x1024, .f32⟩ : BufTy).Contents (Elt Ideal)
abbrev X2 : Type := (⟨S1024x1024, .f32⟩ : BufTy).Contents (Elt Ideal)

/-! ## The scale -/

/-- The word `0x42800000` denotes `64`. -/
theorem ofBits_64 : Ideal.ofBits .f32 0x42800000#32 = ((64 : ℝ) : EReal) := by
  simp [Ideal.ofBits, Ideal.ieee, -EReal.coe_mul]; norm_num

/-- The word `0x3F800000` denotes `1`. -/
theorem ofBits_one : Ideal.ofBits .f32 0x3F800000#32 = ((1 : ℝ) : EReal) := by
  simp [Ideal.ofBits, Ideal.ieee, -EReal.coe_mul]; norm_num

/-- The word `0x3E000000` denotes `1/8`. -/
theorem ofBits_eighth : Ideal.ofBits .f32 0x3E000000#32 = (((1 : ℝ) / 8 : ℝ) : EReal) := by
  simp [Ideal.ofBits, Ideal.ieee, -EReal.coe_mul]; norm_num

/-- `√64 = 8`. -/
theorem sqrt_64 : Real.sqrt 64 = 8 := by
  rw [show (64 : ℝ) = 8 * 8 by norm_num]; exact Real.sqrt_mul_self (by norm_num)

/-- `1 / √64 = 1/8`, the word `0.125`. -/
theorem scale_eq : Ideal.div (Ideal.ofBits .f32 0x3F800000#32) (Ideal.sqrt (Ideal.ofBits .f32 0x42800000#32)) = Cert.AttnSpec.scale := by
  rw [ofBits_one, ofBits_64]
  unfold Cert.AttnSpec.scale
  rw [ofBits_eighth]
  show Ideal.div _ (if (64 : ℝ) < 0 then ⊥ else ((Real.sqrt 64 : ℝ) : EReal)) = _
  rw [if_neg (by norm_num), sqrt_64]
  unfold Ideal.div
  rw [if_neg (by exact_mod_cast (by norm_num : (8 : ℝ) ≠ 0)), ← EReal.coe_inv, ← EReal.coe_mul]
  congr 1

/-! ## The fused projection and its three thirds, cut into heads -/

/-- The fused projection at `(b, s, o)`. -/
theorem v0_at (x0 : X0) (x1 : X1) (b : Fin 2) (s : Fin 2048) (o : Fin 3072) :
    val_main_v0 (F := Ideal) x0 x1 (ix3 b s o) = qkv x0 x1 b s o := by
  rw [val_main_v0_apply]
  unfold qkv
  refine Finset.sum_congr rfl fun d _ => ?_
  have el : lidx_main_v0 (ix3 b s o) d = ix3 b s d :=
    funext fun a => Fin.ext (by match a with | ⟨0, _⟩ => rfl | ⟨1, _⟩ => rfl | ⟨2, _⟩ => rfl)
  have er : ridx_main_v0 (ix3 b s o) d = ix2 o d :=
    funext fun a => Fin.ext (by match a with | ⟨0, _⟩ => rfl | ⟨1, _⟩ => rfl)
  rw [el, er]

/-- The flat position of `(b, s, h, e)` in the row-major order of `[2, 2048, 16, 64]`, cut back
    into the coordinates of `[2, 2048, 1024]`. -/
theorem flat_div (b h s e : Nat) (hb : b < 2) (hh : h < 16) (hs : s < 2048) (he : e < 64) :
    (((b * 2048 + s) * 16 + h) * 64 + e) / 2097152 = b
      ∧ (((b * 2048 + s) * 16 + h) * 64 + e) / 1024 % 2048 = s
      ∧ (((b * 2048 + s) * 16 + h) * 64 + e) % 1024 = 64 * h + e := by
  omega

/-- The query third in heads: element `(b, h, s, e)` is column `64 h + e` of the projection. -/
theorem v5_at (x0 : X0) (x1 : X1) (b : Fin 2) (h : Fin 16) (s : Fin 2048) (e : Fin 64) :
    val_main_v5 (F := Ideal) x0 x1 (ix4 b h s e) = qkv x0 x1 b s (qcol h e) := by
  rw [val_main_v5_apply, val_main_v4_apply, val_main_v1_apply, ← v0_at]
  obtain ⟨h0, h1, h2⟩ := flat_div b.val h.val s.val e.val b.isLt h.isLt s.isLt e.isLt
  exact congrArg _ (funext fun a => Fin.ext (by
    match a with
    | ⟨0, _⟩ => exact h0
    | ⟨1, _⟩ => exact h1
    | ⟨2, _⟩ => exact h2))

/-- The key third in heads: element `(b, h, n, e)` is column `1024 + 64 h + e` of the projection. -/
theorem v7_at (x0 : X0) (x1 : X1) (b : Fin 2) (h : Fin 16) (n : Fin 2048) (e : Fin 64) :
    val_main_v7 (F := Ideal) x0 x1 (ix4 b h n e) = qkv x0 x1 b n (kcol h e) := by
  rw [val_main_v7_apply, val_main_v6_apply, val_main_v2_apply, ← v0_at]
  obtain ⟨h0, h1, h2⟩ := flat_div b.val h.val n.val e.val b.isLt h.isLt n.isLt e.isLt
  exact congrArg _ (funext fun a => Fin.ext (by
    match a with
    | ⟨0, _⟩ => exact h0
    | ⟨1, _⟩ => exact h1
    | ⟨2, _⟩ => show 1024 + ((((b.val * 2048 + n.val) * 16 + h.val) * 64 + e.val) % 1024) = 1024 + 64 * h.val + e.val; omega))

/-- The value third in heads: element `(b, h, n, e)` is column `2048 + 64 h + e` of the projection. -/
theorem v9_at (x0 : X0) (x1 : X1) (b : Fin 2) (h : Fin 16) (n : Fin 2048) (e : Fin 64) :
    val_main_v9 (F := Ideal) x0 x1 (ix4 b h n e) = qkv x0 x1 b n (vcol h e) := by
  rw [val_main_v9_apply, val_main_v8_apply, val_main_v3_apply, ← v0_at]
  obtain ⟨h0, h1, h2⟩ := flat_div b.val h.val n.val e.val b.isLt h.isLt n.isLt e.isLt
  exact congrArg _ (funext fun a => Fin.ext (by
    match a with
    | ⟨0, _⟩ => exact h0
    | ⟨1, _⟩ => exact h1
    | ⟨2, _⟩ => show 2048 + ((((b.val * 2048 + n.val) * 16 + h.val) * 64 + e.val) % 1024) = 2048 + 64 * h.val + e.val; omega))

/-! ## The scaled, masked scores -/

/-- The broadcast scale is `1/8` everywhere. -/
theorem v13_at (i : S2x16x2048x2048.Idx) : val_main_v13 (F := Ideal) i = scale := by
  rw [val_main_v13_apply, val_main_v11_apply, val_main_cst_0_apply, val_main_v10_apply, val_main_cst_apply]
  exact scale_eq

/-- The raw score: the query row against the key row of one head. -/
theorem v12_at (x0 : X0) (x1 : X1) (b : Fin 2) (h : Fin 16) (s n : Fin 2048) :
    val_main_v12 (F := Ideal) x0 x1 (ix4 b h s n)
      = ∑ e : Fin 64, qkv x0 x1 b s (qcol h e) * qkv x0 x1 b n (kcol h e) := by
  rw [val_main_v12_apply]
  refine Finset.sum_congr rfl fun e _ => ?_
  have el : lidx_main_v12 (ix4 b h s n) e = ix4 b h s e :=
    funext fun a => Fin.ext (by match a with | ⟨0, _⟩ => rfl | ⟨1, _⟩ => rfl | ⟨2, _⟩ => rfl | ⟨3, _⟩ => rfl)
  have er : ridx_main_v12 (ix4 b h s n) e = ix4 b h n e :=
    funext fun a => Fin.ext (by match a with | ⟨0, _⟩ => rfl | ⟨1, _⟩ => rfl | ⟨2, _⟩ => rfl | ⟨3, _⟩ => rfl)
  rw [el, er, v5_at, v7_at]

/-- The scaled score. -/
theorem v14_at (x0 : X0) (x1 : X1) (b : Fin 2) (h : Fin 16) (s n : Fin 2048) :
    val_main_v14 (F := Ideal) x0 x1 (ix4 b h s n)
      = (∑ e : Fin 64, qkv x0 x1 b s (qcol h e) * qkv x0 x1 b n (kcol h e)) * scale := by
  rw [val_main_v14_apply, v12_at, v13_at]
  rfl

/-- Row and column numbers below `2048` compare as words the way they compare as numbers. -/
theorem mask_word (s n : Nat) (hs : s < 2048) (hn : n < 2048) :
    IntOp.cmpi .sge (IntOp.addi (BitVec.ofNat 32 s) 0#32) (BitVec.ofNat 32 n) = if n ≤ s then 1#1 else 0#1 := by
  have e0 : IntOp.addi (BitVec.ofNat 32 s) 0#32 = BitVec.ofNat 32 s := by simp [IntOp.addi]
  rw [e0]
  have ts : (BitVec.ofNat 32 s).toNat = s := by rw [BitVec.toNat_ofNat]; exact Nat.mod_eq_of_lt (by omega)
  have tn : (BitVec.ofNat 32 n).toNat = n := by rw [BitVec.toNat_ofNat]; exact Nat.mod_eq_of_lt (by omega)
  have key := StableHlo.Predicate.sge_iff_toNat (a := BitVec.ofNat 32 s) (b := BitVec.ofNat 32 n) (by rw [ts]; omega) (by rw [tn]; omega)
  rw [ts, tn] at key
  by_cases hns : n ≤ s
  · rw [if_pos hns]; exact key.mpr hns
  · rw [if_neg hns]; exact eq_zero_of_ne_one (fun h1 => hns (key.mp h1))

/-- The lower-triangular mask at `(s, n)`: set exactly when `n ≤ s`. -/
theorem v16_at (s n : Fin 2048) :
    val_main_v16 (F := Ideal) (ix2 s n) = if n.val ≤ s.val then 1#1 else 0#1 := by
  rw [val_main_v16_apply, val_main_call0_v4_apply, val_main_call0_v2_apply, val_main_call0_v0_apply,
    val_main_call0_v1_apply, val_main_call0_c_apply, val_main_call0_v3_apply, val_main_v15_apply, val_main_c_apply,
    val_main_call0_v5_apply, val_main_call0_c_0_apply]
  show Scalar.select (IntOp.cmpi .sge (IntOp.addi (BitVec.ofNat 32 s.val) 0#32) (BitVec.ofNat 32 n.val)) 1#1 0#1 = _
  rw [mask_word s.val n.val s.isLt n.isLt]
  by_cases hns : n.val ≤ s.val
  · rw [if_pos hns]; exact select_one _ _
  · rw [if_neg hns]; exact select_zero _ _

/-- The word `0xFF800000` denotes `-∞`. -/
theorem ofBits_neg_inf : Ideal.ofBits .f32 0xFF800000#32 = (⊥ : EReal) := by
  simp [Ideal.ofBits, Ideal.ieee]

/-- The masked score is the specification's. -/
theorem v17_at (x0 : X0) (x1 : X1) (b : Fin 2) (h : Fin 16) (s n : Fin 2048) :
    val_main_v17 (F := Ideal) x0 x1 (ix4 b h s n) = score x0 x1 b h s n := by
  rw [val_main_v17_apply, val_main_call1_v1_apply, val_main_call1_v2_apply, val_main_call1_v0_apply,
    val_main_cst_1_apply, v14_at]
  have ei : idx_main_call1_v1 (ix4 b h s n) = ix2 s n :=
    funext fun a => Fin.ext (by match a with | ⟨0, _⟩ => rfl | ⟨1, _⟩ => rfl)
  rw [ei, v16_at]
  unfold score
  by_cases hns : n.val ≤ s.val
  · rw [if_pos hns, if_pos hns]; exact select_one _ _
  · rw [if_neg hns, if_neg hns]; exact (select_zero _ _).trans ofBits_neg_inf

/-! ## The row maximum -/

/-- The reduced index `(b, h, s)` with column `k` put back is `(b, h, s, k)`. -/
theorem lift_ix4 (hr : S2x16x2048x2048.Reduces [3] S2x16x2048) (b : Fin 2) (h : Fin 16) (s : Fin 2048)
    (k : Fin (S2x16x2048x2048.size 3)) : hr.lift (ix3 b h s) k = ix4 b h s (⟨k.val, k.isLt⟩ : Fin 2048) := by
  funext c; apply Fin.ext
  match c with
  | ⟨0, _⟩ => rfl
  | ⟨1, _⟩ => rfl
  | ⟨2, _⟩ => rfl
  | ⟨3, _⟩ => rfl

/-- The reduction of a row of scores by `max` from `-∞` is the specification's row maximum. -/
theorem v18_at (x0 : X0) (x1 : X1) (b : Fin 2) (h : Fin 16) (s : Fin 2048) :
    val_main_v18 (F := Ideal) x0 x1 (ix3 b h s) = rowMax x0 x1 b h s := by
  have hr : S2x16x2048x2048.Reduces [3] S2x16x2048 := by decide
  unfold val_main_v18
  rw [Host.reduce_eq_fold_single FloatOps.maximumf _ _ reducesTo_S2x16x2048x2048_S2x16x2048_d3 hr h_S_]
  have hf : (val_main_v17 (F := Ideal) x0 x1 ∘ hr.lift (ix3 b h s)) = fun n : Fin 2048 => score x0 x1 b h s n :=
    funext fun k => by rw [Function.comp_apply, lift_ix4, v17_at]; rfl
  rw [hf, val_main_cst_2_apply]
  unfold rowMax
  show Finset.fold max (Ideal.ofBits .f32 0xFF800000#32) _ _ = _
  rw [ofBits_neg_inf]
  rfl

/-- Taking the maximum with `-∞` once more changes nothing. -/
theorem v20_at (x0 : X0) (x1 : X1) (b : Fin 2) (h : Fin 16) (s : Fin 2048) :
    val_main_v20 (F := Ideal) x0 x1 (ix3 b h s) = rowMax x0 x1 b h s := by
  rw [val_main_v20_apply, val_main_v19_apply, val_main_cst_3_apply, v18_at]
  show max (Ideal.ofBits .f32 0xFF800000#32) _ = _
  rw [ofBits_neg_inf]
  exact max_bot_left _

/-- The row maximum broadcast back along the row. -/
theorem v22_at (x0 : X0) (x1 : X1) (b : Fin 2) (h : Fin 16) (s n : Fin 2048) :
    val_main_v22 (F := Ideal) x0 x1 (ix4 b h s n) = rowMax x0 x1 b h s := by
  rw [val_main_v22_apply, val_main_v21_apply, ← v20_at]
  exact congrArg _ (funext fun a => Fin.ext (by match a with | ⟨0, _⟩ => rfl | ⟨1, _⟩ => rfl | ⟨2, _⟩ => rfl))

/-! ## The weights -/

/-- The exponential of the score less its row maximum. -/
theorem v24_at (x0 : X0) (x1 : X1) (b : Fin 2) (h : Fin 16) (s n : Fin 2048) :
    val_main_v24 (F := Ideal) x0 x1 (ix4 b h s n) = expo x0 x1 b h s n := by
  rw [val_main_v24_apply, val_main_v23_apply, v17_at, v22_at]
  rfl

/-- The row's sum of exponentials. -/
theorem v25_at (x0 : X0) (x1 : X1) (b : Fin 2) (h : Fin 16) (s : Fin 2048) :
    val_main_v25 (F := Ideal) x0 x1 (ix3 b h s) = rowSum x0 x1 b h s := by
  rw [val_main_v25_apply, val_main_cst_4_apply]
  show Ideal.ofBits .f32 0x00000000#32 + _ = _
  rw [Ideal.ofBits_zero_f32, zero_add]
  unfold rowSum
  refine Finset.sum_congr rfl fun n _ => ?_
  have ei : idx_main_v25 (ix3 b h s) n = ix4 b h s n :=
    funext fun a => Fin.ext (by match a with | ⟨0, _⟩ => rfl | ⟨1, _⟩ => rfl | ⟨2, _⟩ => rfl | ⟨3, _⟩ => rfl)
  rw [ei, v24_at]

/-- The row sum broadcast back along the row. -/
theorem v27_at (x0 : X0) (x1 : X1) (b : Fin 2) (h : Fin 16) (s n : Fin 2048) :
    val_main_v27 (F := Ideal) x0 x1 (ix4 b h s n) = rowSum x0 x1 b h s := by
  rw [val_main_v27_apply, val_main_v26_apply, ← v25_at]
  exact congrArg _ (funext fun a => Fin.ext (by match a with | ⟨0, _⟩ => rfl | ⟨1, _⟩ => rfl | ⟨2, _⟩ => rfl))

/-- The normalised weight. -/
theorem v28_at (x0 : X0) (x1 : X1) (b : Fin 2) (h : Fin 16) (s n : Fin 2048) :
    val_main_v28 (F := Ideal) x0 x1 (ix4 b h s n) = Ideal.div (expo x0 x1 b h s n) (rowSum x0 x1 b h s) := by
  rw [val_main_v28_apply, v24_at, v27_at]
  rfl

/-! ## The head outputs, side by side, and the output projection -/

/-- The weighted sum of the value rows. -/
theorem v29_at (x0 : X0) (x1 : X1) (b : Fin 2) (h : Fin 16) (s : Fin 2048) (e : Fin 64) :
    val_main_v29 (F := Ideal) x0 x1 (ix4 b h s e) = headOut x0 x1 b h s e := by
  rw [val_main_v29_apply]
  unfold headOut
  refine Finset.sum_congr rfl fun n _ => ?_
  have el : lidx_main_v29 (ix4 b h s e) n = ix4 b h s n :=
    funext fun a => Fin.ext (by match a with | ⟨0, _⟩ => rfl | ⟨1, _⟩ => rfl | ⟨2, _⟩ => rfl | ⟨3, _⟩ => rfl)
  have er : ridx_main_v29 (ix4 b h s e) n = ix4 b h n e :=
    funext fun a => Fin.ext (by match a with | ⟨0, _⟩ => rfl | ⟨1, _⟩ => rfl | ⟨2, _⟩ => rfl | ⟨3, _⟩ => rfl)
  rw [el, er, v28_at, v9_at]

/-- The flat position of `(b, s, d)` in the row-major order of `[2, 2048, 1024]`, cut into the
    coordinates of `[2, 2048, 16, 64]`. -/
theorem flat_heads (b s d : Nat) (hb : b < 2) (hs : s < 2048) (hd : d < 1024) :
    ((b * 2048 + s) * 1024 + d) / 2097152 = b
      ∧ ((b * 2048 + s) * 1024 + d) / 1024 % 2048 = s
      ∧ ((b * 2048 + s) * 1024 + d) / 64 % 16 = d / 64
      ∧ ((b * 2048 + s) * 1024 + d) % 64 = d % 64 := by
  omega

/-- The heads side by side: column `d` is feature `d % 64` of head `d / 64`. -/
theorem v31_at (x0 : X0) (x1 : X1) (b : Fin 2) (s : Fin 2048) (d : Fin 1024) :
    val_main_v31 (F := Ideal) x0 x1 (ix3 b s d) = attn x0 x1 b s d := by
  rw [val_main_v31_apply, val_main_v30_apply]
  unfold attn
  rw [← v29_at]
  obtain ⟨h0, h1, h2, h3⟩ := flat_heads b.val s.val d.val b.isLt s.isLt d.isLt
  exact congrArg _ (funext fun a => Fin.ext (by
    match a with
    | ⟨0, _⟩ => exact h0
    | ⟨1, _⟩ => exact h2
    | ⟨2, _⟩ => exact h1
    | ⟨3, _⟩ => exact h3))

/-- The reference is the specification. -/
theorem ref_eq_spec (x0 : (⟨S2x2048x1024, .f32⟩ : BufTy).Contents (Elt Ideal)) (x1 : (⟨S3072x1024, .f32⟩ : BufTy).Contents (Elt Ideal))
    (x2 : (⟨S1024x1024, .f32⟩ : BufTy).Contents (Elt Ideal)) :
    Cert.ReferenceIdeal.Read.val_main_v32 (F := Ideal) x0 x1 x2 = Cert.AttnSpec.out x0 x1 x2 := by
  funext (i : (⟨3, ![2, 2048, 1024]⟩ : Shape).Idx)
  obtain ⟨b, s, o, rfl⟩ : ∃ (b : Fin 2) (s : Fin 2048) (o : Fin 1024), i = ix3 b s o := ⟨i 0, i 1, i 2, eq_ix3 i⟩
  rw [val_main_v32_apply]
  show _ = ∑ d : Fin 1024, attn x0 x1 b s d * x2 (ix2 o d)
  refine Finset.sum_congr rfl fun d _ => ?_
  have el : lidx_main_v32 (ix3 b s o) d = ix3 b s d :=
    funext fun a => Fin.ext (by match a with | ⟨0, _⟩ => rfl | ⟨1, _⟩ => rfl | ⟨2, _⟩ => rfl)
  have er : ridx_main_v32 (ix3 b s o) d = ix2 o d :=
    funext fun a => Fin.ext (by match a with | ⟨0, _⟩ => rfl | ⟨1, _⟩ => rfl)
  rw [el, er, v31_at]

end Cert.ReferenceIdeal.RefValue

end
-- ==== Proof.Finite.lean ====
import proofs.«148066_j74620761800951_2_alg».proof.Defs
import proofs.«148066_j74620761800951_2_alg».proof.Proof.Gen.Pre_finite_inputs
import Idealize.ShloMosaic.Lib.ReduceAll
import Idealize.ShloMosaic.Lib.ValueIdx
import Idealize.ShloMosaic.PureOps.Ideal.Laws

/-!
# The precondition gives finite entries

The precondition compares the absolute value of every entry of each of the three argument arrays with
plus infinity, takes the conjunction over each array, and the conjunction of the three. At the ideal
values an entry is an extended real and its absolute value is the larger of it and its negation; that is
below plus infinity exactly when the entry is neither infinity. So where the precondition is all ones,
every entry of every argument array is a real number.
-/

noncomputable section

namespace Cert.Proof.Finite

open Idealize.ShloMosaic Idealize.ShloMosaic.TcCoe Idealize.SL.Sem
open Idealize.ShloMosaic.ValueIdx
open Cert.Pre_finite_inputs

/-- The shape of a scalar has one index. -/
instance : Subsingleton S_.Idx := ⟨fun a b => funext fun d => d.elim0⟩

/-- Every entry of an array of extended reals is a real number. -/
abbrev AllFinite {s : Shape} (x : s.Idx → EReal) : Prop := ∀ i, x i ≠ ⊤ ∧ x i ≠ ⊥

/-- The word of plus infinity denotes the top element. -/
theorem inf_word : Ideal.ofBits .f32 0x7F800000#32 = (⊤ : EReal) := by
  simp [Ideal.ofBits, Ideal.ieee]

/-- An extended real whose absolute value compares below the top element is neither infinity: the larger of
    an infinity and its negation is the top element. -/
theorem ne_inf_of_abs_lt_top (x : EReal) (h : Ideal.cmp .olt (max x (-x)) ⊤ = 1#1) : x ≠ ⊤ ∧ x ≠ ⊥ := by
  have hlt : max x (-x) < ⊤ := by
    by_contra hn
    have e : Ideal.cmp .olt (max x (-x)) ⊤ = 0#1 := by
      show BitVec.ofBool (decide (max x (-x) < ⊤)) = 0#1
      rw [decide_eq_false hn]; rfl
    rw [e] at h
    exact absurd h (by decide)
  constructor
  · rintro rfl
    simp at hlt
  · rintro rfl
    simp at hlt

/-- One conjunct of the precondition: where the conjunction over an array of "the absolute value is below plus
    infinity" is one, every entry of the array is a real number. -/
theorem allFinite_of_all {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi (cmpf .olt (Host.absf x) (broadcastInDim s ![] hb (constant S_ .f32 0x7F800000#32)))
      (constantI S_ 1 1#1) hr hu ix0 = 1#1) : AllFinite x := fun i => by
  have e := Host.reduce_andi_all _ _ hr hu ix0 h i
  refine ne_inf_of_abs_lt_top (x i) ?_
  rw [← inf_word]
  exact e

/-- Where the precondition is all ones, every entry of each of the three arrays is a real number. -/
theorem finite_of_pre [hP : Cert.Pre_finite_inputs.Facts]
    (x0 : (⟨S2x2048x1024, .f32⟩ : BufTy).Contents (Elt Ideal)) (x1 : (⟨S3072x1024, .f32⟩ : BufTy).Contents (Elt Ideal))
    (x2 : (⟨S1024x1024, .f32⟩ : BufTy).Contents (Elt Ideal))
    (h : Cert.Pre_finite_inputs.fn (F := Ideal) x0 x1 x2 = fun _ => 1#1) :
    (∀ i, x0 i ≠ ⊤ ∧ x0 i ≠ ⊥) ∧ (∀ i, x1 i ≠ ⊤ ∧ x1 i ≠ ⊥) ∧ (∀ i, x2 i ≠ ⊤ ∧ x2 i ≠ ⊥) := by
  have h0 := congrFun h ix0
  dsimp only [fn] at h0
  obtain ⟨h01, h2⟩ := IntOp.andi_eq_one.1 h0
  obtain ⟨h0', h1'⟩ := IntOp.andi_eq_one.1 h01
  exact ⟨allFinite_of_all x0 _ _ _ h0', allFinite_of_all x1 _ _ _ h1', allFinite_of_all x2 _ _ _ h2⟩

/-- At a memory of which the precondition holds, every entry of each argument array is a real number, on every
    device. -/
theorem finite_args [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    AllFinite (m ((c.tc : Thread Cert.KernelIdeal.nD Cert.KernelIdeal.τ).loc Cert.KernelIdeal.main_arg0))
    ∧ AllFinite (m ((c.tc : Thread Cert.KernelIdeal.nD Cert.KernelIdeal.τ).loc Cert.KernelIdeal.main_arg1))
    ∧ AllFinite (m ((c.tc : Thread Cert.KernelIdeal.nD Cert.KernelIdeal.τ).loc Cert.KernelIdeal.main_arg2)) :=
  finite_of_pre _ _ _ (hpre c)

end Cert.Proof.Finite

end
-- ==== Proof.lean ====
/-
  The certificate's five claims for the fused attention layer.

  Both programs compute, at the extended reals, `out[b, s, o] = ∑ d, attn[b, s, d] · w_o[o, d]` with
  `attn` the causal soft-max attention of the fused projection `qkv = x · w_qkvᵀ`, head by head. The reference does it with
  one soft-max per row of 2048 scores; the kernel streams the row's scores in blocks of 256, keeping a running maximum,
  normaliser and weighted sum, and masks with a finite stand-in that the idealization names `-∞`. The two agree because
  rescaling the running sums by `exp (m_old - m_new)` keeps them equal to the sums taken against the current maximum,
  masked scores weigh `exp (-∞) = 0`, and dividing the finished sum by the finished normaliser is dividing every weight
  by it (all quantities being real under the precondition that the inputs are finite).

  The three frames: each kernel program is run region by region (its three calls' records, the host stretches between
  them) to a final state in which every unscoped buffer holds the contents computed boundary by boundary; the arguments are
  written by no item. The reference's frame is its run with the result dropped.
-/
import proofs.«148066_j74620761800951_2_alg».proof.Defs
import proofs.«148066_j74620761800951_2_alg».proof.Proof.Gen.Kernel
import proofs.«148066_j74620761800951_2_alg».proof.Proof.Gen.KernelIdeal
import proofs.«148066_j74620761800951_2_alg».proof.Proof.Gen.ReferenceIdeal
import proofs.«148066_j74620761800951_2_alg».proof.Proof.Gen.Pre_finite_inputs
import proofs.«148066_j74620761800951_2_alg».proof.Proof.Gen.ReferenceIdeal.Run
import proofs.«148066_j74620761800951_2_alg».proof.Proof.Gen.ReferenceIdeal.Read
import proofs.«148066_j74620761800951_2_alg».proof.Proof.Run
import proofs.«148066_j74620761800951_2_alg».proof.Proof.K.Run
import proofs.«148066_j74620761800951_2_alg».proof.Proof.KernelValue
import proofs.«148066_j74620761800951_2_alg».proof.Proof.RefValue
import proofs.«148066_j74620761800951_2_alg».proof.Proof.Finite
import Idealize.ShloMosaic.Adequacy
import Idealize.ShloMosaic.Init

noncomputable section

namespace Cert.Proof

open Idealize.ShloMosaic Idealize.ShloMosaic.TcCoe Idealize.SL.Sem

/-- An unscoped TensorCore reference is among those the run's post speaks of. -/
theorem mem_uc_k (b : Ref Cert.Kernel.sig .tc) (h : ¬ (Proc.devRef .tc b : DevRef Cert.Kernel.τ Cert.Kernel.sig).isScoped) :
    Proc.devRef .tc b ∈ Pipeline.ucRefs Cert.Kernel.τ Cert.Kernel.sig :=
  Finset.mem_filter.mpr ⟨StableHlo.devRef_mem_tcRefs b, h⟩
theorem mem_uc_ki (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

section
variable [hK : Cert.Kernel.Facts] [hKI : Cert.KernelIdeal.Facts] [hR : Cert.ReferenceIdeal.Facts] [hP : Cert.Pre_finite_inputs.Facts]

/-- The word-level program runs and leaves its arguments as launched. -/
theorem frame_k : Cert.frame_Kernel := fun m ρ _ =>
  (θ_run (Cert.Kernel.defs (F := Bits)) _ _).mono (fun r h c =>
    ⟨(h c _ (mem_uc_k Cert.Kernel.main_arg0 (by decide))).trans (Cert.Kernel.Run.W7_main_arg0 m c),
     (h c _ (mem_uc_k Cert.Kernel.main_arg1 (by decide))).trans (Cert.Kernel.Run.W7_main_arg1 m c),
     (h c _ (mem_uc_k Cert.Kernel.main_arg2 (by decide))).trans (Cert.Kernel.Run.W7_main_arg2 m c)⟩)
    (Cert.Kernel.Run.run (F := Bits) m ρ)

/-- So does the idealized program. -/
theorem frame_ki : Cert.frame_KernelIdeal := fun m ρ _ =>
  (θ_run (Cert.KernelIdeal.defs (F := Ideal)) _ _).mono (fun r h c =>
    ⟨(h c _ (mem_uc_ki Cert.KernelIdeal.main_arg0 (by decide))).trans (Cert.KernelIdeal.Run.W7_main_arg0 m c),
     (h c _ (mem_uc_ki Cert.KernelIdeal.main_arg1 (by decide))).trans (Cert.KernelIdeal.Run.W7_main_arg1 m c),
     (h c _ (mem_uc_ki Cert.KernelIdeal.main_arg2 (by decide))).trans (Cert.KernelIdeal.Run.W7_main_arg2 m c)⟩)
    (Cert.KernelIdeal.Run.run (F := Ideal) m ρ)

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one idealization: the mask's finite stand-in is named `-∞`, and the table gives that name that value. -/
theorem preserves : Cert.preserves_Kernel_KernelIdeal :=
  IdealRules.named_const.statement Cert.KernelIdeal.κ "neg_big" .f32 0xFF333332#32 ⊥ rfl

/-- From memories agreeing on the arguments both idealized programs end with the specification's array. -/
theorem algebraic : Cert.algebraic_KernelIdeal_ReferenceIdeal := by
  intro m ρ m' ρ' hpre hagree
  refine ⟨fun c => Cert.AttnSpec.out (m ((c.tc : Thread _ _).loc Cert.KernelIdeal.main_arg0)) (m ((c.tc : Thread _ _).loc Cert.KernelIdeal.main_arg1)) (m ((c.tc : Thread _ _).loc Cert.KernelIdeal.main_arg2)), ?_, ?_⟩
  · refine (θ_run (Cert.KernelIdeal.defs (F := Ideal)) _ _).mono (fun r h c => ?_) (Cert.KernelIdeal.Run.run (F := Ideal) m ρ)
    obtain ⟨hx, hw, hwo⟩ := Cert.Proof.Finite.finite_args m hpre c
    exact ⟨(h c _ (mem_uc_ki Cert.KernelIdeal.main_v11 (by decide))).trans (Cert.KernelIdeal.KVal.result_eq m c hx hw hwo),
      (h c _ (mem_uc_ki Cert.KernelIdeal.main_arg0 (by decide))).trans (Cert.KernelIdeal.Run.W7_main_arg0 m c),
      (h c _ (mem_uc_ki Cert.KernelIdeal.main_arg1 (by decide))).trans (Cert.KernelIdeal.Run.W7_main_arg1 m c),
      (h c _ (mem_uc_ki Cert.KernelIdeal.main_arg2 (by decide))).trans (Cert.KernelIdeal.Run.W7_main_arg2 m c)⟩
  · refine (θ_run Cert.ReferenceIdeal.defs _ _).mono (fun _ h c => ⟨?_, (h c).2⟩) (Cert.ReferenceIdeal.Value.run (F := Ideal) m' ρ')
    rw [(h c).1, Cert.ReferenceIdeal.Read.val_main_v32_eq, Cert.ReferenceIdeal.RefValue.ref_eq_spec, (hagree c).1, (hagree c).2.1, (hagree c).2.2]

end

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
